-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v26_0)) (v1 : (c : Dev Cert.KernelIdeal.nD) → Buf (Elt Ideal) ((c.tc : Thread Cert.KernelIdeal.nD Cert.KernelIdeal.τ).loc Cert.KernelIdeal.main_v26_1)) (v2 : (c : Dev Cert.KernelIdeal.nD) → Buf (Elt Ideal) ((c.tc : Thread Cert.KernelIdeal.nD Cert.KernelIdeal.τ).loc Cert.KernelIdeal.main_v26_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26_0) = v0 c
          ∧ r.2.mem ((c.tc : Thread Cert.KernelIdeal.nD Cert.KernelIdeal.τ).loc Cert.KernelIdeal.main_v26_1) = v1 c
          ∧ r.2.mem ((c.tc : Thread Cert.KernelIdeal.nD Cert.KernelIdeal.τ).loc Cert.KernelIdeal.main_v26_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_v12) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S256x192 : Shape := ⟨2, ![256, 192]⟩
abbrev S256 : Shape := ⟨1, ![256]⟩
abbrev S128x256 : Shape := ⟨2, ![128, 256]⟩
abbrev S10x128 : Shape := ⟨2, ![10, 128]⟩
abbrev S10 : Shape := ⟨1, ![10]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S256x192 : S_.BroadcastsInDim S256x192 (![] : Fin 0 → Fin S256x192.rank)
  reducesTo_S256x192_S_d0_1 : S256x192.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S10x128 : S_.BroadcastsInDim S10x128 (![] : Fin 0 → Fin S10x128.rank)
  reducesTo_S10x128_S_d0_1 : S10x128.ReducesTo [0, 1] S_
  bcast_S_S10 : S_.BroadcastsInDim S10 (![] : Fin 0 → Fin S10.rank)
  reducesTo_S10_S_d0 : S10.ReducesTo [0] S_

variable [Facts]

def fn_part7 {F : FTy → Type} [FloatOps F] (main_arg25 : FVec F S128 .f32) (main_v118 : IVec S_ 1) (main_v119 : FVec F S128x128 .f32) : IVec S_ 1 :=
  let main_cst_46 : FVec F S_ .f32 := constant S_ .f32 0x7F800000#32
  let main_v120 : FVec F S128x128 .f32 := broadcastInDim S128x128 ![] bcast_S_S128x128 main_cst_46
  let main_v121 : IVec S128x128 1 := cmpf .olt main_v119 main_v120
  let main_c_47 : IVec S_ 1 := constantI S_ 1 1#1
  let main_v122 : IVec S_ 1 := (fun x v => Host.reduce IntOp.andi x v reducesTo_S128x128_S_d0_1 h_S_) main_v121 main_c_47
  let main_v123 : IVec S_ 1 := andi main_v118 main_v122
  let main_v124 : FVec F S128 .f32 := Host.absf main_arg25
  let main_cst_48 : FVec F S_ .f32 := constant S_ .f32 0x7F800000#32
  let main_v125 : FVec F S128 .f32 := broadcastInDim S128 ![] bcast_S_S128 main_cst_48
  let main_v126 : IVec S128 1 := cmpf .olt main_v124 main_v125
  let main_c_49 : IVec S_ 1 := constantI S_ 1 1#1
  let main_v127 : IVec S_ 1 := (fun x v => Host.reduce IntOp.andi x v reducesTo_S128_S_d0 h_S_) main_v126 main_c_49
  let main_v128 : IVec S_ 1 := andi main_v123 main_v127
  main_v128

def fn_part6 {F : FTy → Type} [FloatOps F] (main_arg21 : FVec F S256 .f32) (main_arg22 : FVec F S128x256 .f32) (main_arg23 : FVec F S128 .f32) (main_arg24 : FVec F S128x128 .f32) (main_arg25 : FVec F S128 .f32) (main_v98 : IVec S_ 1) (main_v101 : IVec S256x192 1) (main_c_39 : IVec S_ 1) : IVec S_ 1 :=
  let main_v102 : IVec S_ 1 := (fun x v => Host.reduce IntOp.andi x v reducesTo_S256x192_S_d0_1 h_S_) main_v101 main_c_39
  let main_v103 : IVec S_ 1 := andi main_v98 main_v102
  let main_v104 : FVec F S256 .f32 := Host.absf main_arg21
  let main_cst_40 : FVec F S_ .f32 := constant S_ .f32 0x7F800000#32
  let main_v105 : FVec F S256 .f32 := broadcastInDim S256 ![] bcast_S_S256 main_cst_40
  let main_v106 : IVec S256 1 := cmpf .olt main_v104 main_v105
  let main_c_41 : IVec S_ 1 := constantI S_ 1 1#1
  let main_v107 : IVec S_ 1 := (fun x v => Host.reduce IntOp.andi x v reducesTo_S256_S_d0 h_S_) main_v106 main_c_41
  let main_v108 : IVec S_ 1 := andi main_v103 main_v107
  let main_v109 : FVec F S128x256 .f32 := Host.absf main_arg22
  let main_cst_42 : FVec F S_ .f32 := constant S_ .f32 0x7F800000#32
  let main_v110 : FVec F S128x256 .f32 := broadcastInDim S128x256 ![] bcast_S_S128x256 main_cst_42
  let main_v111 : IVec S128x256 1 := cmpf .olt main_v109 main_v110
  let main_c_43 : IVec S_ 1 := constantI S_ 1 1#1
  let main_v112 : IVec S_ 1 := (fun x v => Host.reduce IntOp.andi x v reducesTo_S128x256_S_d0_1 h_S_) main_v111 main_c_43
  let main_v113 : IVec S_ 1 := andi main_v108 main_v112
  let main_v114 : FVec F S128 .f32 := Host.absf main_arg23
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_v119 : FVec F S128x128 .f32 := Host.absf main_arg24
  fn_part7 (F := F) main_arg25 main_v118 main_v119

def fn_part5 {F : FTy → Type} [FloatOps F] (main_arg18 : FVec F S10x128 .f32) (main_arg19 : FVec F S10 .f32) (main_arg20 : FVec F S256x192 .f32) (main_arg21 : FVec F S256 .f32) (main_arg22 : FVec F S128x256 .f32) (main_arg23 : FVec F S128 .f32) (main_arg24 : FVec F S128x128 .f32) (main_arg25 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S10x128 .f32 := Host.absf main_arg18
  let main_cst_34 : FVec F S_ .f32 := constant S_ .f32 0x7F800000#32
  let main_v90 : FVec F S10x128 .f32 := broadcastInDim S10x128 ![] bcast_S_S10x128 main_cst_34
  let main_v91 : IVec S10x128 1 := cmpf .olt main_v89 main_v90
  let main_c_35 : IVec S_ 1 := constantI S_ 1 1#1
  let main_v92 : IVec S_ 1 := (fun x v => Host.reduce IntOp.andi x v reducesTo_S10x128_S_d0_1 h_S_) main_v91 main_c_35
  let main_v93 : IVec S_ 1 := andi main_v88 main_v92
  let main_v94 : FVec F S10 .f32 := Host.absf main_arg19
  let main_cst_36 : FVec F S_ .f32 := constant S_ .f32 0x7F800000#32
  let main_v95 : FVec F S10 .f32 := broadcastInDim S10 ![] bcast_S_S10 main_cst_36
  let main_v96 : IVec S10 1 := cmpf .olt main_v94 main_v95
  let main_c_37 : IVec S_ 1 := constantI S_ 1 1#1
  let main_v97 : IVec S_ 1 := (fun x v => Host.reduce IntOp.andi x v reducesTo_S10_S_d0 h_S_) main_v96 main_c_37
  let main_v98 : IVec S_ 1 := andi main_v93 main_v97
  let main_v99 : FVec F S256x192 .f32 := Host.absf main_arg20
  let main_cst_38 : FVec F S_ .f32 := constant S_ .f32 0x7F800000#32
  let main_v100 : FVec F S256x192 .f32 := broadcastInDim S256x192 ![] bcast_S_S256x192 main_cst_38
  let main_v101 : IVec S256x192 1 := cmpf .olt main_v99 main_v100
  let main_c_39 : IVec S_ 1 := constantI S_ 1 1#1
  fn_part6 (F := F) main_arg21 main_arg22 main_arg23 main_arg24 main_arg25 main_v98 main_v101 main_c_39

def fn_part4 {F : FTy → Type} [FloatOps F] (main_arg14 : FVec F S128 .f32) (main_arg15 : FVec F S128 .f32) (main_arg16 : FVec F S128 .f32) (main_arg17 : FVec F S128 .f32) (main_arg18 : FVec F S10x128 .f32) (main_arg19 : FVec F S10 .f32) (main_arg20 : FVec F S256x192 .f32) (main_arg21 : FVec F S256 .f32) (main_arg22 : FVec F S128x256 .f32) (main_arg23 : FVec F S128 .f32) (main_arg24 : FVec F S128x128 .f32) (main_arg25 : FVec F S128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg17
  let main_cst_32 : FVec F S_ .f32 := constant S_ .f32 0x7F800000#32
  fn_part5 (F := F) main_arg18 main_arg19 main_arg20 main_arg21 main_arg22 main_arg23 main_arg24 main_arg25 main_v83 main_v84 main_cst_32

def fn_part3 {F : FTy → Type} [FloatOps F] (main_arg11 : FVec F S256 .f32) (main_arg12 : FVec F S128x256 .f32) (main_arg13 : FVec F S128 .f32) (main_arg14 : FVec F S128 .f32) (main_arg15 : FVec F S128 .f32) (main_arg16 : FVec F S128 .f32) (main_arg17 : FVec F S128 .f32) (main_arg18 : FVec F S10x128 .f32) (main_arg19 : FVec F S10 .f32) (main_arg20 : FVec F S256x192 .f32) (main_arg21 : FVec F S256 .f32) (main_arg22 : FVec F S128x256 .f32) (main_arg23 : FVec F S128 .f32) (main_arg24 : FVec F S128x128 .f32) (main_arg25 : FVec F S128 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S128x256 .f32 := Host.absf main_arg12
  let main_cst_22 : FVec F S_ .f32 := constant S_ .f32 0x7F800000#32
  let main_v60 : FVec F S128x256 .f32 := broadcastInDim S128x256 ![] bcast_S_S128x256 main_cst_22
  let main_v61 : IVec S128x256 1 := cmpf .olt main_v59 main_v60
  let main_c_23 : IVec S_ 1 := constantI S_ 1 1#1
  let main_v62 : IVec S_ 1 := (fun x v => Host.reduce IntOp.andi x v reducesTo_S128x256_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_arg16 main_arg17 main_arg18 main_arg19 main_arg20 main_arg21 main_arg22 main_arg23 main_arg24 main_arg25 main_v63 main_v67

def fn_part2 {F : FTy → Type} [FloatOps F] (main_arg7 : FVec F S256 .f32) (main_arg8 : FVec F S256 .f32) (main_arg9 : FVec F S256 .f32) (main_arg10 : FVec F S256 .f32) (main_arg11 : FVec F S256 .f32) (main_arg12 : FVec F S128x256 .f32) (main_arg13 : FVec F S128 .f32) (main_arg14 : FVec F S128 .f32) (main_arg15 : FVec F S128 .f32) (main_arg16 : FVec F S128 .f32) (main_arg17 : FVec F S128 .f32) (main_arg18 : FVec F S10x128 .f32) (main_arg19 : FVec F S10 .f32) (main_arg20 : FVec F S256x192 .f32) (main_arg21 : FVec F S256 .f32) (main_arg22 : FVec F S128x256 .f32) (main_arg23 : FVec F S128 .f32) (main_arg24 : FVec F S128x128 .f32) (main_arg25 : FVec F S128 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_arg15 main_arg16 main_arg17 main_arg18 main_arg19 main_arg20 main_arg21 main_arg22 main_arg23 main_arg24 main_arg25 main_v48 main_v49 main_v50

def fn_part1 {F : FTy → Type} [FloatOps F] (main_arg4 : FVec F S128x64 .f32) (main_arg5 : FVec F S64 .f32) (main_arg6 : FVec F S256x192 .f32) (main_arg7 : FVec F S256 .f32) (main_arg8 : FVec F S256 .f32) (main_arg9 : FVec F S256 .f32) (main_arg10 : FVec F S256 .f32) (main_arg11 : FVec F S256 .f32) (main_arg12 : FVec F S128x256 .f32) (main_arg13 : FVec F S128 .f32) (main_arg14 : FVec F S128 .f32) (main_arg15 : FVec F S128 .f32) (main_arg16 : FVec F S128 .f32) (main_arg17 : FVec F S128 .f32) (main_arg18 : FVec F S10x128 .f32) (main_arg19 : FVec F S10 .f32) (main_arg20 : FVec F S256x192 .f32) (main_arg21 : FVec F S256 .f32) (main_arg22 : FVec F S128x256 .f32) (main_arg23 : FVec F S128 .f32) (main_arg24 : FVec F S128x128 .f32) (main_arg25 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S256x192 .f32 := Host.absf main_arg6
  let main_cst_10 : FVec F S_ .f32 := constant S_ .f32 0x7F800000#32
  let main_v30 : FVec F S256x192 .f32 := broadcastInDim S256x192 ![] bcast_S_S256x192 main_cst_10
  let main_v31 : IVec S256x192 1 := cmpf .olt main_v29 main_v30
  let main_c_11 : IVec S_ 1 := constantI S_ 1 1#1
  let main_v32 : IVec S_ 1 := (fun x v => Host.reduce IntOp.andi x v reducesTo_S256x192_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128x64 .f32) (main_arg5 : FVec F S64 .f32) (main_arg6 : FVec F S256x192 .f32) (main_arg7 : FVec F S256 .f32) (main_arg8 : FVec F S256 .f32) (main_arg9 : FVec F S256 .f32) (main_arg10 : FVec F S256 .f32) (main_arg11 : FVec F S256 .f32) (main_arg12 : FVec F S128x256 .f32) (main_arg13 : FVec F S128 .f32) (main_arg14 : FVec F S128 .f32) (main_arg15 : FVec F S128 .f32) (main_arg16 : FVec F S128 .f32) (main_arg17 : FVec F S128 .f32) (main_arg18 : FVec F S10x128 .f32) (main_arg19 : FVec F S10 .f32) (main_arg20 : FVec F S256x192 .f32) (main_arg21 : FVec F S256 .f32) (main_arg22 : FVec F S128x256 .f32) (main_arg23 : FVec F S128 .f32) (main_arg24 : FVec F S128x128 .f32) (main_arg25 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S256x192 : Shape := ⟨2, ![256, 192]⟩
abbrev S256 : Shape := ⟨1, ![256]⟩
abbrev S128x256 : Shape := ⟨2, ![128, 256]⟩
abbrev S10x128 : Shape := ⟨2, ![10, 128]⟩
abbrev S10 : Shape := ⟨1, ![10]⟩
abbrev S192x256 : Shape := ⟨2, ![192, 256]⟩
abbrev S256x128 : Shape := ⟨2, ![256, 128]⟩
abbrev S128x10 : Shape := ⟨2, ![128, 10]⟩
abbrev S1x128 : Shape := ⟨2, ![1, 128]⟩
abbrev S1x64 : Shape := ⟨2, ![1, 64]⟩
abbrev S64x256 : Shape := ⟨2, ![64, 256]⟩
abbrev S1x256 : Shape := ⟨2, ![1, 256]⟩
abbrev S1x10 : Shape := ⟨2, ![1, 10]⟩
abbrev S10000x10 : Shape := ⟨2, ![10000, 10]⟩
abbrev S10000x192 : Shape := ⟨2, ![10000, 192]⟩
abbrev S400x10000 : Shape := ⟨2, ![400, 10000]⟩
abbrev S400x10 : Shape := ⟨2, ![400, 10]⟩
abbrev S400x128 : Shape := ⟨2, ![400, 128]⟩
abbrev S400x192 : Shape := ⟨2, ![400, 192]⟩
abbrev S10000x64 : Shape := ⟨2, ![10000, 64]⟩
abbrev S400x64 : Shape := ⟨2, ![400, 64]⟩
abbrev S400x256 : Shape := ⟨2, ![400, 256]⟩
abbrev S400 : Shape := ⟨1, ![400]⟩
abbrev S400x1 : Shape := ⟨2, ![400, 1]⟩

abbrev nBuf : Space → Nat
  | .hbm => 55
  | .vmem => 38
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S256x192, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S128x256, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S10x128, .f32⟩
  | .hbm, ⟨19, _⟩ => ⟨S10, .f32⟩
  | .hbm, ⟨20, _⟩ => ⟨S256x192, .f32⟩
  | .hbm, ⟨21, _⟩ => ⟨S256, .f32⟩
  | .hbm, ⟨22, _⟩ => ⟨S128x256, .f32⟩
  | .hbm, ⟨23, _⟩ => ⟨S128, .f32⟩
  | .hbm, ⟨24, _⟩ => ⟨S128x128, .f32⟩
  | .hbm, ⟨25, _⟩ => ⟨S128, .f32⟩
  | .hbm, ⟨26, _⟩ => ⟨S192x256, .f32⟩
  | .hbm, ⟨27, _⟩ => ⟨S256x128, .f32⟩
  | .hbm, ⟨28, _⟩ => ⟨S128x10, .f32⟩
  | .hbm, ⟨29, _⟩ => ⟨S192x256, .f32⟩
  | .hbm, ⟨30, _⟩ => ⟨S256x128, .f32⟩
  | .hbm, ⟨31, _⟩ => ⟨S128x128, .f32⟩
  | .hbm, ⟨32, _⟩ => ⟨S1x128, .f32⟩
  | .hbm, ⟨33, _⟩ => ⟨S1x64, .f32⟩
  | .hbm, ⟨34, _⟩ => ⟨S128x256, .f32⟩
  | .hbm, ⟨35, _⟩ => ⟨S64x256, .f32⟩
  | .hbm, ⟨36, _⟩ => ⟨S1x256, .f32⟩
  | .hbm, ⟨37, _⟩ => ⟨S1x256, .f32⟩
  | .hbm, ⟨38, _⟩ => ⟨S1x256, .f32⟩
  | .hbm, ⟨39, _⟩ => ⟨S1x256, .f32⟩
  | .hbm, ⟨40, _⟩ => ⟨S1x256, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S1x128, .f32⟩
  | .hbm, ⟨45, _⟩ => ⟨S1x128, .f32⟩
  | .hbm, ⟨46, _⟩ => ⟨S1x10, .f32⟩
  | .hbm, ⟨47, _⟩ => ⟨S128x256, .f32⟩
  | .hbm, ⟨48, _⟩ => ⟨S64x256, .f32⟩
  | .hbm, ⟨49, _⟩ => ⟨S1x256, .f32⟩
  | .hbm, ⟨50, _⟩ => ⟨S1x128, .f32⟩
  | .hbm, ⟨51, _⟩ => ⟨S1x128, .f32⟩
  | .hbm, ⟨52, _⟩ => ⟨S10000x10, .f32⟩
  | .hbm, ⟨53, _⟩ => ⟨S10000x128, .f32⟩
  | .hbm, ⟨54, _⟩ => ⟨S10000x192, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S128x64, .f32⟩
  | .local _ .vmem, ⟨6, _⟩ => ⟨S1x64, .f32⟩
  | .local _ .vmem, ⟨7, _⟩ => ⟨S128x256, .f32⟩
  | .local _ .vmem, ⟨8, _⟩ => ⟨S64x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S256x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S128x10, .f32⟩
  | .local _ .vmem, ⟨21, _⟩ => ⟨S1x10, .f32⟩
  | .local _ .vmem, ⟨22, _⟩ => ⟨S128x256, .f32⟩
  | .local _ .vmem, ⟨23, _⟩ => ⟨S64x256, .f32⟩
  | .local _ .vmem, ⟨24, _⟩ => ⟨S1x256, .f32⟩
  | .local _ .vmem, ⟨25, _⟩ => ⟨S256x128, .f32⟩
  | .local _ .vmem, ⟨26, _⟩ => ⟨S1x128, .f32⟩
  | .local _ .vmem, ⟨27, _⟩ => ⟨S128x128, .f32⟩
  | .local _ .vmem, ⟨28, _⟩ => ⟨S1x128, .f32⟩
  | .local _ .vmem, ⟨29, _⟩ => ⟨S400x10, .f32⟩
  | .local _ .vmem, ⟨30, _⟩ => ⟨S400x10, .f32⟩
  | .local _ .vmem, ⟨31, _⟩ => ⟨S400x128, .f32⟩
  | .local _ .vmem, ⟨32, _⟩ => ⟨S400x128, .f32⟩
  | .local _ .vmem, ⟨33, _⟩ => ⟨S400x192, .f32⟩
  | .local _ .vmem, ⟨34, _⟩ => ⟨S400x192, .f32⟩
  | .local _ .vmem, ⟨35, _⟩ => ⟨S10000x128, .bf16⟩
  | .local _ .vmem, ⟨36, _⟩ => ⟨S10000x128, .f32⟩
  | .local _ .vmem, ⟨37, _⟩ => ⟨S10000x64, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26_0 : Ref sig .tc := ⟨.hbm, 52, rfl⟩
abbrev main_v26_1 : Ref sig .tc := ⟨.hbm, 53, rfl⟩
abbrev main_v26_2 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg24_0 : Ref sig .tc := ⟨.vmem, 25, rfl⟩
abbrev cc0_stg25_0 : Ref sig .tc := ⟨.vmem, 26, rfl⟩
abbrev cc0_stg26_0 : Ref sig .tc := ⟨.vmem, 27, rfl⟩
abbrev cc0_stg27_0 : Ref sig .tc := ⟨.vmem, 28, rfl⟩
abbrev cc0_stg28_0 : Ref sig .tc := ⟨.vmem, 29, rfl⟩
abbrev cc0_stg28_1 : Ref sig .tc := ⟨.vmem, 30, rfl⟩
abbrev cc0_stg29_0 : Ref sig .tc := ⟨.vmem, 31, rfl⟩
abbrev cc0_stg29_1 : Ref sig .tc := ⟨.vmem, 32, rfl⟩
abbrev cc0_stg30_0 : Ref sig .tc := ⟨.vmem, 33, rfl⟩
abbrev cc0_stg30_1 : Ref sig .tc := ⟨.vmem, 34, rfl⟩
abbrev cc0_scratch0 : Ref sig .tc := ⟨.vmem, 35, rfl⟩
abbrev cc0_scratch1 : Ref sig .tc := ⟨.vmem, 36, rfl⟩
abbrev cc0_scratch2 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem24_0 : DmaSem sig := 25
abbrev cc0_sem25_0 : DmaSem sig := 26
abbrev cc0_sem26_0 : DmaSem sig := 27
abbrev cc0_sem27_0 : DmaSem sig := 28
abbrev cc0_sem28_0 : DmaSem sig := 29
abbrev cc0_sem28_1 : DmaSem sig := 30
abbrev cc0_sem29_0 : DmaSem sig := 31
abbrev cc0_sem29_1 : DmaSem sig := 32
abbrev cc0_sem30_0 : DmaSem sig := 33
abbrev cc0_sem30_1 : DmaSem sig := 34

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c25_i32_1 : BitVec 32 := 25#32
  let v4 : BitVec 1 := Scalar.cmpi .slt arg0 c25_i32_1
  let v5 : BitVec 32 := Scalar.extui v4
  let c0_i32_2 : BitVec 32 := 0#32
  let v6 : BitVec 1 := Scalar.cmpi .ne v5 c0_i32_2
  v6

def k0_off1 (i : grid0.Coords) : Fin 2 → Nat :=
  let arg0 : BitVec 32 := BitVec.ofNat 32 (i 0).val
  let c25_i32 : BitVec 32 := 25#32
  let v0 : BitVec 32 := Scalar.remsi arg0 c25_i32
  let c400_i32 : BitVec 32 := 400#32
  let v22 : BitVec 32 := Scalar.muli v0 c400_i32
  let v23 : Index := Scalar.indexCast v22
  let c0_12 : Index := 0#32
  ![v23.toNat, 0]
def k0_cond4 (i : grid0.Coords) : BitVec 1 :=
  let arg0 : BitVec 32 := BitVec.ofNat 32 (i 0).val
  let c25_i32_5 : BitVec 32 := 25#32
  let v10 : BitVec 1 := Scalar.cmpi .sge arg0 c25_i32_5
  let v11 : BitVec 32 := Scalar.extui v10
  let c0_i32_6 : BitVec 32 := 0#32
  let v12 : BitVec 1 := Scalar.cmpi .ne v11 c0_i32_6
  v12

def k0_off2 (i : grid0.Coords) : Fin 2 → Nat :=
  let arg0 : BitVec 32 := BitVec.ofNat 32 (i 0).val
  let c25_i32 : BitVec 32 := 25#32
  let v0 : BitVec 32 := Scalar.remsi arg0 c25_i32
  let c400_i32 : BitVec 32 := 400#32
  let v13 : BitVec 32 := Scalar.muli v0 c400_i32
  let v14 : Index := Scalar.indexCast v13
  let c0 : Index := 0#32
  ![v14.toNat, 0]
def cc0_transform_0 (i : grid0.Coords) : Fin 2 → Nat :=
  let arg0 : BitVec 32 := BitVec.ofNat 32 (i 0).val
  let c25_i32 : BitVec 32 := 25#32
  let v0 : BitVec 32 := Scalar.remsi arg0 c25_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c25_i32 : BitVec 32 := 25#32
  let v0 : BitVec 32 := Scalar.subi arg0 c25_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_29 (i : grid0.Coords) : Fin 2 → Nat :=
  let arg0 : BitVec 32 := BitVec.ofNat 32 (i 0).val
  let c25_i32 : BitVec 32 := 25#32
  let v0 : BitVec 32 := Scalar.subi arg0 c25_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_30 (i : grid0.Coords) : Fin 2 → Nat :=
  let arg0 : BitVec 32 := BitVec.ofNat 32 (i 0).val
  let c25_i32 : BitVec 32 := 25#32
  let v0 : BitVec 32 := Scalar.subi arg0 c25_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x10 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x10 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S128x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S64x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S256x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S128x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x128 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 2 → Memref sig .tc .vmem S400x10 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S400x128 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S400x192 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

class Facts₀ : Prop where
  transposes_S256x192_S192x256_1_0 : S256x192.Transposes [1, 0] S192x256
  transposes_S128x256_S256x128_1_0 : S128x256.Transposes [1, 0] S256x128
  transposes_S10x128_S128x10_1_0 : S10x128.Transposes [1, 0] S128x10
  transposes_S128x128_S128x128_1_0 : S128x128.Transposes [1, 0] S128x128
  bcast_S128_S1x128_1 : S128.BroadcastsInDim S1x128 (![1] : Fin 1 → Fin S1x128.rank)
  bcast_S64_S1x64_1 : S64.BroadcastsInDim S1x64 (![1] : Fin 1 → Fin S1x64.rank)
  slices_S192x256_S128x256_0_0 : S192x256.Slices ![0, 0] S128x256
  slices_S192x256_S64x256_128_0 : S192x256.Slices ![128, 0] S64x256
  bcast_S256_S1x256_1 : S256.BroadcastsInDim S1x256 (![1] : Fin 1 → Fin S1x256.rank)
  bcast_S10_S1x10_1 : S10.BroadcastsInDim S1x10 (![1] : Fin 1 → Fin S1x10.rank)
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S400x10000_S400x10000_0_0 : ∀ a, (![0, 0] : Fin 2 → Nat) a + S400x10000.size a ≤ S400x10000.size a
  h_S400x10000 : 0 < S400x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  h_S400x128 : 0 < S400x128.numel
  shapeCasts_S400x128_S400x128 : S400x128.ShapeCasts S400x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  packedbf16_S10000x64_S10000x64_0_0 : (Rect.unit (s := S10000x64) ![0, 0] S10000x64.size inb_S10000x64_S10000x64_0_0).PackedRows (EltTy.packing .bf16)
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S400x192_S400x128_0_0 : ∀ a, (![0, 0] : Fin 2 → Nat) a + S400x128.size a ≤ S400x192.size a
  inb_S400x192_S400x64_0_128 : ∀ a, (![0, 128] : Fin 2 → Nat) a + S400x64.size a ≤ S400x192.size a
  h_S400x64 : 0 < S400x64.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S400x256 : S1x256.Broadcasts S400x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128x10_S128x10_0_0 : ∀ a, (![0, 0] : Fin 2 → Nat) a + S128x10.size a ≤ S128x10.size a
  h_S128x10 : 0 < S128x10.numel
  shapeCasts_S128x10_S128x10 : S128x10.ShapeCasts S128x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S400x10 : S1x10.Broadcasts S400x10
  reduces_S400x10_S400 : S400x10.Reduces [1] S400
  shapeCasts_S400_S400x1 : S400.ShapeCasts S400x1
  broadcasts_S400x1_S400x10 : S400x1.Broadcasts S400x10
  inb_S400x10_S400x10_0_0 : ∀ a, (![0, 0] : Fin 2 → Nat) a + S400x10.size a ≤ S400x10.size a
  h_S400x10 : 0 < S400x10.numel
  shapeCasts_S128x128_S128x128 : S128x128.ShapeCasts S128x128
  inb_S400x128_S400x128_0_0 : ∀ a, (![0, 0] : Fin 2 → Nat) a + S400x128.size a ≤ S400x128.size a
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S10000x128_S128x64_S10000x64_1_0_0_1_n_n_wf : DotDims.WF S10000x128 S128x64 S10000x64 [1] [0] [0] [1] [] []
  dot_S400x10000_S10000x64_S400x64_1_0_0_1_n_n_wf : DotDims.WF S400x10000 S10000x64 S400x64 [1] [0] [0] [1] [] []
  dot_S400x128_S128x256_S400x256_1_0_0_1_n_n_wf : DotDims.WF S400x128 S128x256 S400x256 [1] [0] [0] [1] [] []
  dot_S400x64_S64x256_S400x256_1_0_0_1_n_n_wf : DotDims.WF S400x64 S64x256 S400x256 [1] [0] [0] [1] [] []
  dot_S400x256_S256x128_S400x128_1_0_0_1_n_n_wf : DotDims.WF S400x256 S256x128 S400x128 [1] [0] [0] [1] [] []
  dot_S400x128_S128x10_S400x10_1_0_0_1_n_n_wf : DotDims.WF S400x128 S128x10 S400x10 [1] [0] [0] [1] [] []
  dot_S400x128_S128x128_S400x128_1_0_0_1_n_n_wf : DotDims.WF S400x128 S128x128 S400x128 [1] [0] [0] [1] [] []
  hrank0 : 0 < grid0.rank
  k0_off1_inb : ∀ i : grid0.Coords, ∀ (k0_h2 : k0_cond2 i = 1#1), ∀ a, (k0_off1 i) a + S400x128.size a ≤ S10000x128.size a
  k0_off2_inb : ∀ i : grid0.Coords, ∀ (k0_h4 : k0_cond4 i = 1#1), ∀ a, (k0_off2 i) a + S400x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x256.size a ≤ S128x256.size a
  hwx0_6 : ∀ i : grid0.Coords, EltTy.bits .f32 = 32 ∨ (Rect.block (s := S128x256) S128x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x256.size a ≤ S64x256.size a
  hwx0_7 : ∀ i : grid0.Coords, EltTy.bits .f32 = 32 ∨ (Rect.block (s := S64x256) S64x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x256.size a
  hwx0_11 : ∀ i : grid0.Coords, EltTy.bits .f32 = 32 ∨ (Rect.block (s := S1x256) S1x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x256.size a
  hwx0_12 : ∀ i : grid0.Coords, EltTy.bits .f32 = 32 ∨ (Rect.block (s := S1x256) S1x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256x128.size a ≤ S256x128.size a
  hwx0_13 : ∀ i : grid0.Coords, EltTy.bits .f32 = 32 ∨ (Rect.block (s := S256x128) S256x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x128.size a ≤ S1x128.size a
  hwx0_14 : ∀ i : grid0.Coords, EltTy.bits .f32 = 32 ∨ (Rect.block (s := S1x128) S1x128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x128.size a ≤ S1x128.size a
  hwx0_15 : ∀ i : grid0.Coords, EltTy.bits .f32 = 32 ∨ (Rect.block (s := S1x128) S1x128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x128.size a ≤ S1x128.size a
  hwx0_16 : ∀ i : grid0.Coords, EltTy.bits .f32 = 32 ∨ (Rect.block (s := S1x128) S1x128.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x128.size a ≤ S1x128.size a
  hwx0_17 : ∀ i : grid0.Coords, EltTy.bits .f32 = 32 ∨ (Rect.block (s := S1x128) S1x128.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x128.size a ≤ S1x128.size a
  hwx0_18 : ∀ i : grid0.Coords, EltTy.bits .f32 = 32 ∨ (Rect.block (s := S1x128) S1x128.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S128x10.size a ≤ S128x10.size a
  hwx0_19 : ∀ i : grid0.Coords, EltTy.bits .f32 = 32 ∨ (Rect.block (s := S128x10) S128x10.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1x10.size a ≤ S1x10.size a
  hwx0_20 : ∀ i : grid0.Coords, EltTy.bits .f32 = 32 ∨ (Rect.block (s := S1x10) S1x10.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S128x256.size a ≤ S128x256.size a
  hwx0_21 : ∀ i : grid0.Coords, EltTy.bits .f32 = 32 ∨ (Rect.block (s := S128x256) S128x256.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S64x256.size a ≤ S64x256.size a
  hwx0_22 : ∀ i : grid0.Coords, EltTy.bits .f32 = 32 ∨ (Rect.block (s := S64x256) S64x256.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S1x256.size a ≤ S1x256.size a
  hwx0_23 : ∀ i : grid0.Coords, EltTy.bits .f32 = 32 ∨ (Rect.block (s := S1x256) S1x256.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S256x128.size a ≤ S256x128.size a
  hwx0_24 : ∀ i : grid0.Coords, EltTy.bits .f32 = 32 ∨ (Rect.block (s := S256x128) S256x128.size (cc0_transform_24 i) (hinb0_24 i)).WholeWords (EltTy.packing .f32)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S1x128.size a ≤ S1x128.size a
  hwx0_25 : ∀ i : grid0.Coords, EltTy.bits .f32 = 32 ∨ (Rect.block (s := S1x128) S1x128.size (cc0_transform_25 i) (hinb0_25 i)).WholeWords (EltTy.packing .f32)
  hstage0_26 : ∀ j, (stage0_26 j).IsWhole
  nbuf0_26 : grid0.bufCount reads0_26 true = 1
  hreads0_26 : ∀ i i' : grid0.Coords, (∀ a, reads0_26 a = true → i a = i' a) → cc0_transform_26 i = cc0_transform_26 i'
  hinb0_26 : ∀ (i : grid0.Coords) a, (cc0_transform_26 i a + 1) * S128x128.size a ≤ S128x128.size a
  hwx0_26 : ∀ i : grid0.Coords, EltTy.bits .f32 = 32 ∨ (Rect.block (s := S128x128) S128x128.size (cc0_transform_26 i) (hinb0_26 i)).WholeWords (EltTy.packing .f32)
  hstage0_27 : ∀ j, (stage0_27 j).IsWhole
  nbuf0_27 : grid0.bufCount reads0_27 true = 1
  hreads0_27 : ∀ i i' : grid0.Coords, (∀ a, reads0_27 a = true → i a = i' a) → cc0_transform_27 i = cc0_transform_27 i'
  hinb0_27 : ∀ (i : grid0.Coords) a, (cc0_transform_27 i a + 1) * S1x128.size a ≤ S1x128.size a
  hwx0_27 : ∀ i : grid0.Coords, EltTy.bits .f32 = 32 ∨ (Rect.block (s := S1x128) S1x128.size (cc0_transform_27 i) (hinb0_27 i)).WholeWords (EltTy.packing .f32)
  hstage0_28 : ∀ j, (stage0_28 j).IsWhole
  nbuf0_28 : grid0.bufCount reads0_28 false = 2
  hreads0_28 : ∀ i i' : grid0.Coords, (∀ a, reads0_28 a = true → i a = i' a) → cc0_transform_28 i = cc0_transform_28 i'
  hinb0_28 : ∀ (i : grid0.Coords) a, (cc0_transform_28 i a + 1) * S400x10.size a ≤ S10000x10.size a
  hwx0_28 : ∀ i : grid0.Coords, EltTy.bits .f32 = 32 ∨ (Rect.block (s := S10000x10) S400x10.size (cc0_transform_28 i) (hinb0_28 i)).WholeWords (EltTy.packing .f32)
  hstage0_29 : ∀ j, (stage0_29 j).IsWhole
  nbuf0_29 : grid0.bufCount reads0_29 false = 2
  hreads0_29 : ∀ i i' : grid0.Coords, (∀ a, reads0_29 a = true → i a = i' a) → cc0_transform_29 i = cc0_transform_29 i'
  hinb0_29 : ∀ (i : grid0.Coords) a, (cc0_transform_29 i a + 1) * S400x128.size a ≤ S10000x128.size a
  hwx0_29 : ∀ i : grid0.Coords, EltTy.bits .f32 = 32 ∨ (Rect.block (s := S10000x128) S400x128.size (cc0_transform_29 i) (hinb0_29 i)).WholeWords (EltTy.packing .f32)
  hstage0_30 : ∀ j, (stage0_30 j).IsWhole
  nbuf0_30 : grid0.bufCount reads0_30 false = 2
  hreads0_30 : ∀ i i' : grid0.Coords, (∀ a, reads0_30 a = true → i a = i' a) → cc0_transform_30 i = cc0_transform_30 i'
  hinb0_30 : ∀ (i : grid0.Coords) a, (cc0_transform_30 i a + 1) * S400x192.size a ≤ S10000x192.size a
  hwx0_30 : ∀ i : grid0.Coords, EltTy.bits .f32 = 32 ∨ (Rect.block (s := S10000x192) S400x192.size (cc0_transform_30 i) (hinb0_30 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S400x128_S128x256_S400x256_1_0_0_1_n_n : DotDims S400x128 S128x256 S400x256 where
  lhsContracting := [1]
  rhsContracting := [0]
  lhsNonContracting := [0]
  rhsNonContracting := [1]
  lhsBatch := []
  rhsBatch := []
  wf := dot_S400x128_S128x256_S400x256_1_0_0_1_n_n_wf
def dot_S400x64_S64x256_S400x256_1_0_0_1_n_n : DotDims S400x64 S64x256 S400x256 where
  lhsContracting := [1]
  rhsContracting := [0]
  lhsNonContracting := [0]
  rhsNonContracting := [1]
  lhsBatch := []
  rhsBatch := []
  wf := dot_S400x64_S64x256_S400x256_1_0_0_1_n_n_wf
def dot_S400x256_S256x128_S400x128_1_0_0_1_n_n : DotDims S400x256 S256x128 S400x128 where
  lhsContracting := [1]
  rhsContracting := [0]
  lhsNonContracting := [0]
  rhsNonContracting := [1]
  lhsBatch := []
  rhsBatch := []
  wf := dot_S400x256_S256x128_S400x128_1_0_0_1_n_n_wf
def dot_S400x128_S128x10_S400x10_1_0_0_1_n_n : DotDims S400x128 S128x10 S400x10 where
  lhsContracting := [1]
  rhsContracting := [0]
  lhsNonContracting := [0]
  rhsNonContracting := [1]
  lhsBatch := []
  rhsBatch := []
  wf := dot_S400x128_S128x10_S400x10_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S128x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S64x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v12) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v13) S1x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v14) S1x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v1) S256x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v15) S1x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v16) S1x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v17) S1x128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v18) S1x128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v19) S1x128.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v2) S128x10.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v20) S1x10.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v21) S128x256.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v22) S64x256.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v23) S1x256.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v4) S256x128.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_v24) S1x128.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_v5) S128x128.size cc0_transform_26 reads0_26 false true 1 stage0_26 sem0_26
    hrank0 hreads0_26 hinb0_26 nbuf0_26 (Memref.isWhole_whole _) hwx0_26 hstage0_26

abbrev win0_27 : Pipeline.Window sig grid0 :=
  Pipeline.Window.ofSpec (Memref.whole main_v25) S1x128.size cc0_transform_27 reads0_27 false true 1 stage0_27 sem0_27
    hrank0 hreads0_27 hinb0_27 nbuf0_27 (Memref.isWhole_whole _) hwx0_27 hstage0_27

abbrev win0_28 : Pipeline.Window sig grid0 :=
  Pipeline.Window.ofSpec (Memref.whole main_v26_0) S400x10.size cc0_transform_28 reads0_28 true false 2 stage0_28 sem0_28
    hrank0 hreads0_28 hinb0_28 nbuf0_28 (Memref.isWhole_whole _) hwx0_28 hstage0_28

abbrev win0_29 : Pipeline.Window sig grid0 :=
  Pipeline.Window.ofSpec (Memref.whole main_v26_1) S400x128.size cc0_transform_29 reads0_29 true false 2 stage0_29 sem0_29
    hrank0 hreads0_29 hinb0_29 nbuf0_29 (Memref.isWhole_whole _) hwx0_29 hstage0_29

abbrev win0_30 : Pipeline.Window sig grid0 :=
  Pipeline.Window.ofSpec (Memref.whole main_v26_2) S400x192.size cc0_transform_30 reads0_30 true false 2 stage0_30 sem0_30
    hrank0 hreads0_30 hinb0_30 nbuf0_30 (Memref.isWhole_whole _) hwx0_30 hstage0_30

abbrev win0 : Fin 31 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | 28 => win0_28 | 29 => win0_29 | 30 => win0_30 | ⟨_ + 31, h⟩ => absurd h (Nat.not_lt.2 (Nat.le_add_left _ _))
abbrev spec0 : Fin 31 → Pipeline.WinSpec sig grid0.rank := fun w => (win0 w).toWinSpec

abbrev idle0 : Fin 31 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun _ => false | 16 => fun _ => false | 17 => fun _ => false | 18 => fun _ => false | 19 => fun _ => false | 20 => fun _ => false | 21 => fun _ => false | 22 => fun _ => false | 23 => fun _ => false | 24 => fun _ => false | 25 => fun _ => false | 26 => fun _ => false | 27 => fun _ => false | 28 => fun i => !(k0_cond4 i == 1#1) | 29 => fun i => !(k0_cond4 i == 1#1) | 30 => fun i => !(k0_cond4 i == 1#1) | ⟨_ + 31, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S256x192 : Shape := ⟨2, ![256, 192]⟩
abbrev S256 : Shape := ⟨1, ![256]⟩
abbrev S128x256 : Shape := ⟨2, ![128, 256]⟩
abbrev S10x128 : Shape := ⟨2, ![10, 128]⟩
abbrev S10 : Shape := ⟨1, ![10]⟩
abbrev S1x128 : Shape := ⟨2, ![1, 128]⟩
abbrev S10000x64 : Shape := ⟨2, ![10000, 64]⟩
abbrev S1x64 : Shape := ⟨2, ![1, 64]⟩
abbrev S10000x192 : Shape := ⟨2, ![10000, 192]⟩
abbrev S192x256 : Shape := ⟨2, ![192, 256]⟩
abbrev S10000x256 : Shape := ⟨2, ![10000, 256]⟩
abbrev S1x256 : Shape := ⟨2, ![1, 256]⟩
abbrev S_ : Shape := ⟨0, ![]⟩
abbrev S256x128 : Shape := ⟨2, ![256, 128]⟩
abbrev S128x10 : Shape := ⟨2, ![128, 10]⟩
abbrev S10000x10 : Shape := ⟨2, ![10000, 10]⟩
abbrev S1x10 : Shape := ⟨2, ![1, 10]⟩
abbrev S10000 : Shape := ⟨1, ![10000]⟩
abbrev S10000x1 : Shape := ⟨2, ![10000, 1]⟩

abbrev nBuf : Space → Nat
  | .hbm => 128
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S256x192, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S128x256, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S10x128, .f32⟩
  | .hbm, ⟨19, _⟩ => ⟨S10, .f32⟩
  | .hbm, ⟨20, _⟩ => ⟨S256x192, .f32⟩
  | .hbm, ⟨21, _⟩ => ⟨S256, .f32⟩
  | .hbm, ⟨22, _⟩ => ⟨S128x256, .f32⟩
  | .hbm, ⟨23, _⟩ => ⟨S128, .f32⟩
  | .hbm, ⟨24, _⟩ => ⟨S128x128, .f32⟩
  | .hbm, ⟨25, _⟩ => ⟨S128, .f32⟩
  | .hbm, ⟨26, _⟩ => ⟨S10000x128, .f32⟩
  | .hbm, ⟨27, _⟩ => ⟨S10000x128, .f32⟩
  | .hbm, ⟨28, _⟩ => ⟨S1x128, .f32⟩
  | .hbm, ⟨29, _⟩ => ⟨S10000x128, .f32⟩
  | .hbm, ⟨30, _⟩ => ⟨S10000x128, .f32⟩
  | .hbm, ⟨31, _⟩ => ⟨S10000x128, .f32⟩
  | .hbm, ⟨32, _⟩ => ⟨S10000x64, .f32⟩
  | .hbm, ⟨33, _⟩ => ⟨S10000x64, .f32⟩
  | .hbm, ⟨34, _⟩ => ⟨S1x64, .f32⟩
  | .hbm, ⟨35, _⟩ => ⟨S10000x64, .f32⟩
  | .hbm, ⟨36, _⟩ => ⟨S10000x64, .f32⟩
  | .hbm, ⟨37, _⟩ => ⟨S10000x64, .f32⟩
  | .hbm, ⟨38, _⟩ => ⟨S10000x192, .f32⟩
  | .hbm, ⟨39, _⟩ => ⟨S192x256, .f32⟩
  | .hbm, ⟨40, _⟩ => ⟨S10000x256, .f32⟩
  | .hbm, ⟨41, _⟩ => ⟨S1x256, .f32⟩
  | .hbm, ⟨42, _⟩ => ⟨S10000x256, .f32⟩
  | .hbm, ⟨43, _⟩ => ⟨S10000x256, .f32⟩
  | .hbm, ⟨44, _⟩ => ⟨S1x256, .f32⟩
  | .hbm, ⟨45, _⟩ => ⟨S10000x256, .f32⟩
  | .hbm, ⟨46, _⟩ => ⟨S10000x256, .f32⟩
  | .hbm, ⟨47, _⟩ => ⟨S_, .f32⟩
  | .hbm, ⟨48, _⟩ => ⟨S256, .f32⟩
  | .hbm, ⟨49, _⟩ => ⟨S256, .f32⟩
  | .hbm, ⟨50, _⟩ => ⟨S256, .f32⟩
  | .hbm, ⟨51, _⟩ => ⟨S1x256, .f32⟩
  | .hbm, ⟨52, _⟩ => ⟨S10000x256, .f32⟩
  | .hbm, ⟨53, _⟩ => ⟨S10000x256, .f32⟩
  | .hbm, ⟨54, _⟩ => ⟨S1x256, .f32⟩
  | .hbm, ⟨55, _⟩ => ⟨S10000x256, .f32⟩
  | .hbm, ⟨56, _⟩ => ⟨S10000x256, .f32⟩
  | .hbm, ⟨57, _⟩ => ⟨S1x256, .f32⟩
  | .hbm, ⟨58, _⟩ => ⟨S10000x256, .f32⟩
  | .hbm, ⟨59, _⟩ => ⟨S10000x256, .f32⟩
  | .hbm, ⟨60, _⟩ => ⟨S_, .f32⟩
  | .hbm, ⟨61, _⟩ => ⟨S10000x256, .f32⟩
  | .hbm, ⟨62, _⟩ => ⟨S10000x256, .f32⟩
  | .hbm, ⟨63, _⟩ => ⟨S256x128, .f32⟩
  | .hbm, ⟨64, _⟩ => ⟨S10000x128, .f32⟩
  | .hbm, ⟨65, _⟩ => ⟨S1x128, .f32⟩
  | .hbm, ⟨66, _⟩ => ⟨S10000x128, .f32⟩
  | .hbm, ⟨67, _⟩ => ⟨S10000x128, .f32⟩
  | .hbm, ⟨68, _⟩ => ⟨S1x128, .f32⟩
  | .hbm, ⟨69, _⟩ => ⟨S10000x128, .f32⟩
  | .hbm, ⟨70, _⟩ => ⟨S10000x128, .f32⟩
  | .hbm, ⟨71, _⟩ => ⟨S_, .f32⟩
  | .hbm, ⟨72, _⟩ => ⟨S128, .f32⟩
  | .hbm, ⟨73, _⟩ => ⟨S128, .f32⟩
  | .hbm, ⟨74, _⟩ => ⟨S128, .f32⟩
  | .hbm, ⟨75, _⟩ => ⟨S1x128, .f32⟩
  | .hbm, ⟨76, _⟩ => ⟨S10000x128, .f32⟩
  | .hbm, ⟨77, _⟩ => ⟨S10000x128, .f32⟩
  | .hbm, ⟨78, _⟩ => ⟨S1x128, .f32⟩
  | .hbm, ⟨79, _⟩ => ⟨S10000x128, .f32⟩
  | .hbm, ⟨80, _⟩ => ⟨S10000x128, .f32⟩
  | .hbm, ⟨81, _⟩ => ⟨S1x128, .f32⟩
  | .hbm, ⟨82, _⟩ => ⟨S10000x128, .f32⟩
  | .hbm, ⟨83, _⟩ => ⟨S10000x128, .f32⟩
  | .hbm, ⟨84, _⟩ => ⟨S_, .f32⟩
  | .hbm, ⟨85, _⟩ => ⟨S10000x128, .f32⟩
  | .hbm, ⟨86, _⟩ => ⟨S10000x128, .f32⟩
  | .hbm, ⟨87, _⟩ => ⟨S128x10, .f32⟩
  | .hbm, ⟨88, _⟩ => ⟨S10000x10, .f32⟩
  | .hbm, ⟨89, _⟩ => ⟨S1x10, .f32⟩
  | .hbm, ⟨90, _⟩ => ⟨S10000x10, .f32⟩
  | .hbm, ⟨91, _⟩ => ⟨S10000x10, .f32⟩
  | .hbm, ⟨92, _⟩ => ⟨S_, .f32⟩
  | .hbm, ⟨93, _⟩ => ⟨S10000, .f32⟩
  | .hbm, ⟨94, _⟩ => ⟨S_, .f32⟩
  | .hbm, ⟨95, _⟩ => ⟨S10000, .f32⟩
  | .hbm, ⟨96, _⟩ => ⟨S10000, .f32⟩
  | .hbm, ⟨97, _⟩ => ⟨S10000x1, .f32⟩
  | .hbm, ⟨98, _⟩ => ⟨S10000x10, .f32⟩
  | .hbm, ⟨99, _⟩ => ⟨S10000x10, .f32⟩
  | .hbm, ⟨100, _⟩ => ⟨S10000x10, .f32⟩
  | .hbm, ⟨101, _⟩ => ⟨S_, .f32⟩
  | .hbm, ⟨102, _⟩ => ⟨S10000, .f32⟩
  | .hbm, ⟨103, _⟩ => ⟨S10000x1, .f32⟩
  | .hbm, ⟨104, _⟩ => ⟨S10000x1, .f32⟩
  | .hbm, ⟨105, _⟩ => ⟨S10000x10, .f32⟩
  | .hbm, ⟨106, _⟩ => ⟨S10000x10, .f32⟩
  | .hbm, ⟨107, _⟩ => ⟨S192x256, .f32⟩
  | .hbm, ⟨108, _⟩ => ⟨S10000x256, .f32⟩
  | .hbm, ⟨109, _⟩ => ⟨S1x256, .f32⟩
  | .hbm, ⟨110, _⟩ => ⟨S10000x256, .f32⟩
  | .hbm, ⟨111, _⟩ => ⟨S10000x256, .f32⟩
  | .hbm, ⟨112, _⟩ => ⟨S_, .f32⟩
  | .hbm, ⟨113, _⟩ => ⟨S10000x256, .f32⟩
  | .hbm, ⟨114, _⟩ => ⟨S10000x256, .f32⟩
  | .hbm, ⟨115, _⟩ => ⟨S256x128, .f32⟩
  | .hbm, ⟨116, _⟩ => ⟨S10000x128, .f32⟩
  | .hbm, ⟨117, _⟩ => ⟨S1x128, .f32⟩
  | .hbm, ⟨118, _⟩ => ⟨S10000x128, .f32⟩
  | .hbm, ⟨119, _⟩ => ⟨S10000x128, .f32⟩
  | .hbm, ⟨120, _⟩ => ⟨S_, .f32⟩
  | .hbm, ⟨121, _⟩ => ⟨S10000x128, .f32⟩
  | .hbm, ⟨122, _⟩ => ⟨S10000x128, .f32⟩
  | .hbm, ⟨123, _⟩ => ⟨S128x128, .f32⟩
  | .hbm, ⟨124, _⟩ => ⟨S10000x128, .f32⟩
  | .hbm, ⟨125, _⟩ => ⟨S1x128, .f32⟩
  | .hbm, ⟨126, _⟩ => ⟨S10000x128, .f32⟩
  | .hbm, ⟨127, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_cst : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_call0_cst : Ref sig .tc := ⟨.hbm, 60, rfl⟩
abbrev main_call0_v0 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_0 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_call1_cst : Ref sig .tc := ⟨.hbm, 84, rfl⟩
abbrev main_call1_v0 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_call2_cst : Ref sig .tc := ⟨.hbm, 92, rfl⟩
abbrev main_call2_v0 : Ref sig .tc := ⟨.hbm, 93, rfl⟩
abbrev main_call2_cst_0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_cst_1 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_call3_cst : Ref sig .tc := ⟨.hbm, 112, rfl⟩
abbrev main_call3_v0 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_call4_cst : Ref sig .tc := ⟨.hbm, 120, rfl⟩
abbrev main_call4_v0 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  concatenates_S10000x128_S10000x64_S10000x192_d1 : Shape.Concatenates [S10000x128, S10000x64] S10000x192 1
  transposes_S256x192_S192x256_1_0 : S256x192.Transposes [1, 0] S192x256
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S256 : S_.BroadcastsInDim S256 (![] : Fin 0 → Fin S256.rank)
  bcast_S_S10000x256 : S_.BroadcastsInDim S10000x256 (![] : Fin 0 → Fin S10000x256.rank)
  transposes_S128x256_S256x128_1_0 : S128x256.Transposes [1, 0] S256x128
  bcast_S_S128 : S_.BroadcastsInDim S128 (![] : Fin 0 → Fin S128.rank)
  bcast_S_S10000x128 : S_.BroadcastsInDim S10000x128 (![] : Fin 0 → Fin S10000x128.rank)
  transposes_S10x128_S128x10_1_0 : S10x128.Transposes [1, 0] S128x10
  bcast_S10_S1x10_1 : S10.BroadcastsInDim S1x10 (![1] : Fin 1 → Fin S1x10.rank)
  bcast_S1x10_S10000x10_0_1 : S1x10.BroadcastsInDim S10000x10 (![0, 1] : Fin 2 → Fin S10000x10.rank)
  reducesTo_S10000x10_S10000_d1 : S10000x10.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x10_0_1 : S10000x1.BroadcastsInDim S10000x10 (![0, 1] : Fin 2 → Fin S10000x10.rank)
  transposes_S128x128_S128x128_1_0 : S128x128.Transposes [1, 0] S128x128
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x192_S192x256_S10000x256_1_0_0_1_n_n_wf : DotDims.WF S10000x192 S192x256 S10000x256 [1] [0] [0] [1] [] []
  dot_S10000x256_S256x128_S10000x128_1_0_0_1_n_n_wf : DotDims.WF S10000x256 S256x128 S10000x128 [1] [0] [0] [1] [] []
  dot_S10000x128_S128x10_S10000x10_1_0_0_1_n_n_wf : DotDims.WF S10000x128 S128x10 S10000x10 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x192_S192x256_S10000x256_1_0_0_1_n_n : DotDims S10000x192 S192x256 S10000x256 where
  lhsContracting := [1]
  rhsContracting := [0]
  lhsNonContracting := [0]
  rhsNonContracting := [1]
  lhsBatch := []
  rhsBatch := []
  wf := dot_S10000x192_S192x256_S10000x256_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x128_S128x10_S10000x10_1_0_0_1_n_n : DotDims S10000x128 S128x10 S10000x10 where
  lhsContracting := [1]
  rhsContracting := [0]
  lhsNonContracting := [0]
  rhsNonContracting := [1]
  lhsBatch := []
  rhsBatch := []
  wf := dot_S10000x128_S128x10_S10000x10_1_0_0_1_n_n_wf

class Facts : Prop extends Facts₀ where

variable [Facts]
-- ==== Proof.FrameCommon.lean ====
/-
  The grid has 50 points: two sweeps over the 25 row tiles (400 rows each) of the adjacency. What the body does at a
  point depends on four conditions on the point's number `t`: `t = 0` (the first support `x · W1` is computed),
  `t < 25` (a slab of the first layer's output is stored), `t = 25` (the second support is computed), `25 ≤ t` (a slab
  of the second layer and both heads are computed and the three results' blocks are stored). This file decides the four
  conditions, the row offsets of the slab and where the result windows are idle, once, over the grid.
-/
import proofs.«162148_g73521250173546_cont_sun_c4_545_9_alg».proof.Proof.Gen.KernelIdeal.Launch
import proofs.«162148_g73521250173546_cont_sun_c4_545_9_alg».proof.Proof.Gen.KernelIdeal.Skeleton
import proofs.«162148_g73521250173546_cont_sun_c4_545_9_alg».proof.Proof.Gen.KernelIdeal.Points
import proofs.«162148_g73521250173546_cont_sun_c4_545_9_alg».proof.Proof.Gen.KernelIdeal.Frame
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's four conditions, from the grid coordinate -/

/-- `program_id = 0`. -/
abbrev cond1 (i : grid0.Coords) : Prop := (Scalar.cmpi .ne (Scalar.extui (Scalar.cmpi .eq (BitVec.ofNat 32 (i 0).val) 0#32)) 0#32) = 1#1
/-- `program_id < 25`. -/
abbrev cond2 (i : grid0.Coords) : Prop := k0_cond2 i = 1#1
/-- `program_id = 25`. -/
abbrev cond3 (i : grid0.Coords) : Prop := (Scalar.cmpi .ne (Scalar.extui (Scalar.cmpi .eq (BitVec.ofNat 32 (i 0).val) 25#32)) 0#32) = 1#1
/-- `25 ≤ program_id`. -/
abbrev cond4 (i : grid0.Coords) : Prop := k0_cond4 i = 1#1

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ t.val < 25 :=
  (by decide +kernel : ∀ t : Fin grid0.N, cond2 (grid0.coords t) ↔ t.val < 25)
theorem hcond3 : ∀ t : Fin cfg0.N, cond3 (grid0.coords t) ↔ t.val = 25 :=
  (by decide +kernel : ∀ t : Fin grid0.N, cond3 (grid0.coords t) ↔ t.val = 25)
theorem hcond4 : ∀ t : Fin cfg0.N, cond4 (grid0.coords t) ↔ 25 ≤ t.val :=
  (by decide +kernel : ∀ t : Fin grid0.N, cond4 (grid0.coords t) ↔ 25 ≤ t.val)

/-- The number of points. -/
theorem N50 : cfg0.N = 50 := N_0

/-! ## The slab's row offset: tile `t mod 25` starts at row `400 · (t mod 25)` -/

theorem off1_eq : ∀ t : Fin cfg0.N, k0_off1 (grid0.coords t) = ![400 * (t.val % 25), 0] :=
  (by decide +kernel : ∀ t : Fin grid0.N, k0_off1 (grid0.coords t) = ![400 * (t.val % 25), 0])
theorem off2_eq : ∀ t : Fin cfg0.N, k0_off2 (grid0.coords t) = ![400 * (t.val % 25), 0] :=
  (by decide +kernel : ∀ t : Fin grid0.N, k0_off2 (grid0.coords t) = ![400 * (t.val % 25), 0])

/-! ## Where the result windows are idle and where their blocks are written back -/

/-- An operand window is never idle. -/
theorem liveIn : ∀ (w : Fin 28) (t : Fin cfg0.N), cfg0.idle (Fin.castLE (by decide) w) (grid0.coords t) = false := by decide +kernel
/-- During the first sweep a result window is idle … -/
theorem idleOut (w : Fin 31) (hw : 28 ≤ w.val) : ∀ t : Fin cfg0.N, t.val < 25 → cfg0.idle w (grid0.coords t) = true := by
  revert w; decide +kernel
/-- … and its block is not written back; -/
theorem noFlushOut (w : Fin 31) (hw : 28 ≤ w.val) : ∀ t : Fin cfg0.N, t.val < 25 → (cfg0.win w).flush t = false := by
  revert w; decide +kernel
/-- during the second sweep it is live -/
theorem liveOut (w : Fin 31) (hw : 28 ≤ w.val) : ∀ t : Fin cfg0.N, 25 ≤ t.val → cfg0.idle w (grid0.coords t) = false := by
  revert w; decide +kernel
/-- and written back at every point. -/
theorem flushOut (w : Fin 31) (hw : 28 ≤ w.val) : ∀ t : Fin cfg0.N, 25 ≤ t.val → (cfg0.win w).flush t = true := by
  revert w; decide +kernel

/-! ## The three scratch buffers -/

/-- The first support `s1` (10000 × 128), -/
abbrev scM0 : Memref sig .tc .vmem S10000x128 .bf16 := Memref.whole cc0_scratch0
/-- the first layer's output `x1` (10000 × 128), -/
abbrev scM1 : Memref sig .tc .vmem S10000x128 .f32 := Memref.whole cc0_scratch1
/-- the second support `s2` (10000 × 64). -/
abbrev scM2 : Memref sig .tc .vmem S10000x64 .bf16 := Memref.whole cc0_scratch2

/-- What the launch hands the region beside the windows: the three scratch buffers at some contents and the generator
    register at some state. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

end Cert.KernelIdeal.Hand

end
-- ==== Proof.FrameVals.lean ====
/-
  What the kernel's scratch buffers and result blocks hold, as pure terms of the operand blocks (at any float
  instance). Point 0 computes the first support `s1` from the blocks of `x` and `W1`; point `t < 25` stores the slab
  `tanh (adj-tile · s1 + b1)` into rows `400 t .. 400 t + 400` of `x1`; point 25 computes the second support `s2` from
  all of `x1` and `W2`; point `t ≥ 25` computes the slab of `x2` for tile `t - 25 = t mod 25`, stores `[x1-slab | x2-slab]`
  into the third result's block and the two heads' values of that slab into the first two.
-/
import proofs.«162148_g73521250173546_cont_sun_c4_545_9_alg».proof.Proof.Gen.KernelIdeal.Launch
import proofs.«162148_g73521250173546_cont_sun_c4_545_9_alg».proof.Proof.Gen.KernelIdeal.Skeleton
import proofs.«162148_g73521250173546_cont_sun_c4_545_9_alg».proof.Proof.Gen.KernelIdeal.Points
import proofs.«162148_g73521250173546_cont_sun_c4_545_9_alg».proof.Proof.Gen.KernelIdeal.Frame
import proofs.«162148_g73521250173546_cont_sun_c4_545_9_alg».proof.Proof.FrameCommon
import Idealize.ShloMosaic.Lib.ValueIdx
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (c : Dev nD)

/-- Point number `n` of the 50. -/
abbrev pt (n : ℕ) (h : n < 50 := by decide) : Fin cfg0.N := ⟨n, lt_of_lt_of_eq h N50.symm⟩

/-- The first support `s1 = x · W1`, as point 0 computes it. -/
def S1v : Vec F S10000x128 .bf16 := k0_pay1 (iblk m c 1 (pt 0)) (iblk m c 2 (pt 0))

/-- The slab of `x1` that point `t` of the first sweep computes from its adjacency tile. -/
def slab1 (t : Fin cfg0.N) : FVec F S400x128 .f32 := k0_pay2 (iblk m c 0 t) (S1v m c) (iblk m c 3 t)

/-- All of `x1`: row `r` belongs to the slab of point `r / 400`. -/
def X1v : Vec F S10000x128 .f32 := fun y =>
  slab1 m c ⟨(y 0).val / 400, by have := idx2_lt0 y; rw [N50]; omega⟩
    (ix2 (⟨(y 0).val % 400, Nat.mod_lt _ (by decide)⟩ : Fin 400) (⟨(y 1).val, idx2_lt1 y⟩ : Fin 128))

/-- The second support `s2 = x1 · W2`, as point 25 computes it. -/
def S2v : Vec F S10000x64 .bf16 := k0_pay3 (X1v m c) (iblk m c 4 (pt 25))

/-- The rows of `x1` that point `t` reads back: tile `t mod 25`. -/
def x1rows (t : Fin cfg0.N) : Vec F S400x128 .f32 := fun y =>
  X1v m c (ix2 (⟨400 * (t.val % 25) + (y 0).val, by have := idx2_lt0 y; omega⟩ : Fin 10000) (⟨(y 1).val, idx2_lt1 y⟩ : Fin 128))

/-- The slab of `x2` that point `t` of the second sweep computes. -/
def x2blk (t : Fin cfg0.N) : FVec F S400x64 .f32 := k0_pay5 (iblk m c 0 t) (S2v m c) (iblk m c 5 t)

/-- The third result's block at point `t`: `[x1-slab | x2-slab]`. -/
def znblk (t : Fin cfg0.N) : Vec F S400x192 .f32 := fun y =>
  if h : (y 1).val < 128 then x1rows m c t (ix2 (⟨(y 0).val, idx2_lt0 y⟩ : Fin 400) (⟨(y 1).val, h⟩ : Fin 128))
  else x2blk m c t (ix2 (⟨(y 0).val, idx2_lt0 y⟩ : Fin 400) (⟨(y 1).val - 128, by have := idx2_lt1 y; omega⟩ : Fin 64))

/-- The classifier's first linear layer on the slab, before its batch norm. -/
def h1pre (t : Fin cfg0.N) : FVec F S400x256 .f32 :=
  k0_pay6 (x1rows m c t) (iblk m c 0 t) (S2v m c) (iblk m c 5 t) (iblk m c 6 t) (iblk m c 7 t) (iblk m c 8 t)

/-- Its second linear layer minus the second batch norm's running mean. -/
def h2pre (t : Fin cfg0.N) : FVec F S400x128 .f32 :=
  k0_pay11 (h1pre m c t) (k0_pay7 (iblk m c 9 t)) (k0_pay8 (iblk m c 10 t)) (iblk m c 11 t) (iblk m c 12 t) (iblk m c 13 t) (iblk m c 14 t) (iblk m c 17 t)

/-- The first result's block at point `t`: the log-softmax of the slab's logits. -/
def xc5blk (t : Fin cfg0.N) : FVec F S400x10 .f32 :=
  k0_pay13 (k0_pay9 (iblk m c 15 t)) (k0_pay10 (iblk m c 16 t)) (h2pre m c t) (k0_pay12 (iblk m c 18 t)) (iblk m c 19 t) (iblk m c 20 t)

/-- The second result's block at point `t`: the reconstruction head on the slab. -/
def xr5blk (t : Fin cfg0.N) : FVec F S400x128 .f32 :=
  k0_pay4 (k0_pay14 (x1rows m c t) (x2blk m c t) (iblk m c 21 t) (iblk m c 22 t)) (iblk m c 23 t) (iblk m c 24 t) (iblk m c 25 t) (iblk m c 26 t) (iblk m c 27 t)

end Cert.KernelIdeal.Hand

end
-- ==== Proof.BodyVals.lean ====
/-
  What one run of the kernel body leaves, as pure terms of what it loads (at any float instance): the value stored in
  each result block during the second sweep, and what a 400-row slab store does to the 10000-row buffer of `x1`.
-/
import proofs.«162148_g73521250173546_cont_sun_c4_545_9_alg».proof.Proof.Gen.KernelIdeal.Launch
import proofs.«162148_g73521250173546_cont_sun_c4_545_9_alg».proof.Proof.Gen.KernelIdeal.Skeleton
import proofs.«162148_g73521250173546_cont_sun_c4_545_9_alg».proof.Proof.Gen.KernelIdeal.Points
import proofs.«162148_g73521250173546_cont_sun_c4_545_9_alg».proof.Proof.Gen.KernelIdeal.Frame
import proofs.«162148_g73521250173546_cont_sun_c4_545_9_alg».proof.Proof.FrameCommon
import Idealize.ShloMosaic.Lib.ValueIdx
import Idealize.ShloMosaic.Lib.WritesUnit
import Idealize.ShloMosaic.Lib.Pipeline.Value
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- Row `o + y₀`, column `y₁` of the 10000-row buffer: where entry `y` of the slab starting at row `o` sits. -/
def rowAt (o : ℕ) (ho : o + 400 ≤ 10000) (y : S400x128.Idx) : S10000x128.Idx :=
  ix2 (⟨o + (y 0).val, by have := idx2_lt0 y; omega⟩ : Fin 10000) (⟨(y 1).val, idx2_lt1 y⟩ : Fin 128)

/-- The slab of 400 rows starting at row `o`. -/
def rowsOf (o : ℕ) (ho : o + 400 ≤ 10000) (xs : Vec F S10000x128 .f32) : Vec F S400x128 .f32 := fun y => xs (rowAt o ho y)

/-- `d` is `xs` with the slab at row `o` replaced by `w`. -/
def Upd (o : ℕ) (ho : o + 400 ≤ 10000) (w : FVec F S400x128 .f32) (xs d : Vec F S10000x128 .f32) : Prop :=
  (∀ y : S400x128.Idx, d (rowAt o ho y) = w y) ∧ ∀ y : S10000x128.Idx, ((y 0).val < o ∨ o + 400 ≤ (y 0).val) → d y = xs y

/-- The third result's block: the slab of `x1` in columns `0..128`, the slab of `x2` in columns `128..192`. -/
def znOf (x1r : Vec F S400x128 .f32) (x2b : FVec F S400x64 .f32) : Vec F S400x192 .f32 := fun y =>
  if h : (y 1).val < 128 then x1r (ix2 (⟨(y 0).val, idx2_lt0 y⟩ : Fin 400) (⟨(y 1).val, h⟩ : Fin 128))
  else x2b (ix2 (⟨(y 0).val, idx2_lt0 y⟩ : Fin 400) (⟨(y 1).val - 128, by have := idx2_lt1 y; omega⟩ : Fin 64))

/-- The first result's block from the slab of `x1`, the adjacency tile, the second support and the classifier's
    operands, in the order the body loads them. -/
def xc5Of (x1r : Vec F S400x128 .f32) (x1 : Vec F S400x10000 .f32) (xs2 : Vec F S10000x64 .bf16) (x6 : Vec F S1x64 .f32)
    (x7 : Vec F S128x256 .f32) (x8 : Vec F S64x256 .f32) (x9 x10 x11 x12 x13 : Vec F S1x256 .f32) (x14 : Vec F S256x128 .f32)
    (x15 x16 x17 x18 x19 : Vec F S1x128 .f32) (x20 : Vec F S128x10 .f32) (x21 : Vec F S1x10 .f32) : FVec F S400x10 .f32 :=
  k0_pay13 (k0_pay9 x16) (k0_pay10 x17)
    (k0_pay11 (k0_pay6 x1r x1 xs2 x6 x7 x8 x9) (k0_pay7 x10) (k0_pay8 x11) x12 x13 x14 x15 x18) (k0_pay12 x19) x20 x21

/-- The second result's block likewise. -/
def xr5Of (x1r : Vec F S400x128 .f32) (x1 : Vec F S400x10000 .f32) (xs2 : Vec F S10000x64 .bf16) (x6 : Vec F S1x64 .f32)
    (x22 : Vec F S128x256 .f32) (x23 : Vec F S64x256 .f32) (x24 : Vec F S1x256 .f32) (x25 : Vec F S256x128 .f32) (x26 : Vec F S1x128 .f32)
    (x27 : Vec F S128x128 .f32) (x28 : Vec F S1x128 .f32) : FVec F S400x128 .f32 :=
  k0_pay4 (k0_pay14 x1r (k0_pay5 x1 xs2 x6) x22 x23) x24 x25 x26 x27 x28

/-- The offsets `(0, 0)` are the zero offsets. -/
theorem hz2 : (![0, 0] : Fin 2 → ℕ) = fun _ => 0 := by
  funext a; match a with | ⟨0, _⟩ => rfl | ⟨1, _⟩ => rfl

/-! ## What a few stores leave in a buffer, read back -/

section ReadBack

variable {κ : Kind} {sp : Space}

/-- One store through the whole rectangle of a rank-2 buffer leaves its payload, whatever the buffer held. -/
theorem read_whole2 {r k : ℕ} {e : EltTy} (v : View sig κ sp (⟨2, ![r, k]⟩ : Shape) e) (f : v.ty.Contents (Elt F))
    (inb : ∀ a, (![0, 0] : Fin 2 → ℕ) a + (⟨2, ![r, k]⟩ : Shape).size a ≤ (⟨2, ![r, k]⟩ : Shape).size a)
    (w : (⟨2, ![r, k]⟩ : Shape).Idx → Elt F e) :
    v.read (Elt F) (v.writes (Elt F) f [(⟨Rect.unit (s := ⟨2, ![r, k]⟩) ![0, 0] (⟨2, ![r, k]⟩ : Shape).size inb, w⟩ : View.Piece (Elt F) (⟨2, ![r, k]⟩ : Shape) e)]) = w :=
  funext fun y => View.read_writes_cons_unit_of_mem v f inb w [] y y rfl fun a => by
    match a with
    | ⟨0, _⟩ => exact (Nat.zero_add _).symm
    | ⟨1, _⟩ => exact (Nat.zero_add _).symm

/-- The slab of `x1` stored into columns `0..128` and then the slab of `x2` into columns `128..192` of a 400 × 192 block
    leave `[x1-slab | x2-slab]`, whatever the block held. -/
theorem read_zn (v : View sig κ sp S400x192 .f32) (f : v.ty.Contents (Elt F))
    (inb0 : ∀ a, (![0, 0] : Fin 2 → ℕ) a + S400x128.size a ≤ S400x192.size a)
    (inb1 : ∀ a, (![0, 128] : Fin 2 → ℕ) a + S400x64.size a ≤ S400x192.size a)
    (x1r : Vec F S400x128 .f32) (x2b : FVec F S400x64 .f32) :
    v.read (Elt F) (v.writes (Elt F) f [(⟨Rect.unit (s := S400x192) ![0, 128] S400x64.size inb1, x2b⟩ : View.Piece (Elt F) S400x192 .f32),
      (⟨Rect.unit (s := S400x192) ![0, 0] S400x128.size inb0, x1r⟩ : View.Piece (Elt F) S400x192 .f32)]) = znOf x1r x2b := by
  funext y
  unfold znOf
  by_cases h : (y 1).val < 128
  · rw [dif_pos h]
    refine (View.read_writes_cons_unit_of_not_mem v f inb1 x2b _ y rfl (1 : Fin 2) (Or.inl h)).trans ?_
    exact View.read_writes_cons_unit_of_mem v f inb0 x1r [] y
      (ix2 (⟨(y 0).val, idx2_lt0 y⟩ : Fin 400) (⟨(y 1).val, h⟩ : Fin 128)) rfl fun a => by
        match a with
        | ⟨0, _⟩ => exact (Nat.zero_add _).symm
        | ⟨1, _⟩ => exact (Nat.zero_add _).symm
  · rw [dif_neg h]
    exact View.read_writes_cons_unit_of_mem v f inb1 x2b _ y
      (ix2 (⟨(y 0).val, idx2_lt0 y⟩ : Fin 400) (⟨(y 1).val - 128, by have := idx2_lt1 y; omega⟩ : Fin 64)) rfl fun a => by
        match a with
        | ⟨0, _⟩ => exact (Nat.zero_add _).symm
        | ⟨1, _⟩ => show (y 1).val = 128 + ((y 1).val - 128); omega

/-- A slab store at row `o` into the buffer of `x1` held at `xs` leaves `xs` with that slab replaced. -/
theorem upd_of_store (v : View sig κ sp S10000x128 .f32) (f : v.ty.Contents (Elt F)) (xs : Vec F S10000x128 .f32)
    (hf : v.read (Elt F) f = xs) (off : Fin 2 → ℕ) (o : ℕ) (ho : o + 400 ≤ 10000) (hoff : off = ![o, 0])
    (inb : ∀ a, off a + S400x128.size a ≤ S10000x128.size a) (w : FVec F S400x128 .f32) :
    Upd o ho w xs (v.read (Elt F) (v.writes (Elt F) f [(⟨Rect.unit (s := S10000x128) off S400x128.size inb, w⟩ : View.Piece (Elt F) S10000x128 .f32)])) := by
  refine ⟨fun y => ?_, fun y hy => ?_⟩
  · exact View.read_writes_cons_rows_of_mem v f inb w [] (rowAt o ho y) y hoff rfl rfl
  · exact (View.read_writes_cons_rows_of_not_mem v f inb w [] y hoff rfl hy).trans (congrFun hf y)

/-- A load of the slab at row `o` reads those rows. -/
theorem ld_rows (off : Fin 2 → ℕ) (o : ℕ) (ho : o + 400 ≤ 10000) (hoff : off = ![o, 0])
    (inb : ∀ a, off a + S400x128.size a ≤ S10000x128.size a) (xs : Vec F S10000x128 .f32) :
    View.ld xs (Rect.unit (s := S10000x128) off S400x128.size inb) = rowsOf o ho xs := by
  subst hoff
  funext y
  show xs ((Rect.unit (s := S10000x128) ![o, 0] S400x128.size inb).emb y) = xs (rowAt o ho y)
  refine congrArg xs (funext fun a => Fin.ext ?_)
  match a with
  | ⟨0, _⟩ => show o + 1 * (y 0).val = o + (y 0).val; omega
  | ⟨1, _⟩ => show 0 + 1 * (y 1).val = (y 1).val; omega

end ReadBack

end Cert.KernelIdeal.Hand

end
-- ==== Proof.BodyRunA.lean ====
/-
  One run of the kernel body in each of the four cases a grid point can be in, at any float instance: from the buffers
  the body loads held at given contents, the body runs to its end without a fault and leaves every buffer it only
  loads as it was and every buffer it stores into at the stored values — named through the body's payload terms.
-/
import proofs.«162148_g73521250173546_cont_sun_c4_545_9_alg».proof.Proof.Gen.KernelIdeal.Launch
import proofs.«162148_g73521250173546_cont_sun_c4_545_9_alg».proof.Proof.Gen.KernelIdeal.Skeleton
import proofs.«162148_g73521250173546_cont_sun_c4_545_9_alg».proof.Proof.Gen.KernelIdeal.Points
import proofs.«162148_g73521250173546_cont_sun_c4_545_9_alg».proof.Proof.Gen.KernelIdeal.Frame
import proofs.«162148_g73521250173546_cont_sun_c4_545_9_alg».proof.Proof.FrameCommon
import proofs.«162148_g73521250173546_cont_sun_c4_545_9_alg».proof.Proof.BodyVals
import Idealize.ShloMosaic.Lib.ValueIdx
import Idealize.ShloMosaic.Lib.WritesUnit
import Idealize.ShloMosaic.Lib.Pipeline.Value
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

set_option maxHeartbeats 16000000 in
/-- The first point: the body computes the first support from the blocks of `x` and `W1` and stores it whole, then
    stores the first slab of `x1` at row `o`; the operand blocks are as it found them. -/
theorem runA (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S128x256 .f32) (harg7 : arg7.IsWhole) (arg8 : Memref sig .tc .vmem S64x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S256x128 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S128x10 .f32) (harg20 : arg20.IsWhole) (arg21 : Memref sig .tc .vmem S1x10 .f32) (harg21 : arg21.IsWhole) (arg22 : Memref sig .tc .vmem S128x256 .f32) (harg22 : arg22.IsWhole) (arg23 : Memref sig .tc .vmem S64x256 .f32) (harg23 : arg23.IsWhole) (arg24 : Memref sig .tc .vmem S1x256 .f32) (harg24 : arg24.IsWhole) (arg25 : Memref sig .tc .vmem S256x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S400x10 .f32) (harg29 : arg29.IsWhole) (arg30 : Memref sig .tc .vmem S400x128 .f32) (harg30 : arg30.IsWhole) (arg31 : Memref sig .tc .vmem S400x192 .f32) (harg31 : arg31.IsWhole) (arg32 : Memref sig .tc .vmem S10000x128 .bf16) (harg32 : arg32.IsWhole) (arg33 : Memref sig .tc .vmem S10000x128 .f32) (harg33 : arg33.IsWhole) (arg34 : Memref sig .tc .vmem S10000x64 .bf16) (harg34 : arg34.IsWhole)
    (hc1 : cond1 i) (hc2 : cond2 i) (hc3 : ¬cond3 i) (hc4 : ¬cond4 i)
    (o : ℕ) (ho : o + 400 ≤ 10000) (hoff : k0_off1 i = ![o, 0])
    (x1 : Vec F S400x10000 .f32) (x2 : Vec F S10000x128 .f32) (x3 : Vec F S128x128 .f32) (x4 : Vec F S1x128 .f32) (xs1 : Vec F S10000x128 .f32)
    (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg32 fullShare d) ∗ owns (c : Thread nD τ) arg33 fullShare xs1
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg32 fullShare (k0_pay1 x2 x3)
            ∗ (∃ d, ⌜Upd o ho (k0_pay2 x1 (k0_pay1 x2 x3) x4) xs1 d⌝ ∗ owns (c : Thread nD τ) arg33 fullShare d)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34) K := by
  simp only [cc0__body_eq_skeleton]; unfold cc0__body_skel
  unfold owns
  iintro ⟨⟨%f1, %hf1, H1⟩, ⟨%f2, %hf2, H2⟩, ⟨%f3, %hf3, H3⟩, ⟨%f4, %hf4, H4⟩, ⟨%d32, %f32, %hf32, H32⟩, ⟨%f33, %hf33, H33⟩, Hk⟩
  obtain rfl := harg1.eq_unread hf1; obtain rfl := harg2.eq_unread hf2; obtain rfl := harg3.eq_unread hf3; obtain rfl := harg4.eq_unread hf4; obtain rfl := harg32.eq_unread hf32; obtain rfl := harg33.eq_unread hf33
  sl_exec (disch := first | exact hc1 | exact hc2 | exact hc3 | exact hc4)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H32]
  · iexists _; isplitr
    swap; · iexact H32
    ipureintro
    sl_unfold_run_names
    rw [read_whole2]
    simp only [View.readAt_eq_ld, Memref.IsWhole.read_unread, View.ld_unit_zero (S := S10000x128) hz2, View.ld_unit_zero (S := S128x128) hz2]
  iexists _; isplitr
  swap
  · iexists _; isplitr
    swap; · iexact H33
    ipureintro; rfl
  ipureintro
  sl_unfold_run_names
  simp only [View.readAt_eq_ld, Memref.IsWhole.read_unread, View.ld_unit_zero (S := S400x10000) hz2, View.ld_unit_zero (S := S10000x128) hz2, View.ld_unit_zero (S := S128x128) hz2, View.ld_unit_zero (S := S1x128) hz2, View.readCov_unit_zero (S := S10000x128) _ hz2]
  exact upd_of_store _ _ xs1 (harg33.read_unread xs1) _ o ho hoff _ _

end Cert.KernelIdeal.Hand

end
-- ==== Proof.BodyRunB.lean ====
/-
  One run of the kernel body in each of the four cases a grid point can be in, at any float instance: from the buffers
  the body loads held at given contents, the body runs to its end without a fault and leaves every buffer it only
  loads as it was and every buffer it stores into at the stored values — named through the body's payload terms.
-/
import proofs.«162148_g73521250173546_cont_sun_c4_545_9_alg».proof.Proof.Gen.KernelIdeal.Launch
import proofs.«162148_g73521250173546_cont_sun_c4_545_9_alg».proof.Proof.Gen.KernelIdeal.Skeleton
import proofs.«162148_g73521250173546_cont_sun_c4_545_9_alg».proof.Proof.Gen.KernelIdeal.Points
import proofs.«162148_g73521250173546_cont_sun_c4_545_9_alg».proof.Proof.Gen.KernelIdeal.Frame
import proofs.«162148_g73521250173546_cont_sun_c4_545_9_alg».proof.Proof.FrameCommon
import proofs.«162148_g73521250173546_cont_sun_c4_545_9_alg».proof.Proof.BodyVals
import Idealize.ShloMosaic.Lib.ValueIdx
import Idealize.ShloMosaic.Lib.WritesUnit
import Idealize.ShloMosaic.Lib.Pipeline.Value
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

set_option maxHeartbeats 4000000 in
/-- A later point of the first sweep: the body stores one more slab of `x1` at row `o`, computed from the adjacency tile,
    the first support and the bias; the operand blocks and the support are as it found them. -/
theorem runB (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S128x256 .f32) (harg7 : arg7.IsWhole) (arg8 : Memref sig .tc .vmem S64x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S256x128 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S128x10 .f32) (harg20 : arg20.IsWhole) (arg21 : Memref sig .tc .vmem S1x10 .f32) (harg21 : arg21.IsWhole) (arg22 : Memref sig .tc .vmem S128x256 .f32) (harg22 : arg22.IsWhole) (arg23 : Memref sig .tc .vmem S64x256 .f32) (harg23 : arg23.IsWhole) (arg24 : Memref sig .tc .vmem S1x256 .f32) (harg24 : arg24.IsWhole) (arg25 : Memref sig .tc .vmem S256x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S400x10 .f32) (harg29 : arg29.IsWhole) (arg30 : Memref sig .tc .vmem S400x128 .f32) (harg30 : arg30.IsWhole) (arg31 : Memref sig .tc .vmem S400x192 .f32) (harg31 : arg31.IsWhole) (arg32 : Memref sig .tc .vmem S10000x128 .bf16) (harg32 : arg32.IsWhole) (arg33 : Memref sig .tc .vmem S10000x128 .f32) (harg33 : arg33.IsWhole) (arg34 : Memref sig .tc .vmem S10000x64 .bf16) (harg34 : arg34.IsWhole)
    (hc1 : ¬cond1 i) (hc2 : cond2 i) (hc3 : ¬cond3 i) (hc4 : ¬cond4 i)
    (o : ℕ) (ho : o + 400 ≤ 10000) (hoff : k0_off1 i = ![o, 0])
    (x1 : Vec F S400x10000 .f32) (x4 : Vec F S1x128 .f32) (xs0 : Vec F S10000x128 .bf16) (xs1 : Vec F S10000x128 .f32)
    (E : Set ℕ) (K : PUnit → sProp 𝕄) :
    iprop(owns (c : Thread nD τ) arg1 fullShare x1 ∗ owns (c : Thread nD τ) arg4 fullShare x4 ∗ owns (c : Thread nD τ) arg32 fullShare xs0 ∗ owns (c : Thread nD τ) arg33 fullShare xs1
        ∗ (iprop(owns (c : Thread nD τ) arg1 fullShare x1 ∗ owns (c : Thread nD τ) arg4 fullShare x4 ∗ owns (c : Thread nD τ) arg32 fullShare xs0
            ∗ (∃ d, ⌜Upd o ho (k0_pay2 x1 xs0 x4) xs1 d⌝ ∗ owns (c : Thread nD τ) arg33 fullShare d)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34) K := by
  simp only [cc0__body_eq_skeleton]; unfold cc0__body_skel
  unfold owns
  iintro ⟨⟨%f1, %hf1, H1⟩, ⟨%f4, %hf4, H4⟩, ⟨%f32, %hf32, H32⟩, ⟨%f33, %hf33, H33⟩, Hk⟩
  obtain rfl := harg1.eq_unread hf1; obtain rfl := harg4.eq_unread hf4; obtain rfl := harg32.eq_unread hf32; obtain rfl := harg33.eq_unread hf33
  sl_exec (disch := first | exact hc1 | exact hc2 | exact hc3 | exact hc4)
  sl_step
  iapply Hk
  isplitl [H1]
  · iexists _; isplitr; · ipureintro; exact harg1.read_unread _
    iexact H1
  isplitl [H4]
  · iexists _; isplitr; · ipureintro; exact harg4.read_unread _
    iexact H4
  isplitl [H32]
  · iexists _; isplitr; · ipureintro; exact harg32.read_unread _
    iexact H32
  iexists _; isplitr
  swap
  · iexists _; isplitr
    swap; · iexact H33
    ipureintro; rfl
  ipureintro
  simp only [View.readAt_eq_ld, Memref.IsWhole.read_unread, View.ld_unit_zero (S := S400x10000) hz2, View.ld_unit_zero (S := S10000x128) hz2, View.ld_unit_zero (S := S1x128) hz2]
  exact upd_of_store _ _ xs1 (harg33.read_unread xs1) _ o ho hoff _ _

end Cert.KernelIdeal.Hand

end
-- ==== Proof.BodyRunC.lean ====
/-
  One run of the kernel body in each of the four cases a grid point can be in, at any float instance: from the buffers
  the body loads held at given contents, the body runs to its end without a fault and leaves every buffer it only
  loads as it was and every buffer it stores into at the stored values — named through the body's payload terms.
-/
import proofs.«162148_g73521250173546_cont_sun_c4_545_9_alg».proof.Proof.Gen.KernelIdeal.Launch
import proofs.«162148_g73521250173546_cont_sun_c4_545_9_alg».proof.Proof.Gen.KernelIdeal.Skeleton
import proofs.«162148_g73521250173546_cont_sun_c4_545_9_alg».proof.Proof.Gen.KernelIdeal.Points
import proofs.«162148_g73521250173546_cont_sun_c4_545_9_alg».proof.Proof.Gen.KernelIdeal.Frame
import proofs.«162148_g73521250173546_cont_sun_c4_545_9_alg».proof.Proof.FrameCommon
import proofs.«162148_g73521250173546_cont_sun_c4_545_9_alg».proof.Proof.BodyVals
import Idealize.ShloMosaic.Lib.ValueIdx
import Idealize.ShloMosaic.Lib.WritesUnit
import Idealize.ShloMosaic.Lib.Pipeline.Value
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

set_option maxHeartbeats 16000000 in
/-- The first point of the second sweep: the body computes the second support from the whole of `x1`, then reads the slab of `x1` at row `o`, computes the slab
    of `x2` and both heads, and stores the three result blocks; the operand blocks and `x1` are as it found them. -/
theorem runC (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S128x256 .f32) (harg7 : arg7.IsWhole) (arg8 : Memref sig .tc .vmem S64x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S256x128 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S128x10 .f32) (harg20 : arg20.IsWhole) (arg21 : Memref sig .tc .vmem S1x10 .f32) (harg21 : arg21.IsWhole) (arg22 : Memref sig .tc .vmem S128x256 .f32) (harg22 : arg22.IsWhole) (arg23 : Memref sig .tc .vmem S64x256 .f32) (harg23 : arg23.IsWhole) (arg24 : Memref sig .tc .vmem S1x256 .f32) (harg24 : arg24.IsWhole) (arg25 : Memref sig .tc .vmem S256x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S400x10 .f32) (harg29 : arg29.IsWhole) (arg30 : Memref sig .tc .vmem S400x128 .f32) (harg30 : arg30.IsWhole) (arg31 : Memref sig .tc .vmem S400x192 .f32) (harg31 : arg31.IsWhole) (arg32 : Memref sig .tc .vmem S10000x128 .bf16) (harg32 : arg32.IsWhole) (arg33 : Memref sig .tc .vmem S10000x128 .f32) (harg33 : arg33.IsWhole) (arg34 : Memref sig .tc .vmem S10000x64 .bf16) (harg34 : arg34.IsWhole)
    (hc1 : ¬cond1 i) (hc2 : ¬cond2 i) (hc3 : cond3 i) (hc4 : cond4 i)
    (o : ℕ) (ho : o + 400 ≤ 10000) (hoff : k0_off2 i = ![o, 0])
    (x1 : Vec F S400x10000 .f32) (x5 : Vec F S128x64 .f32) (x6 : Vec F S1x64 .f32) (x7 : Vec F S128x256 .f32) (x8 : Vec F S64x256 .f32) (x9 : Vec F S1x256 .f32) (x10 : Vec F S1x256 .f32) (x11 : Vec F S1x256 .f32) (x12 : Vec F S1x256 .f32) (x13 : Vec F S1x256 .f32) (x14 : Vec F S256x128 .f32) (x15 : Vec F S1x128 .f32) (x16 : Vec F S1x128 .f32) (x17 : Vec F S1x128 .f32) (x18 : Vec F S1x128 .f32) (x19 : Vec F S1x128 .f32) (x20 : Vec F S128x10 .f32) (x21 : Vec F S1x10 .f32) (x22 : Vec F S128x256 .f32) (x23 : Vec F S64x256 .f32) (x24 : Vec F S1x256 .f32) (x25 : Vec F S256x128 .f32) (x26 : Vec F S1x128 .f32) (x27 : Vec F S128x128 .f32) (x28 : Vec F S1x128 .f32) (x29 : Vec F S400x10 .f32) (x30 : Vec F S400x128 .f32) (x31 : Vec F S400x192 .f32)
    (xs1 : Vec F S10000x128 .f32) (xj : Vec F S10000x64 .bf16)
    (E : Set ℕ) (K : PUnit → sProp 𝕄) :
    iprop(owns (c : Thread nD τ) arg1 fullShare x1 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg30 fullShare x30 ∗ owns (c : Thread nD τ) arg31 fullShare x31 ∗ owns (c : Thread nD τ) arg33 fullShare xs1 ∗ owns (c : Thread nD τ) arg34 fullShare xj
        ∗ (iprop(owns (c : Thread nD τ) arg1 fullShare x1 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28
            ∗ owns (c : Thread nD τ) arg29 fullShare (xc5Of (rowsOf o ho xs1) x1 (k0_pay3 xs1 x5) x6 x7 x8 x9 x10 x11 x12 x13 x14 x15 x16 x17 x18 x19 x20 x21)
            ∗ owns (c : Thread nD τ) arg30 fullShare (xr5Of (rowsOf o ho xs1) x1 (k0_pay3 xs1 x5) x6 x22 x23 x24 x25 x26 x27 x28)
            ∗ owns (c : Thread nD τ) arg31 fullShare (znOf (rowsOf o ho xs1) (k0_pay5 x1 (k0_pay3 xs1 x5) x6))
            ∗ owns (c : Thread nD τ) arg33 fullShare xs1 ∗ owns (c : Thread nD τ) arg34 fullShare (k0_pay3 xs1 x5)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34) K := by
  simp only [cc0__body_eq_skeleton]; unfold cc0__body_skel
  unfold owns
  iintro ⟨⟨%f1, %hf1, H1⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f33, %hf33, H33⟩, ⟨%f34, %hf34, H34⟩, Hk⟩
  obtain rfl := harg1.eq_unread hf1; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg23.eq_unread hf23; obtain rfl := harg24.eq_unread hf24; obtain rfl := harg25.eq_unread hf25; obtain rfl := harg26.eq_unread hf26; obtain rfl := harg27.eq_unread hf27; obtain rfl := harg28.eq_unread hf28; obtain rfl := harg29.eq_unread hf29; obtain rfl := harg30.eq_unread hf30; obtain rfl := harg31.eq_unread hf31; obtain rfl := harg33.eq_unread hf33; obtain rfl := harg34.eq_unread hf34
  sl_exec (disch := first | exact hc1 | exact hc2 | exact hc3 | exact hc4)
  sl_step
  iapply Hk
  isplitl [H1]
  · iexists _; isplitr; · ipureintro; exact harg1.read_unread _
    iexact H1
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H17]
  · iexists _; isplitr; · ipureintro; exact harg17.read_unread _
    iexact H17
  isplitl [H18]
  · iexists _; isplitr; · ipureintro; exact harg18.read_unread _
    iexact H18
  isplitl [H19]
  · iexists _; isplitr; · ipureintro; exact harg19.read_unread _
    iexact H19
  isplitl [H20]
  · iexists _; isplitr; · ipureintro; exact harg20.read_unread _
    iexact H20
  isplitl [H21]
  · iexists _; isplitr; · ipureintro; exact harg21.read_unread _
    iexact H21
  isplitl [H22]
  · iexists _; isplitr; · ipureintro; exact harg22.read_unread _
    iexact H22
  isplitl [H23]
  · iexists _; isplitr; · ipureintro; exact harg23.read_unread _
    iexact H23
  isplitl [H24]
  · iexists _; isplitr; · ipureintro; exact harg24.read_unread _
    iexact H24
  isplitl [H25]
  · iexists _; isplitr; · ipureintro; exact harg25.read_unread _
    iexact H25
  isplitl [H26]
  · iexists _; isplitr; · ipureintro; exact harg26.read_unread _
    iexact H26
  isplitl [H27]
  · iexists _; isplitr; · ipureintro; exact harg27.read_unread _
    iexact H27
  isplitl [H28]
  · iexists _; isplitr; · ipureintro; exact harg28.read_unread _
    iexact H28
  isplitl [H29]
  · iexists _; isplitr
    swap; · iexact H29
    ipureintro
    rw [read_whole2]
    sl_unfold_run_names
    simp only [View.readAt_eq_ld, Memref.IsWhole.read_unread, View.ld_unit_zero (S := S400x10000) hz2, View.ld_unit_zero (S := S10000x128) hz2, View.ld_unit_zero (S := S128x64) hz2, View.ld_unit_zero (S := S1x64) hz2, View.ld_unit_zero (S := S128x256) hz2, View.ld_unit_zero (S := S64x256) hz2, View.ld_unit_zero (S := S1x256) hz2, View.ld_unit_zero (S := S256x128) hz2, View.ld_unit_zero (S := S1x128) hz2, View.ld_unit_zero (S := S128x10) hz2, View.ld_unit_zero (S := S1x10) hz2, View.ld_unit_zero (S := S128x128) hz2, View.ld_unit_zero (S := S10000x64) hz2, ld_rows _ o ho hoff, View.readCov_unit_zero (S := S10000x64) _ hz2]
    rfl
  isplitl [H30]
  · iexists _; isplitr
    swap; · iexact H30
    ipureintro
    rw [read_whole2]
    sl_unfold_run_names
    simp only [View.readAt_eq_ld, Memref.IsWhole.read_unread, View.ld_unit_zero (S := S400x10000) hz2, View.ld_unit_zero (S := S10000x128) hz2, View.ld_unit_zero (S := S128x64) hz2, View.ld_unit_zero (S := S1x64) hz2, View.ld_unit_zero (S := S128x256) hz2, View.ld_unit_zero (S := S64x256) hz2, View.ld_unit_zero (S := S1x256) hz2, View.ld_unit_zero (S := S256x128) hz2, View.ld_unit_zero (S := S1x128) hz2, View.ld_unit_zero (S := S128x10) hz2, View.ld_unit_zero (S := S1x10) hz2, View.ld_unit_zero (S := S128x128) hz2, View.ld_unit_zero (S := S10000x64) hz2, ld_rows _ o ho hoff, View.readCov_unit_zero (S := S10000x64) _ hz2]
    rfl
  isplitl [H31]
  · iexists _; isplitr
    swap; · iexact H31
    ipureintro
    rw [read_zn]
    sl_unfold_run_names
    simp only [View.readAt_eq_ld, Memref.IsWhole.read_unread, View.ld_unit_zero (S := S400x10000) hz2, View.ld_unit_zero (S := S10000x128) hz2, View.ld_unit_zero (S := S128x64) hz2, View.ld_unit_zero (S := S1x64) hz2, View.ld_unit_zero (S := S128x256) hz2, View.ld_unit_zero (S := S64x256) hz2, View.ld_unit_zero (S := S1x256) hz2, View.ld_unit_zero (S := S256x128) hz2, View.ld_unit_zero (S := S1x128) hz2, View.ld_unit_zero (S := S128x10) hz2, View.ld_unit_zero (S := S1x10) hz2, View.ld_unit_zero (S := S128x128) hz2, View.ld_unit_zero (S := S10000x64) hz2, ld_rows _ o ho hoff, View.readCov_unit_zero (S := S10000x64) _ hz2]
  isplitl [H33]
  · iexists _; isplitr; · ipureintro; exact harg33.read_unread _
    iexact H33
  iexists _; isplitr
  swap; · iexact H34
  ipureintro
  sl_unfold_run_names
  rw [read_whole2]
  simp only [View.readAt_eq_ld, Memref.IsWhole.read_unread, View.ld_unit_zero (S := S10000x128) hz2, View.ld_unit_zero (S := S128x64) hz2]

end Cert.KernelIdeal.Hand

end
-- ==== Proof.BodyRunD.lean ====
/-
  One run of the kernel body in each of the four cases a grid point can be in, at any float instance: from the buffers
  the body loads held at given contents, the body runs to its end without a fault and leaves every buffer it only
  loads as it was and every buffer it stores into at the stored values — named through the body's payload terms.
-/
import proofs.«162148_g73521250173546_cont_sun_c4_545_9_alg».proof.Proof.Gen.KernelIdeal.Launch
import proofs.«162148_g73521250173546_cont_sun_c4_545_9_alg».proof.Proof.Gen.KernelIdeal.Skeleton
import proofs.«162148_g73521250173546_cont_sun_c4_545_9_alg».proof.Proof.Gen.KernelIdeal.Points
import proofs.«162148_g73521250173546_cont_sun_c4_545_9_alg».proof.Proof.Gen.KernelIdeal.Frame
import proofs.«162148_g73521250173546_cont_sun_c4_545_9_alg».proof.Proof.FrameCommon
import proofs.«162148_g73521250173546_cont_sun_c4_545_9_alg».proof.Proof.BodyVals
import Idealize.ShloMosaic.Lib.ValueIdx
import Idealize.ShloMosaic.Lib.WritesUnit
import Idealize.ShloMosaic.Lib.Pipeline.Value
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

set_option maxHeartbeats 16000000 in
/-- A point of the second sweep after its first: the body reads the slab of `x1` at row `o`, computes the slab
    of `x2` and both heads, and stores the three result blocks; the operand blocks and `x1` are as it found them. -/
theorem runD (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S128x256 .f32) (harg7 : arg7.IsWhole) (arg8 : Memref sig .tc .vmem S64x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S256x128 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S128x10 .f32) (harg20 : arg20.IsWhole) (arg21 : Memref sig .tc .vmem S1x10 .f32) (harg21 : arg21.IsWhole) (arg22 : Memref sig .tc .vmem S128x256 .f32) (harg22 : arg22.IsWhole) (arg23 : Memref sig .tc .vmem S64x256 .f32) (harg23 : arg23.IsWhole) (arg24 : Memref sig .tc .vmem S1x256 .f32) (harg24 : arg24.IsWhole) (arg25 : Memref sig .tc .vmem S256x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S400x10 .f32) (harg29 : arg29.IsWhole) (arg30 : Memref sig .tc .vmem S400x128 .f32) (harg30 : arg30.IsWhole) (arg31 : Memref sig .tc .vmem S400x192 .f32) (harg31 : arg31.IsWhole) (arg32 : Memref sig .tc .vmem S10000x128 .bf16) (harg32 : arg32.IsWhole) (arg33 : Memref sig .tc .vmem S10000x128 .f32) (harg33 : arg33.IsWhole) (arg34 : Memref sig .tc .vmem S10000x64 .bf16) (harg34 : arg34.IsWhole)
    (hc1 : ¬cond1 i) (hc2 : ¬cond2 i) (hc3 : ¬cond3 i) (hc4 : cond4 i)
    (o : ℕ) (ho : o + 400 ≤ 10000) (hoff : k0_off2 i = ![o, 0])
    (x1 : Vec F S400x10000 .f32) (x6 : Vec F S1x64 .f32) (x7 : Vec F S128x256 .f32) (x8 : Vec F S64x256 .f32) (x9 : Vec F S1x256 .f32) (x10 : Vec F S1x256 .f32) (x11 : Vec F S1x256 .f32) (x12 : Vec F S1x256 .f32) (x13 : Vec F S1x256 .f32) (x14 : Vec F S256x128 .f32) (x15 : Vec F S1x128 .f32) (x16 : Vec F S1x128 .f32) (x17 : Vec F S1x128 .f32) (x18 : Vec F S1x128 .f32) (x19 : Vec F S1x128 .f32) (x20 : Vec F S128x10 .f32) (x21 : Vec F S1x10 .f32) (x22 : Vec F S128x256 .f32) (x23 : Vec F S64x256 .f32) (x24 : Vec F S1x256 .f32) (x25 : Vec F S256x128 .f32) (x26 : Vec F S1x128 .f32) (x27 : Vec F S128x128 .f32) (x28 : Vec F S1x128 .f32) (x29 : Vec F S400x10 .f32) (x30 : Vec F S400x128 .f32) (x31 : Vec F S400x192 .f32)
    (xs1 : Vec F S10000x128 .f32) (xs2 : Vec F S10000x64 .bf16)
    (E : Set ℕ) (K : PUnit → sProp 𝕄) :
    iprop(owns (c : Thread nD τ) arg1 fullShare x1 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg30 fullShare x30 ∗ owns (c : Thread nD τ) arg31 fullShare x31 ∗ owns (c : Thread nD τ) arg33 fullShare xs1 ∗ owns (c : Thread nD τ) arg34 fullShare xs2
        ∗ (iprop(owns (c : Thread nD τ) arg1 fullShare x1 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28
            ∗ owns (c : Thread nD τ) arg29 fullShare (xc5Of (rowsOf o ho xs1) x1 xs2 x6 x7 x8 x9 x10 x11 x12 x13 x14 x15 x16 x17 x18 x19 x20 x21)
            ∗ owns (c : Thread nD τ) arg30 fullShare (xr5Of (rowsOf o ho xs1) x1 xs2 x6 x22 x23 x24 x25 x26 x27 x28)
            ∗ owns (c : Thread nD τ) arg31 fullShare (znOf (rowsOf o ho xs1) (k0_pay5 x1 xs2 x6))
            ∗ owns (c : Thread nD τ) arg33 fullShare xs1 ∗ owns (c : Thread nD τ) arg34 fullShare xs2) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34) K := by
  simp only [cc0__body_eq_skeleton]; unfold cc0__body_skel
  unfold owns
  iintro ⟨⟨%f1, %hf1, H1⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f33, %hf33, H33⟩, ⟨%f34, %hf34, H34⟩, Hk⟩
  obtain rfl := harg1.eq_unread hf1; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg23.eq_unread hf23; obtain rfl := harg24.eq_unread hf24; obtain rfl := harg25.eq_unread hf25; obtain rfl := harg26.eq_unread hf26; obtain rfl := harg27.eq_unread hf27; obtain rfl := harg28.eq_unread hf28; obtain rfl := harg29.eq_unread hf29; obtain rfl := harg30.eq_unread hf30; obtain rfl := harg31.eq_unread hf31; obtain rfl := harg33.eq_unread hf33; obtain rfl := harg34.eq_unread hf34
  sl_exec (disch := first | exact hc1 | exact hc2 | exact hc3 | exact hc4)
  sl_step
  iapply Hk
  isplitl [H1]
  · iexists _; isplitr; · ipureintro; exact harg1.read_unread _
    iexact H1
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H17]
  · iexists _; isplitr; · ipureintro; exact harg17.read_unread _
    iexact H17
  isplitl [H18]
  · iexists _; isplitr; · ipureintro; exact harg18.read_unread _
    iexact H18
  isplitl [H19]
  · iexists _; isplitr; · ipureintro; exact harg19.read_unread _
    iexact H19
  isplitl [H20]
  · iexists _; isplitr; · ipureintro; exact harg20.read_unread _
    iexact H20
  isplitl [H21]
  · iexists _; isplitr; · ipureintro; exact harg21.read_unread _
    iexact H21
  isplitl [H22]
  · iexists _; isplitr; · ipureintro; exact harg22.read_unread _
    iexact H22
  isplitl [H23]
  · iexists _; isplitr; · ipureintro; exact harg23.read_unread _
    iexact H23
  isplitl [H24]
  · iexists _; isplitr; · ipureintro; exact harg24.read_unread _
    iexact H24
  isplitl [H25]
  · iexists _; isplitr; · ipureintro; exact harg25.read_unread _
    iexact H25
  isplitl [H26]
  · iexists _; isplitr; · ipureintro; exact harg26.read_unread _
    iexact H26
  isplitl [H27]
  · iexists _; isplitr; · ipureintro; exact harg27.read_unread _
    iexact H27
  isplitl [H28]
  · iexists _; isplitr; · ipureintro; exact harg28.read_unread _
    iexact H28
  isplitl [H29]
  · iexists _; isplitr
    swap; · iexact H29
    ipureintro
    rw [read_whole2]
    sl_unfold_run_names
    simp only [View.readAt_eq_ld, Memref.IsWhole.read_unread, View.ld_unit_zero (S := S400x10000) hz2, View.ld_unit_zero (S := S1x64) hz2, View.ld_unit_zero (S := S128x256) hz2, View.ld_unit_zero (S := S64x256) hz2, View.ld_unit_zero (S := S1x256) hz2, View.ld_unit_zero (S := S256x128) hz2, View.ld_unit_zero (S := S1x128) hz2, View.ld_unit_zero (S := S128x10) hz2, View.ld_unit_zero (S := S1x10) hz2, View.ld_unit_zero (S := S128x128) hz2, View.ld_unit_zero (S := S10000x64) hz2, ld_rows _ o ho hoff]
    rfl
  isplitl [H30]
  · iexists _; isplitr
    swap; · iexact H30
    ipureintro
    rw [read_whole2]
    sl_unfold_run_names
    simp only [View.readAt_eq_ld, Memref.IsWhole.read_unread, View.ld_unit_zero (S := S400x10000) hz2, View.ld_unit_zero (S := S1x64) hz2, View.ld_unit_zero (S := S128x256) hz2, View.ld_unit_zero (S := S64x256) hz2, View.ld_unit_zero (S := S1x256) hz2, View.ld_unit_zero (S := S256x128) hz2, View.ld_unit_zero (S := S1x128) hz2, View.ld_unit_zero (S := S128x10) hz2, View.ld_unit_zero (S := S1x10) hz2, View.ld_unit_zero (S := S128x128) hz2, View.ld_unit_zero (S := S10000x64) hz2, ld_rows _ o ho hoff]
    rfl
  isplitl [H31]
  · iexists _; isplitr
    swap; · iexact H31
    ipureintro
    rw [read_zn]
    sl_unfold_run_names
    simp only [View.readAt_eq_ld, Memref.IsWhole.read_unread, View.ld_unit_zero (S := S400x10000) hz2, View.ld_unit_zero (S := S1x64) hz2, View.ld_unit_zero (S := S128x256) hz2, View.ld_unit_zero (S := S64x256) hz2, View.ld_unit_zero (S := S1x256) hz2, View.ld_unit_zero (S := S256x128) hz2, View.ld_unit_zero (S := S1x128) hz2, View.ld_unit_zero (S := S128x10) hz2, View.ld_unit_zero (S := S1x10) hz2, View.ld_unit_zero (S := S128x128) hz2, View.ld_unit_zero (S := S10000x64) hz2, ld_rows _ o ho hoff]
  isplitl [H33]
  · iexists _; isplitr; · ipureintro; exact harg33.read_unread _
    iexact H33
  iexists _; isplitr; · ipureintro; exact harg34.read_unread _
  iexact H34

end Cert.KernelIdeal.Hand

end
-- ==== Proof.KFrame.lean ====
/-
  The frame of the kernel program: the pipeline's proof data for the one pallas_call and the body's obligation at every
  grid point. The three scratch buffers are carried from point to point: after point 0 the first holds the support `s1`;
  after point `n - 1` the second holds the right rows of `x1` on its first `400 n` rows (all of them from point 24 on);
  from point 25 on the third holds the support `s2`. Each point is one of four cases (the first point; the rest of the
  first sweep; the first point of the second sweep; the rest of it), and in each the body's run gives back the
  operand blocks as it found them, the scratch buffers at the next point's contents, and in the second sweep the three
  result blocks at their named values.
-/
import proofs.«162148_g73521250173546_cont_sun_c4_545_9_alg».proof.Proof.Gen.KernelIdeal.Launch
import proofs.«162148_g73521250173546_cont_sun_c4_545_9_alg».proof.Proof.Gen.KernelIdeal.Skeleton
import proofs.«162148_g73521250173546_cont_sun_c4_545_9_alg».proof.Proof.Gen.KernelIdeal.Points
import proofs.«162148_g73521250173546_cont_sun_c4_545_9_alg».proof.Proof.Gen.KernelIdeal.Frame
import proofs.«162148_g73521250173546_cont_sun_c4_545_9_alg».proof.Proof.FrameCommon
import proofs.«162148_g73521250173546_cont_sun_c4_545_9_alg».proof.Proof.FrameVals
import proofs.«162148_g73521250173546_cont_sun_c4_545_9_alg».proof.Proof.BodyVals
import proofs.«162148_g73521250173546_cont_sun_c4_545_9_alg».proof.Proof.BodyRunA
import proofs.«162148_g73521250173546_cont_sun_c4_545_9_alg».proof.Proof.BodyRunB
import proofs.«162148_g73521250173546_cont_sun_c4_545_9_alg».proof.Proof.BodyRunC
import proofs.«162148_g73521250173546_cont_sun_c4_545_9_alg».proof.Proof.BodyRunD
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## The staging memrefs at a point -/

abbrev ms0 (t : Fin cfg0.N) : Memref sig .tc .vmem S400x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x64 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S128x256 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S64x256 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x256 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x256 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x256 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x256 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S1x256 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S256x128 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S1x128 .f32 := win0_14.stage (cfg0.slots t 14)
abbrev hs14 (t : Fin cfg0.N) : (ms14 t).IsWhole := hstage0_14 ((cfg0.slots t 14).cast nbuf0_14)
abbrev ms15 (t : Fin cfg0.N) : Memref sig .tc .vmem S1x128 .f32 := win0_15.stage (cfg0.slots t 15)
abbrev hs15 (t : Fin cfg0.N) : (ms15 t).IsWhole := hstage0_15 ((cfg0.slots t 15).cast nbuf0_15)
abbrev ms16 (t : Fin cfg0.N) : Memref sig .tc .vmem S1x128 .f32 := win0_16.stage (cfg0.slots t 16)
abbrev hs16 (t : Fin cfg0.N) : (ms16 t).IsWhole := hstage0_16 ((cfg0.slots t 16).cast nbuf0_16)
abbrev ms17 (t : Fin cfg0.N) : Memref sig .tc .vmem S1x128 .f32 := win0_17.stage (cfg0.slots t 17)
abbrev hs17 (t : Fin cfg0.N) : (ms17 t).IsWhole := hstage0_17 ((cfg0.slots t 17).cast nbuf0_17)
abbrev ms18 (t : Fin cfg0.N) : Memref sig .tc .vmem S1x128 .f32 := win0_18.stage (cfg0.slots t 18)
abbrev hs18 (t : Fin cfg0.N) : (ms18 t).IsWhole := hstage0_18 ((cfg0.slots t 18).cast nbuf0_18)
abbrev ms19 (t : Fin cfg0.N) : Memref sig .tc .vmem S128x10 .f32 := win0_19.stage (cfg0.slots t 19)
abbrev hs19 (t : Fin cfg0.N) : (ms19 t).IsWhole := hstage0_19 ((cfg0.slots t 19).cast nbuf0_19)
abbrev ms20 (t : Fin cfg0.N) : Memref sig .tc .vmem S1x10 .f32 := win0_20.stage (cfg0.slots t 20)
abbrev hs20 (t : Fin cfg0.N) : (ms20 t).IsWhole := hstage0_20 ((cfg0.slots t 20).cast nbuf0_20)
abbrev ms21 (t : Fin cfg0.N) : Memref sig .tc .vmem S128x256 .f32 := win0_21.stage (cfg0.slots t 21)
abbrev hs21 (t : Fin cfg0.N) : (ms21 t).IsWhole := hstage0_21 ((cfg0.slots t 21).cast nbuf0_21)
abbrev ms22 (t : Fin cfg0.N) : Memref sig .tc .vmem S64x256 .f32 := win0_22.stage (cfg0.slots t 22)
abbrev hs22 (t : Fin cfg0.N) : (ms22 t).IsWhole := hstage0_22 ((cfg0.slots t 22).cast nbuf0_22)
abbrev ms23 (t : Fin cfg0.N) : Memref sig .tc .vmem S1x256 .f32 := win0_23.stage (cfg0.slots t 23)
abbrev hs23 (t : Fin cfg0.N) : (ms23 t).IsWhole := hstage0_23 ((cfg0.slots t 23).cast nbuf0_23)
abbrev ms24 (t : Fin cfg0.N) : Memref sig .tc .vmem S256x128 .f32 := win0_24.stage (cfg0.slots t 24)
abbrev hs24 (t : Fin cfg0.N) : (ms24 t).IsWhole := hstage0_24 ((cfg0.slots t 24).cast nbuf0_24)
abbrev ms25 (t : Fin cfg0.N) : Memref sig .tc .vmem S1x128 .f32 := win0_25.stage (cfg0.slots t 25)
abbrev hs25 (t : Fin cfg0.N) : (ms25 t).IsWhole := hstage0_25 ((cfg0.slots t 25).cast nbuf0_25)
abbrev ms26 (t : Fin cfg0.N) : Memref sig .tc .vmem S128x128 .f32 := win0_26.stage (cfg0.slots t 26)
abbrev hs26 (t : Fin cfg0.N) : (ms26 t).IsWhole := hstage0_26 ((cfg0.slots t 26).cast nbuf0_26)
abbrev ms27 (t : Fin cfg0.N) : Memref sig .tc .vmem S1x128 .f32 := win0_27.stage (cfg0.slots t 27)
abbrev hs27 (t : Fin cfg0.N) : (ms27 t).IsWhole := hstage0_27 ((cfg0.slots t 27).cast nbuf0_27)
abbrev ms28 (t : Fin cfg0.N) : Memref sig .tc .vmem S400x10 .f32 := win0_28.stage (cfg0.slots t 28)
abbrev hs28 (t : Fin cfg0.N) : (ms28 t).IsWhole := hstage0_28 ((cfg0.slots t 28).cast nbuf0_28)
abbrev ms29 (t : Fin cfg0.N) : Memref sig .tc .vmem S400x128 .f32 := win0_29.stage (cfg0.slots t 29)
abbrev hs29 (t : Fin cfg0.N) : (ms29 t).IsWhole := hstage0_29 ((cfg0.slots t 29).cast nbuf0_29)
abbrev ms30 (t : Fin cfg0.N) : Memref sig .tc .vmem S400x192 .f32 := win0_30.stage (cfg0.slots t 30)
abbrev hs30 (t : Fin cfg0.N) : (ms30 t).IsWhole := hstage0_30 ((cfg0.slots t 30).cast nbuf0_30)

/-! ## An operand window is never idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem liveAt4 : ∀ t : Fin cfg0.N, cfg0.idle 4 (grid0.coords t) = false := by decide +kernel
theorem liveAt5 : ∀ t : Fin cfg0.N, cfg0.idle 5 (grid0.coords t) = false := by decide +kernel
theorem liveAt6 : ∀ t : Fin cfg0.N, cfg0.idle 6 (grid0.coords t) = false := by decide +kernel
theorem liveAt7 : ∀ t : Fin cfg0.N, cfg0.idle 7 (grid0.coords t) = false := by decide +kernel
theorem liveAt8 : ∀ t : Fin cfg0.N, cfg0.idle 8 (grid0.coords t) = false := by decide +kernel
theorem liveAt9 : ∀ t : Fin cfg0.N, cfg0.idle 9 (grid0.coords t) = false := by decide +kernel
theorem liveAt10 : ∀ t : Fin cfg0.N, cfg0.idle 10 (grid0.coords t) = false := by decide +kernel
theorem liveAt11 : ∀ t : Fin cfg0.N, cfg0.idle 11 (grid0.coords t) = false := by decide +kernel
theorem liveAt12 : ∀ t : Fin cfg0.N, cfg0.idle 12 (grid0.coords t) = false := by decide +kernel
theorem liveAt13 : ∀ t : Fin cfg0.N, cfg0.idle 13 (grid0.coords t) = false := by decide +kernel
theorem liveAt14 : ∀ t : Fin cfg0.N, cfg0.idle 14 (grid0.coords t) = false := by decide +kernel
theorem liveAt15 : ∀ t : Fin cfg0.N, cfg0.idle 15 (grid0.coords t) = false := by decide +kernel
theorem liveAt16 : ∀ t : Fin cfg0.N, cfg0.idle 16 (grid0.coords t) = false := by decide +kernel
theorem liveAt17 : ∀ t : Fin cfg0.N, cfg0.idle 17 (grid0.coords t) = false := by decide +kernel
theorem liveAt18 : ∀ t : Fin cfg0.N, cfg0.idle 18 (grid0.coords t) = false := by decide +kernel
theorem liveAt19 : ∀ t : Fin cfg0.N, cfg0.idle 19 (grid0.coords t) = false := by decide +kernel
theorem liveAt20 : ∀ t : Fin cfg0.N, cfg0.idle 20 (grid0.coords t) = false := by decide +kernel
theorem liveAt21 : ∀ t : Fin cfg0.N, cfg0.idle 21 (grid0.coords t) = false := by decide +kernel
theorem liveAt22 : ∀ t : Fin cfg0.N, cfg0.idle 22 (grid0.coords t) = false := by decide +kernel
theorem liveAt23 : ∀ t : Fin cfg0.N, cfg0.idle 23 (grid0.coords t) = false := by decide +kernel
theorem liveAt24 : ∀ t : Fin cfg0.N, cfg0.idle 24 (grid0.coords t) = false := by decide +kernel
theorem liveAt25 : ∀ t : Fin cfg0.N, cfg0.idle 25 (grid0.coords t) = false := by decide +kernel
theorem liveAt26 : ∀ t : Fin cfg0.N, cfg0.idle 26 (grid0.coords t) = false := by decide +kernel
theorem liveAt27 : ∀ t : Fin cfg0.N, cfg0.idle 27 (grid0.coords t) = false := by decide +kernel

/-! ## What the second scratch buffer holds: the right rows of `x1` so far -/

/-- The first `400 n` rows of `d` are `x1`'s. -/
def X1ok (c : Dev nD) (n : ℕ) (d : Vec F S10000x128 .f32) : Prop :=
  ∀ y : S10000x128.Idx, (y 0).val < 400 * n → d y = X1v m c y

/-- The invariant before point `n`: at the launch the three scratch buffers hold anything; afterwards the first holds
    `s1`, the second `x1` on its first `400 n` rows, the third `s2` once point 25 has run. -/
def PhiS (c : Dev nD) : ℕ → sProp 𝕄
  | 0 => Pipeline.ΦA spec0 c
  | n + 1 => iprop(iprop(owns (c : Thread nD τ) scM0 fullShare (S1v m c)
        ∗ (∃ d, ⌜X1ok m c (n + 1) d⌝ ∗ owns (c : Thread nD τ) scM1 fullShare d)
        ∗ (∃ d, ⌜26 ≤ n + 1 → d = S2v m c⌝ ∗ owns (c : Thread nD τ) scM2 fullShare d)) ∗ (∃ r, prngReg c r))

theorem PhiS_succ (c : Dev nD) (n : ℕ) :
    PhiS m c (n + 1) = iprop(iprop(owns (c : Thread nD τ) scM0 fullShare (S1v m c)
        ∗ (∃ d, ⌜X1ok m c (n + 1) d⌝ ∗ owns (c : Thread nD τ) scM1 fullShare d)
        ∗ (∃ d, ⌜26 ≤ n + 1 → d = S2v m c⌝ ∗ owns (c : Thread nD τ) scM2 fullShare d)) ∗ (∃ r, prngReg c r)) := rfl

theorem PhiS_pos (c : Dev nD) (n : ℕ) (hn : n ≠ 0) :
    PhiS m c n = iprop(iprop(owns (c : Thread nD τ) scM0 fullShare (S1v m c)
        ∗ (∃ d, ⌜X1ok m c n d⌝ ∗ owns (c : Thread nD τ) scM1 fullShare d)
        ∗ (∃ d, ⌜26 ≤ n → d = S2v m c⌝ ∗ owns (c : Thread nD τ) scM2 fullShare d)) ∗ (∃ r, prngReg c r)) := by
  cases n with
  | zero => exact absurd rfl hn
  | succ n => rfl

/-! ## The pipeline's proof data -/

/-- The arrays as the region finds them; after the body each operand's buffer at its block, the results' at their named
    blocks; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => xc5blk m c t
    | ⟨29, _⟩ => xr5blk m c t
    | ⟨30, _⟩ => znblk m c t
    | ⟨_ + 31, h⟩ => absurd h (Nat.not_lt.2 (Nat.le_add_left _ _))
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem after16 (c : Dev nD) (t : Fin cfg0.N) : (dats m 0 c).after 16 t = iblk m c 16 t := by dsimp only [dats]
theorem after17 (c : Dev nD) (t : Fin cfg0.N) : (dats m 0 c).after 17 t = iblk m c 17 t := by dsimp only [dats]
theorem after18 (c : Dev nD) (t : Fin cfg0.N) : (dats m 0 c).after 18 t = iblk m c 18 t := by dsimp only [dats]
theorem after19 (c : Dev nD) (t : Fin cfg0.N) : (dats m 0 c).after 19 t = iblk m c 19 t := by dsimp only [dats]
theorem after20 (c : Dev nD) (t : Fin cfg0.N) : (dats m 0 c).after 20 t = iblk m c 20 t := by dsimp only [dats]
theorem after21 (c : Dev nD) (t : Fin cfg0.N) : (dats m 0 c).after 21 t = iblk m c 21 t := by dsimp only [dats]
theorem after22 (c : Dev nD) (t : Fin cfg0.N) : (dats m 0 c).after 22 t = iblk m c 22 t := by dsimp only [dats]
theorem after23 (c : Dev nD) (t : Fin cfg0.N) : (dats m 0 c).after 23 t = iblk m c 23 t := by dsimp only [dats]
theorem after24 (c : Dev nD) (t : Fin cfg0.N) : (dats m 0 c).after 24 t = iblk m c 24 t := by dsimp only [dats]
theorem after25 (c : Dev nD) (t : Fin cfg0.N) : (dats m 0 c).after 25 t = iblk m c 25 t := by dsimp only [dats]
theorem after26 (c : Dev nD) (t : Fin cfg0.N) : (dats m 0 c).after 26 t = iblk m c 26 t := by dsimp only [dats]
theorem after27 (c : Dev nD) (t : Fin cfg0.N) : (dats m 0 c).after 27 t = iblk m c 27 t := by dsimp only [dats]
theorem after28 (c : Dev nD) (t : Fin cfg0.N) : (dats m 0 c).after 28 t = xc5blk m c t := by dsimp only [dats]
theorem after29 (c : Dev nD) (t : Fin cfg0.N) : (dats m 0 c).after 29 t = xr5blk m c t := by dsimp only [dats]
theorem after30 (c : Dev nD) (t : Fin cfg0.N) : (dats m 0 c).after 30 t = znblk m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d
theorem before13 (c : Dev nD) (t : Fin cfg0.N) (d) : (dats m 0 c).before 13 t d = iblk m c 13 t :=
  before0_13_of m (dats m 0 c) (A_eq m c 13) (after13 m c) t d
theorem before14 (c : Dev nD) (t : Fin cfg0.N) (d) : (dats m 0 c).before 14 t d = iblk m c 14 t :=
  before0_14_of m (dats m 0 c) (A_eq m c 14) (after14 m c) t d
theorem before15 (c : Dev nD) (t : Fin cfg0.N) (d) : (dats m 0 c).before 15 t d = iblk m c 15 t :=
  before0_15_of m (dats m 0 c) (A_eq m c 15) (after15 m c) t d
theorem before16 (c : Dev nD) (t : Fin cfg0.N) (d) : (dats m 0 c).before 16 t d = iblk m c 16 t :=
  before0_16_of m (dats m 0 c) (A_eq m c 16) (after16 m c) t d
theorem before17 (c : Dev nD) (t : Fin cfg0.N) (d) : (dats m 0 c).before 17 t d = iblk m c 17 t :=
  before0_17_of m (dats m 0 c) (A_eq m c 17) (after17 m c) t d
theorem before18 (c : Dev nD) (t : Fin cfg0.N) (d) : (dats m 0 c).before 18 t d = iblk m c 18 t :=
  before0_18_of m (dats m 0 c) (A_eq m c 18) (after18 m c) t d
theorem before19 (c : Dev nD) (t : Fin cfg0.N) (d) : (dats m 0 c).before 19 t d = iblk m c 19 t :=
  before0_19_of m (dats m 0 c) (A_eq m c 19) (after19 m c) t d
theorem before20 (c : Dev nD) (t : Fin cfg0.N) (d) : (dats m 0 c).before 20 t d = iblk m c 20 t :=
  before0_20_of m (dats m 0 c) (A_eq m c 20) (after20 m c) t d
theorem before21 (c : Dev nD) (t : Fin cfg0.N) (d) : (dats m 0 c).before 21 t d = iblk m c 21 t :=
  before0_21_of m (dats m 0 c) (A_eq m c 21) (after21 m c) t d
theorem before22 (c : Dev nD) (t : Fin cfg0.N) (d) : (dats m 0 c).before 22 t d = iblk m c 22 t :=
  before0_22_of m (dats m 0 c) (A_eq m c 22) (after22 m c) t d
theorem before23 (c : Dev nD) (t : Fin cfg0.N) (d) : (dats m 0 c).before 23 t d = iblk m c 23 t :=
  before0_23_of m (dats m 0 c) (A_eq m c 23) (after23 m c) t d
theorem before24 (c : Dev nD) (t : Fin cfg0.N) (d) : (dats m 0 c).before 24 t d = iblk m c 24 t :=
  before0_24_of m (dats m 0 c) (A_eq m c 24) (after24 m c) t d
theorem before25 (c : Dev nD) (t : Fin cfg0.N) (d) : (dats m 0 c).before 25 t d = iblk m c 25 t :=
  before0_25_of m (dats m 0 c) (A_eq m c 25) (after25 m c) t d
theorem before26 (c : Dev nD) (t : Fin cfg0.N) (d) : (dats m 0 c).before 26 t d = iblk m c 26 t :=
  before0_26_of m (dats m 0 c) (A_eq m c 26) (after26 m c) t d
theorem before27 (c : Dev nD) (t : Fin cfg0.N) (d) : (dats m 0 c).before 27 t d = iblk m c 27 t :=
  before0_27_of m (dats m 0 c) (A_eq m c 27) (after27 m c) t d

theorem Phi_castSucc (c : Dev nD) (t : Fin cfg0.N) : (dats m 0 c).Φ t.castSucc = PhiS m c t.val := by
  dsimp only [dats]; simp only [Fin.coe_castSucc]

/-! ## The body obligation at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d))
    ∗ (∃ d, owns (c : Thread nD τ) (ms16 t) fullShare ((dats m 0 c).before 16 t d))
    ∗ (∃ d, owns (c : Thread nD τ) (ms17 t) fullShare ((dats m 0 c).before 17 t d))
    ∗ (∃ d, owns (c : Thread nD τ) (ms18 t) fullShare ((dats m 0 c).before 18 t d))
    ∗ (∃ d, owns (c : Thread nD τ) (ms19 t) fullShare ((dats m 0 c).before 19 t d))
    ∗ (∃ d, owns (c : Thread nD τ) (ms20 t) fullShare ((dats m 0 c).before 20 t d))
    ∗ (∃ d, owns (c : Thread nD τ) (ms21 t) fullShare ((dats m 0 c).before 21 t d))
    ∗ (∃ d, owns (c : Thread nD τ) (ms22 t) fullShare ((dats m 0 c).before 22 t d))
    ∗ (∃ d, owns (c : Thread nD τ) (ms23 t) fullShare ((dats m 0 c).before 23 t d))
    ∗ (∃ d, owns (c : Thread nD τ) (ms24 t) fullShare ((dats m 0 c).before 24 t d))
    ∗ (∃ d, owns (c : Thread nD τ) (ms25 t) fullShare ((dats m 0 c).before 25 t d))
    ∗ (∃ d, owns (c : Thread nD τ) (ms26 t) fullShare ((dats m 0 c).before 26 t d))
    ∗ (∃ d, owns (c : Thread nD τ) (ms27 t) fullShare ((dats m 0 c).before 27 t d))
    ∗ (∃ d, owns (c : Thread nD τ) (ms28 t) fullShare ((dats m 0 c).before 28 t d))
    ∗ (∃ d, owns (c : Thread nD τ) (ms29 t) fullShare ((dats m 0 c).before 29 t d))
    ∗ (∃ d, owns (c : Thread nD τ) (ms30 t) fullShare ((dats m 0 c).before 30 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t
    ∗ (dats m 0 c).leavesExact 24 t
    ∗ (dats m 0 c).leavesExact 25 t
    ∗ (dats m 0 c).leavesExact 26 t
    ∗ (dats m 0 c).leavesExact 27 t
    ∗ (dats m 0 c).leavesExact 28 t
    ∗ (dats m 0 c).leavesExact 29 t
    ∗ (dats m 0 c).leavesExact 30 t)

/-- One more slab: if the first `400 t` rows are right and the slab of point `t` is stored at row `400 (t mod 25)`, the
    first `400 (t + 1)` rows are right (`t < 25`). -/
theorem X1ok_step (c : Dev nD) (t : Fin cfg0.N) (ht : t.val < 25) (xs d : Vec F S10000x128 .f32)
    (hxs : X1ok m c t.val xs) (hU : Upd (400 * (t.val % 25)) (by omega) (slab1 m c t) xs d) : X1ok m c (t.val + 1) d := by
  intro y hy
  have hmod : t.val % 25 = t.val := Nat.mod_eq_of_lt ht
  by_cases hlo : (y 0).val < 400 * t.val
  · rw [hU.2 y (Or.inl (by rw [hmod]; exact hlo))]; exact hxs y hlo
  · have hy1 := idx2_lt1 y
    have e : y = rowAt (400 * (t.val % 25)) (by omega) (ix2 (⟨(y 0).val - 400 * t.val, by omega⟩ : Fin 400) (⟨(y 1).val, hy1⟩ : Fin 128)) := by
      funext a
      match a with
      | ⟨0, _⟩ => exact Fin.ext (by show (y 0).val = 400 * (t.val % 25) + ((y 0).val - 400 * t.val); rw [hmod]; omega)
      | ⟨1, _⟩ => rfl
    rw [e, hU.1]
    unfold X1v
    have hdiv : (400 * (t.val % 25) + ((y 0).val - 400 * t.val)) / 400 = t.val := by rw [hmod]; omega
    have hrem : (400 * (t.val % 25) + ((y 0).val - 400 * t.val)) % 400 = (y 0).val - 400 * t.val := by rw [hmod]; omega
    have ht' : (⟨(400 * (t.val % 25) + ((y 0).val - 400 * t.val)) / 400, by omega⟩ : Fin cfg0.N) = t := Fin.ext hdiv
    show slab1 m c t _ = slab1 m c ⟨(400 * (t.val % 25) + ((y 0).val - 400 * t.val)) / 400, _⟩ _
    rw [ht']
    exact congrArg (slab1 m c t) (funext fun a => by
      match a with
      | ⟨0, _⟩ => exact Fin.ext hrem.symm
      | ⟨1, _⟩ => rfl)

set_option maxHeartbeats 16000000 in
/-- The body at any point: the operand blocks are in their buffers; the point's number says which of the four cases it
    is; the case's run gives the buffers back as the proof data names them and the scratch buffers at the next point's
    contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15, before16, before17, before18, before19, before20, before21, before22, before23, before24, before25, before26, before27]
  rw [show (dats m 0 c).owesAt () t.succ = (dats m 0 c).owesAt () t.castSucc from rfl]
  rw [show (dats m 0 c).Φ t.succ = PhiS m c (t.val + 1) from rfl, PhiS_succ, Phi_castSucc]
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  rw [show (dats m 0 c).leavesExact 2 t = owns (c : Thread nD τ) (ms2 t) fullShare ((dats m 0 c).after 2 t) from by
    unfold Dat.leavesExact; rw [liveAt2 t], after2]
  rw [show (dats m 0 c).leavesExact 3 t = owns (c : Thread nD τ) (ms3 t) fullShare ((dats m 0 c).after 3 t) from by
    unfold Dat.leavesExact; rw [liveAt3 t], after3]
  rw [show (dats m 0 c).leavesExact 4 t = owns (c : Thread nD τ) (ms4 t) fullShare ((dats m 0 c).after 4 t) from by
    unfold Dat.leavesExact; rw [liveAt4 t], after4]
  rw [show (dats m 0 c).leavesExact 5 t = owns (c : Thread nD τ) (ms5 t) fullShare ((dats m 0 c).after 5 t) from by
    unfold Dat.leavesExact; rw [liveAt5 t], after5]
  rw [show (dats m 0 c).leavesExact 6 t = owns (c : Thread nD τ) (ms6 t) fullShare ((dats m 0 c).after 6 t) from by
    unfold Dat.leavesExact; rw [liveAt6 t], after6]
  rw [show (dats m 0 c).leavesExact 7 t = owns (c : Thread nD τ) (ms7 t) fullShare ((dats m 0 c).after 7 t) from by
    unfold Dat.leavesExact; rw [liveAt7 t], after7]
  rw [show (dats m 0 c).leavesExact 8 t = owns (c : Thread nD τ) (ms8 t) fullShare ((dats m 0 c).after 8 t) from by
    unfold Dat.leavesExact; rw [liveAt8 t], after8]
  rw [show (dats m 0 c).leavesExact 9 t = owns (c : Thread nD τ) (ms9 t) fullShare ((dats m 0 c).after 9 t) from by
    unfold Dat.leavesExact; rw [liveAt9 t], after9]
  rw [show (dats m 0 c).leavesExact 10 t = owns (c : Thread nD τ) (ms10 t) fullShare ((dats m 0 c).after 10 t) from by
    unfold Dat.leavesExact; rw [liveAt10 t], after10]
  rw [show (dats m 0 c).leavesExact 11 t = owns (c : Thread nD τ) (ms11 t) fullShare ((dats m 0 c).after 11 t) from by
    unfold Dat.leavesExact; rw [liveAt11 t], after11]
  rw [show (dats m 0 c).leavesExact 12 t = owns (c : Thread nD τ) (ms12 t) fullShare ((dats m 0 c).after 12 t) from by
    unfold Dat.leavesExact; rw [liveAt12 t], after12]
  rw [show (dats m 0 c).leavesExact 13 t = owns (c : Thread nD τ) (ms13 t) fullShare ((dats m 0 c).after 13 t) from by
    unfold Dat.leavesExact; rw [liveAt13 t], after13]
  rw [show (dats m 0 c).leavesExact 14 t = owns (c : Thread nD τ) (ms14 t) fullShare ((dats m 0 c).after 14 t) from by
    unfold Dat.leavesExact; rw [liveAt14 t], after14]
  rw [show (dats m 0 c).leavesExact 15 t = owns (c : Thread nD τ) (ms15 t) fullShare ((dats m 0 c).after 15 t) from by
    unfold Dat.leavesExact; rw [liveAt15 t], after15]
  rw [show (dats m 0 c).leavesExact 16 t = owns (c : Thread nD τ) (ms16 t) fullShare ((dats m 0 c).after 16 t) from by
    unfold Dat.leavesExact; rw [liveAt16 t], after16]
  rw [show (dats m 0 c).leavesExact 17 t = owns (c : Thread nD τ) (ms17 t) fullShare ((dats m 0 c).after 17 t) from by
    unfold Dat.leavesExact; rw [liveAt17 t], after17]
  rw [show (dats m 0 c).leavesExact 18 t = owns (c : Thread nD τ) (ms18 t) fullShare ((dats m 0 c).after 18 t) from by
    unfold Dat.leavesExact; rw [liveAt18 t], after18]
  rw [show (dats m 0 c).leavesExact 19 t = owns (c : Thread nD τ) (ms19 t) fullShare ((dats m 0 c).after 19 t) from by
    unfold Dat.leavesExact; rw [liveAt19 t], after19]
  rw [show (dats m 0 c).leavesExact 20 t = owns (c : Thread nD τ) (ms20 t) fullShare ((dats m 0 c).after 20 t) from by
    unfold Dat.leavesExact; rw [liveAt20 t], after20]
  rw [show (dats m 0 c).leavesExact 21 t = owns (c : Thread nD τ) (ms21 t) fullShare ((dats m 0 c).after 21 t) from by
    unfold Dat.leavesExact; rw [liveAt21 t], after21]
  rw [show (dats m 0 c).leavesExact 22 t = owns (c : Thread nD τ) (ms22 t) fullShare ((dats m 0 c).after 22 t) from by
    unfold Dat.leavesExact; rw [liveAt22 t], after22]
  rw [show (dats m 0 c).leavesExact 23 t = owns (c : Thread nD τ) (ms23 t) fullShare ((dats m 0 c).after 23 t) from by
    unfold Dat.leavesExact; rw [liveAt23 t], after23]
  rw [show (dats m 0 c).leavesExact 24 t = owns (c : Thread nD τ) (ms24 t) fullShare ((dats m 0 c).after 24 t) from by
    unfold Dat.leavesExact; rw [liveAt24 t], after24]
  rw [show (dats m 0 c).leavesExact 25 t = owns (c : Thread nD τ) (ms25 t) fullShare ((dats m 0 c).after 25 t) from by
    unfold Dat.leavesExact; rw [liveAt25 t], after25]
  rw [show (dats m 0 c).leavesExact 26 t = owns (c : Thread nD τ) (ms26 t) fullShare ((dats m 0 c).after 26 t) from by
    unfold Dat.leavesExact; rw [liveAt26 t], after26]
  rw [show (dats m 0 c).leavesExact 27 t = owns (c : Thread nD τ) (ms27 t) fullShare ((dats m 0 c).after 27 t) from by
    unfold Dat.leavesExact; rw [liveAt27 t], after27]
  have hN : t.val < 50 := lt_of_lt_of_eq t.isLt N50
  by_cases h25 : t.val < 25
  · have hc2 : cond2 (grid0.coords t) := (hcond2 t).mpr h25
    have hc3 : ¬cond3 (grid0.coords t) := fun h => by have := (hcond3 t).mp h; omega
    have hc4 : ¬cond4 (grid0.coords t) := fun h => by have := (hcond4 t).mp h; omega
    rw [Dat.leavesExact_idle (dats m 0 c) 28 t (idleOut 28 (by decide) t h25) (noFlushOut 28 (by decide) t h25),
      Dat.leavesExact_idle (dats m 0 c) 29 t (idleOut 29 (by decide) t h25) (noFlushOut 29 (by decide) t h25),
      Dat.leavesExact_idle (dats m 0 c) 30 t (idleOut 30 (by decide) t h25) (noFlushOut 30 (by decide) t h25)]
    by_cases h0 : t.val = 0
    ·
      -- the first point: the first support and the first slab
      have hc1 : cond1 (grid0.coords t) := (hcond1 t).mpr h0
      have ht0 : t = pt 0 := Fin.ext h0
      rw [show PhiS m c t.val = Pipeline.ΦA spec0 c from by rw [h0]; rfl, PhiA0_eq]
      iintro ⟨⟨⟨⟨%d0, HS0⟩, ⟨%d1, HS1⟩, ⟨%d2, HS2⟩⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩, ⟨%e12, H12⟩, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩, ⟨%e27, H27⟩, ⟨%e28, H28⟩, ⟨%e29, H29⟩, ⟨%e30, H30⟩⟩
      iapply (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) (ms26 t) (hs26 t) (ms27 t) (hs27 t) (ms28 t) (hs28 t) (ms29 t) (hs29 t) (ms30 t) (hs30 t) scM0 (Memref.isWhole_whole _) scM1 (Memref.isWhole_whole _) scM2 (Memref.isWhole_whole _) hc1 hc2 hc3 hc4 (400 * (t.val % 25)) (by omega) (off1_eq t)
        (iblk m c 0 t) (iblk m c 1 t) (iblk m c 2 t) (iblk m c 3 t) d1 Set.univ _)
      isplitl [H0]; · iexact H0
      isplitl [H1]; · iexact H1
      isplitl [H2]; · iexact H2
      isplitl [H3]; · iexact H3
      isplitl [HS0]; · iexists _; iexact HS0
      isplitl [HS1]; · iexact HS1
      iintro ⟨H0, H1, H2, H3, HS0, ⟨%d1', %hU, HS1⟩⟩
      isplitl [HS0 HS1 HS2 Hg]
      · isplitl [HS0 HS1 HS2]
        · isplitl [HS0]
          · rw [show S1v m c = k0_pay1 (iblk m c 1 t) (iblk m c 2 t) from by rw [ht0]; rfl]; iexact HS0
          isplitl [HS1]
          · iexists d1'; isplitr; · ipureintro; exact X1ok_step m c t h25 d1 d1' (fun y hy => by rw [h0] at hy; omega) (by unfold slab1; rw [show S1v m c = k0_pay1 (iblk m c 1 t) (iblk m c 2 t) from by rw [ht0]; rfl]; exact hU)
            iexact HS1
          iexists d2; isplitr; · ipureintro; intro h; omega
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      isplitl [H28]; · iexists _; iexact H28
      isplitl [H29]; · iexists _; iexact H29
      iexists _; iexact H30
    ·
      -- the rest of the first sweep: one more slab
      have hc1 : ¬cond1 (grid0.coords t) := fun h => h0 ((hcond1 t).mp h)
      rw [PhiS_pos m c t.val h0]
      iintro ⟨⟨⟨HS0, ⟨%d1, %hd1, HS1⟩, ⟨%d2, %hd2, HS2⟩⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩, ⟨%e12, H12⟩, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩, ⟨%e27, H27⟩, ⟨%e28, H28⟩, ⟨%e29, H29⟩, ⟨%e30, H30⟩⟩
      iapply (runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) (ms26 t) (hs26 t) (ms27 t) (hs27 t) (ms28 t) (hs28 t) (ms29 t) (hs29 t) (ms30 t) (hs30 t) scM0 (Memref.isWhole_whole _) scM1 (Memref.isWhole_whole _) scM2 (Memref.isWhole_whole _) hc1 hc2 hc3 hc4 (400 * (t.val % 25)) (by omega) (off1_eq t)
        (iblk m c 0 t) (iblk m c 3 t) (S1v m c) d1 Set.univ _)
      isplitl [H0]; · iexact H0
      isplitl [H3]; · iexact H3
      isplitl [HS0]; · iexact HS0
      isplitl [HS1]; · iexact HS1
      iintro ⟨H0, H3, HS0, ⟨%d1', %hU, HS1⟩⟩
      isplitl [HS0 HS1 HS2 Hg]
      · isplitl [HS0 HS1 HS2]
        · isplitl [HS0]; · iexact HS0
          isplitl [HS1]
          · iexists d1'; isplitr; · ipureintro; exact X1ok_step m c t h25 d1 d1' hd1 hU
            iexact HS1
          iexists d2; isplitr; · ipureintro; intro h; omega
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      isplitl [H28]; · iexists _; iexact H28
      isplitl [H29]; · iexists _; iexact H29
      iexists _; iexact H30
  · have h25' : 25 ≤ t.val := by omega
    have hc1 : ¬cond1 (grid0.coords t) := fun h => by have := (hcond1 t).mp h; omega
    have hc2 : ¬cond2 (grid0.coords t) := fun h => by have := (hcond2 t).mp h; omega
    have hc4 : cond4 (grid0.coords t) := (hcond4 t).mpr h25'
    rw [show (dats m 0 c).leavesExact 28 t = owns (c : Thread nD τ) (ms28 t) fullShare ((dats m 0 c).after 28 t) from by
      unfold Dat.leavesExact; rw [liveOut 28 (by decide) t h25'], after28]
    rw [show (dats m 0 c).leavesExact 29 t = owns (c : Thread nD τ) (ms29 t) fullShare ((dats m 0 c).after 29 t) from by
      unfold Dat.leavesExact; rw [liveOut 29 (by decide) t h25'], after29]
    rw [show (dats m 0 c).leavesExact 30 t = owns (c : Thread nD τ) (ms30 t) fullShare ((dats m 0 c).after 30 t) from by
      unfold Dat.leavesExact; rw [liveOut 30 (by decide) t h25'], after30]
    rw [show xc5blk m c t = xc5Of (rowsOf (400 * (t.val % 25)) (by omega) (X1v m c)) (iblk m c 0 t) (S2v m c) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) from rfl,
      show xr5blk m c t = xr5Of (rowsOf (400 * (t.val % 25)) (by omega) (X1v m c)) (iblk m c 0 t) (S2v m c) (iblk m c 5 t) (iblk m c 21 t) (iblk m c 22 t) (iblk m c 23 t) (iblk m c 24 t) (iblk m c 25 t) (iblk m c 26 t) (iblk m c 27 t) from rfl,
      show znblk m c t = znOf (rowsOf (400 * (t.val % 25)) (by omega) (X1v m c)) (k0_pay5 (iblk m c 0 t) (S2v m c) (iblk m c 5 t)) from rfl]
    by_cases he : t.val = 25
    ·
      -- the first point of the second sweep: the second support, then as at the later points
      have hc3 : cond3 (grid0.coords t) := (hcond3 t).mpr he
      have h0 : t.val ≠ 0 := by omega
      have ht25 : t = pt 25 := Fin.ext he
      rw [PhiS_pos m c t.val h0]
      iintro ⟨⟨⟨HS0, ⟨%d1, %hd1, HS1⟩, ⟨%d2, %hd2, HS2⟩⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩, ⟨%e12, H12⟩, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩, ⟨%e27, H27⟩, ⟨%e28, H28⟩, ⟨%e29, H29⟩, ⟨%e30, H30⟩⟩
      obtain rfl : d1 = X1v m c := funext fun y => hd1 y (by have := idx2_lt0 y; omega)
      have hS2 : k0_pay3 (X1v m c) (iblk m c 4 t) = S2v m c := by rw [ht25]; rfl
      iapply (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) (ms26 t) (hs26 t) (ms27 t) (hs27 t) (ms28 t) (hs28 t) (ms29 t) (hs29 t) (ms30 t) (hs30 t) scM0 (Memref.isWhole_whole _) scM1 (Memref.isWhole_whole _) scM2 (Memref.isWhole_whole _) hc1 hc2 hc3 hc4 (400 * (t.val % 25)) (by omega) (off2_eq t)
        (iblk m c 0 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) ((dats m 0 c).before 28 t e28) ((dats m 0 c).before 29 t e29) ((dats m 0 c).before 30 t e30) (X1v m c) d2 Set.univ _)
      isplitl [H0]; · iexact H0
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      isplitl [H28]; · iexact H28
      isplitl [H29]; · iexact H29
      isplitl [H30]; · iexact H30
      isplitl [HS1]; · iexact HS1
      isplitl [HS2]; · iexact HS2
      rw [hS2]
      iintro ⟨H0, H4, H5, H6, H7, H8, H9, H10, H11, H12, H13, H14, H15, H16, H17, H18, H19, H20, H21, H22, H23, H24, H25, H26, H27, H28, H29, H30, HS1, HS2⟩
      isplitl [HS0 HS1 HS2 Hg]
      · isplitl [HS0 HS1 HS2]
        · isplitl [HS0]; · iexact HS0
          isplitl [HS1]
          · iexists _; isplitr; · ipureintro; exact fun y _ => rfl
            iexact HS1
          iexists _; isplitr; · ipureintro; exact fun _ => rfl
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      isplitl [H28]; · iexact H28
      isplitl [H29]; · iexact H29
      iexact H30
    ·
      -- the rest of the second sweep: the slab of the second layer and both heads
      have hc3 : ¬cond3 (grid0.coords t) := fun h => he ((hcond3 t).mp h)
      have h0 : t.val ≠ 0 := by omega
      rw [PhiS_pos m c t.val h0]
      iintro ⟨⟨⟨HS0, ⟨%d1, %hd1, HS1⟩, ⟨%d2, %hd2, HS2⟩⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩, ⟨%e12, H12⟩, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩, ⟨%e27, H27⟩, ⟨%e28, H28⟩, ⟨%e29, H29⟩, ⟨%e30, H30⟩⟩
      obtain rfl : d1 = X1v m c := funext fun y => hd1 y (by have := idx2_lt0 y; omega)
      obtain rfl : d2 = S2v m c := hd2 (by omega)
      iapply (runD c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) (ms26 t) (hs26 t) (ms27 t) (hs27 t) (ms28 t) (hs28 t) (ms29 t) (hs29 t) (ms30 t) (hs30 t) scM0 (Memref.isWhole_whole _) scM1 (Memref.isWhole_whole _) scM2 (Memref.isWhole_whole _) hc1 hc2 hc3 hc4 (400 * (t.val % 25)) (by omega) (off2_eq t)
        (iblk m c 0 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) ((dats m 0 c).before 28 t e28) ((dats m 0 c).before 29 t e29) ((dats m 0 c).before 30 t e30) (X1v m c) (S2v m c) Set.univ _)
      isplitl [H0]; · iexact H0
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      isplitl [H28]; · iexact H28
      isplitl [H29]; · iexact H29
      isplitl [H30]; · iexact H30
      isplitl [HS1]; · iexact HS1
      isplitl [HS2]; · iexact HS2
      iintro ⟨H0, H5, H6, H7, H8, H9, H10, H11, H12, H13, H14, H15, H16, H17, H18, H19, H20, H21, H22, H23, H24, H25, H26, H27, H28, H29, H30, HS1, HS2⟩
      isplitl [HS0 HS1 HS2 Hg]
      · isplitl [HS0 HS1 HS2]
        · isplitl [HS0]; · iexact HS0
          isplitl [HS1]
          · iexists _; isplitr; · ipureintro; exact fun y _ => rfl
            iexact HS1
          iexists _; isplitr; · ipureintro; exact fun _ => rfl
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      isplitl [H28]; · iexact H28
      isplitl [H29]; · iexact H29
      iexact H30

set_option maxHeartbeats 8000000 in
/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := Idealize.SL.BI.Entails.refl _

/-- After the last point the invariant gives the scratch buffers back at some contents. -/
theorem hout (c : Dev nD) : (dats m 0 c).Φ (Fin.last cfg0.N) ⊢ Pipeline.ΦA spec0 c := by
  rw [show (dats m 0 c).Φ (Fin.last cfg0.N) = PhiS m c cfg0.N from rfl, PhiS_pos m c _ (by rw [N50]; decide), PhiA0_eq]
  iintro ⟨⟨HS0, ⟨%d1, %hd1, HS1⟩, ⟨%d2, %hd2, HS2⟩⟩, Hg⟩
  isplitl [HS0 HS1 HS2]
  · isplitl [HS0]; · iexists _; iexact HS0
    isplitl [HS1]; · iexists _; iexact HS1
    iexists _; iexact HS2
  iexact Hg

/-! ## The run and the frame -/

set_option maxHeartbeats 8000000 in
set_option backward.isDefEq.respectTransparency.types false in
/-- Every weakly fair execution of @main terminates, and every final state has every array of the pipeline at what the
    library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

end Cert.KernelIdeal.Hand

end
-- ==== Proof.BitsFrameCommon.lean ====
/-
  The grid has 50 points: two sweeps over the 25 row tiles (400 rows each) of the adjacency. What the body does at a
  point depends on four conditions on the point's number `t`: `t = 0` (the first support `x · W1` is computed),
  `t < 25` (a slab of the first layer's output is stored), `t = 25` (the second support is computed), `25 ≤ t` (a slab
  of the second layer and both heads are computed and the three results' blocks are stored). This file decides the four
  conditions, the row offsets of the slab and where the result windows are idle, once, over the grid.
-/
import proofs.«162148_g73521250173546_cont_sun_c4_545_9_alg».proof.Proof.Gen.Kernel.Launch
import proofs.«162148_g73521250173546_cont_sun_c4_545_9_alg».proof.Proof.Gen.Kernel.Skeleton
import proofs.«162148_g73521250173546_cont_sun_c4_545_9_alg».proof.Proof.Gen.Kernel.Points
import proofs.«162148_g73521250173546_cont_sun_c4_545_9_alg».proof.Proof.Gen.Kernel.Frame
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's four conditions, from the grid coordinate -/

/-- `program_id = 0`. -/
abbrev cond1 (i : grid0.Coords) : Prop := (Scalar.cmpi .ne (Scalar.extui (Scalar.cmpi .eq (BitVec.ofNat 32 (i 0).val) 0#32)) 0#32) = 1#1
/-- `program_id < 25`. -/
abbrev cond2 (i : grid0.Coords) : Prop := k0_cond2 i = 1#1
/-- `program_id = 25`. -/
abbrev cond3 (i : grid0.Coords) : Prop := (Scalar.cmpi .ne (Scalar.extui (Scalar.cmpi .eq (BitVec.ofNat 32 (i 0).val) 25#32)) 0#32) = 1#1
/-- `25 ≤ program_id`. -/
abbrev cond4 (i : grid0.Coords) : Prop := k0_cond4 i = 1#1

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ t.val < 25 :=
  (by decide +kernel : ∀ t : Fin grid0.N, cond2 (grid0.coords t) ↔ t.val < 25)
theorem hcond3 : ∀ t : Fin cfg0.N, cond3 (grid0.coords t) ↔ t.val = 25 :=
  (by decide +kernel : ∀ t : Fin grid0.N, cond3 (grid0.coords t) ↔ t.val = 25)
theorem hcond4 : ∀ t : Fin cfg0.N, cond4 (grid0.coords t) ↔ 25 ≤ t.val :=
  (by decide +kernel : ∀ t : Fin grid0.N, cond4 (grid0.coords t) ↔ 25 ≤ t.val)

/-- The number of points. -/
theorem N50 : cfg0.N = 50 := N_0

/-! ## The slab's row offset: tile `t mod 25` starts at row `400 · (t mod 25)` -/

theorem off1_eq : ∀ t : Fin cfg0.N, k0_off1 (grid0.coords t) = ![400 * (t.val % 25), 0] :=
  (by decide +kernel : ∀ t : Fin grid0.N, k0_off1 (grid0.coords t) = ![400 * (t.val % 25), 0])
theorem off2_eq : ∀ t : Fin cfg0.N, k0_off2 (grid0.coords t) = ![400 * (t.val % 25), 0] :=
  (by decide +kernel : ∀ t : Fin grid0.N, k0_off2 (grid0.coords t) = ![400 * (t.val % 25), 0])

/-! ## Where the result windows are idle and where their blocks are written back -/

/-- An operand window is never idle. -/
theorem liveIn : ∀ (w : Fin 28) (t : Fin cfg0.N), cfg0.idle (Fin.castLE (by decide) w) (grid0.coords t) = false := by decide +kernel
/-- During the first sweep a result window is idle … -/
theorem idleOut (w : Fin 31) (hw : 28 ≤ w.val) : ∀ t : Fin cfg0.N, t.val < 25 → cfg0.idle w (grid0.coords t) = true := by
  revert w; decide +kernel
/-- … and its block is not written back; -/
theorem noFlushOut (w : Fin 31) (hw : 28 ≤ w.val) : ∀ t : Fin cfg0.N, t.val < 25 → (cfg0.win w).flush t = false := by
  revert w; decide +kernel
/-- during the second sweep it is live -/
theorem liveOut (w : Fin 31) (hw : 28 ≤ w.val) : ∀ t : Fin cfg0.N, 25 ≤ t.val → cfg0.idle w (grid0.coords t) = false := by
  revert w; decide +kernel
/-- and written back at every point. -/
theorem flushOut (w : Fin 31) (hw : 28 ≤ w.val) : ∀ t : Fin cfg0.N, 25 ≤ t.val → (cfg0.win w).flush t = true := by
  revert w; decide +kernel

/-! ## The three scratch buffers -/

/-- The first support `s1` (10000 × 128), -/
abbrev scM0 : Memref sig .tc .vmem S10000x128 .bf16 := Memref.whole cc0_scratch0
/-- the first layer's output `x1` (10000 × 128), -/
abbrev scM1 : Memref sig .tc .vmem S10000x128 .f32 := Memref.whole cc0_scratch1
/-- the second support `s2` (10000 × 64). -/
abbrev scM2 : Memref sig .tc .vmem S10000x64 .bf16 := Memref.whole cc0_scratch2

/-- What the launch hands the region beside the windows: the three scratch buffers at some contents and the generator
    register at some state. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

end Cert.Kernel.Hand

end
-- ==== Proof.BitsFrameVals.lean ====
/-
  What the kernel's scratch buffers and result blocks hold, as pure terms of the operand blocks (at any float
  instance). Point 0 computes the first support `s1` from the blocks of `x` and `W1`; point `t < 25` stores the slab
  `tanh (adj-tile · s1 + b1)` into rows `400 t .. 400 t + 400` of `x1`; point 25 computes the second support `s2` from
  all of `x1` and `W2`; point `t ≥ 25` computes the slab of `x2` for tile `t - 25 = t mod 25`, stores `[x1-slab | x2-slab]`
  into the third result's block and the two heads' values of that slab into the first two.
-/
import proofs.«162148_g73521250173546_cont_sun_c4_545_9_alg».proof.Proof.Gen.Kernel.Launch
import proofs.«162148_g73521250173546_cont_sun_c4_545_9_alg».proof.Proof.Gen.Kernel.Skeleton
import proofs.«162148_g73521250173546_cont_sun_c4_545_9_alg».proof.Proof.Gen.Kernel.Points
import proofs.«162148_g73521250173546_cont_sun_c4_545_9_alg».proof.Proof.Gen.Kernel.Frame
import proofs.«162148_g73521250173546_cont_sun_c4_545_9_alg».proof.Proof.BitsFrameCommon
import Idealize.ShloMosaic.Lib.ValueIdx
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (c : Dev nD)

/-- Point number `n` of the 50. -/
abbrev pt (n : ℕ) (h : n < 50 := by decide) : Fin cfg0.N := ⟨n, lt_of_lt_of_eq h N50.symm⟩

/-- The first support `s1 = x · W1`, as point 0 computes it. -/
def S1v : Vec F S10000x128 .bf16 := k0_pay1 (iblk m c 1 (pt 0)) (iblk m c 2 (pt 0))

/-- The slab of `x1` that point `t` of the first sweep computes from its adjacency tile. -/
def slab1 (t : Fin cfg0.N) : FVec F S400x128 .f32 := k0_pay2 (iblk m c 0 t) (S1v m c) (iblk m c 3 t)

/-- All of `x1`: row `r` belongs to the slab of point `r / 400`. -/
def X1v : Vec F S10000x128 .f32 := fun y =>
  slab1 m c ⟨(y 0).val / 400, by have := idx2_lt0 y; rw [N50]; omega⟩
    (ix2 (⟨(y 0).val % 400, Nat.mod_lt _ (by decide)⟩ : Fin 400) (⟨(y 1).val, idx2_lt1 y⟩ : Fin 128))

/-- The second support `s2 = x1 · W2`, as point 25 computes it. -/
def S2v : Vec F S10000x64 .bf16 := k0_pay3 (X1v m c) (iblk m c 4 (pt 25))

/-- The rows of `x1` that point `t` reads back: tile `t mod 25`. -/
def x1rows (t : Fin cfg0.N) : Vec F S400x128 .f32 := fun y =>
  X1v m c (ix2 (⟨400 * (t.val % 25) + (y 0).val, by have := idx2_lt0 y; omega⟩ : Fin 10000) (⟨(y 1).val, idx2_lt1 y⟩ : Fin 128))

/-- The slab of `x2` that point `t` of the second sweep computes. -/
def x2blk (t : Fin cfg0.N) : FVec F S400x64 .f32 := k0_pay5 (iblk m c 0 t) (S2v m c) (iblk m c 5 t)

/-- The third result's block at point `t`: `[x1-slab | x2-slab]`. -/
def znblk (t : Fin cfg0.N) : Vec F S400x192 .f32 := fun y =>
  if h : (y 1).val < 128 then x1rows m c t (ix2 (⟨(y 0).val, idx2_lt0 y⟩ : Fin 400) (⟨(y 1).val, h⟩ : Fin 128))
  else x2blk m c t (ix2 (⟨(y 0).val, idx2_lt0 y⟩ : Fin 400) (⟨(y 1).val - 128, by have := idx2_lt1 y; omega⟩ : Fin 64))

/-- The classifier's first linear layer on the slab, before its batch norm. -/
def h1pre (t : Fin cfg0.N) : FVec F S400x256 .f32 :=
  k0_pay6 (x1rows m c t) (iblk m c 0 t) (S2v m c) (iblk m c 5 t) (iblk m c 6 t) (iblk m c 7 t) (iblk m c 8 t)

/-- Its second linear layer minus the second batch norm's running mean. -/
def h2pre (t : Fin cfg0.N) : FVec F S400x128 .f32 :=
  k0_pay11 (h1pre m c t) (k0_pay7 (iblk m c 9 t)) (k0_pay8 (iblk m c 10 t)) (iblk m c 11 t) (iblk m c 12 t) (iblk m c 13 t) (iblk m c 14 t) (iblk m c 17 t)

/-- The first result's block at point `t`: the log-softmax of the slab's logits. -/
def xc5blk (t : Fin cfg0.N) : FVec F S400x10 .f32 :=
  k0_pay13 (k0_pay9 (iblk m c 15 t)) (k0_pay10 (iblk m c 16 t)) (h2pre m c t) (k0_pay12 (iblk m c 18 t)) (iblk m c 19 t) (iblk m c 20 t)

/-- The second result's block at point `t`: the reconstruction head on the slab. -/
def xr5blk (t : Fin cfg0.N) : FVec F S400x128 .f32 :=
  k0_pay4 (k0_pay14 (x1rows m c t) (x2blk m c t) (iblk m c 21 t) (iblk m c 22 t)) (iblk m c 23 t) (iblk m c 24 t) (iblk m c 25 t) (iblk m c 26 t) (iblk m c 27 t)

end Cert.Kernel.Hand

end
-- ==== Proof.BitsBodyVals.lean ====
/-
  What one run of the kernel body leaves, as pure terms of what it loads (at any float instance): the value stored in
  each result block during the second sweep, and what a 400-row slab store does to the 10000-row buffer of `x1`.
-/
import proofs.«162148_g73521250173546_cont_sun_c4_545_9_alg».proof.Proof.Gen.Kernel.Launch
import proofs.«162148_g73521250173546_cont_sun_c4_545_9_alg».proof.Proof.Gen.Kernel.Skeleton
import proofs.«162148_g73521250173546_cont_sun_c4_545_9_alg».proof.Proof.Gen.Kernel.Points
import proofs.«162148_g73521250173546_cont_sun_c4_545_9_alg».proof.Proof.Gen.Kernel.Frame
import proofs.«162148_g73521250173546_cont_sun_c4_545_9_alg».proof.Proof.BitsFrameCommon
import Idealize.ShloMosaic.Lib.ValueIdx
import Idealize.ShloMosaic.Lib.WritesUnit
import Idealize.ShloMosaic.Lib.Pipeline.Value
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- Row `o + y₀`, column `y₁` of the 10000-row buffer: where entry `y` of the slab starting at row `o` sits. -/
def rowAt (o : ℕ) (ho : o + 400 ≤ 10000) (y : S400x128.Idx) : S10000x128.Idx :=
  ix2 (⟨o + (y 0).val, by have := idx2_lt0 y; omega⟩ : Fin 10000) (⟨(y 1).val, idx2_lt1 y⟩ : Fin 128)

/-- The slab of 400 rows starting at row `o`. -/
def rowsOf (o : ℕ) (ho : o + 400 ≤ 10000) (xs : Vec F S10000x128 .f32) : Vec F S400x128 .f32 := fun y => xs (rowAt o ho y)

/-- `d` is `xs` with the slab at row `o` replaced by `w`. -/
def Upd (o : ℕ) (ho : o + 400 ≤ 10000) (w : FVec F S400x128 .f32) (xs d : Vec F S10000x128 .f32) : Prop :=
  (∀ y : S400x128.Idx, d (rowAt o ho y) = w y) ∧ ∀ y : S10000x128.Idx, ((y 0).val < o ∨ o + 400 ≤ (y 0).val) → d y = xs y

/-- The third result's block: the slab of `x1` in columns `0..128`, the slab of `x2` in columns `128..192`. -/
def znOf (x1r : Vec F S400x128 .f32) (x2b : FVec F S400x64 .f32) : Vec F S400x192 .f32 := fun y =>
  if h : (y 1).val < 128 then x1r (ix2 (⟨(y 0).val, idx2_lt0 y⟩ : Fin 400) (⟨(y 1).val, h⟩ : Fin 128))
  else x2b (ix2 (⟨(y 0).val, idx2_lt0 y⟩ : Fin 400) (⟨(y 1).val - 128, by have := idx2_lt1 y; omega⟩ : Fin 64))

/-- The first result's block from the slab of `x1`, the adjacency tile, the second support and the classifier's
    operands, in the order the body loads them. -/
def xc5Of (x1r : Vec F S400x128 .f32) (x1 : Vec F S400x10000 .f32) (xs2 : Vec F S10000x64 .bf16) (x6 : Vec F S1x64 .f32)
    (x7 : Vec F S128x256 .f32) (x8 : Vec F S64x256 .f32) (x9 x10 x11 x12 x13 : Vec F S1x256 .f32) (x14 : Vec F S256x128 .f32)
    (x15 x16 x17 x18 x19 : Vec F S1x128 .f32) (x20 : Vec F S128x10 .f32) (x21 : Vec F S1x10 .f32) : FVec F S400x10 .f32 :=
  k0_pay13 (k0_pay9 x16) (k0_pay10 x17)
    (k0_pay11 (k0_pay6 x1r x1 xs2 x6 x7 x8 x9) (k0_pay7 x10) (k0_pay8 x11) x12 x13 x14 x15 x18) (k0_pay12 x19) x20 x21

/-- The second result's block likewise. -/
def xr5Of (x1r : Vec F S400x128 .f32) (x1 : Vec F S400x10000 .f32) (xs2 : Vec F S10000x64 .bf16) (x6 : Vec F S1x64 .f32)
    (x22 : Vec F S128x256 .f32) (x23 : Vec F S64x256 .f32) (x24 : Vec F S1x256 .f32) (x25 : Vec F S256x128 .f32) (x26 : Vec F S1x128 .f32)
    (x27 : Vec F S128x128 .f32) (x28 : Vec F S1x128 .f32) : FVec F S400x128 .f32 :=
  k0_pay4 (k0_pay14 x1r (k0_pay5 x1 xs2 x6) x22 x23) x24 x25 x26 x27 x28

/-- The offsets `(0, 0)` are the zero offsets. -/
theorem hz2 : (![0, 0] : Fin 2 → ℕ) = fun _ => 0 := by
  funext a; match a with | ⟨0, _⟩ => rfl | ⟨1, _⟩ => rfl

/-! ## What a few stores leave in a buffer, read back -/

section ReadBack

variable {κ : Kind} {sp : Space}

/-- One store through the whole rectangle of a rank-2 buffer leaves its payload, whatever the buffer held. -/
theorem read_whole2 {r k : ℕ} {e : EltTy} (v : View sig κ sp (⟨2, ![r, k]⟩ : Shape) e) (f : v.ty.Contents (Elt F))
    (inb : ∀ a, (![0, 0] : Fin 2 → ℕ) a + (⟨2, ![r, k]⟩ : Shape).size a ≤ (⟨2, ![r, k]⟩ : Shape).size a)
    (w : (⟨2, ![r, k]⟩ : Shape).Idx → Elt F e) :
    v.read (Elt F) (v.writes (Elt F) f [(⟨Rect.unit (s := ⟨2, ![r, k]⟩) ![0, 0] (⟨2, ![r, k]⟩ : Shape).size inb, w⟩ : View.Piece (Elt F) (⟨2, ![r, k]⟩ : Shape) e)]) = w :=
  funext fun y => View.read_writes_cons_unit_of_mem v f inb w [] y y rfl fun a => by
    match a with
    | ⟨0, _⟩ => exact (Nat.zero_add _).symm
    | ⟨1, _⟩ => exact (Nat.zero_add _).symm

/-- The slab of `x1` stored into columns `0..128` and then the slab of `x2` into columns `128..192` of a 400 × 192 block
    leave `[x1-slab | x2-slab]`, whatever the block held. -/
theorem read_zn (v : View sig κ sp S400x192 .f32) (f : v.ty.Contents (Elt F))
    (inb0 : ∀ a, (![0, 0] : Fin 2 → ℕ) a + S400x128.size a ≤ S400x192.size a)
    (inb1 : ∀ a, (![0, 128] : Fin 2 → ℕ) a + S400x64.size a ≤ S400x192.size a)
    (x1r : Vec F S400x128 .f32) (x2b : FVec F S400x64 .f32) :
    v.read (Elt F) (v.writes (Elt F) f [(⟨Rect.unit (s := S400x192) ![0, 128] S400x64.size inb1, x2b⟩ : View.Piece (Elt F) S400x192 .f32),
      (⟨Rect.unit (s := S400x192) ![0, 0] S400x128.size inb0, x1r⟩ : View.Piece (Elt F) S400x192 .f32)]) = znOf x1r x2b := by
  funext y
  unfold znOf
  by_cases h : (y 1).val < 128
  · rw [dif_pos h]
    refine (View.read_writes_cons_unit_of_not_mem v f inb1 x2b _ y rfl (1 : Fin 2) (Or.inl h)).trans ?_
    exact View.read_writes_cons_unit_of_mem v f inb0 x1r [] y
      (ix2 (⟨(y 0).val, idx2_lt0 y⟩ : Fin 400) (⟨(y 1).val, h⟩ : Fin 128)) rfl fun a => by
        match a with
        | ⟨0, _⟩ => exact (Nat.zero_add _).symm
        | ⟨1, _⟩ => exact (Nat.zero_add _).symm
  · rw [dif_neg h]
    exact View.read_writes_cons_unit_of_mem v f inb1 x2b _ y
      (ix2 (⟨(y 0).val, idx2_lt0 y⟩ : Fin 400) (⟨(y 1).val - 128, by have := idx2_lt1 y; omega⟩ : Fin 64)) rfl fun a => by
        match a with
        | ⟨0, _⟩ => exact (Nat.zero_add _).symm
        | ⟨1, _⟩ => show (y 1).val = 128 + ((y 1).val - 128); omega

/-- A slab store at row `o` into the buffer of `x1` held at `xs` leaves `xs` with that slab replaced. -/
theorem upd_of_store (v : View sig κ sp S10000x128 .f32) (f : v.ty.Contents (Elt F)) (xs : Vec F S10000x128 .f32)
    (hf : v.read (Elt F) f = xs) (off : Fin 2 → ℕ) (o : ℕ) (ho : o + 400 ≤ 10000) (hoff : off = ![o, 0])
    (inb : ∀ a, off a + S400x128.size a ≤ S10000x128.size a) (w : FVec F S400x128 .f32) :
    Upd o ho w xs (v.read (Elt F) (v.writes (Elt F) f [(⟨Rect.unit (s := S10000x128) off S400x128.size inb, w⟩ : View.Piece (Elt F) S10000x128 .f32)])) := by
  refine ⟨fun y => ?_, fun y hy => ?_⟩
  · exact View.read_writes_cons_rows_of_mem v f inb w [] (rowAt o ho y) y hoff rfl rfl
  · exact (View.read_writes_cons_rows_of_not_mem v f inb w [] y hoff rfl hy).trans (congrFun hf y)

/-- A load of the slab at row `o` reads those rows. -/
theorem ld_rows (off : Fin 2 → ℕ) (o : ℕ) (ho : o + 400 ≤ 10000) (hoff : off = ![o, 0])
    (inb : ∀ a, off a + S400x128.size a ≤ S10000x128.size a) (xs : Vec F S10000x128 .f32) :
    View.ld xs (Rect.unit (s := S10000x128) off S400x128.size inb) = rowsOf o ho xs := by
  subst hoff
  funext y
  show xs ((Rect.unit (s := S10000x128) ![o, 0] S400x128.size inb).emb y) = xs (rowAt o ho y)
  refine congrArg xs (funext fun a => Fin.ext ?_)
  match a with
  | ⟨0, _⟩ => show o + 1 * (y 0).val = o + (y 0).val; omega
  | ⟨1, _⟩ => show 0 + 1 * (y 1).val = (y 1).val; omega

end ReadBack

end Cert.Kernel.Hand

end
-- ==== Proof.BitsBodyRunA.lean ====
/-
  One run of the kernel body in each of the four cases a grid point can be in, at any float instance: from the buffers
  the body loads held at given contents, the body runs to its end without a fault and leaves every buffer it only
  loads as it was and every buffer it stores into at the stored values — named through the body's payload terms.
-/
import proofs.«162148_g73521250173546_cont_sun_c4_545_9_alg».proof.Proof.Gen.Kernel.Launch
import proofs.«162148_g73521250173546_cont_sun_c4_545_9_alg».proof.Proof.Gen.Kernel.Skeleton
import proofs.«162148_g73521250173546_cont_sun_c4_545_9_alg».proof.Proof.Gen.Kernel.Points
import proofs.«162148_g73521250173546_cont_sun_c4_545_9_alg».proof.Proof.Gen.Kernel.Frame
import proofs.«162148_g73521250173546_cont_sun_c4_545_9_alg».proof.Proof.BitsFrameCommon
import proofs.«162148_g73521250173546_cont_sun_c4_545_9_alg».proof.Proof.BitsBodyVals
import Idealize.ShloMosaic.Lib.ValueIdx
import Idealize.ShloMosaic.Lib.WritesUnit
import Idealize.ShloMosaic.Lib.Pipeline.Value
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

set_option maxHeartbeats 16000000 in
/-- The first point: the body computes the first support from the blocks of `x` and `W1` and stores it whole, then
    stores the first slab of `x1` at row `o`; the operand blocks are as it found them. -/
theorem runA (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S128x256 .f32) (harg7 : arg7.IsWhole) (arg8 : Memref sig .tc .vmem S64x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S256x128 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S128x10 .f32) (harg20 : arg20.IsWhole) (arg21 : Memref sig .tc .vmem S1x10 .f32) (harg21 : arg21.IsWhole) (arg22 : Memref sig .tc .vmem S128x256 .f32) (harg22 : arg22.IsWhole) (arg23 : Memref sig .tc .vmem S64x256 .f32) (harg23 : arg23.IsWhole) (arg24 : Memref sig .tc .vmem S1x256 .f32) (harg24 : arg24.IsWhole) (arg25 : Memref sig .tc .vmem S256x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S400x10 .f32) (harg29 : arg29.IsWhole) (arg30 : Memref sig .tc .vmem S400x128 .f32) (harg30 : arg30.IsWhole) (arg31 : Memref sig .tc .vmem S400x192 .f32) (harg31 : arg31.IsWhole) (arg32 : Memref sig .tc .vmem S10000x128 .bf16) (harg32 : arg32.IsWhole) (arg33 : Memref sig .tc .vmem S10000x128 .f32) (harg33 : arg33.IsWhole) (arg34 : Memref sig .tc .vmem S10000x64 .bf16) (harg34 : arg34.IsWhole)
    (hc1 : cond1 i) (hc2 : cond2 i) (hc3 : ¬cond3 i) (hc4 : ¬cond4 i)
    (o : ℕ) (ho : o + 400 ≤ 10000) (hoff : k0_off1 i = ![o, 0])
    (x1 : Vec F S400x10000 .f32) (x2 : Vec F S10000x128 .f32) (x3 : Vec F S128x128 .f32) (x4 : Vec F S1x128 .f32) (xs1 : Vec F S10000x128 .f32)
    (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg32 fullShare d) ∗ owns (c : Thread nD τ) arg33 fullShare xs1
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg32 fullShare (k0_pay1 x2 x3)
            ∗ (∃ d, ⌜Upd o ho (k0_pay2 x1 (k0_pay1 x2 x3) x4) xs1 d⌝ ∗ owns (c : Thread nD τ) arg33 fullShare d)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34) K := by
  simp only [cc0__body_eq_skeleton]; unfold cc0__body_skel
  unfold owns
  iintro ⟨⟨%f1, %hf1, H1⟩, ⟨%f2, %hf2, H2⟩, ⟨%f3, %hf3, H3⟩, ⟨%f4, %hf4, H4⟩, ⟨%d32, %f32, %hf32, H32⟩, ⟨%f33, %hf33, H33⟩, Hk⟩
  obtain rfl := harg1.eq_unread hf1; obtain rfl := harg2.eq_unread hf2; obtain rfl := harg3.eq_unread hf3; obtain rfl := harg4.eq_unread hf4; obtain rfl := harg32.eq_unread hf32; obtain rfl := harg33.eq_unread hf33
  sl_exec (disch := first | exact hc1 | exact hc2 | exact hc3 | exact hc4)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H32]
  · iexists _; isplitr
    swap; · iexact H32
    ipureintro
    sl_unfold_run_names
    rw [read_whole2]
    simp only [View.readAt_eq_ld, Memref.IsWhole.read_unread, View.ld_unit_zero (S := S10000x128) hz2, View.ld_unit_zero (S := S128x128) hz2]
  iexists _; isplitr
  swap
  · iexists _; isplitr
    swap; · iexact H33
    ipureintro; rfl
  ipureintro
  sl_unfold_run_names
  simp only [View.readAt_eq_ld, Memref.IsWhole.read_unread, View.ld_unit_zero (S := S400x10000) hz2, View.ld_unit_zero (S := S10000x128) hz2, View.ld_unit_zero (S := S128x128) hz2, View.ld_unit_zero (S := S1x128) hz2, View.readCov_unit_zero (S := S10000x128) _ hz2]
  exact upd_of_store _ _ xs1 (harg33.read_unread xs1) _ o ho hoff _ _

end Cert.Kernel.Hand

end
-- ==== Proof.BitsBodyRunB.lean ====
/-
  One run of the kernel body in each of the four cases a grid point can be in, at any float instance: from the buffers
  the body loads held at given contents, the body runs to its end without a fault and leaves every buffer it only
  loads as it was and every buffer it stores into at the stored values — named through the body's payload terms.
-/
import proofs.«162148_g73521250173546_cont_sun_c4_545_9_alg».proof.Proof.Gen.Kernel.Launch
import proofs.«162148_g73521250173546_cont_sun_c4_545_9_alg».proof.Proof.Gen.Kernel.Skeleton
import proofs.«162148_g73521250173546_cont_sun_c4_545_9_alg».proof.Proof.Gen.Kernel.Points
import proofs.«162148_g73521250173546_cont_sun_c4_545_9_alg».proof.Proof.Gen.Kernel.Frame
import proofs.«162148_g73521250173546_cont_sun_c4_545_9_alg».proof.Proof.BitsFrameCommon
import proofs.«162148_g73521250173546_cont_sun_c4_545_9_alg».proof.Proof.BitsBodyVals
import Idealize.ShloMosaic.Lib.ValueIdx
import Idealize.ShloMosaic.Lib.WritesUnit
import Idealize.ShloMosaic.Lib.Pipeline.Value
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

set_option maxHeartbeats 4000000 in
/-- A later point of the first sweep: the body stores one more slab of `x1` at row `o`, computed from the adjacency tile,
    the first support and the bias; the operand blocks and the support are as it found them. -/
theorem runB (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S128x256 .f32) (harg7 : arg7.IsWhole) (arg8 : Memref sig .tc .vmem S64x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S256x128 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S128x10 .f32) (harg20 : arg20.IsWhole) (arg21 : Memref sig .tc .vmem S1x10 .f32) (harg21 : arg21.IsWhole) (arg22 : Memref sig .tc .vmem S128x256 .f32) (harg22 : arg22.IsWhole) (arg23 : Memref sig .tc .vmem S64x256 .f32) (harg23 : arg23.IsWhole) (arg24 : Memref sig .tc .vmem S1x256 .f32) (harg24 : arg24.IsWhole) (arg25 : Memref sig .tc .vmem S256x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S400x10 .f32) (harg29 : arg29.IsWhole) (arg30 : Memref sig .tc .vmem S400x128 .f32) (harg30 : arg30.IsWhole) (arg31 : Memref sig .tc .vmem S400x192 .f32) (harg31 : arg31.IsWhole) (arg32 : Memref sig .tc .vmem S10000x128 .bf16) (harg32 : arg32.IsWhole) (arg33 : Memref sig .tc .vmem S10000x128 .f32) (harg33 : arg33.IsWhole) (arg34 : Memref sig .tc .vmem S10000x64 .bf16) (harg34 : arg34.IsWhole)
    (hc1 : ¬cond1 i) (hc2 : cond2 i) (hc3 : ¬cond3 i) (hc4 : ¬cond4 i)
    (o : ℕ) (ho : o + 400 ≤ 10000) (hoff : k0_off1 i = ![o, 0])
    (x1 : Vec F S400x10000 .f32) (x4 : Vec F S1x128 .f32) (xs0 : Vec F S10000x128 .bf16) (xs1 : Vec F S10000x128 .f32)
    (E : Set ℕ) (K : PUnit → sProp 𝕄) :
    iprop(owns (c : Thread nD τ) arg1 fullShare x1 ∗ owns (c : Thread nD τ) arg4 fullShare x4 ∗ owns (c : Thread nD τ) arg32 fullShare xs0 ∗ owns (c : Thread nD τ) arg33 fullShare xs1
        ∗ (iprop(owns (c : Thread nD τ) arg1 fullShare x1 ∗ owns (c : Thread nD τ) arg4 fullShare x4 ∗ owns (c : Thread nD τ) arg32 fullShare xs0
            ∗ (∃ d, ⌜Upd o ho (k0_pay2 x1 xs0 x4) xs1 d⌝ ∗ owns (c : Thread nD τ) arg33 fullShare d)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34) K := by
  simp only [cc0__body_eq_skeleton]; unfold cc0__body_skel
  unfold owns
  iintro ⟨⟨%f1, %hf1, H1⟩, ⟨%f4, %hf4, H4⟩, ⟨%f32, %hf32, H32⟩, ⟨%f33, %hf33, H33⟩, Hk⟩
  obtain rfl := harg1.eq_unread hf1; obtain rfl := harg4.eq_unread hf4; obtain rfl := harg32.eq_unread hf32; obtain rfl := harg33.eq_unread hf33
  sl_exec (disch := first | exact hc1 | exact hc2 | exact hc3 | exact hc4)
  sl_step
  iapply Hk
  isplitl [H1]
  · iexists _; isplitr; · ipureintro; exact harg1.read_unread _
    iexact H1
  isplitl [H4]
  · iexists _; isplitr; · ipureintro; exact harg4.read_unread _
    iexact H4
  isplitl [H32]
  · iexists _; isplitr; · ipureintro; exact harg32.read_unread _
    iexact H32
  iexists _; isplitr
  swap
  · iexists _; isplitr
    swap; · iexact H33
    ipureintro; rfl
  ipureintro
  simp only [View.readAt_eq_ld, Memref.IsWhole.read_unread, View.ld_unit_zero (S := S400x10000) hz2, View.ld_unit_zero (S := S10000x128) hz2, View.ld_unit_zero (S := S1x128) hz2]
  exact upd_of_store _ _ xs1 (harg33.read_unread xs1) _ o ho hoff _ _

end Cert.Kernel.Hand

end
-- ==== Proof.BitsBodyRunC.lean ====
/-
  One run of the kernel body in each of the four cases a grid point can be in, at any float instance: from the buffers
  the body loads held at given contents, the body runs to its end without a fault and leaves every buffer it only
  loads as it was and every buffer it stores into at the stored values — named through the body's payload terms.
-/
import proofs.«162148_g73521250173546_cont_sun_c4_545_9_alg».proof.Proof.Gen.Kernel.Launch
import proofs.«162148_g73521250173546_cont_sun_c4_545_9_alg».proof.Proof.Gen.Kernel.Skeleton
import proofs.«162148_g73521250173546_cont_sun_c4_545_9_alg».proof.Proof.Gen.Kernel.Points
import proofs.«162148_g73521250173546_cont_sun_c4_545_9_alg».proof.Proof.Gen.Kernel.Frame
import proofs.«162148_g73521250173546_cont_sun_c4_545_9_alg».proof.Proof.BitsFrameCommon
import proofs.«162148_g73521250173546_cont_sun_c4_545_9_alg».proof.Proof.BitsBodyVals
import Idealize.ShloMosaic.Lib.ValueIdx
import Idealize.ShloMosaic.Lib.WritesUnit
import Idealize.ShloMosaic.Lib.Pipeline.Value
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

set_option maxHeartbeats 16000000 in
/-- The first point of the second sweep: the body computes the second support from the whole of `x1`, then reads the slab of `x1` at row `o`, computes the slab
    of `x2` and both heads, and stores the three result blocks; the operand blocks and `x1` are as it found them. -/
theorem runC (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S128x256 .f32) (harg7 : arg7.IsWhole) (arg8 : Memref sig .tc .vmem S64x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S256x128 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S128x10 .f32) (harg20 : arg20.IsWhole) (arg21 : Memref sig .tc .vmem S1x10 .f32) (harg21 : arg21.IsWhole) (arg22 : Memref sig .tc .vmem S128x256 .f32) (harg22 : arg22.IsWhole) (arg23 : Memref sig .tc .vmem S64x256 .f32) (harg23 : arg23.IsWhole) (arg24 : Memref sig .tc .vmem S1x256 .f32) (harg24 : arg24.IsWhole) (arg25 : Memref sig .tc .vmem S256x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S400x10 .f32) (harg29 : arg29.IsWhole) (arg30 : Memref sig .tc .vmem S400x128 .f32) (harg30 : arg30.IsWhole) (arg31 : Memref sig .tc .vmem S400x192 .f32) (harg31 : arg31.IsWhole) (arg32 : Memref sig .tc .vmem S10000x128 .bf16) (harg32 : arg32.IsWhole) (arg33 : Memref sig .tc .vmem S10000x128 .f32) (harg33 : arg33.IsWhole) (arg34 : Memref sig .tc .vmem S10000x64 .bf16) (harg34 : arg34.IsWhole)
    (hc1 : ¬cond1 i) (hc2 : ¬cond2 i) (hc3 : cond3 i) (hc4 : cond4 i)
    (o : ℕ) (ho : o + 400 ≤ 10000) (hoff : k0_off2 i = ![o, 0])
    (x1 : Vec F S400x10000 .f32) (x5 : Vec F S128x64 .f32) (x6 : Vec F S1x64 .f32) (x7 : Vec F S128x256 .f32) (x8 : Vec F S64x256 .f32) (x9 : Vec F S1x256 .f32) (x10 : Vec F S1x256 .f32) (x11 : Vec F S1x256 .f32) (x12 : Vec F S1x256 .f32) (x13 : Vec F S1x256 .f32) (x14 : Vec F S256x128 .f32) (x15 : Vec F S1x128 .f32) (x16 : Vec F S1x128 .f32) (x17 : Vec F S1x128 .f32) (x18 : Vec F S1x128 .f32) (x19 : Vec F S1x128 .f32) (x20 : Vec F S128x10 .f32) (x21 : Vec F S1x10 .f32) (x22 : Vec F S128x256 .f32) (x23 : Vec F S64x256 .f32) (x24 : Vec F S1x256 .f32) (x25 : Vec F S256x128 .f32) (x26 : Vec F S1x128 .f32) (x27 : Vec F S128x128 .f32) (x28 : Vec F S1x128 .f32) (x29 : Vec F S400x10 .f32) (x30 : Vec F S400x128 .f32) (x31 : Vec F S400x192 .f32)
    (xs1 : Vec F S10000x128 .f32) (xj : Vec F S10000x64 .bf16)
    (E : Set ℕ) (K : PUnit → sProp 𝕄) :
    iprop(owns (c : Thread nD τ) arg1 fullShare x1 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg30 fullShare x30 ∗ owns (c : Thread nD τ) arg31 fullShare x31 ∗ owns (c : Thread nD τ) arg33 fullShare xs1 ∗ owns (c : Thread nD τ) arg34 fullShare xj
        ∗ (iprop(owns (c : Thread nD τ) arg1 fullShare x1 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28
            ∗ owns (c : Thread nD τ) arg29 fullShare (xc5Of (rowsOf o ho xs1) x1 (k0_pay3 xs1 x5) x6 x7 x8 x9 x10 x11 x12 x13 x14 x15 x16 x17 x18 x19 x20 x21)
            ∗ owns (c : Thread nD τ) arg30 fullShare (xr5Of (rowsOf o ho xs1) x1 (k0_pay3 xs1 x5) x6 x22 x23 x24 x25 x26 x27 x28)
            ∗ owns (c : Thread nD τ) arg31 fullShare (znOf (rowsOf o ho xs1) (k0_pay5 x1 (k0_pay3 xs1 x5) x6))
            ∗ owns (c : Thread nD τ) arg33 fullShare xs1 ∗ owns (c : Thread nD τ) arg34 fullShare (k0_pay3 xs1 x5)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34) K := by
  simp only [cc0__body_eq_skeleton]; unfold cc0__body_skel
  unfold owns
  iintro ⟨⟨%f1, %hf1, H1⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f33, %hf33, H33⟩, ⟨%f34, %hf34, H34⟩, Hk⟩
  obtain rfl := harg1.eq_unread hf1; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg23.eq_unread hf23; obtain rfl := harg24.eq_unread hf24; obtain rfl := harg25.eq_unread hf25; obtain rfl := harg26.eq_unread hf26; obtain rfl := harg27.eq_unread hf27; obtain rfl := harg28.eq_unread hf28; obtain rfl := harg29.eq_unread hf29; obtain rfl := harg30.eq_unread hf30; obtain rfl := harg31.eq_unread hf31; obtain rfl := harg33.eq_unread hf33; obtain rfl := harg34.eq_unread hf34
  sl_exec (disch := first | exact hc1 | exact hc2 | exact hc3 | exact hc4)
  sl_step
  iapply Hk
  isplitl [H1]
  · iexists _; isplitr; · ipureintro; exact harg1.read_unread _
    iexact H1
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H17]
  · iexists _; isplitr; · ipureintro; exact harg17.read_unread _
    iexact H17
  isplitl [H18]
  · iexists _; isplitr; · ipureintro; exact harg18.read_unread _
    iexact H18
  isplitl [H19]
  · iexists _; isplitr; · ipureintro; exact harg19.read_unread _
    iexact H19
  isplitl [H20]
  · iexists _; isplitr; · ipureintro; exact harg20.read_unread _
    iexact H20
  isplitl [H21]
  · iexists _; isplitr; · ipureintro; exact harg21.read_unread _
    iexact H21
  isplitl [H22]
  · iexists _; isplitr; · ipureintro; exact harg22.read_unread _
    iexact H22
  isplitl [H23]
  · iexists _; isplitr; · ipureintro; exact harg23.read_unread _
    iexact H23
  isplitl [H24]
  · iexists _; isplitr; · ipureintro; exact harg24.read_unread _
    iexact H24
  isplitl [H25]
  · iexists _; isplitr; · ipureintro; exact harg25.read_unread _
    iexact H25
  isplitl [H26]
  · iexists _; isplitr; · ipureintro; exact harg26.read_unread _
    iexact H26
  isplitl [H27]
  · iexists _; isplitr; · ipureintro; exact harg27.read_unread _
    iexact H27
  isplitl [H28]
  · iexists _; isplitr; · ipureintro; exact harg28.read_unread _
    iexact H28
  isplitl [H29]
  · iexists _; isplitr
    swap; · iexact H29
    ipureintro
    rw [read_whole2]
    sl_unfold_run_names
    simp only [View.readAt_eq_ld, Memref.IsWhole.read_unread, View.ld_unit_zero (S := S400x10000) hz2, View.ld_unit_zero (S := S10000x128) hz2, View.ld_unit_zero (S := S128x64) hz2, View.ld_unit_zero (S := S1x64) hz2, View.ld_unit_zero (S := S128x256) hz2, View.ld_unit_zero (S := S64x256) hz2, View.ld_unit_zero (S := S1x256) hz2, View.ld_unit_zero (S := S256x128) hz2, View.ld_unit_zero (S := S1x128) hz2, View.ld_unit_zero (S := S128x10) hz2, View.ld_unit_zero (S := S1x10) hz2, View.ld_unit_zero (S := S128x128) hz2, View.ld_unit_zero (S := S10000x64) hz2, ld_rows _ o ho hoff, View.readCov_unit_zero (S := S10000x64) _ hz2]
    rfl
  isplitl [H30]
  · iexists _; isplitr
    swap; · iexact H30
    ipureintro
    rw [read_whole2]
    sl_unfold_run_names
    simp only [View.readAt_eq_ld, Memref.IsWhole.read_unread, View.ld_unit_zero (S := S400x10000) hz2, View.ld_unit_zero (S := S10000x128) hz2, View.ld_unit_zero (S := S128x64) hz2, View.ld_unit_zero (S := S1x64) hz2, View.ld_unit_zero (S := S128x256) hz2, View.ld_unit_zero (S := S64x256) hz2, View.ld_unit_zero (S := S1x256) hz2, View.ld_unit_zero (S := S256x128) hz2, View.ld_unit_zero (S := S1x128) hz2, View.ld_unit_zero (S := S128x10) hz2, View.ld_unit_zero (S := S1x10) hz2, View.ld_unit_zero (S := S128x128) hz2, View.ld_unit_zero (S := S10000x64) hz2, ld_rows _ o ho hoff, View.readCov_unit_zero (S := S10000x64) _ hz2]
    rfl
  isplitl [H31]
  · iexists _; isplitr
    swap; · iexact H31
    ipureintro
    rw [read_zn]
    sl_unfold_run_names
    simp only [View.readAt_eq_ld, Memref.IsWhole.read_unread, View.ld_unit_zero (S := S400x10000) hz2, View.ld_unit_zero (S := S10000x128) hz2, View.ld_unit_zero (S := S128x64) hz2, View.ld_unit_zero (S := S1x64) hz2, View.ld_unit_zero (S := S128x256) hz2, View.ld_unit_zero (S := S64x256) hz2, View.ld_unit_zero (S := S1x256) hz2, View.ld_unit_zero (S := S256x128) hz2, View.ld_unit_zero (S := S1x128) hz2, View.ld_unit_zero (S := S128x10) hz2, View.ld_unit_zero (S := S1x10) hz2, View.ld_unit_zero (S := S128x128) hz2, View.ld_unit_zero (S := S10000x64) hz2, ld_rows _ o ho hoff, View.readCov_unit_zero (S := S10000x64) _ hz2]
  isplitl [H33]
  · iexists _; isplitr; · ipureintro; exact harg33.read_unread _
    iexact H33
  iexists _; isplitr
  swap; · iexact H34
  ipureintro
  sl_unfold_run_names
  rw [read_whole2]
  simp only [View.readAt_eq_ld, Memref.IsWhole.read_unread, View.ld_unit_zero (S := S10000x128) hz2, View.ld_unit_zero (S := S128x64) hz2]

end Cert.Kernel.Hand

end
-- ==== Proof.BitsBodyRunD.lean ====
/-
  One run of the kernel body in each of the four cases a grid point can be in, at any float instance: from the buffers
  the body loads held at given contents, the body runs to its end without a fault and leaves every buffer it only
  loads as it was and every buffer it stores into at the stored values — named through the body's payload terms.
-/
import proofs.«162148_g73521250173546_cont_sun_c4_545_9_alg».proof.Proof.Gen.Kernel.Launch
import proofs.«162148_g73521250173546_cont_sun_c4_545_9_alg».proof.Proof.Gen.Kernel.Skeleton
import proofs.«162148_g73521250173546_cont_sun_c4_545_9_alg».proof.Proof.Gen.Kernel.Points
import proofs.«162148_g73521250173546_cont_sun_c4_545_9_alg».proof.Proof.Gen.Kernel.Frame
import proofs.«162148_g73521250173546_cont_sun_c4_545_9_alg».proof.Proof.BitsFrameCommon
import proofs.«162148_g73521250173546_cont_sun_c4_545_9_alg».proof.Proof.BitsBodyVals
import Idealize.ShloMosaic.Lib.ValueIdx
import Idealize.ShloMosaic.Lib.WritesUnit
import Idealize.ShloMosaic.Lib.Pipeline.Value
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

set_option maxHeartbeats 16000000 in
/-- A point of the second sweep after its first: the body reads the slab of `x1` at row `o`, computes the slab
    of `x2` and both heads, and stores the three result blocks; the operand blocks and `x1` are as it found them. -/
theorem runD (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S128x256 .f32) (harg7 : arg7.IsWhole) (arg8 : Memref sig .tc .vmem S64x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S256x128 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S128x10 .f32) (harg20 : arg20.IsWhole) (arg21 : Memref sig .tc .vmem S1x10 .f32) (harg21 : arg21.IsWhole) (arg22 : Memref sig .tc .vmem S128x256 .f32) (harg22 : arg22.IsWhole) (arg23 : Memref sig .tc .vmem S64x256 .f32) (harg23 : arg23.IsWhole) (arg24 : Memref sig .tc .vmem S1x256 .f32) (harg24 : arg24.IsWhole) (arg25 : Memref sig .tc .vmem S256x128 .f32) (harg25 : arg25.IsWhole) (arg26 : Memref sig .tc .vmem S1x128 .f32) (harg26 : arg26.IsWhole) (arg27 : Memref sig .tc .vmem S128x128 .f32) (harg27 : arg27.IsWhole) (arg28 : Memref sig .tc .vmem S1x128 .f32) (harg28 : arg28.IsWhole) (arg29 : Memref sig .tc .vmem S400x10 .f32) (harg29 : arg29.IsWhole) (arg30 : Memref sig .tc .vmem S400x128 .f32) (harg30 : arg30.IsWhole) (arg31 : Memref sig .tc .vmem S400x192 .f32) (harg31 : arg31.IsWhole) (arg32 : Memref sig .tc .vmem S10000x128 .bf16) (harg32 : arg32.IsWhole) (arg33 : Memref sig .tc .vmem S10000x128 .f32) (harg33 : arg33.IsWhole) (arg34 : Memref sig .tc .vmem S10000x64 .bf16) (harg34 : arg34.IsWhole)
    (hc1 : ¬cond1 i) (hc2 : ¬cond2 i) (hc3 : ¬cond3 i) (hc4 : cond4 i)
    (o : ℕ) (ho : o + 400 ≤ 10000) (hoff : k0_off2 i = ![o, 0])
    (x1 : Vec F S400x10000 .f32) (x6 : Vec F S1x64 .f32) (x7 : Vec F S128x256 .f32) (x8 : Vec F S64x256 .f32) (x9 : Vec F S1x256 .f32) (x10 : Vec F S1x256 .f32) (x11 : Vec F S1x256 .f32) (x12 : Vec F S1x256 .f32) (x13 : Vec F S1x256 .f32) (x14 : Vec F S256x128 .f32) (x15 : Vec F S1x128 .f32) (x16 : Vec F S1x128 .f32) (x17 : Vec F S1x128 .f32) (x18 : Vec F S1x128 .f32) (x19 : Vec F S1x128 .f32) (x20 : Vec F S128x10 .f32) (x21 : Vec F S1x10 .f32) (x22 : Vec F S128x256 .f32) (x23 : Vec F S64x256 .f32) (x24 : Vec F S1x256 .f32) (x25 : Vec F S256x128 .f32) (x26 : Vec F S1x128 .f32) (x27 : Vec F S128x128 .f32) (x28 : Vec F S1x128 .f32) (x29 : Vec F S400x10 .f32) (x30 : Vec F S400x128 .f32) (x31 : Vec F S400x192 .f32)
    (xs1 : Vec F S10000x128 .f32) (xs2 : Vec F S10000x64 .bf16)
    (E : Set ℕ) (K : PUnit → sProp 𝕄) :
    iprop(owns (c : Thread nD τ) arg1 fullShare x1 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg30 fullShare x30 ∗ owns (c : Thread nD τ) arg31 fullShare x31 ∗ owns (c : Thread nD τ) arg33 fullShare xs1 ∗ owns (c : Thread nD τ) arg34 fullShare xs2
        ∗ (iprop(owns (c : Thread nD τ) arg1 fullShare x1 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28
            ∗ owns (c : Thread nD τ) arg29 fullShare (xc5Of (rowsOf o ho xs1) x1 xs2 x6 x7 x8 x9 x10 x11 x12 x13 x14 x15 x16 x17 x18 x19 x20 x21)
            ∗ owns (c : Thread nD τ) arg30 fullShare (xr5Of (rowsOf o ho xs1) x1 xs2 x6 x22 x23 x24 x25 x26 x27 x28)
            ∗ owns (c : Thread nD τ) arg31 fullShare (znOf (rowsOf o ho xs1) (k0_pay5 x1 xs2 x6))
            ∗ owns (c : Thread nD τ) arg33 fullShare xs1 ∗ owns (c : Thread nD τ) arg34 fullShare xs2) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34) K := by
  simp only [cc0__body_eq_skeleton]; unfold cc0__body_skel
  unfold owns
  iintro ⟨⟨%f1, %hf1, H1⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f33, %hf33, H33⟩, ⟨%f34, %hf34, H34⟩, Hk⟩
  obtain rfl := harg1.eq_unread hf1; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg23.eq_unread hf23; obtain rfl := harg24.eq_unread hf24; obtain rfl := harg25.eq_unread hf25; obtain rfl := harg26.eq_unread hf26; obtain rfl := harg27.eq_unread hf27; obtain rfl := harg28.eq_unread hf28; obtain rfl := harg29.eq_unread hf29; obtain rfl := harg30.eq_unread hf30; obtain rfl := harg31.eq_unread hf31; obtain rfl := harg33.eq_unread hf33; obtain rfl := harg34.eq_unread hf34
  sl_exec (disch := first | exact hc1 | exact hc2 | exact hc3 | exact hc4)
  sl_step
  iapply Hk
  isplitl [H1]
  · iexists _; isplitr; · ipureintro; exact harg1.read_unread _
    iexact H1
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H17]
  · iexists _; isplitr; · ipureintro; exact harg17.read_unread _
    iexact H17
  isplitl [H18]
  · iexists _; isplitr; · ipureintro; exact harg18.read_unread _
    iexact H18
  isplitl [H19]
  · iexists _; isplitr; · ipureintro; exact harg19.read_unread _
    iexact H19
  isplitl [H20]
  · iexists _; isplitr; · ipureintro; exact harg20.read_unread _
    iexact H20
  isplitl [H21]
  · iexists _; isplitr; · ipureintro; exact harg21.read_unread _
    iexact H21
  isplitl [H22]
  · iexists _; isplitr; · ipureintro; exact harg22.read_unread _
    iexact H22
  isplitl [H23]
  · iexists _; isplitr; · ipureintro; exact harg23.read_unread _
    iexact H23
  isplitl [H24]
  · iexists _; isplitr; · ipureintro; exact harg24.read_unread _
    iexact H24
  isplitl [H25]
  · iexists _; isplitr; · ipureintro; exact harg25.read_unread _
    iexact H25
  isplitl [H26]
  · iexists _; isplitr; · ipureintro; exact harg26.read_unread _
    iexact H26
  isplitl [H27]
  · iexists _; isplitr; · ipureintro; exact harg27.read_unread _
    iexact H27
  isplitl [H28]
  · iexists _; isplitr; · ipureintro; exact harg28.read_unread _
    iexact H28
  isplitl [H29]
  · iexists _; isplitr
    swap; · iexact H29
    ipureintro
    rw [read_whole2]
    sl_unfold_run_names
    simp only [View.readAt_eq_ld, Memref.IsWhole.read_unread, View.ld_unit_zero (S := S400x10000) hz2, View.ld_unit_zero (S := S1x64) hz2, View.ld_unit_zero (S := S128x256) hz2, View.ld_unit_zero (S := S64x256) hz2, View.ld_unit_zero (S := S1x256) hz2, View.ld_unit_zero (S := S256x128) hz2, View.ld_unit_zero (S := S1x128) hz2, View.ld_unit_zero (S := S128x10) hz2, View.ld_unit_zero (S := S1x10) hz2, View.ld_unit_zero (S := S128x128) hz2, View.ld_unit_zero (S := S10000x64) hz2, ld_rows _ o ho hoff]
    rfl
  isplitl [H30]
  · iexists _; isplitr
    swap; · iexact H30
    ipureintro
    rw [read_whole2]
    sl_unfold_run_names
    simp only [View.readAt_eq_ld, Memref.IsWhole.read_unread, View.ld_unit_zero (S := S400x10000) hz2, View.ld_unit_zero (S := S1x64) hz2, View.ld_unit_zero (S := S128x256) hz2, View.ld_unit_zero (S := S64x256) hz2, View.ld_unit_zero (S := S1x256) hz2, View.ld_unit_zero (S := S256x128) hz2, View.ld_unit_zero (S := S1x128) hz2, View.ld_unit_zero (S := S128x10) hz2, View.ld_unit_zero (S := S1x10) hz2, View.ld_unit_zero (S := S128x128) hz2, View.ld_unit_zero (S := S10000x64) hz2, ld_rows _ o ho hoff]
    rfl
  isplitl [H31]
  · iexists _; isplitr
    swap; · iexact H31
    ipureintro
    rw [read_zn]
    sl_unfold_run_names
    simp only [View.readAt_eq_ld, Memref.IsWhole.read_unread, View.ld_unit_zero (S := S400x10000) hz2, View.ld_unit_zero (S := S1x64) hz2, View.ld_unit_zero (S := S128x256) hz2, View.ld_unit_zero (S := S64x256) hz2, View.ld_unit_zero (S := S1x256) hz2, View.ld_unit_zero (S := S256x128) hz2, View.ld_unit_zero (S := S1x128) hz2, View.ld_unit_zero (S := S128x10) hz2, View.ld_unit_zero (S := S1x10) hz2, View.ld_unit_zero (S := S128x128) hz2, View.ld_unit_zero (S := S10000x64) hz2, ld_rows _ o ho hoff]
  isplitl [H33]
  · iexists _; isplitr; · ipureintro; exact harg33.read_unread _
    iexact H33
  iexists _; isplitr; · ipureintro; exact harg34.read_unread _
  iexact H34

end Cert.Kernel.Hand

end
-- ==== Proof.BitsKFrame.lean ====
/-
  The frame of the kernel program: the pipeline's proof data for the one pallas_call and the body's obligation at every
  grid point. The three scratch buffers are carried from point to point: after point 0 the first holds the support `s1`;
  after point `n - 1` the second holds the right rows of `x1` on its first `400 n` rows (all of them from point 24 on);
  from point 25 on the third holds the support `s2`. Each point is one of four cases (the first point; the rest of the
  first sweep; the first point of the second sweep; the rest of it), and in each the body's run gives back the
  operand blocks as it found them, the scratch buffers at the next point's contents, and in the second sweep the three
  result blocks at their named values.
-/
import proofs.«162148_g73521250173546_cont_sun_c4_545_9_alg».proof.Proof.Gen.Kernel.Launch
import proofs.«162148_g73521250173546_cont_sun_c4_545_9_alg».proof.Proof.Gen.Kernel.Skeleton
import proofs.«162148_g73521250173546_cont_sun_c4_545_9_alg».proof.Proof.Gen.Kernel.Points
import proofs.«162148_g73521250173546_cont_sun_c4_545_9_alg».proof.Proof.Gen.Kernel.Frame
import proofs.«162148_g73521250173546_cont_sun_c4_545_9_alg».proof.Proof.BitsFrameCommon
import proofs.«162148_g73521250173546_cont_sun_c4_545_9_alg».proof.Proof.BitsFrameVals
import proofs.«162148_g73521250173546_cont_sun_c4_545_9_alg».proof.Proof.BitsBodyVals
import proofs.«162148_g73521250173546_cont_sun_c4_545_9_alg».proof.Proof.BitsBodyRunA
import proofs.«162148_g73521250173546_cont_sun_c4_545_9_alg».proof.Proof.BitsBodyRunB
import proofs.«162148_g73521250173546_cont_sun_c4_545_9_alg».proof.Proof.BitsBodyRunC
import proofs.«162148_g73521250173546_cont_sun_c4_545_9_alg».proof.Proof.BitsBodyRunD
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## The staging memrefs at a point -/

abbrev ms0 (t : Fin cfg0.N) : Memref sig .tc .vmem S400x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x64 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S128x256 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S64x256 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x256 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x256 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x256 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x256 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S1x256 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S256x128 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S1x128 .f32 := win0_14.stage (cfg0.slots t 14)
abbrev hs14 (t : Fin cfg0.N) : (ms14 t).IsWhole := hstage0_14 ((cfg0.slots t 14).cast nbuf0_14)
abbrev ms15 (t : Fin cfg0.N) : Memref sig .tc .vmem S1x128 .f32 := win0_15.stage (cfg0.slots t 15)
abbrev hs15 (t : Fin cfg0.N) : (ms15 t).IsWhole := hstage0_15 ((cfg0.slots t 15).cast nbuf0_15)
abbrev ms16 (t : Fin cfg0.N) : Memref sig .tc .vmem S1x128 .f32 := win0_16.stage (cfg0.slots t 16)
abbrev hs16 (t : Fin cfg0.N) : (ms16 t).IsWhole := hstage0_16 ((cfg0.slots t 16).cast nbuf0_16)
abbrev ms17 (t : Fin cfg0.N) : Memref sig .tc .vmem S1x128 .f32 := win0_17.stage (cfg0.slots t 17)
abbrev hs17 (t : Fin cfg0.N) : (ms17 t).IsWhole := hstage0_17 ((cfg0.slots t 17).cast nbuf0_17)
abbrev ms18 (t : Fin cfg0.N) : Memref sig .tc .vmem S1x128 .f32 := win0_18.stage (cfg0.slots t 18)
abbrev hs18 (t : Fin cfg0.N) : (ms18 t).IsWhole := hstage0_18 ((cfg0.slots t 18).cast nbuf0_18)
abbrev ms19 (t : Fin cfg0.N) : Memref sig .tc .vmem S128x10 .f32 := win0_19.stage (cfg0.slots t 19)
abbrev hs19 (t : Fin cfg0.N) : (ms19 t).IsWhole := hstage0_19 ((cfg0.slots t 19).cast nbuf0_19)
abbrev ms20 (t : Fin cfg0.N) : Memref sig .tc .vmem S1x10 .f32 := win0_20.stage (cfg0.slots t 20)
abbrev hs20 (t : Fin cfg0.N) : (ms20 t).IsWhole := hstage0_20 ((cfg0.slots t 20).cast nbuf0_20)
abbrev ms21 (t : Fin cfg0.N) : Memref sig .tc .vmem S128x256 .f32 := win0_21.stage (cfg0.slots t 21)
abbrev hs21 (t : Fin cfg0.N) : (ms21 t).IsWhole := hstage0_21 ((cfg0.slots t 21).cast nbuf0_21)
abbrev ms22 (t : Fin cfg0.N) : Memref sig .tc .vmem S64x256 .f32 := win0_22.stage (cfg0.slots t 22)
abbrev hs22 (t : Fin cfg0.N) : (ms22 t).IsWhole := hstage0_22 ((cfg0.slots t 22).cast nbuf0_22)
abbrev ms23 (t : Fin cfg0.N) : Memref sig .tc .vmem S1x256 .f32 := win0_23.stage (cfg0.slots t 23)
abbrev hs23 (t : Fin cfg0.N) : (ms23 t).IsWhole := hstage0_23 ((cfg0.slots t 23).cast nbuf0_23)
abbrev ms24 (t : Fin cfg0.N) : Memref sig .tc .vmem S256x128 .f32 := win0_24.stage (cfg0.slots t 24)
abbrev hs24 (t : Fin cfg0.N) : (ms24 t).IsWhole := hstage0_24 ((cfg0.slots t 24).cast nbuf0_24)
abbrev ms25 (t : Fin cfg0.N) : Memref sig .tc .vmem S1x128 .f32 := win0_25.stage (cfg0.slots t 25)
abbrev hs25 (t : Fin cfg0.N) : (ms25 t).IsWhole := hstage0_25 ((cfg0.slots t 25).cast nbuf0_25)
abbrev ms26 (t : Fin cfg0.N) : Memref sig .tc .vmem S128x128 .f32 := win0_26.stage (cfg0.slots t 26)
abbrev hs26 (t : Fin cfg0.N) : (ms26 t).IsWhole := hstage0_26 ((cfg0.slots t 26).cast nbuf0_26)
abbrev ms27 (t : Fin cfg0.N) : Memref sig .tc .vmem S1x128 .f32 := win0_27.stage (cfg0.slots t 27)
abbrev hs27 (t : Fin cfg0.N) : (ms27 t).IsWhole := hstage0_27 ((cfg0.slots t 27).cast nbuf0_27)
abbrev ms28 (t : Fin cfg0.N) : Memref sig .tc .vmem S400x10 .f32 := win0_28.stage (cfg0.slots t 28)
abbrev hs28 (t : Fin cfg0.N) : (ms28 t).IsWhole := hstage0_28 ((cfg0.slots t 28).cast nbuf0_28)
abbrev ms29 (t : Fin cfg0.N) : Memref sig .tc .vmem S400x128 .f32 := win0_29.stage (cfg0.slots t 29)
abbrev hs29 (t : Fin cfg0.N) : (ms29 t).IsWhole := hstage0_29 ((cfg0.slots t 29).cast nbuf0_29)
abbrev ms30 (t : Fin cfg0.N) : Memref sig .tc .vmem S400x192 .f32 := win0_30.stage (cfg0.slots t 30)
abbrev hs30 (t : Fin cfg0.N) : (ms30 t).IsWhole := hstage0_30 ((cfg0.slots t 30).cast nbuf0_30)

/-! ## An operand window is never idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem liveAt4 : ∀ t : Fin cfg0.N, cfg0.idle 4 (grid0.coords t) = false := by decide +kernel
theorem liveAt5 : ∀ t : Fin cfg0.N, cfg0.idle 5 (grid0.coords t) = false := by decide +kernel
theorem liveAt6 : ∀ t : Fin cfg0.N, cfg0.idle 6 (grid0.coords t) = false := by decide +kernel
theorem liveAt7 : ∀ t : Fin cfg0.N, cfg0.idle 7 (grid0.coords t) = false := by decide +kernel
theorem liveAt8 : ∀ t : Fin cfg0.N, cfg0.idle 8 (grid0.coords t) = false := by decide +kernel
theorem liveAt9 : ∀ t : Fin cfg0.N, cfg0.idle 9 (grid0.coords t) = false := by decide +kernel
theorem liveAt10 : ∀ t : Fin cfg0.N, cfg0.idle 10 (grid0.coords t) = false := by decide +kernel
theorem liveAt11 : ∀ t : Fin cfg0.N, cfg0.idle 11 (grid0.coords t) = false := by decide +kernel
theorem liveAt12 : ∀ t : Fin cfg0.N, cfg0.idle 12 (grid0.coords t) = false := by decide +kernel
theorem liveAt13 : ∀ t : Fin cfg0.N, cfg0.idle 13 (grid0.coords t) = false := by decide +kernel
theorem liveAt14 : ∀ t : Fin cfg0.N, cfg0.idle 14 (grid0.coords t) = false := by decide +kernel
theorem liveAt15 : ∀ t : Fin cfg0.N, cfg0.idle 15 (grid0.coords t) = false := by decide +kernel
theorem liveAt16 : ∀ t : Fin cfg0.N, cfg0.idle 16 (grid0.coords t) = false := by decide +kernel
theorem liveAt17 : ∀ t : Fin cfg0.N, cfg0.idle 17 (grid0.coords t) = false := by decide +kernel
theorem liveAt18 : ∀ t : Fin cfg0.N, cfg0.idle 18 (grid0.coords t) = false := by decide +kernel
theorem liveAt19 : ∀ t : Fin cfg0.N, cfg0.idle 19 (grid0.coords t) = false := by decide +kernel
theorem liveAt20 : ∀ t : Fin cfg0.N, cfg0.idle 20 (grid0.coords t) = false := by decide +kernel
theorem liveAt21 : ∀ t : Fin cfg0.N, cfg0.idle 21 (grid0.coords t) = false := by decide +kernel
theorem liveAt22 : ∀ t : Fin cfg0.N, cfg0.idle 22 (grid0.coords t) = false := by decide +kernel
theorem liveAt23 : ∀ t : Fin cfg0.N, cfg0.idle 23 (grid0.coords t) = false := by decide +kernel
theorem liveAt24 : ∀ t : Fin cfg0.N, cfg0.idle 24 (grid0.coords t) = false := by decide +kernel
theorem liveAt25 : ∀ t : Fin cfg0.N, cfg0.idle 25 (grid0.coords t) = false := by decide +kernel
theorem liveAt26 : ∀ t : Fin cfg0.N, cfg0.idle 26 (grid0.coords t) = false := by decide +kernel
theorem liveAt27 : ∀ t : Fin cfg0.N, cfg0.idle 27 (grid0.coords t) = false := by decide +kernel

/-! ## What the second scratch buffer holds: the right rows of `x1` so far -/

/-- The first `400 n` rows of `d` are `x1`'s. -/
def X1ok (c : Dev nD) (n : ℕ) (d : Vec F S10000x128 .f32) : Prop :=
  ∀ y : S10000x128.Idx, (y 0).val < 400 * n → d y = X1v m c y

/-- The invariant before point `n`: at the launch the three scratch buffers hold anything; afterwards the first holds
    `s1`, the second `x1` on its first `400 n` rows, the third `s2` once point 25 has run. -/
def PhiS (c : Dev nD) : ℕ → sProp 𝕄
  | 0 => Pipeline.ΦA spec0 c
  | n + 1 => iprop(iprop(owns (c : Thread nD τ) scM0 fullShare (S1v m c)
        ∗ (∃ d, ⌜X1ok m c (n + 1) d⌝ ∗ owns (c : Thread nD τ) scM1 fullShare d)
        ∗ (∃ d, ⌜26 ≤ n + 1 → d = S2v m c⌝ ∗ owns (c : Thread nD τ) scM2 fullShare d)) ∗ (∃ r, prngReg c r))

theorem PhiS_succ (c : Dev nD) (n : ℕ) :
    PhiS m c (n + 1) = iprop(iprop(owns (c : Thread nD τ) scM0 fullShare (S1v m c)
        ∗ (∃ d, ⌜X1ok m c (n + 1) d⌝ ∗ owns (c : Thread nD τ) scM1 fullShare d)
        ∗ (∃ d, ⌜26 ≤ n + 1 → d = S2v m c⌝ ∗ owns (c : Thread nD τ) scM2 fullShare d)) ∗ (∃ r, prngReg c r)) := rfl

theorem PhiS_pos (c : Dev nD) (n : ℕ) (hn : n ≠ 0) :
    PhiS m c n = iprop(iprop(owns (c : Thread nD τ) scM0 fullShare (S1v m c)
        ∗ (∃ d, ⌜X1ok m c n d⌝ ∗ owns (c : Thread nD τ) scM1 fullShare d)
        ∗ (∃ d, ⌜26 ≤ n → d = S2v m c⌝ ∗ owns (c : Thread nD τ) scM2 fullShare d)) ∗ (∃ r, prngReg c r)) := by
  cases n with
  | zero => exact absurd rfl hn
  | succ n => rfl

/-! ## The pipeline's proof data -/

/-- The arrays as the region finds them; after the body each operand's buffer at its block, the results' at their named
    blocks; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => xc5blk m c t
    | ⟨29, _⟩ => xr5blk m c t
    | ⟨30, _⟩ => znblk m c t
    | ⟨_ + 31, h⟩ => absurd h (Nat.not_lt.2 (Nat.le_add_left _ _))
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem after16 (c : Dev nD) (t : Fin cfg0.N) : (dats m 0 c).after 16 t = iblk m c 16 t := by dsimp only [dats]
theorem after17 (c : Dev nD) (t : Fin cfg0.N) : (dats m 0 c).after 17 t = iblk m c 17 t := by dsimp only [dats]
theorem after18 (c : Dev nD) (t : Fin cfg0.N) : (dats m 0 c).after 18 t = iblk m c 18 t := by dsimp only [dats]
theorem after19 (c : Dev nD) (t : Fin cfg0.N) : (dats m 0 c).after 19 t = iblk m c 19 t := by dsimp only [dats]
theorem after20 (c : Dev nD) (t : Fin cfg0.N) : (dats m 0 c).after 20 t = iblk m c 20 t := by dsimp only [dats]
theorem after21 (c : Dev nD) (t : Fin cfg0.N) : (dats m 0 c).after 21 t = iblk m c 21 t := by dsimp only [dats]
theorem after22 (c : Dev nD) (t : Fin cfg0.N) : (dats m 0 c).after 22 t = iblk m c 22 t := by dsimp only [dats]
theorem after23 (c : Dev nD) (t : Fin cfg0.N) : (dats m 0 c).after 23 t = iblk m c 23 t := by dsimp only [dats]
theorem after24 (c : Dev nD) (t : Fin cfg0.N) : (dats m 0 c).after 24 t = iblk m c 24 t := by dsimp only [dats]
theorem after25 (c : Dev nD) (t : Fin cfg0.N) : (dats m 0 c).after 25 t = iblk m c 25 t := by dsimp only [dats]
theorem after26 (c : Dev nD) (t : Fin cfg0.N) : (dats m 0 c).after 26 t = iblk m c 26 t := by dsimp only [dats]
theorem after27 (c : Dev nD) (t : Fin cfg0.N) : (dats m 0 c).after 27 t = iblk m c 27 t := by dsimp only [dats]
theorem after28 (c : Dev nD) (t : Fin cfg0.N) : (dats m 0 c).after 28 t = xc5blk m c t := by dsimp only [dats]
theorem after29 (c : Dev nD) (t : Fin cfg0.N) : (dats m 0 c).after 29 t = xr5blk m c t := by dsimp only [dats]
theorem after30 (c : Dev nD) (t : Fin cfg0.N) : (dats m 0 c).after 30 t = znblk m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d
theorem before13 (c : Dev nD) (t : Fin cfg0.N) (d) : (dats m 0 c).before 13 t d = iblk m c 13 t :=
  before0_13_of m (dats m 0 c) (A_eq m c 13) (after13 m c) t d
theorem before14 (c : Dev nD) (t : Fin cfg0.N) (d) : (dats m 0 c).before 14 t d = iblk m c 14 t :=
  before0_14_of m (dats m 0 c) (A_eq m c 14) (after14 m c) t d
theorem before15 (c : Dev nD) (t : Fin cfg0.N) (d) : (dats m 0 c).before 15 t d = iblk m c 15 t :=
  before0_15_of m (dats m 0 c) (A_eq m c 15) (after15 m c) t d
theorem before16 (c : Dev nD) (t : Fin cfg0.N) (d) : (dats m 0 c).before 16 t d = iblk m c 16 t :=
  before0_16_of m (dats m 0 c) (A_eq m c 16) (after16 m c) t d
theorem before17 (c : Dev nD) (t : Fin cfg0.N) (d) : (dats m 0 c).before 17 t d = iblk m c 17 t :=
  before0_17_of m (dats m 0 c) (A_eq m c 17) (after17 m c) t d
theorem before18 (c : Dev nD) (t : Fin cfg0.N) (d) : (dats m 0 c).before 18 t d = iblk m c 18 t :=
  before0_18_of m (dats m 0 c) (A_eq m c 18) (after18 m c) t d
theorem before19 (c : Dev nD) (t : Fin cfg0.N) (d) : (dats m 0 c).before 19 t d = iblk m c 19 t :=
  before0_19_of m (dats m 0 c) (A_eq m c 19) (after19 m c) t d
theorem before20 (c : Dev nD) (t : Fin cfg0.N) (d) : (dats m 0 c).before 20 t d = iblk m c 20 t :=
  before0_20_of m (dats m 0 c) (A_eq m c 20) (after20 m c) t d
theorem before21 (c : Dev nD) (t : Fin cfg0.N) (d) : (dats m 0 c).before 21 t d = iblk m c 21 t :=
  before0_21_of m (dats m 0 c) (A_eq m c 21) (after21 m c) t d
theorem before22 (c : Dev nD) (t : Fin cfg0.N) (d) : (dats m 0 c).before 22 t d = iblk m c 22 t :=
  before0_22_of m (dats m 0 c) (A_eq m c 22) (after22 m c) t d
theorem before23 (c : Dev nD) (t : Fin cfg0.N) (d) : (dats m 0 c).before 23 t d = iblk m c 23 t :=
  before0_23_of m (dats m 0 c) (A_eq m c 23) (after23 m c) t d
theorem before24 (c : Dev nD) (t : Fin cfg0.N) (d) : (dats m 0 c).before 24 t d = iblk m c 24 t :=
  before0_24_of m (dats m 0 c) (A_eq m c 24) (after24 m c) t d
theorem before25 (c : Dev nD) (t : Fin cfg0.N) (d) : (dats m 0 c).before 25 t d = iblk m c 25 t :=
  before0_25_of m (dats m 0 c) (A_eq m c 25) (after25 m c) t d
theorem before26 (c : Dev nD) (t : Fin cfg0.N) (d) : (dats m 0 c).before 26 t d = iblk m c 26 t :=
  before0_26_of m (dats m 0 c) (A_eq m c 26) (after26 m c) t d
theorem before27 (c : Dev nD) (t : Fin cfg0.N) (d) : (dats m 0 c).before 27 t d = iblk m c 27 t :=
  before0_27_of m (dats m 0 c) (A_eq m c 27) (after27 m c) t d

theorem Phi_castSucc (c : Dev nD) (t : Fin cfg0.N) : (dats m 0 c).Φ t.castSucc = PhiS m c t.val := by
  dsimp only [dats]; simp only [Fin.coe_castSucc]

/-! ## The body obligation at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d))
    ∗ (∃ d, owns (c : Thread nD τ) (ms16 t) fullShare ((dats m 0 c).before 16 t d))
    ∗ (∃ d, owns (c : Thread nD τ) (ms17 t) fullShare ((dats m 0 c).before 17 t d))
    ∗ (∃ d, owns (c : Thread nD τ) (ms18 t) fullShare ((dats m 0 c).before 18 t d))
    ∗ (∃ d, owns (c : Thread nD τ) (ms19 t) fullShare ((dats m 0 c).before 19 t d))
    ∗ (∃ d, owns (c : Thread nD τ) (ms20 t) fullShare ((dats m 0 c).before 20 t d))
    ∗ (∃ d, owns (c : Thread nD τ) (ms21 t) fullShare ((dats m 0 c).before 21 t d))
    ∗ (∃ d, owns (c : Thread nD τ) (ms22 t) fullShare ((dats m 0 c).before 22 t d))
    ∗ (∃ d, owns (c : Thread nD τ) (ms23 t) fullShare ((dats m 0 c).before 23 t d))
    ∗ (∃ d, owns (c : Thread nD τ) (ms24 t) fullShare ((dats m 0 c).before 24 t d))
    ∗ (∃ d, owns (c : Thread nD τ) (ms25 t) fullShare ((dats m 0 c).before 25 t d))
    ∗ (∃ d, owns (c : Thread nD τ) (ms26 t) fullShare ((dats m 0 c).before 26 t d))
    ∗ (∃ d, owns (c : Thread nD τ) (ms27 t) fullShare ((dats m 0 c).before 27 t d))
    ∗ (∃ d, owns (c : Thread nD τ) (ms28 t) fullShare ((dats m 0 c).before 28 t d))
    ∗ (∃ d, owns (c : Thread nD τ) (ms29 t) fullShare ((dats m 0 c).before 29 t d))
    ∗ (∃ d, owns (c : Thread nD τ) (ms30 t) fullShare ((dats m 0 c).before 30 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t
    ∗ (dats m 0 c).leavesExact 24 t
    ∗ (dats m 0 c).leavesExact 25 t
    ∗ (dats m 0 c).leavesExact 26 t
    ∗ (dats m 0 c).leavesExact 27 t
    ∗ (dats m 0 c).leavesExact 28 t
    ∗ (dats m 0 c).leavesExact 29 t
    ∗ (dats m 0 c).leavesExact 30 t)

/-- One more slab: if the first `400 t` rows are right and the slab of point `t` is stored at row `400 (t mod 25)`, the
    first `400 (t + 1)` rows are right (`t < 25`). -/
theorem X1ok_step (c : Dev nD) (t : Fin cfg0.N) (ht : t.val < 25) (xs d : Vec F S10000x128 .f32)
    (hxs : X1ok m c t.val xs) (hU : Upd (400 * (t.val % 25)) (by omega) (slab1 m c t) xs d) : X1ok m c (t.val + 1) d := by
  intro y hy
  have hmod : t.val % 25 = t.val := Nat.mod_eq_of_lt ht
  by_cases hlo : (y 0).val < 400 * t.val
  · rw [hU.2 y (Or.inl (by rw [hmod]; exact hlo))]; exact hxs y hlo
  · have hy1 := idx2_lt1 y
    have e : y = rowAt (400 * (t.val % 25)) (by omega) (ix2 (⟨(y 0).val - 400 * t.val, by omega⟩ : Fin 400) (⟨(y 1).val, hy1⟩ : Fin 128)) := by
      funext a
      match a with
      | ⟨0, _⟩ => exact Fin.ext (by show (y 0).val = 400 * (t.val % 25) + ((y 0).val - 400 * t.val); rw [hmod]; omega)
      | ⟨1, _⟩ => rfl
    rw [e, hU.1]
    unfold X1v
    have hdiv : (400 * (t.val % 25) + ((y 0).val - 400 * t.val)) / 400 = t.val := by rw [hmod]; omega
    have hrem : (400 * (t.val % 25) + ((y 0).val - 400 * t.val)) % 400 = (y 0).val - 400 * t.val := by rw [hmod]; omega
    have ht' : (⟨(400 * (t.val % 25) + ((y 0).val - 400 * t.val)) / 400, by omega⟩ : Fin cfg0.N) = t := Fin.ext hdiv
    show slab1 m c t _ = slab1 m c ⟨(400 * (t.val % 25) + ((y 0).val - 400 * t.val)) / 400, _⟩ _
    rw [ht']
    exact congrArg (slab1 m c t) (funext fun a => by
      match a with
      | ⟨0, _⟩ => exact Fin.ext hrem.symm
      | ⟨1, _⟩ => rfl)

set_option maxHeartbeats 16000000 in
/-- The body at any point: the operand blocks are in their buffers; the point's number says which of the four cases it
    is; the case's run gives the buffers back as the proof data names them and the scratch buffers at the next point's
    contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15, before16, before17, before18, before19, before20, before21, before22, before23, before24, before25, before26, before27]
  rw [show (dats m 0 c).owesAt () t.succ = (dats m 0 c).owesAt () t.castSucc from rfl]
  rw [show (dats m 0 c).Φ t.succ = PhiS m c (t.val + 1) from rfl, PhiS_succ, Phi_castSucc]
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  rw [show (dats m 0 c).leavesExact 2 t = owns (c : Thread nD τ) (ms2 t) fullShare ((dats m 0 c).after 2 t) from by
    unfold Dat.leavesExact; rw [liveAt2 t], after2]
  rw [show (dats m 0 c).leavesExact 3 t = owns (c : Thread nD τ) (ms3 t) fullShare ((dats m 0 c).after 3 t) from by
    unfold Dat.leavesExact; rw [liveAt3 t], after3]
  rw [show (dats m 0 c).leavesExact 4 t = owns (c : Thread nD τ) (ms4 t) fullShare ((dats m 0 c).after 4 t) from by
    unfold Dat.leavesExact; rw [liveAt4 t], after4]
  rw [show (dats m 0 c).leavesExact 5 t = owns (c : Thread nD τ) (ms5 t) fullShare ((dats m 0 c).after 5 t) from by
    unfold Dat.leavesExact; rw [liveAt5 t], after5]
  rw [show (dats m 0 c).leavesExact 6 t = owns (c : Thread nD τ) (ms6 t) fullShare ((dats m 0 c).after 6 t) from by
    unfold Dat.leavesExact; rw [liveAt6 t], after6]
  rw [show (dats m 0 c).leavesExact 7 t = owns (c : Thread nD τ) (ms7 t) fullShare ((dats m 0 c).after 7 t) from by
    unfold Dat.leavesExact; rw [liveAt7 t], after7]
  rw [show (dats m 0 c).leavesExact 8 t = owns (c : Thread nD τ) (ms8 t) fullShare ((dats m 0 c).after 8 t) from by
    unfold Dat.leavesExact; rw [liveAt8 t], after8]
  rw [show (dats m 0 c).leavesExact 9 t = owns (c : Thread nD τ) (ms9 t) fullShare ((dats m 0 c).after 9 t) from by
    unfold Dat.leavesExact; rw [liveAt9 t], after9]
  rw [show (dats m 0 c).leavesExact 10 t = owns (c : Thread nD τ) (ms10 t) fullShare ((dats m 0 c).after 10 t) from by
    unfold Dat.leavesExact; rw [liveAt10 t], after10]
  rw [show (dats m 0 c).leavesExact 11 t = owns (c : Thread nD τ) (ms11 t) fullShare ((dats m 0 c).after 11 t) from by
    unfold Dat.leavesExact; rw [liveAt11 t], after11]
  rw [show (dats m 0 c).leavesExact 12 t = owns (c : Thread nD τ) (ms12 t) fullShare ((dats m 0 c).after 12 t) from by
    unfold Dat.leavesExact; rw [liveAt12 t], after12]
  rw [show (dats m 0 c).leavesExact 13 t = owns (c : Thread nD τ) (ms13 t) fullShare ((dats m 0 c).after 13 t) from by
    unfold Dat.leavesExact; rw [liveAt13 t], after13]
  rw [show (dats m 0 c).leavesExact 14 t = owns (c : Thread nD τ) (ms14 t) fullShare ((dats m 0 c).after 14 t) from by
    unfold Dat.leavesExact; rw [liveAt14 t], after14]
  rw [show (dats m 0 c).leavesExact 15 t = owns (c : Thread nD τ) (ms15 t) fullShare ((dats m 0 c).after 15 t) from by
    unfold Dat.leavesExact; rw [liveAt15 t], after15]
  rw [show (dats m 0 c).leavesExact 16 t = owns (c : Thread nD τ) (ms16 t) fullShare ((dats m 0 c).after 16 t) from by
    unfold Dat.leavesExact; rw [liveAt16 t], after16]
  rw [show (dats m 0 c).leavesExact 17 t = owns (c : Thread nD τ) (ms17 t) fullShare ((dats m 0 c).after 17 t) from by
    unfold Dat.leavesExact; rw [liveAt17 t], after17]
  rw [show (dats m 0 c).leavesExact 18 t = owns (c : Thread nD τ) (ms18 t) fullShare ((dats m 0 c).after 18 t) from by
    unfold Dat.leavesExact; rw [liveAt18 t], after18]
  rw [show (dats m 0 c).leavesExact 19 t = owns (c : Thread nD τ) (ms19 t) fullShare ((dats m 0 c).after 19 t) from by
    unfold Dat.leavesExact; rw [liveAt19 t], after19]
  rw [show (dats m 0 c).leavesExact 20 t = owns (c : Thread nD τ) (ms20 t) fullShare ((dats m 0 c).after 20 t) from by
    unfold Dat.leavesExact; rw [liveAt20 t], after20]
  rw [show (dats m 0 c).leavesExact 21 t = owns (c : Thread nD τ) (ms21 t) fullShare ((dats m 0 c).after 21 t) from by
    unfold Dat.leavesExact; rw [liveAt21 t], after21]
  rw [show (dats m 0 c).leavesExact 22 t = owns (c : Thread nD τ) (ms22 t) fullShare ((dats m 0 c).after 22 t) from by
    unfold Dat.leavesExact; rw [liveAt22 t], after22]
  rw [show (dats m 0 c).leavesExact 23 t = owns (c : Thread nD τ) (ms23 t) fullShare ((dats m 0 c).after 23 t) from by
    unfold Dat.leavesExact; rw [liveAt23 t], after23]
  rw [show (dats m 0 c).leavesExact 24 t = owns (c : Thread nD τ) (ms24 t) fullShare ((dats m 0 c).after 24 t) from by
    unfold Dat.leavesExact; rw [liveAt24 t], after24]
  rw [show (dats m 0 c).leavesExact 25 t = owns (c : Thread nD τ) (ms25 t) fullShare ((dats m 0 c).after 25 t) from by
    unfold Dat.leavesExact; rw [liveAt25 t], after25]
  rw [show (dats m 0 c).leavesExact 26 t = owns (c : Thread nD τ) (ms26 t) fullShare ((dats m 0 c).after 26 t) from by
    unfold Dat.leavesExact; rw [liveAt26 t], after26]
  rw [show (dats m 0 c).leavesExact 27 t = owns (c : Thread nD τ) (ms27 t) fullShare ((dats m 0 c).after 27 t) from by
    unfold Dat.leavesExact; rw [liveAt27 t], after27]
  have hN : t.val < 50 := lt_of_lt_of_eq t.isLt N50
  by_cases h25 : t.val < 25
  · have hc2 : cond2 (grid0.coords t) := (hcond2 t).mpr h25
    have hc3 : ¬cond3 (grid0.coords t) := fun h => by have := (hcond3 t).mp h; omega
    have hc4 : ¬cond4 (grid0.coords t) := fun h => by have := (hcond4 t).mp h; omega
    rw [Dat.leavesExact_idle (dats m 0 c) 28 t (idleOut 28 (by decide) t h25) (noFlushOut 28 (by decide) t h25),
      Dat.leavesExact_idle (dats m 0 c) 29 t (idleOut 29 (by decide) t h25) (noFlushOut 29 (by decide) t h25),
      Dat.leavesExact_idle (dats m 0 c) 30 t (idleOut 30 (by decide) t h25) (noFlushOut 30 (by decide) t h25)]
    by_cases h0 : t.val = 0
    ·
      -- the first point: the first support and the first slab
      have hc1 : cond1 (grid0.coords t) := (hcond1 t).mpr h0
      have ht0 : t = pt 0 := Fin.ext h0
      rw [show PhiS m c t.val = Pipeline.ΦA spec0 c from by rw [h0]; rfl, PhiA0_eq]
      iintro ⟨⟨⟨⟨%d0, HS0⟩, ⟨%d1, HS1⟩, ⟨%d2, HS2⟩⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩, ⟨%e12, H12⟩, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩, ⟨%e27, H27⟩, ⟨%e28, H28⟩, ⟨%e29, H29⟩, ⟨%e30, H30⟩⟩
      iapply (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) (ms26 t) (hs26 t) (ms27 t) (hs27 t) (ms28 t) (hs28 t) (ms29 t) (hs29 t) (ms30 t) (hs30 t) scM0 (Memref.isWhole_whole _) scM1 (Memref.isWhole_whole _) scM2 (Memref.isWhole_whole _) hc1 hc2 hc3 hc4 (400 * (t.val % 25)) (by omega) (off1_eq t)
        (iblk m c 0 t) (iblk m c 1 t) (iblk m c 2 t) (iblk m c 3 t) d1 Set.univ _)
      isplitl [H0]; · iexact H0
      isplitl [H1]; · iexact H1
      isplitl [H2]; · iexact H2
      isplitl [H3]; · iexact H3
      isplitl [HS0]; · iexists _; iexact HS0
      isplitl [HS1]; · iexact HS1
      iintro ⟨H0, H1, H2, H3, HS0, ⟨%d1', %hU, HS1⟩⟩
      isplitl [HS0 HS1 HS2 Hg]
      · isplitl [HS0 HS1 HS2]
        · isplitl [HS0]
          · rw [show S1v m c = k0_pay1 (iblk m c 1 t) (iblk m c 2 t) from by rw [ht0]; rfl]; iexact HS0
          isplitl [HS1]
          · iexists d1'; isplitr; · ipureintro; exact X1ok_step m c t h25 d1 d1' (fun y hy => by rw [h0] at hy; omega) (by unfold slab1; rw [show S1v m c = k0_pay1 (iblk m c 1 t) (iblk m c 2 t) from by rw [ht0]; rfl]; exact hU)
            iexact HS1
          iexists d2; isplitr; · ipureintro; intro h; omega
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      isplitl [H28]; · iexists _; iexact H28
      isplitl [H29]; · iexists _; iexact H29
      iexists _; iexact H30
    ·
      -- the rest of the first sweep: one more slab
      have hc1 : ¬cond1 (grid0.coords t) := fun h => h0 ((hcond1 t).mp h)
      rw [PhiS_pos m c t.val h0]
      iintro ⟨⟨⟨HS0, ⟨%d1, %hd1, HS1⟩, ⟨%d2, %hd2, HS2⟩⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩, ⟨%e12, H12⟩, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩, ⟨%e27, H27⟩, ⟨%e28, H28⟩, ⟨%e29, H29⟩, ⟨%e30, H30⟩⟩
      iapply (runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) (ms26 t) (hs26 t) (ms27 t) (hs27 t) (ms28 t) (hs28 t) (ms29 t) (hs29 t) (ms30 t) (hs30 t) scM0 (Memref.isWhole_whole _) scM1 (Memref.isWhole_whole _) scM2 (Memref.isWhole_whole _) hc1 hc2 hc3 hc4 (400 * (t.val % 25)) (by omega) (off1_eq t)
        (iblk m c 0 t) (iblk m c 3 t) (S1v m c) d1 Set.univ _)
      isplitl [H0]; · iexact H0
      isplitl [H3]; · iexact H3
      isplitl [HS0]; · iexact HS0
      isplitl [HS1]; · iexact HS1
      iintro ⟨H0, H3, HS0, ⟨%d1', %hU, HS1⟩⟩
      isplitl [HS0 HS1 HS2 Hg]
      · isplitl [HS0 HS1 HS2]
        · isplitl [HS0]; · iexact HS0
          isplitl [HS1]
          · iexists d1'; isplitr; · ipureintro; exact X1ok_step m c t h25 d1 d1' hd1 hU
            iexact HS1
          iexists d2; isplitr; · ipureintro; intro h; omega
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      isplitl [H28]; · iexists _; iexact H28
      isplitl [H29]; · iexists _; iexact H29
      iexists _; iexact H30
  · have h25' : 25 ≤ t.val := by omega
    have hc1 : ¬cond1 (grid0.coords t) := fun h => by have := (hcond1 t).mp h; omega
    have hc2 : ¬cond2 (grid0.coords t) := fun h => by have := (hcond2 t).mp h; omega
    have hc4 : cond4 (grid0.coords t) := (hcond4 t).mpr h25'
    rw [show (dats m 0 c).leavesExact 28 t = owns (c : Thread nD τ) (ms28 t) fullShare ((dats m 0 c).after 28 t) from by
      unfold Dat.leavesExact; rw [liveOut 28 (by decide) t h25'], after28]
    rw [show (dats m 0 c).leavesExact 29 t = owns (c : Thread nD τ) (ms29 t) fullShare ((dats m 0 c).after 29 t) from by
      unfold Dat.leavesExact; rw [liveOut 29 (by decide) t h25'], after29]
    rw [show (dats m 0 c).leavesExact 30 t = owns (c : Thread nD τ) (ms30 t) fullShare ((dats m 0 c).after 30 t) from by
      unfold Dat.leavesExact; rw [liveOut 30 (by decide) t h25'], after30]
    rw [show xc5blk m c t = xc5Of (rowsOf (400 * (t.val % 25)) (by omega) (X1v m c)) (iblk m c 0 t) (S2v m c) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) from rfl,
      show xr5blk m c t = xr5Of (rowsOf (400 * (t.val % 25)) (by omega) (X1v m c)) (iblk m c 0 t) (S2v m c) (iblk m c 5 t) (iblk m c 21 t) (iblk m c 22 t) (iblk m c 23 t) (iblk m c 24 t) (iblk m c 25 t) (iblk m c 26 t) (iblk m c 27 t) from rfl,
      show znblk m c t = znOf (rowsOf (400 * (t.val % 25)) (by omega) (X1v m c)) (k0_pay5 (iblk m c 0 t) (S2v m c) (iblk m c 5 t)) from rfl]
    by_cases he : t.val = 25
    ·
      -- the first point of the second sweep: the second support, then as at the later points
      have hc3 : cond3 (grid0.coords t) := (hcond3 t).mpr he
      have h0 : t.val ≠ 0 := by omega
      have ht25 : t = pt 25 := Fin.ext he
      rw [PhiS_pos m c t.val h0]
      iintro ⟨⟨⟨HS0, ⟨%d1, %hd1, HS1⟩, ⟨%d2, %hd2, HS2⟩⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩, ⟨%e12, H12⟩, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩, ⟨%e27, H27⟩, ⟨%e28, H28⟩, ⟨%e29, H29⟩, ⟨%e30, H30⟩⟩
      obtain rfl : d1 = X1v m c := funext fun y => hd1 y (by have := idx2_lt0 y; omega)
      have hS2 : k0_pay3 (X1v m c) (iblk m c 4 t) = S2v m c := by rw [ht25]; rfl
      iapply (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) (ms26 t) (hs26 t) (ms27 t) (hs27 t) (ms28 t) (hs28 t) (ms29 t) (hs29 t) (ms30 t) (hs30 t) scM0 (Memref.isWhole_whole _) scM1 (Memref.isWhole_whole _) scM2 (Memref.isWhole_whole _) hc1 hc2 hc3 hc4 (400 * (t.val % 25)) (by omega) (off2_eq t)
        (iblk m c 0 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) ((dats m 0 c).before 28 t e28) ((dats m 0 c).before 29 t e29) ((dats m 0 c).before 30 t e30) (X1v m c) d2 Set.univ _)
      isplitl [H0]; · iexact H0
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      isplitl [H28]; · iexact H28
      isplitl [H29]; · iexact H29
      isplitl [H30]; · iexact H30
      isplitl [HS1]; · iexact HS1
      isplitl [HS2]; · iexact HS2
      rw [hS2]
      iintro ⟨H0, H4, H5, H6, H7, H8, H9, H10, H11, H12, H13, H14, H15, H16, H17, H18, H19, H20, H21, H22, H23, H24, H25, H26, H27, H28, H29, H30, HS1, HS2⟩
      isplitl [HS0 HS1 HS2 Hg]
      · isplitl [HS0 HS1 HS2]
        · isplitl [HS0]; · iexact HS0
          isplitl [HS1]
          · iexists _; isplitr; · ipureintro; exact fun y _ => rfl
            iexact HS1
          iexists _; isplitr; · ipureintro; exact fun _ => rfl
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      isplitl [H28]; · iexact H28
      isplitl [H29]; · iexact H29
      iexact H30
    ·
      -- the rest of the second sweep: the slab of the second layer and both heads
      have hc3 : ¬cond3 (grid0.coords t) := fun h => he ((hcond3 t).mp h)
      have h0 : t.val ≠ 0 := by omega
      rw [PhiS_pos m c t.val h0]
      iintro ⟨⟨⟨HS0, ⟨%d1, %hd1, HS1⟩, ⟨%d2, %hd2, HS2⟩⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩, ⟨%e12, H12⟩, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩, ⟨%e27, H27⟩, ⟨%e28, H28⟩, ⟨%e29, H29⟩, ⟨%e30, H30⟩⟩
      obtain rfl : d1 = X1v m c := funext fun y => hd1 y (by have := idx2_lt0 y; omega)
      obtain rfl : d2 = S2v m c := hd2 (by omega)
      iapply (runD c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) (ms26 t) (hs26 t) (ms27 t) (hs27 t) (ms28 t) (hs28 t) (ms29 t) (hs29 t) (ms30 t) (hs30 t) scM0 (Memref.isWhole_whole _) scM1 (Memref.isWhole_whole _) scM2 (Memref.isWhole_whole _) hc1 hc2 hc3 hc4 (400 * (t.val % 25)) (by omega) (off2_eq t)
        (iblk m c 0 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) ((dats m 0 c).before 28 t e28) ((dats m 0 c).before 29 t e29) ((dats m 0 c).before 30 t e30) (X1v m c) (S2v m c) Set.univ _)
      isplitl [H0]; · iexact H0
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      isplitl [H28]; · iexact H28
      isplitl [H29]; · iexact H29
      isplitl [H30]; · iexact H30
      isplitl [HS1]; · iexact HS1
      isplitl [HS2]; · iexact HS2
      iintro ⟨H0, H5, H6, H7, H8, H9, H10, H11, H12, H13, H14, H15, H16, H17, H18, H19, H20, H21, H22, H23, H24, H25, H26, H27, H28, H29, H30, HS1, HS2⟩
      isplitl [HS0 HS1 HS2 Hg]
      · isplitl [HS0 HS1 HS2]
        · isplitl [HS0]; · iexact HS0
          isplitl [HS1]
          · iexists _; isplitr; · ipureintro; exact fun y _ => rfl
            iexact HS1
          iexists _; isplitr; · ipureintro; exact fun _ => rfl
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      isplitl [H28]; · iexact H28
      isplitl [H29]; · iexact H29
      iexact H30

set_option maxHeartbeats 8000000 in
/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := Idealize.SL.BI.Entails.refl _

/-- After the last point the invariant gives the scratch buffers back at some contents. -/
theorem hout (c : Dev nD) : (dats m 0 c).Φ (Fin.last cfg0.N) ⊢ Pipeline.ΦA spec0 c := by
  rw [show (dats m 0 c).Φ (Fin.last cfg0.N) = PhiS m c cfg0.N from rfl, PhiS_pos m c _ (by rw [N50]; decide), PhiA0_eq]
  iintro ⟨⟨HS0, ⟨%d1, %hd1, HS1⟩, ⟨%d2, %hd2, HS2⟩⟩, Hg⟩
  isplitl [HS0 HS1 HS2]
  · isplitl [HS0]; · iexists _; iexact HS0
    isplitl [HS1]; · iexists _; iexact HS1
    iexists _; iexact HS2
  iexact Hg

/-! ## The run and the frame -/

set_option maxHeartbeats 8000000 in
set_option backward.isDefEq.respectTransparency.types false in
/-- Every weakly fair execution of @main terminates, and every final state has every array of the pipeline at what the
    library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

end Cert.Kernel.Hand

end
-- ==== Proof.Spec.lean ====
/-
  The mathematics both programs compute, stated once, element by element, over the extended reals.

  A two-layer graph convolution over a dense adjacency `adj` (10000 × 10000) followed by two row-wise heads:
    s1 = x · W1                         x1 = tanh (adj · s1 + b1)          (10000 × 128)
    s2 = x1 · W2                        x2 = tanh (adj · s2 + b2)          (10000 × 64)
    zn = [x1 | x2]                                                         (10000 × 192)
    classifier: h1 = relu (bn1 (zn · Wc1ᵀ + bc1)), h2 = relu (bn2 (h1 · Wc2ᵀ + bc2)),
                logits = h2 · Wc3ᵀ + bc3, xc5 = log_softmax logits         (10000 × 10)
    reconstruction: r1 = relu (zn · Wr1ᵀ + br1), r2 = relu (r1 · Wr2ᵀ + br2), xr5 = r2 · Wr3ᵀ + br3   (10000 × 128)
  Every head weight is stored output-major (`W q l`: output feature `q`, input feature `l`), so `zn · Wᵀ` at `(r, q)`
  is `∑ l, zn r l * W q l`. A product against `zn` is written as the sum over the first 128 input features (those of
  `x1`) plus the sum over the last 64 (those of `x2`): `cat_split` says that this is the one sum over all 192.
  Arrays are functions of their coordinates; `Ideal.tanh`, `Ideal.exp`, `Ideal.log`, `Ideal.sqrt`, `Ideal.div` are
  the extended reals' textbook functions.
-/
import Idealize.ShloMosaic.PureOps.Ideal
import Mathlib.Algebra.BigOperators.Fin

noncomputable section

open scoped BigOperators

namespace Cert.Spec

open Idealize.ShloMosaic

/-- The batch-norm epsilon as both programs spell it: the f32 nearest to 1e-5. -/
def eps : EReal := Ideal.ofBits .f32 0x3727C5AC#32
/-- The f32 zero word. -/
def zero : EReal := Ideal.ofBits .f32 0x00000000#32
/-- The f32 word of minus infinity: the seed of a row maximum. -/
def ninf : EReal := Ideal.ofBits .f32 0xFF800000#32

/-- One entry of a matrix product: row `a` against column `b`, both given along the contracted axis. -/
def dot {n : ℕ} (a b : Fin n → EReal) : EReal := ∑ k, a k * b k

/-- One graph-convolution entry: `tanh ((adj · s) r q + b q)`. -/
def gc {d : ℕ} (adj : Fin 10000 → Fin 10000 → EReal) (s : Fin 10000 → Fin d → EReal) (b : Fin d → EReal)
    (r : Fin 10000) (q : Fin d) : EReal :=
  Ideal.tanh (dot (fun k => adj r k) (fun k => s k q) + b q)

/-- Inference-mode batch norm of one entry: `(v - rm) / sqrt (rv + eps) * g + b`. -/
def bn (v rm rv g b : EReal) : EReal := Ideal.div (v - rm) (Ideal.sqrt (rv + eps)) * g + b

/-- `max v 0`. -/
def relu (v : EReal) : EReal := max v zero

/-- The first 128 columns of `[x1 | x2]`'s product with an output-major weight `W` (192 input features), plus the
    last 64, plus the bias. -/
def catLin (x1 : Fin 128 → EReal) (x2 : Fin 64 → EReal) (W : Fin 192 → EReal) (b : EReal) : EReal :=
  dot x1 (fun l => W (Fin.castAdd 64 l)) + dot x2 (fun l => W (Fin.natAdd 128 l)) + b

/-- The concatenation `[x1 | x2]` along the feature axis. -/
def cat (x1 : Fin 128 → EReal) (x2 : Fin 64 → EReal) (l : Fin 192) : EReal :=
  if h : l.val < 128 then x1 ⟨l.val, h⟩ else x2 ⟨l.val - 128, by omega⟩

/-- The product of the concatenation with a weight row is the two partial products' sum. -/
theorem cat_split (x1 : Fin 128 → EReal) (x2 : Fin 64 → EReal) (W : Fin 192 → EReal) :
    dot (cat x1 x2) W = dot x1 (fun l => W (Fin.castAdd 64 l)) + dot x2 (fun l => W (Fin.natAdd 128 l)) := by
  unfold dot
  rw [Fin.sum_univ_add (a := 128) (b := 64) (fun l => cat x1 x2 l * W l)]
  have h1 : ∀ i : Fin 128, cat x1 x2 (Fin.castAdd 64 i) = x1 i := fun i => by
    unfold cat; rw [dif_pos (show (Fin.castAdd 64 i).val < 128 from i.isLt)]; rfl
  have h2 : ∀ i : Fin 64, cat x1 x2 (Fin.natAdd 128 i) = x2 i := fun i => by
    unfold cat; rw [dif_neg (show ¬ (Fin.natAdd 128 i).val < 128 by simp [Fin.natAdd])]
    exact congrArg x2 (Fin.ext (by simp [Fin.natAdd]))
  simp only [h1, h2]

section Params

/-- The argument arrays, as functions of their coordinates. -/
structure Args where
  x : Fin 10000 → Fin 128 → EReal
  adj : Fin 10000 → Fin 10000 → EReal
  W1 : Fin 128 → Fin 128 → EReal
  b1 : Fin 128 → EReal
  W2 : Fin 128 → Fin 64 → EReal
  b2 : Fin 64 → EReal
  Wc1 : Fin 256 → Fin 192 → EReal
  bc1 : Fin 256 → EReal
  g1 : Fin 256 → EReal
  be1 : Fin 256 → EReal
  rm1 : Fin 256 → EReal
  rv1 : Fin 256 → EReal
  Wc2 : Fin 128 → Fin 256 → EReal
  bc2 : Fin 128 → EReal
  g2 : Fin 128 → EReal
  be2 : Fin 128 → EReal
  rm2 : Fin 128 → EReal
  rv2 : Fin 128 → EReal
  Wc3 : Fin 10 → Fin 128 → EReal
  bc3 : Fin 10 → EReal
  Wr1 : Fin 256 → Fin 192 → EReal
  br1 : Fin 256 → EReal
  Wr2 : Fin 128 → Fin 256 → EReal
  br2 : Fin 128 → EReal
  Wr3 : Fin 128 → Fin 128 → EReal
  br3 : Fin 128 → EReal

variable (A : Args)

/-- `s1 = x · W1`. -/
def s1 (k : Fin 10000) (q : Fin 128) : EReal := dot (fun l => A.x k l) (fun l => A.W1 l q)
/-- `x1 = tanh (adj · s1 + b1)`. -/
def x1 (r : Fin 10000) (q : Fin 128) : EReal := gc A.adj (s1 A) A.b1 r q
/-- `s2 = x1 · W2`. -/
def s2 (k : Fin 10000) (q : Fin 64) : EReal := dot (fun l => x1 A k l) (fun l => A.W2 l q)
/-- `x2 = tanh (adj · s2 + b2)`. -/
def x2 (r : Fin 10000) (q : Fin 64) : EReal := gc A.adj (s2 A) A.b2 r q
/-- `zn = [x1 | x2]`. -/
def zn (r : Fin 10000) (l : Fin 192) : EReal := cat (x1 A r) (x2 A r) l

/-- The classifier head's first layer. -/
def h1 (r : Fin 10000) (q : Fin 256) : EReal :=
  relu (bn (catLin (x1 A r) (x2 A r) (A.Wc1 q) (A.bc1 q)) (A.rm1 q) (A.rv1 q) (A.g1 q) (A.be1 q))
/-- Its second layer. -/
def h2 (r : Fin 10000) (q : Fin 128) : EReal :=
  relu (bn (dot (h1 A r) (A.Wc2 q) + A.bc2 q) (A.rm2 q) (A.rv2 q) (A.g2 q) (A.be2 q))
/-- The logits. -/
def logits (r : Fin 10000) (q : Fin 10) : EReal := dot (h2 A r) (A.Wc3 q) + A.bc3 q
/-- A row's largest logit (a fold of `max` from minus infinity). -/
def rowMax (r : Fin 10000) : EReal := Finset.univ.fold max ninf (logits A r)
/-- The shifted logits. -/
def shifted (r : Fin 10000) (q : Fin 10) : EReal := logits A r q - rowMax A r
/-- The log of the row's sum of exponentials of the shifted logits. -/
def lse (r : Fin 10000) : EReal := Ideal.log (zero + ∑ q, Ideal.exp (shifted A r q))
/-- `xc5 = log_softmax logits`. -/
def xc5 (r : Fin 10000) (q : Fin 10) : EReal := shifted A r q - lse A r

/-- The reconstruction head. -/
def r1 (r : Fin 10000) (q : Fin 256) : EReal := relu (catLin (x1 A r) (x2 A r) (A.Wr1 q) (A.br1 q))
def r2 (r : Fin 10000) (q : Fin 128) : EReal := relu (dot (r1 A r) (A.Wr2 q) + A.br2 q)
/-- `xr5`. -/
def xr5 (r : Fin 10000) (q : Fin 128) : EReal := dot (r2 A r) (A.Wr3 q) + A.br3 q

end Params

end Cert.Spec

end
-- ==== Proof.KernelArgs.lean ====
/-
  The kernel program's argument arrays, as the mathematics' functions of coordinates: each array of core `c`'s memory
  `m` read at the index built from the coordinates. The head weights are stored output-major (`W q l`).
-/
import proofs.«162148_g73521250173546_cont_sun_c4_545_9_alg».proof.Proof.Gen.KernelIdeal.Frame
import proofs.«162148_g73521250173546_cont_sun_c4_545_9_alg».proof.Proof.Spec
import Idealize.ShloMosaic.Lib.ValueIdx

noncomputable section

namespace Cert.KernelIdeal.Hand

open Cert.KernelIdeal Cert.KernelIdeal.Gen
open Idealize.ShloMosaic Idealize.ShloMosaic.ValueIdx Idealize.SL.Sem

set_option maxHeartbeats 4000000 in
/-- The argument arrays of core `c` in the memory `m`, by coordinates. -/
def kargs (m : (ℓ : Loc nD τ sig) → Buf (Elt Ideal) ℓ) (c : Dev nD) : Cert.Spec.Args where
  x k l := (m ((c.tc : Thread nD τ).loc main_arg0) : Vec Ideal S10000x128 .f32) (ix2 k l)
  adj r k := (m ((c.tc : Thread nD τ).loc main_arg1) : Vec Ideal S10000x10000 .f32) (ix2 r k)
  W1 l q := (m ((c.tc : Thread nD τ).loc main_arg2) : Vec Ideal S128x128 .f32) (ix2 l q)
  b1 q := (m ((c.tc : Thread nD τ).loc main_arg3) : Vec Ideal S128 .f32) (ix1 q)
  W2 l q := (m ((c.tc : Thread nD τ).loc main_arg4) : Vec Ideal S128x64 .f32) (ix2 l q)
  b2 q := (m ((c.tc : Thread nD τ).loc main_arg5) : Vec Ideal S64 .f32) (ix1 q)
  Wc1 q l := (m ((c.tc : Thread nD τ).loc main_arg6) : Vec Ideal S256x192 .f32) (ix2 q l)
  bc1 q := (m ((c.tc : Thread nD τ).loc main_arg7) : Vec Ideal S256 .f32) (ix1 q)
  g1 q := (m ((c.tc : Thread nD τ).loc main_arg8) : Vec Ideal S256 .f32) (ix1 q)
  be1 q := (m ((c.tc : Thread nD τ).loc main_arg9) : Vec Ideal S256 .f32) (ix1 q)
  rm1 q := (m ((c.tc : Thread nD τ).loc main_arg10) : Vec Ideal S256 .f32) (ix1 q)
  rv1 q := (m ((c.tc : Thread nD τ).loc main_arg11) : Vec Ideal S256 .f32) (ix1 q)
  Wc2 q l := (m ((c.tc : Thread nD τ).loc main_arg12) : Vec Ideal S128x256 .f32) (ix2 q l)
  bc2 q := (m ((c.tc : Thread nD τ).loc main_arg13) : Vec Ideal S128 .f32) (ix1 q)
  g2 q := (m ((c.tc : Thread nD τ).loc main_arg14) : Vec Ideal S128 .f32) (ix1 q)
  be2 q := (m ((c.tc : Thread nD τ).loc main_arg15) : Vec Ideal S128 .f32) (ix1 q)
  rm2 q := (m ((c.tc : Thread nD τ).loc main_arg16) : Vec Ideal S128 .f32) (ix1 q)
  rv2 q := (m ((c.tc : Thread nD τ).loc main_arg17) : Vec Ideal S128 .f32) (ix1 q)
  Wc3 q l := (m ((c.tc : Thread nD τ).loc main_arg18) : Vec Ideal S10x128 .f32) (ix2 q l)
  bc3 q := (m ((c.tc : Thread nD τ).loc main_arg19) : Vec Ideal S10 .f32) (ix1 q)
  Wr1 q l := (m ((c.tc : Thread nD τ).loc main_arg20) : Vec Ideal S256x192 .f32) (ix2 q l)
  br1 q := (m ((c.tc : Thread nD τ).loc main_arg21) : Vec Ideal S256 .f32) (ix1 q)
  Wr2 q l := (m ((c.tc : Thread nD τ).loc main_arg22) : Vec Ideal S128x256 .f32) (ix2 q l)
  br2 q := (m ((c.tc : Thread nD τ).loc main_arg23) : Vec Ideal S128 .f32) (ix1 q)
  Wr3 q l := (m ((c.tc : Thread nD τ).loc main_arg24) : Vec Ideal S128x128 .f32) (ix2 q l)
  br3 q := (m ((c.tc : Thread nD τ).loc main_arg25) : Vec Ideal S128 .f32) (ix1 q)

end Cert.KernelIdeal.Hand

end
-- ==== Proof.PayGc.lean ====
/-
  The graph-convolution payloads of the kernel body read at one entry, over the extended reals: a change of float
  format is the identity and a matrix product into a zero accumulator is the plain sum over the contracted axis, so
  the two supports are entries of `x · W` and a slab of a layer's output is `tanh (adj-rows · support + bias)`.
-/
import proofs.«162148_g73521250173546_cont_sun_c4_545_9_alg».proof.Proof.Gen.KernelIdeal.Skeleton
import proofs.«162148_g73521250173546_cont_sun_c4_545_9_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.PayAt

open Cert.KernelIdeal Cert.KernelIdeal.Gen
open Idealize.ShloMosaic Idealize.ShloMosaic.ValueIdx
open Cert.Spec (dot relu bn eps zero ninf)

/-! ## The product `x · W1`: 10000 × 128 times 128 × 128

The product contracts the left operand's axis 1 against the right operand's axis 0 and has no batch axis: at the
output entry `(i 0, i 1)` and the contraction position `c` the left operand is read at `(i 0, c)` and the right one at
`(c, i 1)`. The four coordinates, one statement each. -/

theorem lhs_xw1_0 (i : S10000x128.Idx) (c : dot_S10000x128_S128x128_S10000x128_1_0_0_1_n_n.contr.Idx) :
    (dot_S10000x128_S128x128_S10000x128_1_0_0_1_n_n.lhsIdx i c 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_xw1_1 (i : S10000x128.Idx) (c : dot_S10000x128_S128x128_S10000x128_1_0_0_1_n_n.contr.Idx) :
    (dot_S10000x128_S128x128_S10000x128_1_0_0_1_n_n.lhsIdx i c 1).val = (c ⟨0, by decide⟩).val :=
  dot_S10000x128_S128x128_S10000x128_1_0_0_1_n_n.lhsIdx_val_of_single rfl i c
theorem rhs_xw1_0 (i : S10000x128.Idx) (c : dot_S10000x128_S128x128_S10000x128_1_0_0_1_n_n.contr.Idx) :
    (dot_S10000x128_S128x128_S10000x128_1_0_0_1_n_n.rhsIdx i c 0).val = (c ⟨0, by decide⟩).val :=
  dot_S10000x128_S128x128_S10000x128_1_0_0_1_n_n.rhsIdx_val_of_single rfl i c
theorem rhs_xw1_1 (i : S10000x128.Idx) (c : dot_S10000x128_S128x128_S10000x128_1_0_0_1_n_n.contr.Idx) :
    (dot_S10000x128_S128x128_S10000x128_1_0_0_1_n_n.rhsIdx i c 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- Into a zero accumulator the product's entry `(p, q)` is row `p` of the left operand against column `q` of the
    right one: the accumulator contributes `0`, and the sum over the one-axis contraction index is re-indexed by its
    coordinate. -/
theorem matmul_xw1_apply {φ₁ φ₂ : FTy} (a : FVec Ideal S10000x128 φ₁) (b : FVec Ideal S128x128 φ₂) (p : Fin 10000) (q : Fin 128) :
    matmul dot_S10000x128_S128x128_S10000x128_1_0_0_1_n_n none a b (constant (F := Ideal) S10000x128 .f32 0x00000000#32) (ix2 p q)
      = dot (fun k : Fin 128 => a (ix2 p k)) (fun k => b (ix2 k q)) := by
  refine (Ideal.matmul_constant_zero_apply dot_S10000x128_S128x128_S10000x128_1_0_0_1_n_n none a b (ix2 p q)).trans ?_
  unfold Cert.Spec.dot
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun ax => Fin.ext (by
    match ax with
    | ⟨0, _⟩ => exact lhs_xw1_0 _ _
    | ⟨1, _⟩ => exact (lhs_xw1_1 _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun ax => Fin.ext (by
    match ax with
    | ⟨0, _⟩ => exact (rhs_xw1_0 _ _).trans hk
    | ⟨1, _⟩ => exact rhs_xw1_1 _ _)
  rw [el, er]

/-! ## An adjacency block against the first support: 400 × 10000 times 10000 × 128

The product contracts the left operand's axis 1 against the right operand's axis 0 and has no batch axis: at the
output entry `(i 0, i 1)` and the contraction position `c` the left operand is read at `(i 0, c)` and the right one at
`(c, i 1)`. The four coordinates, one statement each. -/

theorem lhs_as1_0 (i : S400x128.Idx) (c : dot_S400x10000_S10000x128_S400x128_1_0_0_1_n_n.contr.Idx) :
    (dot_S400x10000_S10000x128_S400x128_1_0_0_1_n_n.lhsIdx i c 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem lhs_as1_1 (i : S400x128.Idx) (c : dot_S400x10000_S10000x128_S400x128_1_0_0_1_n_n.contr.Idx) :
    (dot_S400x10000_S10000x128_S400x128_1_0_0_1_n_n.lhsIdx i c 1).val = (c ⟨0, by decide⟩).val :=
  dot_S400x10000_S10000x128_S400x128_1_0_0_1_n_n.lhsIdx_val_of_single rfl i c
theorem rhs_as1_0 (i : S400x128.Idx) (c : dot_S400x10000_S10000x128_S400x128_1_0_0_1_n_n.contr.Idx) :
    (dot_S400x10000_S10000x128_S400x128_1_0_0_1_n_n.rhsIdx i c 0).val = (c ⟨0, by decide⟩).val :=
  dot_S400x10000_S10000x128_S400x128_1_0_0_1_n_n.rhsIdx_val_of_single rfl i c
theorem rhs_as1_1 (i : S400x128.Idx) (c : dot_S400x10000_S10000x128_S400x128_1_0_0_1_n_n.contr.Idx) :
    (dot_S400x10000_S10000x128_S400x128_1_0_0_1_n_n.rhsIdx i c 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- Into a zero accumulator the product's entry `(p, q)` is row `p` of the left operand against column `q` of the
    right one: the accumulator contributes `0`, and the sum over the one-axis contraction index is re-indexed by its
    coordinate. -/
theorem matmul_as1_apply {φ₁ φ₂ : FTy} (a : FVec Ideal S400x10000 φ₁) (b : FVec Ideal S10000x128 φ₂) (p : Fin 400) (q : Fin 128) :
    matmul dot_S400x10000_S10000x128_S400x128_1_0_0_1_n_n none a b (constant (F := Ideal) S400x128 .f32 0x00000000#32) (ix2 p q)
      = dot (fun k : Fin 10000 => a (ix2 p k)) (fun k => b (ix2 k q)) := by
  refine (Ideal.matmul_constant_zero_apply dot_S400x10000_S10000x128_S400x128_1_0_0_1_n_n none a b (ix2 p q)).trans ?_
  unfold Cert.Spec.dot
  rw [← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 p q) ((contrEquiv1 dot_S400x10000_S10000x128_S400x128_1_0_0_1_n_n 10000 rfl rfl).symm k) = ix2 p k := funext fun ax => Fin.ext (by
    match ax with
    | ⟨0, _⟩ => exact lhs_as1_0 _ _
    | ⟨1, _⟩ => exact (lhs_as1_1 _ _).trans hk)
  have er : dot_S400x10000_S10000x128_S400x128_1_0_0_1_n_n.rhsIdx (ix2 p q) ((contrEquiv1 dot_S400x10000_S10000x128_S400x128_1_0_0_1_n_n 10000 rfl rfl).symm k) = ix2 k q := funext fun ax => Fin.ext (by
    match ax with
    | ⟨0, _⟩ => exact (rhs_as1_0 _ _).trans hk
    | ⟨1, _⟩ => exact rhs_as1_1 _ _)
  rw [el, er]

/-! ## The product `x1 · W2`: 10000 × 128 times 128 × 64

The product contracts the left operand's axis 1 against the right operand's axis 0 and has no batch axis: at the
output entry `(i 0, i 1)` and the contraction position `c` the left operand is read at `(i 0, c)` and the right one at
`(c, i 1)`. The four coordinates, one statement each. -/

theorem lhs_xw2_0 (i : S10000x64.Idx) (c : dot_S10000x128_S128x64_S10000x64_1_0_0_1_n_n.contr.Idx) :
    (dot_S10000x128_S128x64_S10000x64_1_0_0_1_n_n.lhsIdx i c 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs_xw2_1 (i : S10000x64.Idx) (c : dot_S10000x128_S128x64_S10000x64_1_0_0_1_n_n.contr.Idx) :
    (dot_S10000x128_S128x64_S10000x64_1_0_0_1_n_n.lhsIdx i c 1).val = (c ⟨0, by decide⟩).val :=
  dot_S10000x128_S128x64_S10000x64_1_0_0_1_n_n.lhsIdx_val_of_single rfl i c
theorem rhs_xw2_0 (i : S10000x64.Idx) (c : dot_S10000x128_S128x64_S10000x64_1_0_0_1_n_n.contr.Idx) :
    (dot_S10000x128_S128x64_S10000x64_1_0_0_1_n_n.rhsIdx i c 0).val = (c ⟨0, by decide⟩).val :=
  dot_S10000x128_S128x64_S10000x64_1_0_0_1_n_n.rhsIdx_val_of_single rfl i c
theorem rhs_xw2_1 (i : S10000x64.Idx) (c : dot_S10000x128_S128x64_S10000x64_1_0_0_1_n_n.contr.Idx) :
    (dot_S10000x128_S128x64_S10000x64_1_0_0_1_n_n.rhsIdx i c 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- Into a zero accumulator the product's entry `(p, q)` is row `p` of the left operand against column `q` of the
    right one: the accumulator contributes `0`, and the sum over the one-axis contraction index is re-indexed by its
    coordinate. -/
theorem matmul_xw2_apply {φ₁ φ₂ : FTy} (a : FVec Ideal S10000x128 φ₁) (b : FVec Ideal S128x64 φ₂) (p : Fin 10000) (q : Fin 64) :
    matmul dot_S10000x128_S128x64_S10000x64_1_0_0_1_n_n none a b (constant (F := Ideal) S10000x64 .f32 0x00000000#32) (ix2 p q)
      = dot (fun k : Fin 128 => a (ix2 p k)) (fun k => b (ix2 k q)) := by
  refine (Ideal.matmul_constant_zero_apply dot_S10000x128_S128x64_S10000x64_1_0_0_1_n_n none a b (ix2 p q)).trans ?_
  unfold Cert.Spec.dot
  rw [← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 p q) ((contrEquiv1 dot_S10000x128_S128x64_S10000x64_1_0_0_1_n_n 128 rfl rfl).symm k) = ix2 p k := funext fun ax => Fin.ext (by
    match ax with
    | ⟨0, _⟩ => exact lhs_xw2_0 _ _
    | ⟨1, _⟩ => exact (lhs_xw2_1 _ _).trans hk)
  have er : dot_S10000x128_S128x64_S10000x64_1_0_0_1_n_n.rhsIdx (ix2 p q) ((contrEquiv1 dot_S10000x128_S128x64_S10000x64_1_0_0_1_n_n 128 rfl rfl).symm k) = ix2 k q := funext fun ax => Fin.ext (by
    match ax with
    | ⟨0, _⟩ => exact (rhs_xw2_0 _ _).trans hk
    | ⟨1, _⟩ => exact rhs_xw2_1 _ _)
  rw [el, er]

/-! ## An adjacency block against the second support: 400 × 10000 times 10000 × 64

The product contracts the left operand's axis 1 against the right operand's axis 0 and has no batch axis: at the
output entry `(i 0, i 1)` and the contraction position `c` the left operand is read at `(i 0, c)` and the right one at
`(c, i 1)`. The four coordinates, one statement each. -/

theorem lhs_as2_0 (i : S400x64.Idx) (c : dot_S400x10000_S10000x64_S400x64_1_0_0_1_n_n.contr.Idx) :
    (dot_S400x10000_S10000x64_S400x64_1_0_0_1_n_n.lhsIdx i c 0).val = (i 0).val := by
  unfold DotDims.lhsIdx
  rw [dif_neg (show ¬(0 : Fin S400x10000.rank) ∈ dot_S400x10000_S10000x64_S400x64_1_0_0_1_n_n.lhsBatch by decide), dif_pos (show (0 : Fin S400x10000.rank) ∈ dot_S400x10000_S10000x64_S400x64_1_0_0_1_n_n.lhsNonContracting by decide)]
  rfl
theorem lhs_as2_1 (i : S400x64.Idx) (c : dot_S400x10000_S10000x64_S400x64_1_0_0_1_n_n.contr.Idx) :
    (dot_S400x10000_S10000x64_S400x64_1_0_0_1_n_n.lhsIdx i c 1).val = (c ⟨0, by decide⟩).val :=
  dot_S400x10000_S10000x64_S400x64_1_0_0_1_n_n.lhsIdx_val_of_single rfl i c
theorem rhs_as2_0 (i : S400x64.Idx) (c : dot_S400x10000_S10000x64_S400x64_1_0_0_1_n_n.contr.Idx) :
    (dot_S400x10000_S10000x64_S400x64_1_0_0_1_n_n.rhsIdx i c 0).val = (c ⟨0, by decide⟩).val :=
  dot_S400x10000_S10000x64_S400x64_1_0_0_1_n_n.rhsIdx_val_of_single rfl i c
theorem rhs_as2_1 (i : S400x64.Idx) (c : dot_S400x10000_S10000x64_S400x64_1_0_0_1_n_n.contr.Idx) :
    (dot_S400x10000_S10000x64_S400x64_1_0_0_1_n_n.rhsIdx i c 1).val = (i 1).val := by
  unfold DotDims.rhsIdx
  rw [dif_neg (show ¬(1 : Fin S10000x64.rank) ∈ dot_S400x10000_S10000x64_S400x64_1_0_0_1_n_n.rhsBatch by decide), dif_pos (show (1 : Fin S10000x64.rank) ∈ dot_S400x10000_S10000x64_S400x64_1_0_0_1_n_n.rhsNonContracting by decide)]
  rfl

/-- Into a zero accumulator the product's entry `(p, q)` is row `p` of the left operand against column `q` of the
    right one: the accumulator contributes `0`, and the sum over the one-axis contraction index is re-indexed by its
    coordinate. -/
theorem matmul_as2_apply {φ₁ φ₂ : FTy} (a : FVec Ideal S400x10000 φ₁) (b : FVec Ideal S10000x64 φ₂) (p : Fin 400) (q : Fin 64) :
    matmul dot_S400x10000_S10000x64_S400x64_1_0_0_1_n_n none a b (constant (F := Ideal) S400x64 .f32 0x00000000#32) (ix2 p q)
      = dot (fun k : Fin 10000 => a (ix2 p k)) (fun k => b (ix2 k q)) := by
  refine (Ideal.matmul_constant_zero_apply dot_S400x10000_S10000x64_S400x64_1_0_0_1_n_n none a b (ix2 p q)).trans ?_
  unfold Cert.Spec.dot
  rw [← Equiv.sum_comp (contrEquiv1 dot_S400x10000_S10000x64_S400x64_1_0_0_1_n_n 10000 rfl rfl).symm]
  refine Finset.sum_congr rfl fun k _ => ?_
  have hk := contrEquiv1_symm_val dot_S400x10000_S10000x64_S400x64_1_0_0_1_n_n 10000 rfl rfl k
  have el : dot_S400x10000_S10000x64_S400x64_1_0_0_1_n_n.lhsIdx (ix2 p q) ((contrEquiv1 dot_S400x10000_S10000x64_S400x64_1_0_0_1_n_n 10000 rfl rfl).symm k) = ix2 p k := funext fun ax => Fin.ext (by
    match ax with
    | ⟨0, _⟩ => exact lhs_as2_0 _ _
    | ⟨1, _⟩ => exact (lhs_as2_1 _ _).trans hk)
  have er : dot_S400x10000_S10000x64_S400x64_1_0_0_1_n_n.rhsIdx (ix2 p q) ((contrEquiv1 dot_S400x10000_S10000x64_S400x64_1_0_0_1_n_n 10000 rfl rfl).symm k) = ix2 k q := funext fun ax => Fin.ext (by
    match ax with
    | ⟨0, _⟩ => exact (rhs_as2_0 _ _).trans hk
    | ⟨1, _⟩ => exact rhs_as2_1 _ _)
  rw [el, er]

/-! ## The four payloads

A change of float format and a cast to the same shape are the identity; `tanh` and the sum act entry by entry; the bias
is one row broadcast over the block's 400 rows, so at `(p, q)` it is the row's entry `q`. -/

/-- The first support at `(k, q)`: row `k` of `x` against column `q` of `W1`. -/
theorem pay1_apply (x : Vec Ideal S10000x128 .f32) (w : Vec Ideal S128x128 .f32) (k : Fin 10000) (q : Fin 128) :
    k0_pay1 x w (ix2 k q) = dot (fun l : Fin 128 => x (ix2 k l)) (fun l => w (ix2 l q)) := by
  unfold k0_pay1
  rw [shapeCast_self]
  exact matmul_xw1_apply (truncf .bf16 x bitsLt_bf16_f32) (truncf .bf16 w bitsLt_bf16_f32) k q

/-- A slab of the first layer at `(p, q)`: `tanh` of row `p` of the adjacency block against column `q` of the support, plus the bias. -/
theorem pay2_apply (a : Vec Ideal S400x10000 .f32) (s : Vec Ideal S10000x128 .bf16) (b : Vec Ideal S1x128 .f32) (p : Fin 400) (q : Fin 128) :
    k0_pay2 a s b (ix2 p q) = Ideal.tanh (dot (fun k : Fin 10000 => a (ix2 p k)) (fun k => s (ix2 k q)) + b (ix2 (0 : Fin 1) q)) := by
  unfold k0_pay2
  simp only [shapeCast_self]
  show Ideal.tanh (matmul dot_S400x10000_S10000x128_S400x128_1_0_0_1_n_n none a (extf .f32 s bitsLt_bf16_f32)
      (constant (F := Ideal) S400x128 .f32 0x00000000#32) (ix2 p q)
    + broadcastTo S400x128 b broadcasts_S1x128_S400x128 (ix2 p q)) = _
  rw [matmul_as1_apply, broadcastTo_1b_ab_apply]
  rfl

/-- The second support at `(k, q)`. -/
theorem pay3_apply (x1 : Vec Ideal S10000x128 .f32) (w : Vec Ideal S128x64 .f32) (k : Fin 10000) (q : Fin 64) :
    k0_pay3 x1 w (ix2 k q) = dot (fun l : Fin 128 => x1 (ix2 k l)) (fun l => w (ix2 l q)) := by
  unfold k0_pay3
  rw [shapeCast_self]
  exact matmul_xw2_apply (truncf .bf16 x1 bitsLt_bf16_f32) (truncf .bf16 w bitsLt_bf16_f32) k q

/-- A slab of the second layer at `(p, q)`. -/
theorem pay5_apply (a : Vec Ideal S400x10000 .f32) (s : Vec Ideal S10000x64 .bf16) (b : Vec Ideal S1x64 .f32) (p : Fin 400) (q : Fin 64) :
    k0_pay5 a s b (ix2 p q) = Ideal.tanh (dot (fun k : Fin 10000 => a (ix2 p k)) (fun k => s (ix2 k q)) + b (ix2 (0 : Fin 1) q)) := by
  unfold k0_pay5
  simp only [shapeCast_self]
  show Ideal.tanh (matmul dot_S400x10000_S10000x64_S400x64_1_0_0_1_n_n none a (extf .f32 s bitsLt_bf16_f32)
      (constant (F := Ideal) S400x64 .f32 0x00000000#32) (ix2 p q)
    + broadcastTo S400x64 b broadcasts_S1x64_S400x64 (ix2 p q)) = _
  rw [matmul_as2_apply, broadcastTo_1b_ab_apply]
  rfl

end Cert.KernelIdeal.PayAt

end
-- ==== Proof.PayCls.lean ====
/-
  The classifier head's payloads of the kernel body read at one entry, over the extended reals: two linear layers each
  followed by inference-mode batch norm and `max · 0`, a third linear layer, and the row-wise log-softmax
  `(l - max) - log (∑ exp (l - max))`. Row vectors of shape 1 × n are broadcast along the 400 rows of a block.
-/
import proofs.«162148_g73521250173546_cont_sun_c4_545_9_alg».proof.Proof.Gen.KernelIdeal.Skeleton
import proofs.«162148_g73521250173546_cont_sun_c4_545_9_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.PayAt

open Cert.KernelIdeal Cert.KernelIdeal.Gen
open Idealize.ShloMosaic Idealize.ShloMosaic.ValueIdx
open Cert.Spec (dot relu bn eps zero ninf)

/-! ## Layout operations at an entry -/

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The four matrix products at an entry

Each product contracts axis 1 of its left operand with axis 0 of its right one and has no batch axis; its contraction
index has one coordinate, which a sum over `Fin K` re-indexes. -/

/-- The first layer's product against the 128 features of `x1`. The left operand's index has the output's row on axis 0 … -/
theorem lhs_l1a_0 (i : S400x256.Idx) (c : dot_S400x128_S128x256_S400x256_1_0_0_1_n_n.contr.Idx) :
    (dot_S400x128_S128x256_S400x256_1_0_0_1_n_n.lhsIdx i c 0).val = (i 0).val := by
  unfold DotDims.lhsIdx
  rw [dif_neg (show ¬(0 : Fin S400x128.rank) ∈ dot_S400x128_S128x256_S400x256_1_0_0_1_n_n.lhsBatch by decide), dif_pos (show (0 : Fin S400x128.rank) ∈ dot_S400x128_S128x256_S400x256_1_0_0_1_n_n.lhsNonContracting by decide)]
  rfl
/-- … and the contracted coordinate on axis 1; -/
theorem lhs_l1a_1 (i : S400x256.Idx) (c : dot_S400x128_S128x256_S400x256_1_0_0_1_n_n.contr.Idx) :
    (dot_S400x128_S128x256_S400x256_1_0_0_1_n_n.lhsIdx i c 1).val = (c ⟨0, by decide⟩).val :=
  dot_S400x128_S128x256_S400x256_1_0_0_1_n_n.lhsIdx_val_of_single rfl i c
/-- the right operand's index has the contracted coordinate on axis 0 … -/
theorem rhs_l1a_0 (i : S400x256.Idx) (c : dot_S400x128_S128x256_S400x256_1_0_0_1_n_n.contr.Idx) :
    (dot_S400x128_S128x256_S400x256_1_0_0_1_n_n.rhsIdx i c 0).val = (c ⟨0, by decide⟩).val :=
  dot_S400x128_S128x256_S400x256_1_0_0_1_n_n.rhsIdx_val_of_single rfl i c
/-- … and the output's column on axis 1. -/
theorem rhs_l1a_1 (i : S400x256.Idx) (c : dot_S400x128_S128x256_S400x256_1_0_0_1_n_n.contr.Idx) :
    (dot_S400x128_S128x256_S400x256_1_0_0_1_n_n.rhsIdx i c 1).val = (i 1).val := by
  unfold DotDims.rhsIdx
  rw [dif_neg (show ¬(1 : Fin S128x256.rank) ∈ dot_S400x128_S128x256_S400x256_1_0_0_1_n_n.rhsBatch by decide), dif_pos (show (1 : Fin S128x256.rank) ∈ dot_S400x128_S128x256_S400x256_1_0_0_1_n_n.rhsNonContracting by decide)]
  rfl
/-- So the product into a zero accumulator is, at `(p, q)`, row `p` of the left operand against column `q` of the
    right one. -/
theorem matmul_l1a_apply {φ₁ φ₂ : FTy} (a : FVec Ideal S400x128 φ₁) (b : FVec Ideal S128x256 φ₂) (p : Fin 400) (q : Fin 256) :
    matmul dot_S400x128_S128x256_S400x256_1_0_0_1_n_n none a b (constant (F := Ideal) S400x256 .f32 0x00000000#32) (ix2 p q)
      = dot (fun k : Fin 128 => a (ix2 p k)) (fun k => b (ix2 k q)) := by
  unfold Cert.Spec.dot
  simp only [matmul]
  rw [Ideal.matmul_constant_zero_apply, ← Equiv.sum_comp (contrEquiv1 dot_S400x128_S128x256_S400x256_1_0_0_1_n_n 128 rfl rfl).symm]
  refine Finset.sum_congr rfl fun k _ => ?_
  have hk := contrEquiv1_symm_val dot_S400x128_S128x256_S400x256_1_0_0_1_n_n 128 rfl rfl k
  have el : dot_S400x128_S128x256_S400x256_1_0_0_1_n_n.lhsIdx (ix2 p q) ((contrEquiv1 dot_S400x128_S128x256_S400x256_1_0_0_1_n_n 128 rfl rfl).symm k) = ix2 p k := funext fun a => Fin.ext (by
    match a with
    | ⟨0, _⟩ => exact lhs_l1a_0 _ _
    | ⟨1, _⟩ => exact (lhs_l1a_1 _ _).trans hk)
  have er : dot_S400x128_S128x256_S400x256_1_0_0_1_n_n.rhsIdx (ix2 p q) ((contrEquiv1 dot_S400x128_S128x256_S400x256_1_0_0_1_n_n 128 rfl rfl).symm k) = ix2 k q := funext fun a => Fin.ext (by
    match a with
    | ⟨0, _⟩ => exact (rhs_l1a_0 _ _).trans hk
    | ⟨1, _⟩ => exact rhs_l1a_1 _ _)
  rw [el, er]

/-- The first layer's product against the 64 features of `x2`. The left operand's index has the output's row on axis 0 … -/
theorem lhs_l1b_0 (i : S400x256.Idx) (c : dot_S400x64_S64x256_S400x256_1_0_0_1_n_n.contr.Idx) :
    (dot_S400x64_S64x256_S400x256_1_0_0_1_n_n.lhsIdx i c 0).val = (i 0).val := by
  unfold DotDims.lhsIdx
  rw [dif_neg (show ¬(0 : Fin S400x64.rank) ∈ dot_S400x64_S64x256_S400x256_1_0_0_1_n_n.lhsBatch by decide), dif_pos (show (0 : Fin S400x64.rank) ∈ dot_S400x64_S64x256_S400x256_1_0_0_1_n_n.lhsNonContracting by decide)]
  rfl
/-- … and the contracted coordinate on axis 1; -/
theorem lhs_l1b_1 (i : S400x256.Idx) (c : dot_S400x64_S64x256_S400x256_1_0_0_1_n_n.contr.Idx) :
    (dot_S400x64_S64x256_S400x256_1_0_0_1_n_n.lhsIdx i c 1).val = (c ⟨0, by decide⟩).val :=
  dot_S400x64_S64x256_S400x256_1_0_0_1_n_n.lhsIdx_val_of_single rfl i c
/-- the right operand's index has the contracted coordinate on axis 0 … -/
theorem rhs_l1b_0 (i : S400x256.Idx) (c : dot_S400x64_S64x256_S400x256_1_0_0_1_n_n.contr.Idx) :
    (dot_S400x64_S64x256_S400x256_1_0_0_1_n_n.rhsIdx i c 0).val = (c ⟨0, by decide⟩).val :=
  dot_S400x64_S64x256_S400x256_1_0_0_1_n_n.rhsIdx_val_of_single rfl i c
/-- … and the output's column on axis 1. -/
theorem rhs_l1b_1 (i : S400x256.Idx) (c : dot_S400x64_S64x256_S400x256_1_0_0_1_n_n.contr.Idx) :
    (dot_S400x64_S64x256_S400x256_1_0_0_1_n_n.rhsIdx i c 1).val = (i 1).val := by
  unfold DotDims.rhsIdx
  rw [dif_neg (show ¬(1 : Fin S64x256.rank) ∈ dot_S400x64_S64x256_S400x256_1_0_0_1_n_n.rhsBatch by decide), dif_pos (show (1 : Fin S64x256.rank) ∈ dot_S400x64_S64x256_S400x256_1_0_0_1_n_n.rhsNonContracting by decide)]
  rfl
/-- So the product into a zero accumulator is, at `(p, q)`, row `p` of the left operand against column `q` of the
    right one. -/
theorem matmul_l1b_apply {φ₁ φ₂ : FTy} (a : FVec Ideal S400x64 φ₁) (b : FVec Ideal S64x256 φ₂) (p : Fin 400) (q : Fin 256) :
    matmul dot_S400x64_S64x256_S400x256_1_0_0_1_n_n none a b (constant (F := Ideal) S400x256 .f32 0x00000000#32) (ix2 p q)
      = dot (fun k : Fin 64 => a (ix2 p k)) (fun k => b (ix2 k q)) := by
  unfold Cert.Spec.dot
  simp only [matmul]
  rw [Ideal.matmul_constant_zero_apply, ← Equiv.sum_comp (contrEquiv1 dot_S400x64_S64x256_S400x256_1_0_0_1_n_n 64 rfl rfl).symm]
  refine Finset.sum_congr rfl fun k _ => ?_
  have hk := contrEquiv1_symm_val dot_S400x64_S64x256_S400x256_1_0_0_1_n_n 64 rfl rfl k
  have el : dot_S400x64_S64x256_S400x256_1_0_0_1_n_n.lhsIdx (ix2 p q) ((contrEquiv1 dot_S400x64_S64x256_S400x256_1_0_0_1_n_n 64 rfl rfl).symm k) = ix2 p k := funext fun a => Fin.ext (by
    match a with
    | ⟨0, _⟩ => exact lhs_l1b_0 _ _
    | ⟨1, _⟩ => exact (lhs_l1b_1 _ _).trans hk)
  have er : dot_S400x64_S64x256_S400x256_1_0_0_1_n_n.rhsIdx (ix2 p q) ((contrEquiv1 dot_S400x64_S64x256_S400x256_1_0_0_1_n_n 64 rfl rfl).symm k) = ix2 k q := funext fun a => Fin.ext (by
    match a with
    | ⟨0, _⟩ => exact (rhs_l1b_0 _ _).trans hk
    | ⟨1, _⟩ => exact rhs_l1b_1 _ _)
  rw [el, er]

/-- The second layer's product. The left operand's index has the output's row on axis 0 … -/
theorem lhs_l2_0 (i : S400x128.Idx) (c : dot_S400x256_S256x128_S400x128_1_0_0_1_n_n.contr.Idx) :
    (dot_S400x256_S256x128_S400x128_1_0_0_1_n_n.lhsIdx i c 0).val = (i 0).val := by
  unfold DotDims.lhsIdx
  rw [dif_neg (show ¬(0 : Fin S400x256.rank) ∈ dot_S400x256_S256x128_S400x128_1_0_0_1_n_n.lhsBatch by decide), dif_pos (show (0 : Fin S400x256.rank) ∈ dot_S400x256_S256x128_S400x128_1_0_0_1_n_n.lhsNonContracting by decide)]
  rfl
/-- … and the contracted coordinate on axis 1; -/
theorem lhs_l2_1 (i : S400x128.Idx) (c : dot_S400x256_S256x128_S400x128_1_0_0_1_n_n.contr.Idx) :
    (dot_S400x256_S256x128_S400x128_1_0_0_1_n_n.lhsIdx i c 1).val = (c ⟨0, by decide⟩).val :=
  dot_S400x256_S256x128_S400x128_1_0_0_1_n_n.lhsIdx_val_of_single rfl i c
/-- the right operand's index has the contracted coordinate on axis 0 … -/
theorem rhs_l2_0 (i : S400x128.Idx) (c : dot_S400x256_S256x128_S400x128_1_0_0_1_n_n.contr.Idx) :
    (dot_S400x256_S256x128_S400x128_1_0_0_1_n_n.rhsIdx i c 0).val = (c ⟨0, by decide⟩).val :=
  dot_S400x256_S256x128_S400x128_1_0_0_1_n_n.rhsIdx_val_of_single rfl i c
/-- … and the output's column on axis 1. -/
theorem rhs_l2_1 (i : S400x128.Idx) (c : dot_S400x256_S256x128_S400x128_1_0_0_1_n_n.contr.Idx) :
    (dot_S400x256_S256x128_S400x128_1_0_0_1_n_n.rhsIdx i c 1).val = (i 1).val := by
  unfold DotDims.rhsIdx
  rw [dif_neg (show ¬(1 : Fin S256x128.rank) ∈ dot_S400x256_S256x128_S400x128_1_0_0_1_n_n.rhsBatch by decide), dif_pos (show (1 : Fin S256x128.rank) ∈ dot_S400x256_S256x128_S400x128_1_0_0_1_n_n.rhsNonContracting by decide)]
  rfl
/-- So the product into a zero accumulator is, at `(p, q)`, row `p` of the left operand against column `q` of the
    right one. -/
theorem matmul_l2_apply {φ₁ φ₂ : FTy} (a : FVec Ideal S400x256 φ₁) (b : FVec Ideal S256x128 φ₂) (p : Fin 400) (q : Fin 128) :
    matmul dot_S400x256_S256x128_S400x128_1_0_0_1_n_n none a b (constant (F := Ideal) S400x128 .f32 0x00000000#32) (ix2 p q)
      = dot (fun k : Fin 256 => a (ix2 p k)) (fun k => b (ix2 k q)) := by
  unfold Cert.Spec.dot
  simp only [matmul]
  rw [Ideal.matmul_constant_zero_apply, ← Equiv.sum_comp (contrEquiv1 dot_S400x256_S256x128_S400x128_1_0_0_1_n_n 256 rfl rfl).symm]
  refine Finset.sum_congr rfl fun k _ => ?_
  have hk := contrEquiv1_symm_val dot_S400x256_S256x128_S400x128_1_0_0_1_n_n 256 rfl rfl k
  have el : dot_S400x256_S256x128_S400x128_1_0_0_1_n_n.lhsIdx (ix2 p q) ((contrEquiv1 dot_S400x256_S256x128_S400x128_1_0_0_1_n_n 256 rfl rfl).symm k) = ix2 p k := funext fun a => Fin.ext (by
    match a with
    | ⟨0, _⟩ => exact lhs_l2_0 _ _
    | ⟨1, _⟩ => exact (lhs_l2_1 _ _).trans hk)
  have er : dot_S400x256_S256x128_S400x128_1_0_0_1_n_n.rhsIdx (ix2 p q) ((contrEquiv1 dot_S400x256_S256x128_S400x128_1_0_0_1_n_n 256 rfl rfl).symm k) = ix2 k q := funext fun a => Fin.ext (by
    match a with
    | ⟨0, _⟩ => exact (rhs_l2_0 _ _).trans hk
    | ⟨1, _⟩ => exact rhs_l2_1 _ _)
  rw [el, er]

/-- The last layer's product. The left operand's index has the output's row on axis 0 … -/
theorem lhs_l3_0 (i : S400x10.Idx) (c : dot_S400x128_S128x10_S400x10_1_0_0_1_n_n.contr.Idx) :
    (dot_S400x128_S128x10_S400x10_1_0_0_1_n_n.lhsIdx i c 0).val = (i 0).val := by
  unfold DotDims.lhsIdx
  rw [dif_neg (show ¬(0 : Fin S400x128.rank) ∈ dot_S400x128_S128x10_S400x10_1_0_0_1_n_n.lhsBatch by decide), dif_pos (show (0 : Fin S400x128.rank) ∈ dot_S400x128_S128x10_S400x10_1_0_0_1_n_n.lhsNonContracting by decide)]
  rfl
/-- … and the contracted coordinate on axis 1; -/
theorem lhs_l3_1 (i : S400x10.Idx) (c : dot_S400x128_S128x10_S400x10_1_0_0_1_n_n.contr.Idx) :
    (dot_S400x128_S128x10_S400x10_1_0_0_1_n_n.lhsIdx i c 1).val = (c ⟨0, by decide⟩).val :=
  dot_S400x128_S128x10_S400x10_1_0_0_1_n_n.lhsIdx_val_of_single rfl i c
/-- the right operand's index has the contracted coordinate on axis 0 … -/
theorem rhs_l3_0 (i : S400x10.Idx) (c : dot_S400x128_S128x10_S400x10_1_0_0_1_n_n.contr.Idx) :
    (dot_S400x128_S128x10_S400x10_1_0_0_1_n_n.rhsIdx i c 0).val = (c ⟨0, by decide⟩).val :=
  dot_S400x128_S128x10_S400x10_1_0_0_1_n_n.rhsIdx_val_of_single rfl i c
/-- … and the output's column on axis 1. -/
theorem rhs_l3_1 (i : S400x10.Idx) (c : dot_S400x128_S128x10_S400x10_1_0_0_1_n_n.contr.Idx) :
    (dot_S400x128_S128x10_S400x10_1_0_0_1_n_n.rhsIdx i c 1).val = (i 1).val := by
  unfold DotDims.rhsIdx
  rw [dif_neg (show ¬(1 : Fin S128x10.rank) ∈ dot_S400x128_S128x10_S400x10_1_0_0_1_n_n.rhsBatch by decide), dif_pos (show (1 : Fin S128x10.rank) ∈ dot_S400x128_S128x10_S400x10_1_0_0_1_n_n.rhsNonContracting by decide)]
  rfl
/-- So the product into a zero accumulator is, at `(p, q)`, row `p` of the left operand against column `q` of the
    right one. -/
theorem matmul_l3_apply {φ₁ φ₂ : FTy} (a : FVec Ideal S400x128 φ₁) (b : FVec Ideal S128x10 φ₂) (p : Fin 400) (q : Fin 10) :
    matmul dot_S400x128_S128x10_S400x10_1_0_0_1_n_n none a b (constant (F := Ideal) S400x10 .f32 0x00000000#32) (ix2 p q)
      = dot (fun k : Fin 128 => a (ix2 p k)) (fun k => b (ix2 k q)) := by
  unfold Cert.Spec.dot
  simp only [matmul]
  rw [Ideal.matmul_constant_zero_apply, ← Equiv.sum_comp (contrEquiv1 dot_S400x128_S128x10_S400x10_1_0_0_1_n_n 128 rfl rfl).symm]
  refine Finset.sum_congr rfl fun k _ => ?_
  have hk := contrEquiv1_symm_val dot_S400x128_S128x10_S400x10_1_0_0_1_n_n 128 rfl rfl k
  have el : dot_S400x128_S128x10_S400x10_1_0_0_1_n_n.lhsIdx (ix2 p q) ((contrEquiv1 dot_S400x128_S128x10_S400x10_1_0_0_1_n_n 128 rfl rfl).symm k) = ix2 p k := funext fun a => Fin.ext (by
    match a with
    | ⟨0, _⟩ => exact lhs_l3_0 _ _
    | ⟨1, _⟩ => exact (lhs_l3_1 _ _).trans hk)
  have er : dot_S400x128_S128x10_S400x10_1_0_0_1_n_n.rhsIdx (ix2 p q) ((contrEquiv1 dot_S400x128_S128x10_S400x10_1_0_0_1_n_n 128 rfl rfl).symm k) = ix2 k q := funext fun a => Fin.ext (by
    match a with
    | ⟨0, _⟩ => exact (rhs_l3_0 _ _).trans hk
    | ⟨1, _⟩ => exact rhs_l3_1 _ _)
  rw [el, er]

/-! ## Square root, exponential and logarithm at an entry -/

/-- A square root, an exponential and a logarithm of a vector act entry by entry. -/
theorem sqrt_apply {s : Shape} {φ : FTy} (a : FVec Ideal s φ) (i : s.Idx) : Idealize.ShloMosaic.sqrt a i = Ideal.sqrt (a i) := rfl
theorem exp_apply {s : Shape} {φ : FTy} (a : FVec Ideal s φ) (i : s.Idx) : Idealize.ShloMosaic.exp a i = Ideal.exp (a i) := rfl
theorem log_apply {s : Shape} {φ : FTy} (a : FVec Ideal s φ) (i : s.Idx) : Idealize.ShloMosaic.log a i = Ideal.log (a i) := rfl

/-! ## The row reductions of a 400 × 10 block -/

/-- The index of the block over row `p` with column `k` inserted is `(p, k)`. -/
theorem lift_row (h : S400x10.Reduces [1] S400) (p : Fin 400) (k : Fin 10) : h.lift (ix1 p) k = ix2 p k :=
  funext fun c => Fin.ext (by
    match c with
    | ⟨0, _⟩ => rfl
    | ⟨1, _⟩ => rfl)

/-- A row's maximum: the fold of `max` from the accumulator's value over the row's ten entries. -/
theorem rowMax_apply (v : FVec Ideal S400x10 .f32) (acc : BitVec (FTy.bits .f32)) (h : S400x10.Reduces [1] S400)
    (hφ : FKind.Formats .f32) (hacc : acc = FKind.maximumf.neutral .f32 hφ) (p : Fin 400) :
    multiReduction .maximumf [1] S400 v acc h hφ hacc (ix1 p)
      = Finset.univ.fold max (Ideal.ofBits .f32 acc) (fun k : Fin 10 => v (ix2 p k)) := by
  refine (Ideal.multiReduction_maximumf_single v acc h hφ hacc (ix1 p)).trans ?_
  exact congrArg (Finset.univ.fold max (Ideal.ofBits .f32 acc)) (funext fun k => congrArg v (lift_row h p k))

/-- A row's sum over its ten entries. -/
theorem rowSum_apply (v : FVec Ideal S400x10 .f32) (acc : BitVec (FTy.bits .f32)) (h : S400x10.Reduces [1] S400)
    (hφ : FKind.Formats .f32) (hacc : acc = FKind.add.neutral .f32 hφ) (p : Fin 400) :
    multiReduction .add [1] S400 v acc h hφ hacc (ix1 p) = ∑ k : Fin 10, v (ix2 p k) := by
  refine (Ideal.multiReduction_add_single v acc h hφ hacc (ix1 p)).trans ?_
  exact Finset.sum_congr rfl fun k _ => congrArg v (lift_row h p k)

/-- A per-row value `[400]`, made a column and broadcast along the ten columns, reads the row's value. -/
theorem col_apply {α : Type} (w : S400.Idx → α) (h : S400.ShapeCasts S400x1) (h' : S400x1.Broadcasts S400x10)
    (p : Fin 400) (q : Fin 10) : broadcastTo S400x10 (shapeCast S400x1 w h) h' (ix2 p q) = w (ix1 p) :=
  (broadcastTo_a1_ab_apply _ h' p q).trans (shapeCast_a_a1_apply w h p 0)

/-- The row-wise log-softmax of a 400 × 10 block `L` at `(p, q)`: with `mx` the maximum of row `p`,
    `(L p q - mx) - log (0 + ∑ k, exp (L p k - mx))`. -/
theorem logSoftmax_apply (L : FVec Ideal S400x10 .f32) (h : S400x10.Reduces [1] S400) (hφ : FKind.Formats .f32)
    (hmax : (0xFF800000#32 : BitVec (FTy.bits .f32)) = FKind.maximumf.neutral .f32 hφ)
    (hadd : (0x00000000#32 : BitVec (FTy.bits .f32)) = FKind.add.neutral .f32 hφ)
    (hc : S400.ShapeCasts S400x1) (hb : S400x1.Broadcasts S400x10) (p : Fin 400) (q : Fin 10) :
    subf (subf L (broadcastTo S400x10 (shapeCast S400x1 (multiReduction .maximumf [1] S400 L 0xFF800000#32 h hφ hmax) hc) hb))
        (broadcastTo S400x10 (Idealize.ShloMosaic.log (shapeCast S400x1 (multiReduction .add [1] S400
          (Idealize.ShloMosaic.exp (subf L (broadcastTo S400x10 (shapeCast S400x1 (multiReduction .maximumf [1] S400 L 0xFF800000#32 h hφ hmax) hc) hb)))
          0x00000000#32 h hφ hadd) hc)) hb) (ix2 p q)
      = (L (ix2 p q) - Finset.univ.fold max ninf (fun k : Fin 10 => L (ix2 p k)))
        - Ideal.log (zero + ∑ k : Fin 10, Ideal.exp (L (ix2 p k) - Finset.univ.fold max ninf (fun k : Fin 10 => L (ix2 p k)))) := by
  have hm : ∀ c : Fin 10,
      broadcastTo S400x10 (shapeCast S400x1 (multiReduction .maximumf [1] S400 L 0xFF800000#32 h hφ hmax) hc) hb (ix2 p c)
        = Finset.univ.fold max ninf (fun k : Fin 10 => L (ix2 p k)) :=
    fun c => (col_apply _ hc hb p c).trans (rowMax_apply L _ h hφ hmax p)
  show (L (ix2 p q) - broadcastTo S400x10 _ hb (ix2 p q)) - broadcastTo S400x10 (Idealize.ShloMosaic.log _) hb (ix2 p q) = _
  rw [hm q]
  refine congrArg (fun t => L (ix2 p q) - Finset.univ.fold max ninf (fun k : Fin 10 => L (ix2 p k)) - t) ?_
  refine (broadcastTo_a1_ab_apply _ hb p q).trans ?_
  show Ideal.log (shapeCast S400x1 _ hc (ix2 p (0 : Fin 1))) = _
  refine congrArg Ideal.log ?_
  refine (shapeCast_a_a1_apply _ hc p 0).trans ?_
  refine (rowSum_apply _ _ h hφ hadd p).trans ?_
  refine Eq.trans ?_ (show (0 : EReal) + _ = zero + _ from congrArg (· + _) Ideal.ofBits_zero_f32.symm)
  rw [zero_add]
  refine Finset.sum_congr rfl fun k _ => ?_
  show Ideal.exp (L (ix2 p k) - broadcastTo S400x10 _ hb (ix2 p k)) = _
  rw [hm k]

/-! ## The payloads -/

/-- A same-shape cast is the identity. -/
theorem pay7_eq (v : Vec Ideal S1x256 .f32) : k0_pay7 v = v := by
  unfold k0_pay7
  exact shapeCast_self v _
theorem pay8_eq (v : Vec Ideal S1x256 .f32) : k0_pay8 v = v := by
  unfold k0_pay8
  exact shapeCast_self v _
theorem pay9_eq (v : Vec Ideal S1x128 .f32) : k0_pay9 v = v := by
  unfold k0_pay9
  exact shapeCast_self v _
theorem pay10_eq (v : Vec Ideal S1x128 .f32) : k0_pay10 v = v := by
  unfold k0_pay10
  exact shapeCast_self v _

/-- The first linear layer before its batch norm at `(p, q)`: the block of `x1` against the first 128 weight rows plus
    the block of `x2` (itself a payload of the adjacency block, the second support and its bias) against the last 64,
    plus the bias. -/
theorem pay6_apply (v15 : Vec Ideal S400x128 .f32) (v16 : Vec Ideal S400x10000 .f32) (v17 : Vec Ideal S10000x64 .bf16) (v20 : Vec Ideal S1x64 .f32)
    (v27 : Vec Ideal S128x256 .f32) (v32 : Vec Ideal S64x256 .f32) (v38 : Vec Ideal S1x256 .f32) (p : Fin 400) (q : Fin 256) :
    k0_pay6 v15 v16 v17 v20 v27 v32 v38 (ix2 p q)
      = dot (fun l : Fin 128 => v15 (ix2 p l)) (fun l => v27 (ix2 l q))
        + dot (fun l : Fin 64 => k0_pay5 v16 v17 v20 (ix2 p l)) (fun l => v32 (ix2 l q)) + v38 (ix2 (0 : Fin 1) q) := by
  unfold k0_pay6
  show matmul dot_S400x128_S128x256_S400x256_1_0_0_1_n_n none _ _ _ (ix2 p q)
      + matmul dot_S400x64_S64x256_S400x256_1_0_0_1_n_n none _ _ _ (ix2 p q)
      + broadcastTo S400x256 _ _ (ix2 p q) = _
  rw [matmul_l1a_apply, matmul_l1b_apply, broadcastTo_1b_ab_apply]
  simp only [shapeCast_self, truncf_apply]

/-- The second linear layer minus the second batch norm's running mean at `(p, q)`; `v41` is the first layer before
    its batch norm, `v43 v45 v46 v48` the first batch norm's scale, shift, running mean and running variance. -/
theorem pay11_apply (v41 : FVec Ideal S400x256 .f32) (v43 v45 : FVec Ideal S1x256 .f32) (v46 v48 : Vec Ideal S1x256 .f32)
    (v63 : Vec Ideal S256x128 .f32) (v68 v76 : Vec Ideal S1x128 .f32) (p : Fin 400) (q : Fin 128) :
    k0_pay11 v41 v43 v45 v46 v48 v63 v68 v76 (ix2 p q)
      = (dot (fun l : Fin 256 => relu (bn (v41 (ix2 p l)) (v46 (ix2 (0 : Fin 1) l)) (v48 (ix2 (0 : Fin 1) l)) (v43 (ix2 (0 : Fin 1) l)) (v45 (ix2 (0 : Fin 1) l))))
            (fun l => v63 (ix2 l q)) + v68 (ix2 (0 : Fin 1) q)) - v76 (ix2 (0 : Fin 1) q) := by
  unfold k0_pay11
  show (matmul dot_S400x256_S256x128_S400x128_1_0_0_1_n_n none _ _ _ (ix2 p q) + broadcastTo S400x128 _ _ (ix2 p q))
      - broadcastTo S400x128 _ _ (ix2 p q) = _
  rw [matmul_l2_apply, broadcastTo_1b_ab_apply, broadcastTo_1b_ab_apply]
  unfold Cert.Spec.relu Cert.Spec.bn Cert.Spec.eps Cert.Spec.zero
  simp only [shapeCast_self, truncf_apply, maximumf_apply, addf_apply, mulf_apply, divf_apply, subf_apply, sqrt_apply,
    broadcast_apply, broadcastTo_1b_ab_apply, Ideal.ofBits_def]

/-- The second batch norm's denominator, broadcast along the rows. -/
theorem pay12_apply (v78 : Vec Ideal S1x128 .f32) (p : Fin 400) (q : Fin 128) :
    k0_pay12 v78 (ix2 p q) = Ideal.sqrt (v78 (ix2 (0 : Fin 1) q) + eps) := by
  unfold k0_pay12
  refine (broadcastTo_1b_ab_apply _ _ p q).trans ?_
  show Ideal.sqrt (shapeCast S1x128 v78 shapeCasts_S1x128_S1x128 (ix2 (0 : Fin 1) q) + eps) = _
  rw [shapeCast_self]

/-- The log-softmax of the logits at `(p, q)`; `v81 / v85 * v73 + v75` is the second batch norm, `v93`, `v98` the last
    layer's weight and bias. -/
theorem pay13_apply (v73 v75 : FVec Ideal S1x128 .f32) (v81 v85 : FVec Ideal S400x128 .f32) (v93 : Vec Ideal S128x10 .f32) (v98 : Vec Ideal S1x10 .f32)
    (p : Fin 400) (q : Fin 10) :
    k0_pay13 v73 v75 v81 v85 v93 v98 (ix2 p q)
      = (let lg : Fin 10 → EReal := fun q' =>
            dot (fun l : Fin 128 => relu (Ideal.div (v81 (ix2 p l)) (v85 (ix2 p l)) * v73 (ix2 (0 : Fin 1) l) + v75 (ix2 (0 : Fin 1) l)))
              (fun l => v93 (ix2 l q')) + v98 (ix2 (0 : Fin 1) q')
         let mx : EReal := Finset.univ.fold max ninf lg
         (lg q - mx) - Ideal.log (zero + ∑ q', Ideal.exp (lg q' - mx))) := by
  unfold k0_pay13
  refine (logSoftmax_apply _ _ _ _ _ _ _ p q).trans ?_
  unfold Cert.Spec.relu Cert.Spec.zero
  simp only [addf_apply, matmul_l3_apply, shapeCast_self, truncf_apply, maximumf_apply, mulf_apply, divf_apply,
    broadcast_apply, broadcastTo_1b_ab_apply, Ideal.ofBits_def]

end Cert.KernelIdeal.PayAt

end
-- ==== Proof.PayRec.lean ====
/-
  The reconstruction head's payloads of the kernel body read at one entry, over the extended reals: three linear
  layers, `max · 0` after the first two.
-/
import proofs.«162148_g73521250173546_cont_sun_c4_545_9_alg».proof.Proof.Gen.KernelIdeal.Skeleton
import proofs.«162148_g73521250173546_cont_sun_c4_545_9_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.PayAt

open Cert.KernelIdeal Cert.KernelIdeal.Gen
open Idealize.ShloMosaic Idealize.ShloMosaic.ValueIdx
open Cert.Spec (dot relu bn eps zero ninf)

/-! ## A product into a zero accumulator, read at an entry

Each of the head's four products contracts the left operand's columns against the right operand's rows; at `(p, q)` it
is the sum over the contracted coordinate `k` of `a (p, k) * b (k, q)`. -/

/-! ### The product `[400, 128] · [128, 256]` -/

/-- The left operand's row coordinate is the output's row. -/
theorem lhs_a_0 (i : S400x256.Idx) (q : dot_S400x128_S128x256_S400x256_1_0_0_1_n_n.contr.Idx) :
    (dot_S400x128_S128x256_S400x256_1_0_0_1_n_n.lhsIdx i q 0).val = (i 0).val := by
  unfold DotDims.lhsIdx
  rw [dif_neg (show ¬(0 : Fin S400x128.rank) ∈ dot_S400x128_S128x256_S400x256_1_0_0_1_n_n.lhsBatch by decide), dif_pos (show (0 : Fin S400x128.rank) ∈ dot_S400x128_S128x256_S400x256_1_0_0_1_n_n.lhsNonContracting by decide)]
  rfl
/-- The left operand's column coordinate is the contraction index. -/
theorem lhs_a_1 (i : S400x256.Idx) (q : dot_S400x128_S128x256_S400x256_1_0_0_1_n_n.contr.Idx) :
    (dot_S400x128_S128x256_S400x256_1_0_0_1_n_n.lhsIdx i q 1).val = (q ⟨0, by decide⟩).val :=
  dot_S400x128_S128x256_S400x256_1_0_0_1_n_n.lhsIdx_val_of_single rfl i q
/-- The right operand's row coordinate is the contraction index. -/
theorem rhs_a_0 (i : S400x256.Idx) (q : dot_S400x128_S128x256_S400x256_1_0_0_1_n_n.contr.Idx) :
    (dot_S400x128_S128x256_S400x256_1_0_0_1_n_n.rhsIdx i q 0).val = (q ⟨0, by decide⟩).val :=
  dot_S400x128_S128x256_S400x256_1_0_0_1_n_n.rhsIdx_val_of_single rfl i q
/-- The right operand's column coordinate is the output's column. -/
theorem rhs_a_1 (i : S400x256.Idx) (q : dot_S400x128_S128x256_S400x256_1_0_0_1_n_n.contr.Idx) :
    (dot_S400x128_S128x256_S400x256_1_0_0_1_n_n.rhsIdx i q 1).val = (i 1).val := by
  unfold DotDims.rhsIdx
  rw [dif_neg (show ¬(1 : Fin S128x256.rank) ∈ dot_S400x128_S128x256_S400x256_1_0_0_1_n_n.rhsBatch by decide), dif_pos (show (1 : Fin S128x256.rank) ∈ dot_S400x128_S128x256_S400x256_1_0_0_1_n_n.rhsNonContracting by decide)]
  rfl

/-- The product into a zero accumulator at `(p, q)`: row `p` of the left operand against column `q` of the right one. -/
theorem matmul_a_apply {φ₁ φ₂ : FTy} (a : FVec Ideal S400x128 φ₁) (b : FVec Ideal S128x256 φ₂) (p : Fin 400) (q : Fin 256) :
    matmul dot_S400x128_S128x256_S400x256_1_0_0_1_n_n none a b (constant (F := Ideal) S400x256 .f32 0x00000000#32) (ix2 p q)
      = dot (fun k : Fin 128 => a (ix2 p k)) (fun k => b (ix2 k q)) := by
  unfold dot
  show FloatOps.matmul dot_S400x128_S128x256_S400x256_1_0_0_1_n_n none a b (constant (F := Ideal) S400x256 .f32 0x00000000#32) (ix2 p q) = _
  rw [Ideal.matmul_constant_zero_apply, ← Equiv.sum_comp (contrEquiv1 dot_S400x128_S128x256_S400x256_1_0_0_1_n_n 128 rfl rfl).symm]
  refine Finset.sum_congr rfl fun k _ => ?_
  have hk := contrEquiv1_symm_val dot_S400x128_S128x256_S400x256_1_0_0_1_n_n 128 rfl rfl k
  have el : dot_S400x128_S128x256_S400x256_1_0_0_1_n_n.lhsIdx (ix2 p q) ((contrEquiv1 dot_S400x128_S128x256_S400x256_1_0_0_1_n_n 128 rfl rfl).symm k) = ix2 p k := funext fun x => Fin.ext (by
    match x with
    | ⟨0, _⟩ => exact lhs_a_0 _ _
    | ⟨1, _⟩ => exact (lhs_a_1 _ _).trans hk)
  have er : dot_S400x128_S128x256_S400x256_1_0_0_1_n_n.rhsIdx (ix2 p q) ((contrEquiv1 dot_S400x128_S128x256_S400x256_1_0_0_1_n_n 128 rfl rfl).symm k) = ix2 k q := funext fun x => Fin.ext (by
    match x with
    | ⟨0, _⟩ => exact (rhs_a_0 _ _).trans hk
    | ⟨1, _⟩ => exact rhs_a_1 _ _)
  rw [el, er]

/-! ### The product `[400, 64] · [64, 256]` -/

/-- The left operand's row coordinate is the output's row. -/
theorem lhs_b_0 (i : S400x256.Idx) (q : dot_S400x64_S64x256_S400x256_1_0_0_1_n_n.contr.Idx) :
    (dot_S400x64_S64x256_S400x256_1_0_0_1_n_n.lhsIdx i q 0).val = (i 0).val := by
  unfold DotDims.lhsIdx
  rw [dif_neg (show ¬(0 : Fin S400x64.rank) ∈ dot_S400x64_S64x256_S400x256_1_0_0_1_n_n.lhsBatch by decide), dif_pos (show (0 : Fin S400x64.rank) ∈ dot_S400x64_S64x256_S400x256_1_0_0_1_n_n.lhsNonContracting by decide)]
  rfl
/-- The left operand's column coordinate is the contraction index. -/
theorem lhs_b_1 (i : S400x256.Idx) (q : dot_S400x64_S64x256_S400x256_1_0_0_1_n_n.contr.Idx) :
    (dot_S400x64_S64x256_S400x256_1_0_0_1_n_n.lhsIdx i q 1).val = (q ⟨0, by decide⟩).val :=
  dot_S400x64_S64x256_S400x256_1_0_0_1_n_n.lhsIdx_val_of_single rfl i q
/-- The right operand's row coordinate is the contraction index. -/
theorem rhs_b_0 (i : S400x256.Idx) (q : dot_S400x64_S64x256_S400x256_1_0_0_1_n_n.contr.Idx) :
    (dot_S400x64_S64x256_S400x256_1_0_0_1_n_n.rhsIdx i q 0).val = (q ⟨0, by decide⟩).val :=
  dot_S400x64_S64x256_S400x256_1_0_0_1_n_n.rhsIdx_val_of_single rfl i q
/-- The right operand's column coordinate is the output's column. -/
theorem rhs_b_1 (i : S400x256.Idx) (q : dot_S400x64_S64x256_S400x256_1_0_0_1_n_n.contr.Idx) :
    (dot_S400x64_S64x256_S400x256_1_0_0_1_n_n.rhsIdx i q 1).val = (i 1).val := by
  unfold DotDims.rhsIdx
  rw [dif_neg (show ¬(1 : Fin S64x256.rank) ∈ dot_S400x64_S64x256_S400x256_1_0_0_1_n_n.rhsBatch by decide), dif_pos (show (1 : Fin S64x256.rank) ∈ dot_S400x64_S64x256_S400x256_1_0_0_1_n_n.rhsNonContracting by decide)]
  rfl

/-- The product into a zero accumulator at `(p, q)`: row `p` of the left operand against column `q` of the right one. -/
theorem matmul_b_apply {φ₁ φ₂ : FTy} (a : FVec Ideal S400x64 φ₁) (b : FVec Ideal S64x256 φ₂) (p : Fin 400) (q : Fin 256) :
    matmul dot_S400x64_S64x256_S400x256_1_0_0_1_n_n none a b (constant (F := Ideal) S400x256 .f32 0x00000000#32) (ix2 p q)
      = dot (fun k : Fin 64 => a (ix2 p k)) (fun k => b (ix2 k q)) := by
  unfold dot
  show FloatOps.matmul dot_S400x64_S64x256_S400x256_1_0_0_1_n_n none a b (constant (F := Ideal) S400x256 .f32 0x00000000#32) (ix2 p q) = _
  rw [Ideal.matmul_constant_zero_apply, ← Equiv.sum_comp (contrEquiv1 dot_S400x64_S64x256_S400x256_1_0_0_1_n_n 64 rfl rfl).symm]
  refine Finset.sum_congr rfl fun k _ => ?_
  have hk := contrEquiv1_symm_val dot_S400x64_S64x256_S400x256_1_0_0_1_n_n 64 rfl rfl k
  have el : dot_S400x64_S64x256_S400x256_1_0_0_1_n_n.lhsIdx (ix2 p q) ((contrEquiv1 dot_S400x64_S64x256_S400x256_1_0_0_1_n_n 64 rfl rfl).symm k) = ix2 p k := funext fun x => Fin.ext (by
    match x with
    | ⟨0, _⟩ => exact lhs_b_0 _ _
    | ⟨1, _⟩ => exact (lhs_b_1 _ _).trans hk)
  have er : dot_S400x64_S64x256_S400x256_1_0_0_1_n_n.rhsIdx (ix2 p q) ((contrEquiv1 dot_S400x64_S64x256_S400x256_1_0_0_1_n_n 64 rfl rfl).symm k) = ix2 k q := funext fun x => Fin.ext (by
    match x with
    | ⟨0, _⟩ => exact (rhs_b_0 _ _).trans hk
    | ⟨1, _⟩ => exact rhs_b_1 _ _)
  rw [el, er]

/-! ### The product `[400, 256] · [256, 128]` -/

/-- The left operand's row coordinate is the output's row. -/
theorem lhs_c_0 (i : S400x128.Idx) (q : dot_S400x256_S256x128_S400x128_1_0_0_1_n_n.contr.Idx) :
    (dot_S400x256_S256x128_S400x128_1_0_0_1_n_n.lhsIdx i q 0).val = (i 0).val := by
  unfold DotDims.lhsIdx
  rw [dif_neg (show ¬(0 : Fin S400x256.rank) ∈ dot_S400x256_S256x128_S400x128_1_0_0_1_n_n.lhsBatch by decide), dif_pos (show (0 : Fin S400x256.rank) ∈ dot_S400x256_S256x128_S400x128_1_0_0_1_n_n.lhsNonContracting by decide)]
  rfl
/-- The left operand's column coordinate is the contraction index. -/
theorem lhs_c_1 (i : S400x128.Idx) (q : dot_S400x256_S256x128_S400x128_1_0_0_1_n_n.contr.Idx) :
    (dot_S400x256_S256x128_S400x128_1_0_0_1_n_n.lhsIdx i q 1).val = (q ⟨0, by decide⟩).val :=
  dot_S400x256_S256x128_S400x128_1_0_0_1_n_n.lhsIdx_val_of_single rfl i q
/-- The right operand's row coordinate is the contraction index. -/
theorem rhs_c_0 (i : S400x128.Idx) (q : dot_S400x256_S256x128_S400x128_1_0_0_1_n_n.contr.Idx) :
    (dot_S400x256_S256x128_S400x128_1_0_0_1_n_n.rhsIdx i q 0).val = (q ⟨0, by decide⟩).val :=
  dot_S400x256_S256x128_S400x128_1_0_0_1_n_n.rhsIdx_val_of_single rfl i q
/-- The right operand's column coordinate is the output's column. -/
theorem rhs_c_1 (i : S400x128.Idx) (q : dot_S400x256_S256x128_S400x128_1_0_0_1_n_n.contr.Idx) :
    (dot_S400x256_S256x128_S400x128_1_0_0_1_n_n.rhsIdx i q 1).val = (i 1).val := by
  unfold DotDims.rhsIdx
  rw [dif_neg (show ¬(1 : Fin S256x128.rank) ∈ dot_S400x256_S256x128_S400x128_1_0_0_1_n_n.rhsBatch by decide), dif_pos (show (1 : Fin S256x128.rank) ∈ dot_S400x256_S256x128_S400x128_1_0_0_1_n_n.rhsNonContracting by decide)]
  rfl

/-- The product into a zero accumulator at `(p, q)`: row `p` of the left operand against column `q` of the right one. -/
theorem matmul_c_apply {φ₁ φ₂ : FTy} (a : FVec Ideal S400x256 φ₁) (b : FVec Ideal S256x128 φ₂) (p : Fin 400) (q : Fin 128) :
    matmul dot_S400x256_S256x128_S400x128_1_0_0_1_n_n none a b (constant (F := Ideal) S400x128 .f32 0x00000000#32) (ix2 p q)
      = dot (fun k : Fin 256 => a (ix2 p k)) (fun k => b (ix2 k q)) := by
  unfold dot
  show FloatOps.matmul dot_S400x256_S256x128_S400x128_1_0_0_1_n_n none a b (constant (F := Ideal) S400x128 .f32 0x00000000#32) (ix2 p q) = _
  rw [Ideal.matmul_constant_zero_apply, ← Equiv.sum_comp (contrEquiv1 dot_S400x256_S256x128_S400x128_1_0_0_1_n_n 256 rfl rfl).symm]
  refine Finset.sum_congr rfl fun k _ => ?_
  have hk := contrEquiv1_symm_val dot_S400x256_S256x128_S400x128_1_0_0_1_n_n 256 rfl rfl k
  have el : dot_S400x256_S256x128_S400x128_1_0_0_1_n_n.lhsIdx (ix2 p q) ((contrEquiv1 dot_S400x256_S256x128_S400x128_1_0_0_1_n_n 256 rfl rfl).symm k) = ix2 p k := funext fun x => Fin.ext (by
    match x with
    | ⟨0, _⟩ => exact lhs_c_0 _ _
    | ⟨1, _⟩ => exact (lhs_c_1 _ _).trans hk)
  have er : dot_S400x256_S256x128_S400x128_1_0_0_1_n_n.rhsIdx (ix2 p q) ((contrEquiv1 dot_S400x256_S256x128_S400x128_1_0_0_1_n_n 256 rfl rfl).symm k) = ix2 k q := funext fun x => Fin.ext (by
    match x with
    | ⟨0, _⟩ => exact (rhs_c_0 _ _).trans hk
    | ⟨1, _⟩ => exact rhs_c_1 _ _)
  rw [el, er]

/-! ### The product `[400, 128] · [128, 128]` -/

/-- The left operand's row coordinate is the output's row. -/
theorem lhs_d_0 (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
/-- The left operand's column coordinate is the contraction index. -/
theorem lhs_d_1 (i : S400x128.Idx) (q : dot_S400x128_S128x128_S400x128_1_0_0_1_n_n.contr.Idx) :
    (dot_S400x128_S128x128_S400x128_1_0_0_1_n_n.lhsIdx i q 1).val = (q ⟨0, by decide⟩).val :=
  dot_S400x128_S128x128_S400x128_1_0_0_1_n_n.lhsIdx_val_of_single rfl i q
/-- The right operand's row coordinate is the contraction index. -/
theorem rhs_d_0 (i : S400x128.Idx) (q : dot_S400x128_S128x128_S400x128_1_0_0_1_n_n.contr.Idx) :
    (dot_S400x128_S128x128_S400x128_1_0_0_1_n_n.rhsIdx i q 0).val = (q ⟨0, by decide⟩).val :=
  dot_S400x128_S128x128_S400x128_1_0_0_1_n_n.rhsIdx_val_of_single rfl i q
/-- The right operand's column coordinate is the output's column. -/
theorem rhs_d_1 (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-- The product into a zero accumulator at `(p, q)`: row `p` of the left operand against column `q` of the right one. -/
theorem matmul_d_apply {φ₁ φ₂ : FTy} (a : FVec Ideal S400x128 φ₁) (b : FVec Ideal S128x128 φ₂) (p : Fin 400) (q : Fin 128) :
    matmul dot_S400x128_S128x128_S400x128_1_0_0_1_n_n none a b (constant (F := Ideal) S400x128 .f32 0x00000000#32) (ix2 p q)
      = dot (fun k : Fin 128 => a (ix2 p k)) (fun k => b (ix2 k q)) := by
  unfold dot
  show FloatOps.matmul dot_S400x128_S128x128_S400x128_1_0_0_1_n_n none a b (constant (F := Ideal) S400x128 .f32 0x00000000#32) (ix2 p q) = _
  rw [Ideal.matmul_constant_zero_apply, ← Equiv.sum_comp (contrEquiv1 dot_S400x128_S128x128_S400x128_1_0_0_1_n_n 128 rfl rfl).symm]
  refine Finset.sum_congr rfl fun k _ => ?_
  have hk := contrEquiv1_symm_val dot_S400x128_S128x128_S400x128_1_0_0_1_n_n 128 rfl rfl k
  have el : dot_S400x128_S128x128_S400x128_1_0_0_1_n_n.lhsIdx (ix2 p q) ((contrEquiv1 dot_S400x128_S128x128_S400x128_1_0_0_1_n_n 128 rfl rfl).symm k) = ix2 p k := funext fun x => Fin.ext (by
    match x with
    | ⟨0, _⟩ => exact lhs_d_0 _ _
    | ⟨1, _⟩ => exact (lhs_d_1 _ _).trans hk)
  have er : dot_S400x128_S128x128_S400x128_1_0_0_1_n_n.rhsIdx (ix2 p q) ((contrEquiv1 dot_S400x128_S128x128_S400x128_1_0_0_1_n_n 128 rfl rfl).symm k) = ix2 k q := funext fun x => Fin.ext (by
    match x with
    | ⟨0, _⟩ => exact (rhs_d_0 _ _).trans hk
    | ⟨1, _⟩ => exact rhs_d_1 _ _)
  rw [el, er]

/-! ## The head's payloads -/

/-- The first layer before its bias at `(p, q)`: the block of `x1` against the first 128 weight rows plus the block of
    `x2` against the last 64. -/
theorem pay14_apply (v15 : Vec Ideal S400x128 .f32) (v24 : FVec Ideal S400x64 .f32) (v115 : Vec Ideal S128x256 .f32) (v120 : Vec Ideal S64x256 .f32)
    (p : Fin 400) (q : Fin 256) :
    k0_pay14 v15 v24 v115 v120 (ix2 p q)
      = dot (fun l : Fin 128 => v15 (ix2 p l)) (fun l => v115 (ix2 l q)) + dot (fun l : Fin 64 => v24 (ix2 p l)) (fun l => v120 (ix2 l q)) := by
  unfold k0_pay14
  simp only [addf_apply, truncf_apply, shapeCast_self, matmul_a_apply, matmul_b_apply]

/-- The head's result at `(p, q)`; `v125` is the first layer before its bias `v126`. -/
theorem pay4_apply (v125 : FVec Ideal S400x256 .f32) (v126 : Vec Ideal S1x256 .f32) (v132 : Vec Ideal S256x128 .f32) (v137 : Vec Ideal S1x128 .f32)
    (v143 : Vec Ideal S128x128 .f32) (v148 : Vec Ideal S1x128 .f32) (p : Fin 400) (q : Fin 128) :
    k0_pay4 v125 v126 v132 v137 v143 v148 (ix2 p q)
      = dot (fun l : Fin 128 =>
            relu (dot (fun l' : Fin 256 => relu (v125 (ix2 p l') + v126 (ix2 (0 : Fin 1) l'))) (fun l' => v132 (ix2 l' l)) + v137 (ix2 (0 : Fin 1) l)))
          (fun l => v143 (ix2 l q)) + v148 (ix2 (0 : Fin 1) q) := by
  unfold k0_pay4
  simp only [addf_apply, maximumf_apply, truncf_apply, broadcast_apply, shapeCast_self, broadcastTo_1b_ab_apply, matmul_c_apply, matmul_d_apply]
  rfl

end Cert.KernelIdeal.PayAt

end
-- ==== Proof.BlocksA.lean ====
/-
  What the pipeline stages for the body, read at one entry over the extended reals: each operand window's block at a
  grid point as an entry of an argument array. The adjacency's window is its row tile `t mod 25` (400 rows); every
  other window is a whole array the host prepared from an argument before the call: a weight as it is, a transposed
  weight (entry `(l, q)` is the argument's `(q, l)`), rows `0..128` or `128..192` of a transposed weight, or a vector
  laid out as one row.
-/
import proofs.«162148_g73521250173546_cont_sun_c4_545_9_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.ValueIdx Idealize.ShloMosaic.TcCoe Idealize.SL.Sem

variable (m : (ℓ : Loc nD τ sig) → Buf (Elt Ideal) ℓ) (c : Dev nD)

/-! ## A vector laid out as one row

Every entry of a block sits in its array, on each axis, at the block index times the block's extent plus the entry's
own coordinate; for a window whose block is the whole array the block index is `(0, 0)` and the entry keeps its
coordinates. -/

/-- A vector laid out as one row reads, at `(u, i)`, the vector at `i`. -/
theorem rowOf_apply {n : ℕ} {α : Type} (h : (⟨1, ![n]⟩ : Shape).BroadcastsInDim ⟨2, ![1, n]⟩ ![1])
    (x : (⟨1, ![n]⟩ : Shape).Idx → α) (u : Fin 1) (i : Fin n) :
    broadcastInDim ⟨2, ![1, n]⟩ ![1] h x (ix2 u i) = x (ix1 i) :=
  broadcastInDim_apply _ h x (ix2 u i) (ix1 i) fun ax => by
    match ax with
    | ⟨0, _⟩ =>
      show i.val = if n = 1 then 0 else i.val
      split
      · have := i.isLt; omega
      · rfl

/-- The adjacency window's block index at point `t` is `(t mod 25, 0)`: the grid sweeps the 25 row tiles twice. -/
theorem idx0 : ∀ t : Fin cfg0.N, win0_0.index t (0 : Fin 2) = t.val % 25 ∧ win0_0.index t (1 : Fin 2) = 0 :=
  (by decide +kernel : ∀ t : Fin grid0.N, _)

set_option maxHeartbeats 2000000 in
/-- Window 0's block at any point is the adjacency's row tile `t mod 25`. -/
theorem blk0 (t : Fin cfg0.N) (a : Fin 400) (b : Fin 10000) :
    (iblk m c 0 t : Vec Ideal S400x10000 .f32) (ix2 a b) = (m ((c.tc : Thread nD τ).loc main_arg1) : Vec Ideal S10000x10000 .f32) (ix2 (⟨400 * (t.val % 25) + a.val, by have := a.isLt; omega⟩ : Fin 10000) b) := by
  obtain ⟨e0, e1⟩ := idx0 t
  unfold iblk
  rw [View.read_apply]
  show V m c main_arg1 _ = m (c.tc.loc main_arg1) _
  rw [V_main_arg1]
  congr 1
  funext ax
  apply Fin.ext
  match ax with
  | ⟨0, _⟩ => show win0_0.index t (0 : Fin 2) * 400 + 1 * a.val = 400 * (t.val % 25) + a.val; omega
  | ⟨1, _⟩ => show win0_0.index t (1 : Fin 2) * 10000 + 1 * b.val = b.val; omega

/-- Window 1's block index is `(0, 0)` at every point: its block is its whole array. -/
theorem idx1 : ∀ t : Fin cfg0.N, win0_1.index t (0 : Fin 2) = 0 ∧ win0_1.index t (1 : Fin 2) = 0 :=
  (by decide +kernel : ∀ t : Fin grid0.N, _)

set_option maxHeartbeats 2000000 in
/-- Window 1's block at any point is the node features, whole. -/
theorem blk1 (t : Fin cfg0.N) (a : Fin 10000) (b : Fin 128) :
    (iblk m c 1 t : Vec Ideal S10000x128 .f32) (ix2 a b) = (m ((c.tc : Thread nD τ).loc main_arg0) : Vec Ideal S10000x128 .f32) (ix2 a b) := by
  obtain ⟨e0, e1⟩ := idx1 t
  unfold iblk
  rw [View.read_apply]
  show V m c main_arg0 _ = m (c.tc.loc main_arg0) _
  rw [V_main_arg0]
  congr 1
  funext ax
  apply Fin.ext
  match ax with
  | ⟨0, _⟩ => show win0_1.index t (0 : Fin 2) * 10000 + 1 * a.val = a.val; omega
  | ⟨1, _⟩ => show win0_1.index t (1 : Fin 2) * 128 + 1 * b.val = b.val; omega

/-- Window 2's block index is `(0, 0)` at every point: its block is its whole array. -/
theorem idx2 : ∀ t : Fin cfg0.N, win0_2.index t (0 : Fin 2) = 0 ∧ win0_2.index t (1 : Fin 2) = 0 :=
  (by decide +kernel : ∀ t : Fin grid0.N, _)

set_option maxHeartbeats 2000000 in
/-- Window 2's block at any point is the first layer's weight, whole. -/
theorem blk2 (t : Fin cfg0.N) (a : Fin 128) (b : Fin 128) :
    (iblk m c 2 t : Vec Ideal S128x128 .f32) (ix2 a b) = (m ((c.tc : Thread nD τ).loc main_arg2) : Vec Ideal S128x128 .f32) (ix2 a b) := by
  obtain ⟨e0, e1⟩ := idx2 t
  unfold iblk
  rw [View.read_apply]
  show V m c main_arg2 _ = m (c.tc.loc main_arg2) _
  rw [V_main_arg2]
  congr 1
  funext ax
  apply Fin.ext
  match ax with
  | ⟨0, _⟩ => show win0_2.index t (0 : Fin 2) * 128 + 1 * a.val = a.val; omega
  | ⟨1, _⟩ => show win0_2.index t (1 : Fin 2) * 128 + 1 * b.val = b.val; omega

/-- Window 3's block index is `(0, 0)` at every point: its block is its whole array. -/
theorem idx3 : ∀ t : Fin cfg0.N, win0_3.index t (0 : Fin 2) = 0 ∧ win0_3.index t (1 : Fin 2) = 0 :=
  (by decide +kernel : ∀ t : Fin grid0.N, _)

set_option maxHeartbeats 2000000 in
/-- Window 3's block at any point is the first layer's bias as a row. -/
theorem blk3 (t : Fin cfg0.N) (a : Fin 1) (b : Fin 128) :
    (iblk m c 3 t : Vec Ideal S1x128 .f32) (ix2 a b) = (m ((c.tc : Thread nD τ).loc main_arg3) : Vec Ideal S128 .f32) (ix1 b) := by
  have e : (V m c main_v6 : S1x128.Idx → EReal) = broadcastInDim S1x128 ![1] bcast_S128_S1x128_1 (m (c.tc.loc main_arg3)) := by
    dsimp only [Gen.V, Gen.hostOps0]; after_results
  obtain ⟨e0, e1⟩ := idx3 t
  unfold iblk
  rw [View.read_apply]
  show V m c main_v6 _ = _
  rw [e]
  refine Eq.trans ?_ (rowOf_apply bcast_S128_S1x128_1 (m (c.tc.loc main_arg3)) a b)
  congr 1
  funext ax
  apply Fin.ext
  match ax with
  | ⟨0, _⟩ => show win0_3.index t (0 : Fin 2) * 1 + 1 * a.val = a.val; omega
  | ⟨1, _⟩ => show win0_3.index t (1 : Fin 2) * 128 + 1 * b.val = b.val; omega

/-- Window 4's block index is `(0, 0)` at every point: its block is its whole array. -/
theorem idx4 : ∀ t : Fin cfg0.N, win0_4.index t (0 : Fin 2) = 0 ∧ win0_4.index t (1 : Fin 2) = 0 :=
  (by decide +kernel : ∀ t : Fin grid0.N, _)

set_option maxHeartbeats 2000000 in
/-- Window 4's block at any point is the second layer's weight, whole. -/
theorem blk4 (t : Fin cfg0.N) (a : Fin 128) (b : Fin 64) :
    (iblk m c 4 t : Vec Ideal S128x64 .f32) (ix2 a b) = (m ((c.tc : Thread nD τ).loc main_arg4) : Vec Ideal S128x64 .f32) (ix2 a b) := by
  obtain ⟨e0, e1⟩ := idx4 t
  unfold iblk
  rw [View.read_apply]
  show V m c main_arg4 _ = m (c.tc.loc main_arg4) _
  rw [V_main_arg4]
  congr 1
  funext ax
  apply Fin.ext
  match ax with
  | ⟨0, _⟩ => show win0_4.index t (0 : Fin 2) * 128 + 1 * a.val = a.val; omega
  | ⟨1, _⟩ => show win0_4.index t (1 : Fin 2) * 64 + 1 * b.val = b.val; omega

/-- Window 5's block index is `(0, 0)` at every point: its block is its whole array. -/
theorem idx5 : ∀ t : Fin cfg0.N, win0_5.index t (0 : Fin 2) = 0 ∧ win0_5.index t (1 : Fin 2) = 0 :=
  (by decide +kernel : ∀ t : Fin grid0.N, _)

set_option maxHeartbeats 2000000 in
/-- Window 5's block at any point is the second layer's bias as a row. -/
theorem blk5 (t : Fin cfg0.N) (a : Fin 1) (b : Fin 64) :
    (iblk m c 5 t : Vec Ideal S1x64 .f32) (ix2 a b) = (m ((c.tc : Thread nD τ).loc main_arg5) : Vec Ideal S64 .f32) (ix1 b) := by
  have e : (V m c main_v7 : S1x64.Idx → EReal) = broadcastInDim S1x64 ![1] bcast_S64_S1x64_1 (m (c.tc.loc main_arg5)) := by
    dsimp only [Gen.V, Gen.hostOps0]; after_results
  obtain ⟨e0, e1⟩ := idx5 t
  unfold iblk
  rw [View.read_apply]
  show V m c main_v7 _ = _
  rw [e]
  refine Eq.trans ?_ (rowOf_apply bcast_S64_S1x64_1 (m (c.tc.loc main_arg5)) a b)
  congr 1
  funext ax
  apply Fin.ext
  match ax with
  | ⟨0, _⟩ => show win0_5.index t (0 : Fin 2) * 1 + 1 * a.val = a.val; omega
  | ⟨1, _⟩ => show win0_5.index t (1 : Fin 2) * 64 + 1 * b.val = b.val; omega

/-- Window 6's block index is `(0, 0)` at every point: its block is its whole array. -/
theorem idx6 : ∀ t : Fin cfg0.N, win0_6.index t (0 : Fin 2) = 0 ∧ win0_6.index t (1 : Fin 2) = 0 :=
  (by decide +kernel : ∀ t : Fin grid0.N, _)

set_option maxHeartbeats 2000000 in
/-- Window 6's block at any point is the classifier's first weight transposed, its first 128 rows. -/
theorem blk6 (t : Fin cfg0.N) (a : Fin 128) (b : Fin 256) :
    (iblk m c 6 t : Vec Ideal S128x256 .f32) (ix2 a b) = (m ((c.tc : Thread nD τ).loc main_arg6) : Vec Ideal S256x192 .f32) (ix2 b (Fin.castAdd 64 a)) := by
  have e : (V m c main_v8 : S128x256.Idx → EReal) = extractStridedSlice S128x256 ![0, 0] (transpose S192x256 [1, 0] (m (c.tc.loc main_arg6)) transposes_S256x192_S192x256_1_0) slices_S192x256_S128x256_0_0 := by
    dsimp only [Gen.V, Gen.hostOps0]; after_results
  obtain ⟨e0, e1⟩ := idx6 t
  unfold iblk
  rw [View.read_apply]
  show V m c main_v8 _ = _
  rw [e]
  refine Eq.trans ?_ ((slice2_axis0_apply 0 _ slices_S192x256_S128x256_0_0 a b (Fin.castAdd 64 a) (by simp)).trans
    (transpose_ix2_apply (m (c.tc.loc main_arg6)) transposes_S256x192_S192x256_1_0 (Fin.castAdd 64 a) b))
  congr 1
  funext ax
  apply Fin.ext
  match ax with
  | ⟨0, _⟩ => show win0_6.index t (0 : Fin 2) * 128 + 1 * a.val = a.val; omega
  | ⟨1, _⟩ => show win0_6.index t (1 : Fin 2) * 256 + 1 * b.val = b.val; omega

/-- Window 7's block index is `(0, 0)` at every point: its block is its whole array. -/
theorem idx7 : ∀ t : Fin cfg0.N, win0_7.index t (0 : Fin 2) = 0 ∧ win0_7.index t (1 : Fin 2) = 0 :=
  (by decide +kernel : ∀ t : Fin grid0.N, _)

set_option maxHeartbeats 2000000 in
/-- Window 7's block at any point is the classifier's first weight transposed, its last 64 rows. -/
theorem blk7 (t : Fin cfg0.N) (a : Fin 64) (b : Fin 256) :
    (iblk m c 7 t : Vec Ideal S64x256 .f32) (ix2 a b) = (m ((c.tc : Thread nD τ).loc main_arg6) : Vec Ideal S256x192 .f32) (ix2 b (Fin.natAdd 128 a)) := by
  have e : (V m c main_v9 : S64x256.Idx → EReal) = extractStridedSlice S64x256 ![128, 0] (transpose S192x256 [1, 0] (m (c.tc.loc main_arg6)) transposes_S256x192_S192x256_1_0) slices_S192x256_S64x256_128_0 := by
    dsimp only [Gen.V, Gen.hostOps0]; after_results
  obtain ⟨e0, e1⟩ := idx7 t
  unfold iblk
  rw [View.read_apply]
  show V m c main_v9 _ = _
  rw [e]
  refine Eq.trans ?_ ((slice2_axis0_apply 128 _ slices_S192x256_S64x256_128_0 a b (Fin.natAdd 128 a) (by simp)).trans
    (transpose_ix2_apply (m (c.tc.loc main_arg6)) transposes_S256x192_S192x256_1_0 (Fin.natAdd 128 a) b))
  congr 1
  funext ax
  apply Fin.ext
  match ax with
  | ⟨0, _⟩ => show win0_7.index t (0 : Fin 2) * 64 + 1 * a.val = a.val; omega
  | ⟨1, _⟩ => show win0_7.index t (1 : Fin 2) * 256 + 1 * b.val = b.val; omega

/-- Window 8's block index is `(0, 0)` at every point: its block is its whole array. -/
theorem idx8 : ∀ t : Fin cfg0.N, win0_8.index t (0 : Fin 2) = 0 ∧ win0_8.index t (1 : Fin 2) = 0 :=
  (by decide +kernel : ∀ t : Fin grid0.N, _)

set_option maxHeartbeats 2000000 in
/-- Window 8's block at any point is the classifier's first bias as a row. -/
theorem blk8 (t : Fin cfg0.N) (a : Fin 1) (b : Fin 256) :
    (iblk m c 8 t : Vec Ideal S1x256 .f32) (ix2 a b) = (m ((c.tc : Thread nD τ).loc main_arg7) : Vec Ideal S256 .f32) (ix1 b) := by
  have e : (V m c main_v10 : S1x256.Idx → EReal) = broadcastInDim S1x256 ![1] bcast_S256_S1x256_1 (m (c.tc.loc main_arg7)) := by
    dsimp only [Gen.V, Gen.hostOps0]; after_results
  obtain ⟨e0, e1⟩ := idx8 t
  unfold iblk
  rw [View.read_apply]
  show V m c main_v10 _ = _
  rw [e]
  refine Eq.trans ?_ (rowOf_apply bcast_S256_S1x256_1 (m (c.tc.loc main_arg7)) a b)
  congr 1
  funext ax
  apply Fin.ext
  match ax with
  | ⟨0, _⟩ => show win0_8.index t (0 : Fin 2) * 1 + 1 * a.val = a.val; omega
  | ⟨1, _⟩ => show win0_8.index t (1 : Fin 2) * 256 + 1 * b.val = b.val; omega

/-- Window 9's block index is `(0, 0)` at every point: its block is its whole array. -/
theorem idx9 : ∀ t : Fin cfg0.N, win0_9.index t (0 : Fin 2) = 0 ∧ win0_9.index t (1 : Fin 2) = 0 :=
  (by decide +kernel : ∀ t : Fin grid0.N, _)

set_option maxHeartbeats 2000000 in
/-- Window 9's block at any point is the first batch norm's scale as a row. -/
theorem blk9 (t : Fin cfg0.N) (a : Fin 1) (b : Fin 256) :
    (iblk m c 9 t : Vec Ideal S1x256 .f32) (ix2 a b) = (m ((c.tc : Thread nD τ).loc main_arg8) : Vec Ideal S256 .f32) (ix1 b) := by
  have e : (V m c main_v11 : S1x256.Idx → EReal) = broadcastInDim S1x256 ![1] bcast_S256_S1x256_1 (m (c.tc.loc main_arg8)) := by
    dsimp only [Gen.V, Gen.hostOps0]; after_results
  obtain ⟨e0, e1⟩ := idx9 t
  unfold iblk
  rw [View.read_apply]
  show V m c main_v11 _ = _
  rw [e]
  refine Eq.trans ?_ (rowOf_apply bcast_S256_S1x256_1 (m (c.tc.loc main_arg8)) a b)
  congr 1
  funext ax
  apply Fin.ext
  match ax with
  | ⟨0, _⟩ => show win0_9.index t (0 : Fin 2) * 1 + 1 * a.val = a.val; omega
  | ⟨1, _⟩ => show win0_9.index t (1 : Fin 2) * 256 + 1 * b.val = b.val; omega

/-- Window 10's block index is `(0, 0)` at every point: its block is its whole array. -/
theorem idx10 : ∀ t : Fin cfg0.N, win0_10.index t (0 : Fin 2) = 0 ∧ win0_10.index t (1 : Fin 2) = 0 :=
  (by decide +kernel : ∀ t : Fin grid0.N, _)

set_option maxHeartbeats 2000000 in
/-- Window 10's block at any point is the first batch norm's shift as a row. -/
theorem blk10 (t : Fin cfg0.N) (a : Fin 1) (b : Fin 256) :
    (iblk m c 10 t : Vec Ideal S1x256 .f32) (ix2 a b) = (m ((c.tc : Thread nD τ).loc main_arg9) : Vec Ideal S256 .f32) (ix1 b) := by
  have e : (V m c main_v12 : S1x256.Idx → EReal) = broadcastInDim S1x256 ![1] bcast_S256_S1x256_1 (m (c.tc.loc main_arg9)) := by
    dsimp only [Gen.V, Gen.hostOps0]; after_results
  obtain ⟨e0, e1⟩ := idx10 t
  unfold iblk
  rw [View.read_apply]
  show V m c main_v12 _ = _
  rw [e]
  refine Eq.trans ?_ (rowOf_apply bcast_S256_S1x256_1 (m (c.tc.loc main_arg9)) a b)
  congr 1
  funext ax
  apply Fin.ext
  match ax with
  | ⟨0, _⟩ => show win0_10.index t (0 : Fin 2) * 1 + 1 * a.val = a.val; omega
  | ⟨1, _⟩ => show win0_10.index t (1 : Fin 2) * 256 + 1 * b.val = b.val; omega

/-- Window 11's block index is `(0, 0)` at every point: its block is its whole array. -/
theorem idx11 : ∀ t : Fin cfg0.N, win0_11.index t (0 : Fin 2) = 0 ∧ win0_11.index t (1 : Fin 2) = 0 :=
  (by decide +kernel : ∀ t : Fin grid0.N, _)

set_option maxHeartbeats 2000000 in
/-- Window 11's block at any point is the first batch norm's running mean as a row. -/
theorem blk11 (t : Fin cfg0.N) (a : Fin 1) (b : Fin 256) :
    (iblk m c 11 t : Vec Ideal S1x256 .f32) (ix2 a b) = (m ((c.tc : Thread nD τ).loc main_arg10) : Vec Ideal S256 .f32) (ix1 b) := by
  have e : (V m c main_v13 : S1x256.Idx → EReal) = broadcastInDim S1x256 ![1] bcast_S256_S1x256_1 (m (c.tc.loc main_arg10)) := by
    dsimp only [Gen.V, Gen.hostOps0]; after_results
  obtain ⟨e0, e1⟩ := idx11 t
  unfold iblk
  rw [View.read_apply]
  show V m c main_v13 _ = _
  rw [e]
  refine Eq.trans ?_ (rowOf_apply bcast_S256_S1x256_1 (m (c.tc.loc main_arg10)) a b)
  congr 1
  funext ax
  apply Fin.ext
  match ax with
  | ⟨0, _⟩ => show win0_11.index t (0 : Fin 2) * 1 + 1 * a.val = a.val; omega
  | ⟨1, _⟩ => show win0_11.index t (1 : Fin 2) * 256 + 1 * b.val = b.val; omega

/-- Window 12's block index is `(0, 0)` at every point: its block is its whole array. -/
theorem idx12 : ∀ t : Fin cfg0.N, win0_12.index t (0 : Fin 2) = 0 ∧ win0_12.index t (1 : Fin 2) = 0 :=
  (by decide +kernel : ∀ t : Fin grid0.N, _)

set_option maxHeartbeats 2000000 in
/-- Window 12's block at any point is the first batch norm's running variance as a row. -/
theorem blk12 (t : Fin cfg0.N) (a : Fin 1) (b : Fin 256) :
    (iblk m c 12 t : Vec Ideal S1x256 .f32) (ix2 a b) = (m ((c.tc : Thread nD τ).loc main_arg11) : Vec Ideal S256 .f32) (ix1 b) := by
  have e : (V m c main_v14 : S1x256.Idx → EReal) = broadcastInDim S1x256 ![1] bcast_S256_S1x256_1 (m (c.tc.loc main_arg11)) := by
    dsimp only [Gen.V, Gen.hostOps0]; after_results
  obtain ⟨e0, e1⟩ := idx12 t
  unfold iblk
  rw [View.read_apply]
  show V m c main_v14 _ = _
  rw [e]
  refine Eq.trans ?_ (rowOf_apply bcast_S256_S1x256_1 (m (c.tc.loc main_arg11)) a b)
  congr 1
  funext ax
  apply Fin.ext
  match ax with
  | ⟨0, _⟩ => show win0_12.index t (0 : Fin 2) * 1 + 1 * a.val = a.val; omega
  | ⟨1, _⟩ => show win0_12.index t (1 : Fin 2) * 256 + 1 * b.val = b.val; omega

/-- Window 13's block index is `(0, 0)` at every point: its block is its whole array. -/
theorem idx13 : ∀ t : Fin cfg0.N, win0_13.index t (0 : Fin 2) = 0 ∧ win0_13.index t (1 : Fin 2) = 0 :=
  (by decide +kernel : ∀ t : Fin grid0.N, _)

set_option maxHeartbeats 2000000 in
/-- Window 13's block at any point is the classifier's second weight transposed. -/
theorem blk13 (t : Fin cfg0.N) (a : Fin 256) (b : Fin 128) :
    (iblk m c 13 t : Vec Ideal S256x128 .f32) (ix2 a b) = (m ((c.tc : Thread nD τ).loc main_arg12) : Vec Ideal S128x256 .f32) (ix2 b a) := by
  have e : (V m c main_v1 : S256x128.Idx → EReal) = transpose S256x128 [1, 0] (m (c.tc.loc main_arg12)) transposes_S128x256_S256x128_1_0 := by
    dsimp only [Gen.V, Gen.hostOps0]; after_results
  obtain ⟨e0, e1⟩ := idx13 t
  unfold iblk
  rw [View.read_apply]
  show V m c main_v1 _ = _
  rw [e]
  refine Eq.trans ?_ (transpose_ix2_apply (m (c.tc.loc main_arg12)) transposes_S128x256_S256x128_1_0 a b)
  congr 1
  funext ax
  apply Fin.ext
  match ax with
  | ⟨0, _⟩ => show win0_13.index t (0 : Fin 2) * 256 + 1 * a.val = a.val; omega
  | ⟨1, _⟩ => show win0_13.index t (1 : Fin 2) * 128 + 1 * b.val = b.val; omega

end Cert.KernelIdeal.Hand

end
-- ==== Proof.BlocksB.lean ====
/-
  What the pipeline stages for the body, read at one entry over the extended reals: each operand window's block at a
  grid point as an entry of an argument array. The adjacency's window is its row tile `t mod 25` (400 rows); every
  other window is a whole array the host prepared from an argument before the call: a weight as it is, a transposed
  weight (entry `(l, q)` is the argument's `(q, l)`), rows `0..128` or `128..192` of a transposed weight, or a vector
  laid out as one row.
-/
import proofs.«162148_g73521250173546_cont_sun_c4_545_9_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.ValueIdx Idealize.ShloMosaic.TcCoe Idealize.SL.Sem

/-! ## The host's layout operations read at an entry -/

/-- A vector laid out as one row reads, at `(a, b)`, the vector at `b`. -/
theorem row_apply {α : Type} {n : ℕ} (x : (⟨1, ![n]⟩ : Shape).Idx → α)
    (h : (⟨1, ![n]⟩ : Shape).BroadcastsInDim ⟨2, ![1, n]⟩ (![1] : Fin 1 → Fin 2)) (a : Fin 1) (b : Fin n) :
    broadcastInDim ⟨2, ![1, n]⟩ ![1] h x (ix2 a b) = x (ix1 b) := by
  refine broadcastInDim_apply _ h x (ix2 a b) (ix1 b) fun k => ?_
  match k with
  | ⟨0, _⟩ =>
    show b.val = if n = 1 then 0 else b.val
    split
    · have := b.isLt; omega
    · rfl

/-- A transposed matrix reads, at `(a, b)`, the matrix at `(b, a)`. -/
theorem transpose₂_apply {α : Type} {r c : ℕ} (x : (⟨2, ![r, c]⟩ : Shape).Idx → α)
    (h : (⟨2, ![r, c]⟩ : Shape).Transposes [1, 0] ⟨2, ![c, r]⟩) (a : Fin c) (b : Fin r) :
    transpose ⟨2, ![c, r]⟩ [1, 0] x h (ix2 a b) = x (ix2 b a) := by
  refine transpose_apply _ x h (ix2 a b) (ix2 b a) fun k => ?_
  match k with
  | ⟨0, _⟩ => rfl
  | ⟨1, _⟩ => rfl

/-- Rows `0..128` of a transposed `[256, 192]` matrix read, at `(a, b)`, the matrix at `(b, a)`. -/
theorem topRows_apply {α : Type} (x : S256x192.Idx → α) (hT : S256x192.Transposes [1, 0] S192x256)
    (hS : S192x256.Slices ![0, 0] S128x256) (a : Fin 128) (b : Fin 256) :
    extractStridedSlice S128x256 ![0, 0] (transpose S192x256 [1, 0] x hT) hS (ix2 a b) = x (ix2 b (Fin.castAdd 64 a)) := by
  refine (extractStridedSlice_apply _ _ hS (ix2 a b) (ix2 (Fin.castAdd 64 a) b) fun k => ?_).trans (transpose₂_apply x hT _ _)
  match k with
  | ⟨0, _⟩ => show a.val = 0 + a.val; omega
  | ⟨1, _⟩ => show b.val = 0 + b.val; omega

/-- Rows `128..192` of a transposed `[256, 192]` matrix read, at `(a, b)`, the matrix at `(b, 128 + a)`. -/
theorem lastRows_apply {α : Type} (x : S256x192.Idx → α) (hT : S256x192.Transposes [1, 0] S192x256)
    (hS : S192x256.Slices ![128, 0] S64x256) (a : Fin 64) (b : Fin 256) :
    extractStridedSlice S64x256 ![128, 0] (transpose S192x256 [1, 0] x hT) hS (ix2 a b) = x (ix2 b (Fin.natAdd 128 a)) := by
  refine (extractStridedSlice_apply _ _ hS (ix2 a b) (ix2 (Fin.natAdd 128 a) b) fun k => ?_).trans (transpose₂_apply x hT _ _)
  match k with
  | ⟨0, _⟩ => show 128 + a.val = 128 + a.val; rfl
  | ⟨1, _⟩ => show b.val = 0 + b.val; omega

/-! ## The windows' blocks

Every window here has block index `(0, 0)` at every point and a block as large as its array, so the block's entry
`(a, b)` is the array's entry `(a, b)`; the array is what the host wrote before the call. -/

variable (m : (ℓ : Loc nD τ sig) → Buf (Elt Ideal) ℓ) (c : Dev nD)

set_option maxHeartbeats 2000000 in
/-- Window 14's block at any point is the classifier's second bias as a row. -/
theorem blk14 (t : Fin cfg0.N) (a : Fin 1) (b : Fin 128) :
    (iblk m c 14 t : Vec Ideal S1x128 .f32) (ix2 a b) = (m ((c.tc : Thread nD τ).loc main_arg13) : Vec Ideal S128 .f32) (ix1 b) := by
  have e : (V m c main_v15 : S1x128.Idx → EReal)
      = broadcastInDim S1x128 ![1] bcast_S128_S1x128_1 (m ((c.tc : Thread nD τ).loc main_arg13) : Vec Ideal S128 .f32) := by
    dsimp only [Gen.V, Gen.hostOps0]; after_results
  unfold iblk
  rw [View.read_apply]
  show V m c main_v15 _ = _
  rw [e]
  have hi : ((cfg0.win 14).blk t).view.emb (ix2 a b) = (ix2 a b : S1x128.Idx) := by
    funext x; apply Fin.ext
    match x with
    | ⟨0, _⟩ => show win0_14.index t 0 * 1 + 1 * a.val = a.val; rw [show win0_14.index t 0 = 0 from rfl]; omega
    | ⟨1, _⟩ => show win0_14.index t 1 * 128 + 1 * b.val = b.val; rw [show win0_14.index t 1 = 0 from rfl]; omega
  rw [hi]
  exact row_apply _ _ a b

set_option maxHeartbeats 2000000 in
/-- Window 15's block at any point is the second batch norm's scale as a row. -/
theorem blk15 (t : Fin cfg0.N) (a : Fin 1) (b : Fin 128) :
    (iblk m c 15 t : Vec Ideal S1x128 .f32) (ix2 a b) = (m ((c.tc : Thread nD τ).loc main_arg14) : Vec Ideal S128 .f32) (ix1 b) := by
  have e : (V m c main_v16 : S1x128.Idx → EReal)
      = broadcastInDim S1x128 ![1] bcast_S128_S1x128_1 (m ((c.tc : Thread nD τ).loc main_arg14) : Vec Ideal S128 .f32) := by
    dsimp only [Gen.V, Gen.hostOps0]; after_results
  unfold iblk
  rw [View.read_apply]
  show V m c main_v16 _ = _
  rw [e]
  have hi : ((cfg0.win 15).blk t).view.emb (ix2 a b) = (ix2 a b : S1x128.Idx) := by
    funext x; apply Fin.ext
    match x with
    | ⟨0, _⟩ => show win0_15.index t 0 * 1 + 1 * a.val = a.val; rw [show win0_15.index t 0 = 0 from rfl]; omega
    | ⟨1, _⟩ => show win0_15.index t 1 * 128 + 1 * b.val = b.val; rw [show win0_15.index t 1 = 0 from rfl]; omega
  rw [hi]
  exact row_apply _ _ a b

set_option maxHeartbeats 2000000 in
/-- Window 16's block at any point is the second batch norm's shift as a row. -/
theorem blk16 (t : Fin cfg0.N) (a : Fin 1) (b : Fin 128) :
    (iblk m c 16 t : Vec Ideal S1x128 .f32) (ix2 a b) = (m ((c.tc : Thread nD τ).loc main_arg15) : Vec Ideal S128 .f32) (ix1 b) := by
  have e : (V m c main_v17 : S1x128.Idx → EReal)
      = broadcastInDim S1x128 ![1] bcast_S128_S1x128_1 (m ((c.tc : Thread nD τ).loc main_arg15) : Vec Ideal S128 .f32) := by
    dsimp only [Gen.V, Gen.hostOps0]; after_results
  unfold iblk
  rw [View.read_apply]
  show V m c main_v17 _ = _
  rw [e]
  have hi : ((cfg0.win 16).blk t).view.emb (ix2 a b) = (ix2 a b : S1x128.Idx) := by
    funext x; apply Fin.ext
    match x with
    | ⟨0, _⟩ => show win0_16.index t 0 * 1 + 1 * a.val = a.val; rw [show win0_16.index t 0 = 0 from rfl]; omega
    | ⟨1, _⟩ => show win0_16.index t 1 * 128 + 1 * b.val = b.val; rw [show win0_16.index t 1 = 0 from rfl]; omega
  rw [hi]
  exact row_apply _ _ a b

set_option maxHeartbeats 2000000 in
/-- Window 17's block at any point is the second batch norm's running mean as a row. -/
theorem blk17 (t : Fin cfg0.N) (a : Fin 1) (b : Fin 128) :
    (iblk m c 17 t : Vec Ideal S1x128 .f32) (ix2 a b) = (m ((c.tc : Thread nD τ).loc main_arg16) : Vec Ideal S128 .f32) (ix1 b) := by
  have e : (V m c main_v18 : S1x128.Idx → EReal)
      = broadcastInDim S1x128 ![1] bcast_S128_S1x128_1 (m ((c.tc : Thread nD τ).loc main_arg16) : Vec Ideal S128 .f32) := by
    dsimp only [Gen.V, Gen.hostOps0]; after_results
  unfold iblk
  rw [View.read_apply]
  show V m c main_v18 _ = _
  rw [e]
  have hi : ((cfg0.win 17).blk t).view.emb (ix2 a b) = (ix2 a b : S1x128.Idx) := by
    funext x; apply Fin.ext
    match x with
    | ⟨0, _⟩ => show win0_17.index t 0 * 1 + 1 * a.val = a.val; rw [show win0_17.index t 0 = 0 from rfl]; omega
    | ⟨1, _⟩ => show win0_17.index t 1 * 128 + 1 * b.val = b.val; rw [show win0_17.index t 1 = 0 from rfl]; omega
  rw [hi]
  exact row_apply _ _ a b

set_option maxHeartbeats 2000000 in
/-- Window 18's block at any point is the second batch norm's running variance as a row. -/
theorem blk18 (t : Fin cfg0.N) (a : Fin 1) (b : Fin 128) :
    (iblk m c 18 t : Vec Ideal S1x128 .f32) (ix2 a b) = (m ((c.tc : Thread nD τ).loc main_arg17) : Vec Ideal S128 .f32) (ix1 b) := by
  have e : (V m c main_v19 : S1x128.Idx → EReal)
      = broadcastInDim S1x128 ![1] bcast_S128_S1x128_1 (m ((c.tc : Thread nD τ).loc main_arg17) : Vec Ideal S128 .f32) := by
    dsimp only [Gen.V, Gen.hostOps0]; after_results
  unfold iblk
  rw [View.read_apply]
  show V m c main_v19 _ = _
  rw [e]
  have hi : ((cfg0.win 18).blk t).view.emb (ix2 a b) = (ix2 a b : S1x128.Idx) := by
    funext x; apply Fin.ext
    match x with
    | ⟨0, _⟩ => show win0_18.index t 0 * 1 + 1 * a.val = a.val; rw [show win0_18.index t 0 = 0 from rfl]; omega
    | ⟨1, _⟩ => show win0_18.index t 1 * 128 + 1 * b.val = b.val; rw [show win0_18.index t 1 = 0 from rfl]; omega
  rw [hi]
  exact row_apply _ _ a b

set_option maxHeartbeats 2000000 in
/-- Window 19's block at any point is the classifier's third weight transposed. -/
theorem blk19 (t : Fin cfg0.N) (a : Fin 128) (b : Fin 10) :
    (iblk m c 19 t : Vec Ideal S128x10 .f32) (ix2 a b) = (m ((c.tc : Thread nD τ).loc main_arg18) : Vec Ideal S10x128 .f32) (ix2 b a) := by
  have e : (V m c main_v2 : S128x10.Idx → EReal)
      = transpose S128x10 [1, 0] (m ((c.tc : Thread nD τ).loc main_arg18) : Vec Ideal S10x128 .f32) transposes_S10x128_S128x10_1_0 := by
    dsimp only [Gen.V, Gen.hostOps0]; after_results
  unfold iblk
  rw [View.read_apply]
  show V m c main_v2 _ = _
  rw [e]
  have hi : ((cfg0.win 19).blk t).view.emb (ix2 a b) = (ix2 a b : S128x10.Idx) := by
    funext x; apply Fin.ext
    match x with
    | ⟨0, _⟩ => show win0_19.index t 0 * 128 + 1 * a.val = a.val; rw [show win0_19.index t 0 = 0 from rfl]; omega
    | ⟨1, _⟩ => show win0_19.index t 1 * 10 + 1 * b.val = b.val; rw [show win0_19.index t 1 = 0 from rfl]; omega
  rw [hi]
  exact transpose₂_apply _ _ a b

set_option maxHeartbeats 2000000 in
/-- Window 20's block at any point is the classifier's third bias as a row. -/
theorem blk20 (t : Fin cfg0.N) (a : Fin 1) (b : Fin 10) :
    (iblk m c 20 t : Vec Ideal S1x10 .f32) (ix2 a b) = (m ((c.tc : Thread nD τ).loc main_arg19) : Vec Ideal S10 .f32) (ix1 b) := by
  have e : (V m c main_v20 : S1x10.Idx → EReal)
      = broadcastInDim S1x10 ![1] bcast_S10_S1x10_1 (m ((c.tc : Thread nD τ).loc main_arg19) : Vec Ideal S10 .f32) := by
    dsimp only [Gen.V, Gen.hostOps0]; after_results
  unfold iblk
  rw [View.read_apply]
  show V m c main_v20 _ = _
  rw [e]
  have hi : ((cfg0.win 20).blk t).view.emb (ix2 a b) = (ix2 a b : S1x10.Idx) := by
    funext x; apply Fin.ext
    match x with
    | ⟨0, _⟩ => show win0_20.index t 0 * 1 + 1 * a.val = a.val; rw [show win0_20.index t 0 = 0 from rfl]; omega
    | ⟨1, _⟩ => show win0_20.index t 1 * 10 + 1 * b.val = b.val; rw [show win0_20.index t 1 = 0 from rfl]; omega
  rw [hi]
  exact row_apply _ _ a b

set_option maxHeartbeats 2000000 in
/-- Window 21's block at any point is the reconstruction head's first weight transposed, its first 128 rows. -/
theorem blk21 (t : Fin cfg0.N) (a : Fin 128) (b : Fin 256) :
    (iblk m c 21 t : Vec Ideal S128x256 .f32) (ix2 a b) = (m ((c.tc : Thread nD τ).loc main_arg20) : Vec Ideal S256x192 .f32) (ix2 b (Fin.castAdd 64 a)) := by
  have e : (V m c main_v21 : S128x256.Idx → EReal)
      = extractStridedSlice S128x256 ![0, 0] (transpose S192x256 [1, 0] (m ((c.tc : Thread nD τ).loc main_arg20) : Vec Ideal S256x192 .f32) transposes_S256x192_S192x256_1_0) slices_S192x256_S128x256_0_0 := by
    dsimp only [Gen.V, Gen.hostOps0]; after_results
  unfold iblk
  rw [View.read_apply]
  show V m c main_v21 _ = _
  rw [e]
  have hi : ((cfg0.win 21).blk t).view.emb (ix2 a b) = (ix2 a b : S128x256.Idx) := by
    funext x; apply Fin.ext
    match x with
    | ⟨0, _⟩ => show win0_21.index t 0 * 128 + 1 * a.val = a.val; rw [show win0_21.index t 0 = 0 from rfl]; omega
    | ⟨1, _⟩ => show win0_21.index t 1 * 256 + 1 * b.val = b.val; rw [show win0_21.index t 1 = 0 from rfl]; omega
  rw [hi]
  exact topRows_apply _ _ _ a b

set_option maxHeartbeats 2000000 in
/-- Window 22's block at any point is the reconstruction head's first weight transposed, its last 64 rows. -/
theorem blk22 (t : Fin cfg0.N) (a : Fin 64) (b : Fin 256) :
    (iblk m c 22 t : Vec Ideal S64x256 .f32) (ix2 a b) = (m ((c.tc : Thread nD τ).loc main_arg20) : Vec Ideal S256x192 .f32) (ix2 b (Fin.natAdd 128 a)) := by
  have e : (V m c main_v22 : S64x256.Idx → EReal)
      = extractStridedSlice S64x256 ![128, 0] (transpose S192x256 [1, 0] (m ((c.tc : Thread nD τ).loc main_arg20) : Vec Ideal S256x192 .f32) transposes_S256x192_S192x256_1_0) slices_S192x256_S64x256_128_0 := by
    dsimp only [Gen.V, Gen.hostOps0]; after_results
  unfold iblk
  rw [View.read_apply]
  show V m c main_v22 _ = _
  rw [e]
  have hi : ((cfg0.win 22).blk t).view.emb (ix2 a b) = (ix2 a b : S64x256.Idx) := by
    funext x; apply Fin.ext
    match x with
    | ⟨0, _⟩ => show win0_22.index t 0 * 64 + 1 * a.val = a.val; rw [show win0_22.index t 0 = 0 from rfl]; omega
    | ⟨1, _⟩ => show win0_22.index t 1 * 256 + 1 * b.val = b.val; rw [show win0_22.index t 1 = 0 from rfl]; omega
  rw [hi]
  exact lastRows_apply _ _ _ a b

set_option maxHeartbeats 2000000 in
/-- Window 23's block at any point is the reconstruction head's first bias as a row. -/
theorem blk23 (t : Fin cfg0.N) (a : Fin 1) (b : Fin 256) :
    (iblk m c 23 t : Vec Ideal S1x256 .f32) (ix2 a b) = (m ((c.tc : Thread nD τ).loc main_arg21) : Vec Ideal S256 .f32) (ix1 b) := by
  have e : (V m c main_v23 : S1x256.Idx → EReal)
      = broadcastInDim S1x256 ![1] bcast_S256_S1x256_1 (m ((c.tc : Thread nD τ).loc main_arg21) : Vec Ideal S256 .f32) := by
    dsimp only [Gen.V, Gen.hostOps0]; after_results
  unfold iblk
  rw [View.read_apply]
  show V m c main_v23 _ = _
  rw [e]
  have hi : ((cfg0.win 23).blk t).view.emb (ix2 a b) = (ix2 a b : S1x256.Idx) := by
    funext x; apply Fin.ext
    match x with
    | ⟨0, _⟩ => show win0_23.index t 0 * 1 + 1 * a.val = a.val; rw [show win0_23.index t 0 = 0 from rfl]; omega
    | ⟨1, _⟩ => show win0_23.index t 1 * 256 + 1 * b.val = b.val; rw [show win0_23.index t 1 = 0 from rfl]; omega
  rw [hi]
  exact row_apply _ _ a b

set_option maxHeartbeats 2000000 in
/-- Window 24's block at any point is the reconstruction head's second weight transposed. -/
theorem blk24 (t : Fin cfg0.N) (a : Fin 256) (b : Fin 128) :
    (iblk m c 24 t : Vec Ideal S256x128 .f32) (ix2 a b) = (m ((c.tc : Thread nD τ).loc main_arg22) : Vec Ideal S128x256 .f32) (ix2 b a) := by
  have e : (V m c main_v4 : S256x128.Idx → EReal)
      = transpose S256x128 [1, 0] (m ((c.tc : Thread nD τ).loc main_arg22) : Vec Ideal S128x256 .f32) transposes_S128x256_S256x128_1_0 := by
    dsimp only [Gen.V, Gen.hostOps0]; after_results
  unfold iblk
  rw [View.read_apply]
  show V m c main_v4 _ = _
  rw [e]
  have hi : ((cfg0.win 24).blk t).view.emb (ix2 a b) = (ix2 a b : S256x128.Idx) := by
    funext x; apply Fin.ext
    match x with
    | ⟨0, _⟩ => show win0_24.index t 0 * 256 + 1 * a.val = a.val; rw [show win0_24.index t 0 = 0 from rfl]; omega
    | ⟨1, _⟩ => show win0_24.index t 1 * 128 + 1 * b.val = b.val; rw [show win0_24.index t 1 = 0 from rfl]; omega
  rw [hi]
  exact transpose₂_apply _ _ a b

set_option maxHeartbeats 2000000 in
/-- Window 25's block at any point is the reconstruction head's second bias as a row. -/
theorem blk25 (t : Fin cfg0.N) (a : Fin 1) (b : Fin 128) :
    (iblk m c 25 t : Vec Ideal S1x128 .f32) (ix2 a b) = (m ((c.tc : Thread nD τ).loc main_arg23) : Vec Ideal S128 .f32) (ix1 b) := by
  have e : (V m c main_v24 : S1x128.Idx → EReal)
      = broadcastInDim S1x128 ![1] bcast_S128_S1x128_1 (m ((c.tc : Thread nD τ).loc main_arg23) : Vec Ideal S128 .f32) := by
    dsimp only [Gen.V, Gen.hostOps0]; after_results
  unfold iblk
  rw [View.read_apply]
  show V m c main_v24 _ = _
  rw [e]
  have hi : ((cfg0.win 25).blk t).view.emb (ix2 a b) = (ix2 a b : S1x128.Idx) := by
    funext x; apply Fin.ext
    match x with
    | ⟨0, _⟩ => show win0_25.index t 0 * 1 + 1 * a.val = a.val; rw [show win0_25.index t 0 = 0 from rfl]; omega
    | ⟨1, _⟩ => show win0_25.index t 1 * 128 + 1 * b.val = b.val; rw [show win0_25.index t 1 = 0 from rfl]; omega
  rw [hi]
  exact row_apply _ _ a b

set_option maxHeartbeats 2000000 in
/-- Window 26's block at any point is the reconstruction head's third weight transposed. -/
theorem blk26 (t : Fin cfg0.N) (a : Fin 128) (b : Fin 128) :
    (iblk m c 26 t : Vec Ideal S128x128 .f32) (ix2 a b) = (m ((c.tc : Thread nD τ).loc main_arg24) : Vec Ideal S128x128 .f32) (ix2 b a) := by
  have e : (V m c main_v5 : S128x128.Idx → EReal)
      = transpose S128x128 [1, 0] (m ((c.tc : Thread nD τ).loc main_arg24) : Vec Ideal S128x128 .f32) transposes_S128x128_S128x128_1_0 := by
    dsimp only [Gen.V, Gen.hostOps0]; after_results
  unfold iblk
  rw [View.read_apply]
  show V m c main_v5 _ = _
  rw [e]
  have hi : ((cfg0.win 26).blk t).view.emb (ix2 a b) = (ix2 a b : S128x128.Idx) := by
    funext x; apply Fin.ext
    match x with
    | ⟨0, _⟩ => show win0_26.index t 0 * 128 + 1 * a.val = a.val; rw [show win0_26.index t 0 = 0 from rfl]; omega
    | ⟨1, _⟩ => show win0_26.index t 1 * 128 + 1 * b.val = b.val; rw [show win0_26.index t 1 = 0 from rfl]; omega
  rw [hi]
  exact transpose₂_apply _ _ a b

set_option maxHeartbeats 2000000 in
/-- Window 27's block at any point is the reconstruction head's third bias as a row. -/
theorem blk27 (t : Fin cfg0.N) (a : Fin 1) (b : Fin 128) :
    (iblk m c 27 t : Vec Ideal S1x128 .f32) (ix2 a b) = (m ((c.tc : Thread nD τ).loc main_arg25) : Vec Ideal S128 .f32) (ix1 b) := by
  have e : (V m c main_v25 : S1x128.Idx → EReal)
      = broadcastInDim S1x128 ![1] bcast_S128_S1x128_1 (m ((c.tc : Thread nD τ).loc main_arg25) : Vec Ideal S128 .f32) := by
    dsimp only [Gen.V, Gen.hostOps0]; after_results
  unfold iblk
  rw [View.read_apply]
  show V m c main_v25 _ = _
  rw [e]
  have hi : ((cfg0.win 27).blk t).view.emb (ix2 a b) = (ix2 a b : S1x128.Idx) := by
    funext x; apply Fin.ext
    match x with
    | ⟨0, _⟩ => show win0_27.index t 0 * 1 + 1 * a.val = a.val; rw [show win0_27.index t 0 = 0 from rfl]; omega
    | ⟨1, _⟩ => show win0_27.index t 1 * 128 + 1 * b.val = b.val; rw [show win0_27.index t 1 = 0 from rfl]; omega
  rw [hi]
  exact row_apply _ _ a b

end Cert.KernelIdeal.Hand

end
-- ==== Proof.KernelVals.lean ====
/-
  The kernel's scratch buffers and result blocks, read at one entry over the extended reals, are the mathematics'
  entries: the supports `s1`, `s2`, the layers' outputs `x1`, `x2`, and on row `400 · (t mod 25) + p` of the graph the
  three results.
-/
import proofs.«162148_g73521250173546_cont_sun_c4_545_9_alg».proof.Proof.FrameVals
import proofs.«162148_g73521250173546_cont_sun_c4_545_9_alg».proof.Proof.KernelArgs
import proofs.«162148_g73521250173546_cont_sun_c4_545_9_alg».proof.Proof.PayGc
import proofs.«162148_g73521250173546_cont_sun_c4_545_9_alg».proof.Proof.PayCls
import proofs.«162148_g73521250173546_cont_sun_c4_545_9_alg».proof.Proof.PayRec
import proofs.«162148_g73521250173546_cont_sun_c4_545_9_alg».proof.Proof.BlocksA
import proofs.«162148_g73521250173546_cont_sun_c4_545_9_alg».proof.Proof.BlocksB
import Idealize.ShloMosaic.Lib.ValueIdx

set_option maxRecDepth 16384

noncomputable section

open scoped BigOperators

namespace Cert.KernelIdeal.Hand

open Cert.KernelIdeal Cert.KernelIdeal.Gen Cert.KernelIdeal.PayAt
open Idealize.ShloMosaic Idealize.ShloMosaic.ValueIdx Idealize.ShloMosaic.TcCoe Idealize.SL.Sem

/-- Batch norm of equal entries is equal. -/
theorem bn_congr {a a' b b' d d' e e' f f' : EReal} (ha : a = a') (hb : b = b') (hd : d = d') (he : e = e') (hf : f = f') :
    Cert.Spec.bn a b d e f = Cert.Spec.bn a' b' d' e' f' := by
  subst ha hb hd he hf; rfl

/-- The first result from its pieces: if the second layer minus its running mean, the second batch norm's denominator,
    scale and shift, and the last layer's weight and bias are the mathematics' at row `r`, the log-softmax payload at
    `(p, q)` is `xc5` at `(r, q)`. -/
theorem xc5_of_entries (A : Cert.Spec.Args) (r : Fin 10000) (v73 v75 : FVec Ideal S1x128 .f32) (v81 v85 : FVec Ideal S400x128 .f32)
    (v93 : Vec Ideal S128x10 .f32) (v98 : Vec Ideal S1x10 .f32) (p : Fin 400) (q : Fin 10)
    (h81 : ∀ l : Fin 128, v81 (ix2 p l) = (Cert.Spec.dot (Cert.Spec.h1 A r) (A.Wc2 l) + A.bc2 l) - A.rm2 l)
    (h85 : ∀ l : Fin 128, v85 (ix2 p l) = Ideal.sqrt (A.rv2 l + Cert.Spec.eps))
    (h73 : ∀ l : Fin 128, v73 (ix2 (0 : Fin 1) l) = A.g2 l) (h75 : ∀ l : Fin 128, v75 (ix2 (0 : Fin 1) l) = A.be2 l)
    (h93 : ∀ (l : Fin 128) (q' : Fin 10), v93 (ix2 l q') = A.Wc3 q' l) (h98 : ∀ q' : Fin 10, v98 (ix2 (0 : Fin 1) q') = A.bc3 q') :
    k0_pay13 v73 v75 v81 v85 v93 v98 (ix2 p q) = Cert.Spec.xc5 A r q := by
  rw [pay13_apply]
  simp only [h81, h85, h73, h75, h93, h98]
  rfl

variable (m : (ℓ : Loc nD τ sig) → Buf (Elt Ideal) ℓ) (c : Dev nD)

/-- The graph row of entry `p` of the slab that point `t` works on. -/
abbrev rowOf (t : Fin cfg0.N) (p : Fin 400) : Fin 10000 := ⟨400 * (t.val % 25) + p.val, by have := p.isLt; omega⟩

theorem S1v_apply (k : Fin 10000) (q : Fin 128) : S1v (F := Ideal) m c (ix2 k q) = Cert.Spec.s1 (kargs m c) k q := by
  unfold S1v
  refine (pay1_apply (iblk m c 1 (pt 0)) (iblk m c 2 (pt 0)) k q).trans ?_
  unfold Cert.Spec.s1
  exact congrArg₂ Cert.Spec.dot (funext fun l => blk1 m c (pt 0) k l) (funext fun l => blk2 m c (pt 0) l q)

theorem slab1_apply (t : Fin cfg0.N) (p : Fin 400) (q : Fin 128) :
    slab1 (F := Ideal) m c t (ix2 p q) = Cert.Spec.x1 (kargs m c) (rowOf t p) q := by
  unfold slab1
  refine (pay2_apply (iblk m c 0 t) (S1v m c) (iblk m c 3 t) p q).trans ?_
  unfold Cert.Spec.x1 Cert.Spec.gc
  exact congrArg Ideal.tanh (congrArg₂ (· + ·)
    (congrArg₂ Cert.Spec.dot (funext fun k => blk0 m c t p k) (funext fun k => S1v_apply m c k q)) (blk3 m c t 0 q))

theorem X1v_apply (r : Fin 10000) (q : Fin 128) : X1v (F := Ideal) m c (ix2 r q) = Cert.Spec.x1 (kargs m c) r q := by
  unfold X1v
  refine (slab1_apply m c ⟨r.val / 400, by have := r.isLt; rw [N50]; omega⟩ ⟨r.val % 400, Nat.mod_lt _ (by decide)⟩ q).trans ?_
  refine congrArg (fun r' => Cert.Spec.x1 (kargs m c) r' q) (Fin.ext ?_)
  show 400 * ((r.val / 400) % 25) + r.val % 400 = r.val
  have := r.isLt
  omega

theorem S2v_apply (k : Fin 10000) (q : Fin 64) : S2v (F := Ideal) m c (ix2 k q) = Cert.Spec.s2 (kargs m c) k q := by
  unfold S2v
  refine (pay3_apply (X1v m c) (iblk m c 4 (pt 25)) k q).trans ?_
  unfold Cert.Spec.s2
  exact congrArg₂ Cert.Spec.dot (funext fun l => X1v_apply m c k l) (funext fun l => blk4 m c (pt 25) l q)

theorem x1rows_apply (t : Fin cfg0.N) (p : Fin 400) (q : Fin 128) :
    x1rows (F := Ideal) m c t (ix2 p q) = Cert.Spec.x1 (kargs m c) (rowOf t p) q := by
  unfold x1rows
  exact X1v_apply m c (rowOf t p) q

theorem x2blk_apply (t : Fin cfg0.N) (p : Fin 400) (q : Fin 64) :
    x2blk (F := Ideal) m c t (ix2 p q) = Cert.Spec.x2 (kargs m c) (rowOf t p) q := by
  unfold x2blk
  refine (pay5_apply (iblk m c 0 t) (S2v m c) (iblk m c 5 t) p q).trans ?_
  unfold Cert.Spec.x2 Cert.Spec.gc
  exact congrArg Ideal.tanh (congrArg₂ (· + ·)
    (congrArg₂ Cert.Spec.dot (funext fun k => blk0 m c t p k) (funext fun k => S2v_apply m c k q)) (blk5 m c t 0 q))

theorem znblk_apply (t : Fin cfg0.N) (p : Fin 400) (l : Fin 192) :
    znblk (F := Ideal) m c t (ix2 p l) = Cert.Spec.zn (kargs m c) (rowOf t p) l := by
  unfold znblk Cert.Spec.zn Cert.Spec.cat
  exact dite_congr rfl (fun h => x1rows_apply m c t p ⟨l.val, h⟩)
    (fun h => x2blk_apply m c t p ⟨l.val - 128, by have := l.isLt; omega⟩)

/-- The classifier's first linear layer on the slab, before its batch norm, at `(p, q)`. -/
theorem h1pre_apply (t : Fin cfg0.N) (p : Fin 400) (q : Fin 256) :
    h1pre (F := Ideal) m c t (ix2 p q)
      = Cert.Spec.catLin (Cert.Spec.x1 (kargs m c) (rowOf t p)) (Cert.Spec.x2 (kargs m c) (rowOf t p))
          ((kargs m c).Wc1 q) ((kargs m c).bc1 q) := by
  unfold h1pre
  refine (pay6_apply (x1rows m c t) (iblk m c 0 t) (S2v m c) (iblk m c 5 t) (iblk m c 6 t) (iblk m c 7 t) (iblk m c 8 t) p q).trans ?_
  unfold Cert.Spec.catLin
  exact congrArg₂ (· + ·) (congrArg₂ (· + ·)
    (congrArg₂ Cert.Spec.dot (funext fun l => x1rows_apply m c t p l) (funext fun l => blk6 m c t l q))
    (congrArg₂ Cert.Spec.dot (funext fun l => x2blk_apply m c t p l) (funext fun l => blk7 m c t l q))) (blk8 m c t 0 q)

/-- The second linear layer minus the second batch norm's running mean, at `(p, q)`. -/
theorem h2pre_apply (t : Fin cfg0.N) (p : Fin 400) (q : Fin 128) :
    h2pre (F := Ideal) m c t (ix2 p q)
      = (Cert.Spec.dot (Cert.Spec.h1 (kargs m c) (rowOf t p)) ((kargs m c).Wc2 q) + (kargs m c).bc2 q) - (kargs m c).rm2 q := by
  unfold h2pre
  refine (pay11_apply (h1pre m c t) (k0_pay7 (iblk m c 9 t)) (k0_pay8 (iblk m c 10 t)) (iblk m c 11 t) (iblk m c 12 t)
    (iblk m c 13 t) (iblk m c 14 t) (iblk m c 17 t) p q).trans ?_
  refine congrArg₂ (· - ·) (congrArg₂ (· + ·)
    (congrArg₂ Cert.Spec.dot (funext fun l => ?_) (funext fun l => blk13 m c t l q)) (blk14 m c t 0 q)) (blk17 m c t 0 q)
  unfold Cert.Spec.h1
  exact congrArg Cert.Spec.relu (bn_congr (h1pre_apply m c t p l) (blk11 m c t 0 l) (blk12 m c t 0 l)
    ((congrFun (pay7_eq (iblk m c 9 t)) (ix2 (0 : Fin 1) l)).trans (blk9 m c t 0 l))
    ((congrFun (pay8_eq (iblk m c 10 t)) (ix2 (0 : Fin 1) l)).trans (blk10 m c t 0 l)))

theorem xc5blk_apply (t : Fin cfg0.N) (p : Fin 400) (q : Fin 10) :
    xc5blk (F := Ideal) m c t (ix2 p q) = Cert.Spec.xc5 (kargs m c) (rowOf t p) q := by
  unfold xc5blk
  exact xc5_of_entries (kargs m c) (rowOf t p) (k0_pay9 (iblk m c 15 t)) (k0_pay10 (iblk m c 16 t)) (h2pre m c t)
    (k0_pay12 (iblk m c 18 t)) (iblk m c 19 t) (iblk m c 20 t) p q
    (fun l => h2pre_apply m c t p l)
    (fun l => (pay12_apply (iblk m c 18 t) p l).trans (congrArg (fun x => Ideal.sqrt (x + Cert.Spec.eps)) (blk18 m c t 0 l)))
    (fun l => (congrFun (pay9_eq (iblk m c 15 t)) (ix2 (0 : Fin 1) l)).trans (blk15 m c t 0 l))
    (fun l => (congrFun (pay10_eq (iblk m c 16 t)) (ix2 (0 : Fin 1) l)).trans (blk16 m c t 0 l))
    (fun l q' => blk19 m c t l q') (fun q' => blk20 m c t 0 q')

theorem xr5blk_apply (t : Fin cfg0.N) (p : Fin 400) (q : Fin 128) :
    xr5blk (F := Ideal) m c t (ix2 p q) = Cert.Spec.xr5 (kargs m c) (rowOf t p) q := by
  unfold xr5blk
  refine (pay4_apply (k0_pay14 (x1rows m c t) (x2blk m c t) (iblk m c 21 t) (iblk m c 22 t)) (iblk m c 23 t) (iblk m c 24 t)
    (iblk m c 25 t) (iblk m c 26 t) (iblk m c 27 t) p q).trans ?_
  unfold Cert.Spec.xr5
  refine congrArg₂ (· + ·) (congrArg₂ Cert.Spec.dot (funext fun l => ?_) (funext fun l => blk26 m c t l q)) (blk27 m c t 0 q)
  unfold Cert.Spec.r2
  refine congrArg Cert.Spec.relu (congrArg₂ (· + ·)
    (congrArg₂ Cert.Spec.dot (funext fun l' => ?_) (funext fun l' => blk24 m c t l' l)) (blk25 m c t 0 l))
  unfold Cert.Spec.r1 Cert.Spec.catLin
  refine congrArg Cert.Spec.relu (congrArg₂ (· + ·) ?_ (blk23 m c t 0 l'))
  refine (pay14_apply (x1rows m c t) (x2blk m c t) (iblk m c 21 t) (iblk m c 22 t) p l').trans ?_
  exact congrArg₂ (· + ·)
    (congrArg₂ Cert.Spec.dot (funext fun k => x1rows_apply m c t p k) (funext fun k => blk21 m c t k l'))
    (congrArg₂ Cert.Spec.dot (funext fun k => x2blk_apply m c t p k) (funext fun k => blk22 m c t k l'))

end Cert.KernelIdeal.Hand

end
-- ==== Proof.KValue.lean ====
/-
  The kernel's three result arrays after the region, over the extended reals: the blocks written back during the second
  sweep tile each array (block `t - 25` at point `t`, 400 rows each), and block by block they are the mathematics' rows,
  so each array ends holding the mathematics' result.
-/
import proofs.«162148_g73521250173546_cont_sun_c4_545_9_alg».proof.Proof.FrameCommon
import proofs.«162148_g73521250173546_cont_sun_c4_545_9_alg».proof.Proof.FrameVals
import proofs.«162148_g73521250173546_cont_sun_c4_545_9_alg».proof.Proof.KernelVals
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (c : Dev nD)

/-- The first result as the mathematics has it. -/
def G28 : Vec Ideal S10000x10 .f32 := fun y =>
  Cert.Spec.xc5 (kargs m c) (⟨(y 0).val, idx2_lt0 y⟩ : Fin 10000) (⟨(y 1).val, idx2_lt1 y⟩ : Fin 10)
/-- The second result. -/
def G29 : Vec Ideal S10000x128 .f32 := fun y =>
  Cert.Spec.xr5 (kargs m c) (⟨(y 0).val, idx2_lt0 y⟩ : Fin 10000) (⟨(y 1).val, idx2_lt1 y⟩ : Fin 128)
/-- The third result. -/
def G30 : Vec Ideal S10000x192 .f32 := fun y =>
  Cert.Spec.zn (kargs m c) (⟨(y 0).val, idx2_lt0 y⟩ : Fin 10000) (⟨(y 1).val, idx2_lt1 y⟩ : Fin 192)

/-! ## The first result (10000 × 10): the classifier's log-softmax -/

/-- The window moves down the rows during the second sweep: at point `t` its block index is `(t - 25, 0)`, the
    difference truncated at `0`. -/
theorem idx28 : ∀ t : Fin cfg0.N, win0_28.index t (0 : Fin 2) = t.val - 25 ∧ win0_28.index t (1 : Fin 2) = 0 :=
  (by decide +kernel : ∀ t : Fin grid0.N, _)

/-- What point `t` of the second sweep writes back is block `t - 25` of the mathematics' array: entry `(p, q)` of the
    block sits at row `400 · (t - 25) + p`, which is row `400 · (t mod 25) + p` since `25 ≤ t < 50`. -/
theorem flushed28_eq (dat : Dat τ (Elt Ideal) Unit ℕ (UR sig nD τ) ℕ cfg0 c)
    (hafter : ∀ t, dat.after 28 t = xc5blk (F := Ideal) m c t) (t : Fin cfg0.N) (hf : (cfg0.win 28).flush t = true) :
    dat.flushed 28 t = ((cfg0.win 28).blk t).view.read (Elt Ideal) (G28 m c) := by
  have ht : 25 ≤ t.val := by
    by_contra h
    rw [noFlushOut 28 (by decide) t (by omega)] at hf
    exact Bool.false_ne_true hf
  have hN : t.val < 50 := lt_of_lt_of_eq t.isLt N50
  obtain ⟨e0, e1⟩ := idx28 t
  show (cfg0.win 28).cut (grid0.coords t) (dat.after 28 t) = _
  rw [hafter]
  funext y
  obtain ⟨p, q, rfl⟩ : ∃ (p : Fin 400) (q : Fin 10), y = ix2 p q := ⟨y 0, y 1, eq_ix2 y⟩
  rw [View.read_apply]
  refine (xc5blk_apply m c t p q).trans ?_
  refine congrArg₂ (Cert.Spec.xc5 (kargs m c)) (Fin.ext ?_) (Fin.ext ?_)
  · show 400 * (t.val % 25) + p.val = win0_28.index t (0 : Fin 2) * 400 + 1 * p.val
    omega
  · show q.val = win0_28.index t (1 : Fin 2) * 10 + 1 * q.val
    omega

/-- Every entry of the array lies in the block some point of the second sweep writes back: row `r` in that of point
    `25 + r / 400`, at the block's row `r mod 400`. -/
theorem cover28 (i : S10000x10.Idx) :
    ∃ t : Fin cfg0.N, (cfg0.win 28).flush t = true ∧ i ∈ ((cfg0.win 28).blk t).view.set := by
  have hi0 : (i 0).val < 10000 := idx2_lt0 i
  have hi1 : (i 1).val < 10 := idx2_lt1 i
  obtain ⟨t, ht⟩ : ∃ t : Fin cfg0.N, t.val = 25 + (i 0).val / 400 :=
    ⟨⟨25 + (i 0).val / 400, by rw [N50]; omega⟩, rfl⟩
  obtain ⟨e0, e1⟩ := idx28 t
  refine ⟨t, flushOut 28 (by decide) t (by omega), ?_⟩
  have hi : i = ((cfg0.win 28).blk t).view.emb
      (ix2 (⟨(i 0).val % 400, Nat.mod_lt _ (by decide)⟩ : Fin 400) (⟨(i 1).val, hi1⟩ : Fin 10)) := by
    funext ax
    apply Fin.ext
    match ax with
    | ⟨0, _⟩ => show (i 0).val = win0_28.index t (0 : Fin 2) * 400 + 1 * ((i 0).val % 400); omega
    | ⟨1, _⟩ => show (i 1).val = win0_28.index t (1 : Fin 2) * 10 + 1 * (i 1).val; omega
  exact (congrArg (· ∈ ((cfg0.win 28).blk t).view.set) hi).mpr (View.emb_mem_set _ _)

/-- For any proof data of the pipeline that leaves the first result's buffer at `xc5blk` after each point, the first
    result's array ends at `G28`. -/
theorem final28 (dat : Dat τ (Elt Ideal) Unit ℕ (UR sig nD τ) ℕ cfg0 c)
    (hafter : ∀ t, dat.after 28 t = xc5blk (F := Ideal) m c t) : dat.arrAt 28 cfg0.N = G28 m c := by
  exact dat.arrAt_eq_of_cover 28 (G28 m c) (flushed28_eq m c dat hafter) cover28

/-! ## The second result (10000 × 128): the reconstruction head -/

/-- The window moves down the rows during the second sweep: at point `t` its block index is `(t - 25, 0)`, the
    difference truncated at `0`. -/
theorem idx29 : ∀ t : Fin cfg0.N, win0_29.index t (0 : Fin 2) = t.val - 25 ∧ win0_29.index t (1 : Fin 2) = 0 :=
  (by decide +kernel : ∀ t : Fin grid0.N, _)

/-- What point `t` of the second sweep writes back is block `t - 25` of the mathematics' array: entry `(p, q)` of the
    block sits at row `400 · (t - 25) + p`, which is row `400 · (t mod 25) + p` since `25 ≤ t < 50`. -/
theorem flushed29_eq (dat : Dat τ (Elt Ideal) Unit ℕ (UR sig nD τ) ℕ cfg0 c)
    (hafter : ∀ t, dat.after 29 t = xr5blk (F := Ideal) m c t) (t : Fin cfg0.N) (hf : (cfg0.win 29).flush t = true) :
    dat.flushed 29 t = ((cfg0.win 29).blk t).view.read (Elt Ideal) (G29 m c) := by
  have ht : 25 ≤ t.val := by
    by_contra h
    rw [noFlushOut 29 (by decide) t (by omega)] at hf
    exact Bool.false_ne_true hf
  have hN : t.val < 50 := lt_of_lt_of_eq t.isLt N50
  obtain ⟨e0, e1⟩ := idx29 t
  show (cfg0.win 29).cut (grid0.coords t) (dat.after 29 t) = _
  rw [hafter]
  funext y
  obtain ⟨p, q, rfl⟩ : ∃ (p : Fin 400) (q : Fin 128), y = ix2 p q := ⟨y 0, y 1, eq_ix2 y⟩
  rw [View.read_apply]
  refine (xr5blk_apply m c t p q).trans ?_
  refine congrArg₂ (Cert.Spec.xr5 (kargs m c)) (Fin.ext ?_) (Fin.ext ?_)
  · show 400 * (t.val % 25) + p.val = win0_29.index t (0 : Fin 2) * 400 + 1 * p.val
    omega
  · show q.val = win0_29.index t (1 : Fin 2) * 128 + 1 * q.val
    omega

/-- Every entry of the array lies in the block some point of the second sweep writes back: row `r` in that of point
    `25 + r / 400`, at the block's row `r mod 400`. -/
theorem cover29 (i : S10000x128.Idx) :
    ∃ t : Fin cfg0.N, (cfg0.win 29).flush t = true ∧ i ∈ ((cfg0.win 29).blk t).view.set := by
  have hi0 : (i 0).val < 10000 := idx2_lt0 i
  have hi1 : (i 1).val < 128 := idx2_lt1 i
  obtain ⟨t, ht⟩ : ∃ t : Fin cfg0.N, t.val = 25 + (i 0).val / 400 :=
    ⟨⟨25 + (i 0).val / 400, by rw [N50]; omega⟩, rfl⟩
  obtain ⟨e0, e1⟩ := idx29 t
  refine ⟨t, flushOut 29 (by decide) t (by omega), ?_⟩
  have hi : i = ((cfg0.win 29).blk t).view.emb
      (ix2 (⟨(i 0).val % 400, Nat.mod_lt _ (by decide)⟩ : Fin 400) (⟨(i 1).val, hi1⟩ : Fin 128)) := by
    funext ax
    apply Fin.ext
    match ax with
    | ⟨0, _⟩ => show (i 0).val = win0_29.index t (0 : Fin 2) * 400 + 1 * ((i 0).val % 400); omega
    | ⟨1, _⟩ => show (i 1).val = win0_29.index t (1 : Fin 2) * 128 + 1 * (i 1).val; omega
  exact (congrArg (· ∈ ((cfg0.win 29).blk t).view.set) hi).mpr (View.emb_mem_set _ _)

theorem final29 (dat : Dat τ (Elt Ideal) Unit ℕ (UR sig nD τ) ℕ cfg0 c)
    (hafter : ∀ t, dat.after 29 t = xr5blk (F := Ideal) m c t) : dat.arrAt 29 cfg0.N = G29 m c := by
  exact dat.arrAt_eq_of_cover 29 (G29 m c) (flushed29_eq m c dat hafter) cover29

/-! ## The third result (10000 × 192): the two layers' outputs side by side -/

/-- The window moves down the rows during the second sweep: at point `t` its block index is `(t - 25, 0)`, the
    difference truncated at `0`. -/
theorem idx30 : ∀ t : Fin cfg0.N, win0_30.index t (0 : Fin 2) = t.val - 25 ∧ win0_30.index t (1 : Fin 2) = 0 :=
  (by decide +kernel : ∀ t : Fin grid0.N, _)

/-- What point `t` of the second sweep writes back is block `t - 25` of the mathematics' array: entry `(p, q)` of the
    block sits at row `400 · (t - 25) + p`, which is row `400 · (t mod 25) + p` since `25 ≤ t < 50`. -/
theorem flushed30_eq (dat : Dat τ (Elt Ideal) Unit ℕ (UR sig nD τ) ℕ cfg0 c)
    (hafter : ∀ t, dat.after 30 t = znblk (F := Ideal) m c t) (t : Fin cfg0.N) (hf : (cfg0.win 30).flush t = true) :
    dat.flushed 30 t = ((cfg0.win 30).blk t).view.read (Elt Ideal) (G30 m c) := by
  have ht : 25 ≤ t.val := by
    by_contra h
    rw [noFlushOut 30 (by decide) t (by omega)] at hf
    exact Bool.false_ne_true hf
  have hN : t.val < 50 := lt_of_lt_of_eq t.isLt N50
  obtain ⟨e0, e1⟩ := idx30 t
  show (cfg0.win 30).cut (grid0.coords t) (dat.after 30 t) = _
  rw [hafter]
  funext y
  obtain ⟨p, q, rfl⟩ : ∃ (p : Fin 400) (q : Fin 192), y = ix2 p q := ⟨y 0, y 1, eq_ix2 y⟩
  rw [View.read_apply]
  refine (znblk_apply m c t p q).trans ?_
  refine congrArg₂ (Cert.Spec.zn (kargs m c)) (Fin.ext ?_) (Fin.ext ?_)
  · show 400 * (t.val % 25) + p.val = win0_30.index t (0 : Fin 2) * 400 + 1 * p.val
    omega
  · show q.val = win0_30.index t (1 : Fin 2) * 192 + 1 * q.val
    omega

/-- Every entry of the array lies in the block some point of the second sweep writes back: row `r` in that of point
    `25 + r / 400`, at the block's row `r mod 400`. -/
theorem cover30 (i : S10000x192.Idx) :
    ∃ t : Fin cfg0.N, (cfg0.win 30).flush t = true ∧ i ∈ ((cfg0.win 30).blk t).view.set := by
  have hi0 : (i 0).val < 10000 := idx2_lt0 i
  have hi1 : (i 1).val < 192 := idx2_lt1 i
  obtain ⟨t, ht⟩ : ∃ t : Fin cfg0.N, t.val = 25 + (i 0).val / 400 :=
    ⟨⟨25 + (i 0).val / 400, by rw [N50]; omega⟩, rfl⟩
  obtain ⟨e0, e1⟩ := idx30 t
  refine ⟨t, flushOut 30 (by decide) t (by omega), ?_⟩
  have hi : i = ((cfg0.win 30).blk t).view.emb
      (ix2 (⟨(i 0).val % 400, Nat.mod_lt _ (by decide)⟩ : Fin 400) (⟨(i 1).val, hi1⟩ : Fin 192)) := by
    funext ax
    apply Fin.ext
    match ax with
    | ⟨0, _⟩ => show (i 0).val = win0_30.index t (0 : Fin 2) * 400 + 1 * ((i 0).val % 400); omega
    | ⟨1, _⟩ => show (i 1).val = win0_30.index t (1 : Fin 2) * 192 + 1 * (i 1).val; omega
  exact (congrArg (· ∈ ((cfg0.win 30).blk t).view.set) hi).mpr (View.emb_mem_set _ _)

theorem final30 (dat : Dat τ (Elt Ideal) Unit ℕ (UR sig nD τ) ℕ cfg0 c)
    (hafter : ∀ t, dat.after 30 t = znblk (F := Ideal) m c t) : dat.arrAt 30 cfg0.N = G30 m c := by
  exact dat.arrAt_eq_of_cover 30 (G30 m c) (flushed30_eq m c dat hafter) cover30

end Cert.KernelIdeal.Hand

end
-- ==== Proof.SpecArgs.lean ====
/-
  The mathematics' arguments from the twenty-six argument arrays, read by coordinates.
-/
import proofs.«162148_g73521250173546_cont_sun_c4_545_9_alg».proof.Proof.Spec
import Idealize.ShloMosaic.Lib.ValueIdx

noncomputable section

namespace Cert.Spec

open Idealize.ShloMosaic Idealize.ShloMosaic.ValueIdx

/-- The arguments, in the programs' order: `x`, `adj`, the two layers' weights and biases, the classifier's three
    linear layers with their two batch norms (scale, shift, running mean, running variance), the reconstruction head's
    three linear layers. -/
def mkArgs (a0 : (⟨2, ![10000, 128]⟩ : Shape).Idx → EReal)
    (a1 : (⟨2, ![10000, 10000]⟩ : Shape).Idx → EReal)
    (a2 : (⟨2, ![128, 128]⟩ : Shape).Idx → EReal)
    (a3 : (⟨1, ![128]⟩ : Shape).Idx → EReal)
    (a4 : (⟨2, ![128, 64]⟩ : Shape).Idx → EReal)
    (a5 : (⟨1, ![64]⟩ : Shape).Idx → EReal)
    (a6 : (⟨2, ![256, 192]⟩ : Shape).Idx → EReal)
    (a7 : (⟨1, ![256]⟩ : Shape).Idx → EReal)
    (a8 : (⟨1, ![256]⟩ : Shape).Idx → EReal)
    (a9 : (⟨1, ![256]⟩ : Shape).Idx → EReal)
    (a10 : (⟨1, ![256]⟩ : Shape).Idx → EReal)
    (a11 : (⟨1, ![256]⟩ : Shape).Idx → EReal)
    (a12 : (⟨2, ![128, 256]⟩ : Shape).Idx → EReal)
    (a13 : (⟨1, ![128]⟩ : Shape).Idx → EReal)
    (a14 : (⟨1, ![128]⟩ : Shape).Idx → EReal)
    (a15 : (⟨1, ![128]⟩ : Shape).Idx → EReal)
    (a16 : (⟨1, ![128]⟩ : Shape).Idx → EReal)
    (a17 : (⟨1, ![128]⟩ : Shape).Idx → EReal)
    (a18 : (⟨2, ![10, 128]⟩ : Shape).Idx → EReal)
    (a19 : (⟨1, ![10]⟩ : Shape).Idx → EReal)
    (a20 : (⟨2, ![256, 192]⟩ : Shape).Idx → EReal)
    (a21 : (⟨1, ![256]⟩ : Shape).Idx → EReal)
    (a22 : (⟨2, ![128, 256]⟩ : Shape).Idx → EReal)
    (a23 : (⟨1, ![128]⟩ : Shape).Idx → EReal)
    (a24 : (⟨2, ![128, 128]⟩ : Shape).Idx → EReal)
    (a25 : (⟨1, ![128]⟩ : Shape).Idx → EReal) : Args where
  x i j := a0 (ix2 i j)
  adj i j := a1 (ix2 i j)
  W1 i j := a2 (ix2 i j)
  b1 i := a3 (ix1 i)
  W2 i j := a4 (ix2 i j)
  b2 i := a5 (ix1 i)
  Wc1 i j := a6 (ix2 i j)
  bc1 i := a7 (ix1 i)
  g1 i := a8 (ix1 i)
  be1 i := a9 (ix1 i)
  rm1 i := a10 (ix1 i)
  rv1 i := a11 (ix1 i)
  Wc2 i j := a12 (ix2 i j)
  bc2 i := a13 (ix1 i)
  g2 i := a14 (ix1 i)
  be2 i := a15 (ix1 i)
  rm2 i := a16 (ix1 i)
  rv2 i := a17 (ix1 i)
  Wc3 i j := a18 (ix2 i j)
  bc3 i := a19 (ix1 i)
  Wr1 i j := a20 (ix2 i j)
  br1 i := a21 (ix1 i)
  Wr2 i j := a22 (ix2 i j)
  br2 i := a23 (ix1 i)
  Wr3 i j := a24 (ix2 i j)
  br3 i := a25 (ix1 i)

end Cert.Spec

end
-- ==== Proof.RefGc.lean ====
/-
  The reference program's two graph-convolution layers and their concatenation, one stage at a time, read at one entry
  over the extended reals: a host `dot_general` is the plain sum over the contracted axis, a `broadcast_in_dim` of a bias
  reads the bias at the column, `tanh` is pointwise, and the concatenation along the feature axis takes column `l` from
  `x1` when `l < 128` and column `l - 128` of `x2` otherwise.
-/
import proofs.«162148_g73521250173546_cont_sun_c4_545_9_alg».proof.Proof.RefReadP
import proofs.«162148_g73521250173546_cont_sun_c4_545_9_alg».proof.Proof.SpecArgs
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.ReferenceIdeal.RefVals

open Cert.ReferenceIdeal Cert.ReferenceIdeal.Gen Cert.ReferenceIdeal.ReadP
open Idealize.ShloMosaic Idealize.ShloMosaic.ValueIdx

/-! ## The generated index functions at an entry

Each composed index function of the reference's read lemmas, at `(r, q)` and a contracted coordinate, is a plain pair
of coordinates. -/

theorem lidx0 (k : Fin 10000) (q : Fin 128) (l : Fin 128) : lidx_main_v0 (ix2 k q) l = ix2 k l :=
  funext fun a => Fin.ext (by match a with | ⟨0, _⟩ => rfl | ⟨1, _⟩ => rfl)
theorem ridx0 (k : Fin 10000) (q : Fin 128) (l : Fin 128) : ridx_main_v0 (ix2 k q) l = ix2 l q :=
  funext fun a => Fin.ext (by match a with | ⟨0, _⟩ => rfl | ⟨1, _⟩ => rfl)
theorem lidx1 (r : Fin 10000) (q : Fin 128) (k : Fin 10000) : lidx_main_v1 (ix2 r q) k = ix2 r k :=
  funext fun a => Fin.ext (by match a with | ⟨0, _⟩ => rfl | ⟨1, _⟩ => rfl)
theorem ridx1 (r : Fin 10000) (q : Fin 128) (k : Fin 10000) : ridx_main_v1 (ix2 r q) k = ix2 k q :=
  funext fun a => Fin.ext (by match a with | ⟨0, _⟩ => rfl | ⟨1, _⟩ => rfl)
theorem idx3 (r : Fin 10000) (q : Fin 128) : idx_main_v3 (ix2 r q) = ix2 (0 : Fin 1) q :=
  funext fun a => Fin.ext (by match a with | ⟨0, _⟩ => rfl | ⟨1, _⟩ => rfl)
theorem idx2 (q : Fin 128) : idx_main_v2 (ix2 (0 : Fin 1) q) = ix1 q :=
  funext fun a => Fin.ext (by match a with | ⟨0, _⟩ => rfl)
theorem lidx6 (k : Fin 10000) (q : Fin 64) (l : Fin 128) : lidx_main_v6 (ix2 k q) l = ix2 k l :=
  funext fun a => Fin.ext (by match a with | ⟨0, _⟩ => rfl | ⟨1, _⟩ => rfl)
theorem ridx6 (k : Fin 10000) (q : Fin 64) (l : Fin 128) : ridx_main_v6 (ix2 k q) l = ix2 l q :=
  funext fun a => Fin.ext (by match a with | ⟨0, _⟩ => rfl | ⟨1, _⟩ => rfl)
theorem lidx7 (r : Fin 10000) (q : Fin 64) (k : Fin 10000) : lidx_main_v7 (ix2 r q) k = ix2 r k :=
  funext fun a => Fin.ext (by match a with | ⟨0, _⟩ => rfl | ⟨1, _⟩ => rfl)
theorem ridx7 (r : Fin 10000) (q : Fin 64) (k : Fin 10000) : ridx_main_v7 (ix2 r q) k = ix2 k q :=
  funext fun a => Fin.ext (by match a with | ⟨0, _⟩ => rfl | ⟨1, _⟩ => rfl)
theorem idx9 (r : Fin 10000) (q : Fin 64) : idx_main_v9 (ix2 r q) = ix2 (0 : Fin 1) q :=
  funext fun a => Fin.ext (by match a with | ⟨0, _⟩ => rfl | ⟨1, _⟩ => rfl)
theorem idx8 (q : Fin 64) : idx_main_v8 (ix2 (0 : Fin 1) q) = ix1 q :=
  funext fun a => Fin.ext (by match a with | ⟨0, _⟩ => rfl)

variable (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (x6 : (⟨S256x192, .f32⟩ : BufTy).Contents (Elt Ideal)) (x7 : (⟨S256, .f32⟩ : BufTy).Contents (Elt Ideal)) (x8 : (⟨S256, .f32⟩ : BufTy).Contents (Elt Ideal)) (x9 : (⟨S256, .f32⟩ : BufTy).Contents (Elt Ideal)) (x10 : (⟨S256, .f32⟩ : BufTy).Contents (Elt Ideal)) (x11 : (⟨S256, .f32⟩ : BufTy).Contents (Elt Ideal)) (x12 : (⟨S128x256, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal)) (x16 : (⟨S128, .f32⟩ : BufTy).Contents (Elt Ideal)) (x17 : (⟨S128, .f32⟩ : BufTy).Contents (Elt Ideal)) (x18 : (⟨S10x128, .f32⟩ : BufTy).Contents (Elt Ideal)) (x19 : (⟨S10, .f32⟩ : BufTy).Contents (Elt Ideal)) (x20 : (⟨S256x192, .f32⟩ : BufTy).Contents (Elt Ideal)) (x21 : (⟨S256, .f32⟩ : BufTy).Contents (Elt Ideal)) (x22 : (⟨S128x256, .f32⟩ : BufTy).Contents (Elt Ideal)) (x23 : (⟨S128, .f32⟩ : BufTy).Contents (Elt Ideal)) (x24 : (⟨S128x128, .f32⟩ : BufTy).Contents (Elt Ideal)) (x25 : (⟨S128, .f32⟩ : BufTy).Contents (Elt Ideal))

/-- The mathematics' arguments from the reference's argument arrays. -/
local notation "AA" => Cert.Spec.mkArgs x0 x1 x2 x3 x4 x5 x6 x7 x8 x9 x10 x11 x12 x13 x14 x15 x16 x17 x18 x19 x20 x21 x22 x23 x24 x25

/-- `s1 = x · W1` at `(k, q)`. -/
theorem ref_s1 (k : Fin 10000) (q : Fin 128) :
    val_main_v0 (F := Ideal) x0 x2 (ix2 k q) = Cert.Spec.s1 AA k q := by
  rw [val_main_v0_apply]
  unfold Cert.Spec.s1 Cert.Spec.dot
  refine Finset.sum_congr rfl fun l _ => ?_
  rw [lidx0, ridx0]
  rfl

/-- The first layer's output at `(r, q)`. -/
theorem ref_x1 (r : Fin 10000) (q : Fin 128) :
    val_main_v5 (F := Ideal) x0 x1 x2 x3 (ix2 r q) = Cert.Spec.x1 AA r q := by
  rw [val_main_v5_apply, val_main_v4_apply, val_main_v1_apply, val_main_v3_apply, val_main_v2_apply, idx3, idx2,
    Ideal.hostUnary_tanh_def, Ideal.addf_def]
  unfold Cert.Spec.x1 Cert.Spec.gc Cert.Spec.dot
  refine congrArg Ideal.tanh (congrArg₂ (· + ·) (Finset.sum_congr rfl fun k _ => ?_) rfl)
  rw [lidx1, ridx1, ref_s1 x0 x1 x2 x3 x4 x5 x6 x7 x8 x9 x10 x11 x12 x13 x14 x15 x16 x17 x18 x19 x20 x21 x22 x23 x24 x25 k q]
  rfl

/-- `s2 = x1 · W2` at `(k, q)`. -/
theorem ref_s2 (k : Fin 10000) (q : Fin 64) :
    val_main_v6 (F := Ideal) x0 x1 x2 x3 x4 (ix2 k q) = Cert.Spec.s2 AA k q := by
  rw [val_main_v6_apply]
  unfold Cert.Spec.s2 Cert.Spec.dot
  refine Finset.sum_congr rfl fun l _ => ?_
  rw [lidx6, ridx6, ref_x1 x0 x1 x2 x3 x4 x5 x6 x7 x8 x9 x10 x11 x12 x13 x14 x15 x16 x17 x18 x19 x20 x21 x22 x23 x24 x25 k l]
  rfl

/-- The second layer's output at `(r, q)`. -/
theorem ref_x2 (r : Fin 10000) (q : Fin 64) :
    val_main_v11 (F := Ideal) x0 x1 x2 x3 x4 x5 (ix2 r q) = Cert.Spec.x2 AA r q := by
  rw [val_main_v11_apply, val_main_v10_apply, val_main_v7_apply, val_main_v9_apply, val_main_v8_apply, idx9, idx8,
    Ideal.hostUnary_tanh_def, Ideal.addf_def]
  unfold Cert.Spec.x2 Cert.Spec.gc Cert.Spec.dot
  refine congrArg Ideal.tanh (congrArg₂ (· + ·) (Finset.sum_congr rfl fun k _ => ?_) rfl)
  rw [lidx7, ridx7, ref_s2 x0 x1 x2 x3 x4 x5 x6 x7 x8 x9 x10 x11 x12 x13 x14 x15 x16 x17 x18 x19 x20 x21 x22 x23 x24 x25 k q]
  rfl

/-- The third result `[x1 | x2]` at `(r, l)`. -/
theorem ref_zn (r : Fin 10000) (l : Fin 192) :
    val_main_v12 (F := Ideal) x0 x1 x2 x3 x4 x5 (ix2 r l) = Cert.Spec.zn AA r l := by
  unfold Cert.Spec.zn Cert.Spec.cat val_main_v12
  by_cases h : l.val < 128
  · rw [dif_pos h, ← ref_x1 x0 x1 x2 x3 x4 x5 x6 x7 x8 x9 x10 x11 x12 x13 x14 x15 x16 x17 x18 x19 x20 x21 x22 x23 x24 x25 r ⟨l.val, h⟩]
    exact concatenate_pair_apply_left (t := S10000x192) (s₁ := S10000x128) (s₂ := S10000x64) 1 _ _
      concatenates_S10000x128_S10000x64_S10000x192_d1 (ix2 r l) rfl
      (ix2 r (⟨l.val, h⟩ : Fin 128)) (fun b => match b with | ⟨0, _⟩ => rfl | ⟨1, _⟩ => rfl)
  · rw [dif_neg h, ← ref_x2 x0 x1 x2 x3 x4 x5 x6 x7 x8 x9 x10 x11 x12 x13 x14 x15 x16 x17 x18 x19 x20 x21 x22 x23 x24 x25 r ⟨l.val - 128, by omega⟩]
    exact concatenate_pair_apply_right (t := S10000x192) (s₁ := S10000x128) (s₂ := S10000x64) 1 _ _
      concatenates_S10000x128_S10000x64_S10000x192_d1 (ix2 r l) rfl rfl
      (ix2 r (⟨l.val - 128, by omega⟩ : Fin 64))
      (fun b hb => match b, hb with | ⟨0, _⟩, _ => rfl | ⟨1, _⟩, hb => absurd rfl hb)
      (by show l.val - 128 + 128 = l.val; omega)

end Cert.ReferenceIdeal.RefVals

end
-- ==== Proof.RefCls.lean ====
/-
  The reference program's classifier head, one stage at a time, read at one entry over the extended reals: each linear
  layer is a `dot_general` against a transposed weight plus a broadcast bias, each batch norm the pointwise
  `(v - rm) / sqrt (rv + eps) * g + b` over broadcast rows, `relu` the maximum with a broadcast zero, and the log-softmax
  `(l - max) - log (∑ exp (l - max))` with the row maximum a fold of `max` from minus infinity.
-/
import proofs.«162148_g73521250173546_cont_sun_c4_545_9_alg».proof.Proof.RefReadP
import proofs.«162148_g73521250173546_cont_sun_c4_545_9_alg».proof.Proof.SpecArgs
import proofs.«162148_g73521250173546_cont_sun_c4_545_9_alg».proof.Proof.RefGc
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.ReferenceIdeal.RefVals

open Cert.ReferenceIdeal Cert.ReferenceIdeal.Gen Cert.ReferenceIdeal.ReadP
open Idealize.ShloMosaic Idealize.ShloMosaic.ValueIdx

variable (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (x6 : (⟨S256x192, .f32⟩ : BufTy).Contents (Elt Ideal)) (x7 : (⟨S256, .f32⟩ : BufTy).Contents (Elt Ideal)) (x8 : (⟨S256, .f32⟩ : BufTy).Contents (Elt Ideal)) (x9 : (⟨S256, .f32⟩ : BufTy).Contents (Elt Ideal)) (x10 : (⟨S256, .f32⟩ : BufTy).Contents (Elt Ideal)) (x11 : (⟨S256, .f32⟩ : BufTy).Contents (Elt Ideal)) (x12 : (⟨S128x256, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal)) (x16 : (⟨S128, .f32⟩ : BufTy).Contents (Elt Ideal)) (x17 : (⟨S128, .f32⟩ : BufTy).Contents (Elt Ideal)) (x18 : (⟨S10x128, .f32⟩ : BufTy).Contents (Elt Ideal)) (x19 : (⟨S10, .f32⟩ : BufTy).Contents (Elt Ideal)) (x20 : (⟨S256x192, .f32⟩ : BufTy).Contents (Elt Ideal)) (x21 : (⟨S256, .f32⟩ : BufTy).Contents (Elt Ideal)) (x22 : (⟨S128x256, .f32⟩ : BufTy).Contents (Elt Ideal)) (x23 : (⟨S128, .f32⟩ : BufTy).Contents (Elt Ideal)) (x24 : (⟨S128x128, .f32⟩ : BufTy).Contents (Elt Ideal)) (x25 : (⟨S128, .f32⟩ : BufTy).Contents (Elt Ideal))

/-- The mathematics' arguments from the reference's argument arrays. -/
local notation "AA" => Cert.Spec.mkArgs x0 x1 x2 x3 x4 x5 x6 x7 x8 x9 x10 x11 x12 x13 x14 x15 x16 x17 x18 x19 x20 x21 x22 x23 x24 x25

/-! ### The first layer: `relu (bn1 (zn · Wc1ᵀ + bc1))` -/

/-- The transposed weight at `(k, q)` is the weight at `(q, k)`. -/
theorem v13_at (k : Fin 192) (q : Fin 256) : val_main_v13 (F := Ideal) x6 (ix2 k q) = x6 (ix2 q k) := by
  rw [val_main_v13_apply]
  exact congrArg x6 (funext fun a => by match a with | ⟨0, _⟩ => rfl | ⟨1, _⟩ => rfl)

/-- A row of 256 entries, broadcast down the rows, reads the row at the column. -/
theorem v16_at (r : Fin 10000) (q : Fin 256) : val_main_v16 (F := Ideal) x7 (ix2 r q) = x7 (ix1 q) := by
  rw [val_main_v16_apply, val_main_v15_apply]
  exact congrArg x7 (funext fun a => by match a with | ⟨0, _⟩ => rfl)

/-- A row of 256 entries, broadcast down the rows, reads the row at the column. -/
theorem v19_at (r : Fin 10000) (q : Fin 256) : val_main_v19 (F := Ideal) x10 (ix2 r q) = x10 (ix1 q) := by
  rw [val_main_v19_apply, val_main_v18_apply]
  exact congrArg x10 (funext fun a => by match a with | ⟨0, _⟩ => rfl)

/-- The broadcast row `sqrt (rv + eps)` at the column. -/
theorem v25_at (r : Fin 10000) (q : Fin 256) :
    val_main_v25 (F := Ideal) x11 (ix2 r q) = Ideal.sqrt (x11 (ix1 q) + Cert.Spec.eps) := by
  rw [val_main_v25_apply, val_main_v24_apply, val_main_v23_apply, val_main_v22_apply, val_main_v21_apply,
    val_main_cst_apply, show idx_main_v24 (idx_main_v25 (ix2 r q)) = ix1 q from funext fun a => by match a with | ⟨0, _⟩ => rfl]
  rfl

/-- A row of 256 entries, broadcast down the rows, reads the row at the column. -/
theorem v28_at (r : Fin 10000) (q : Fin 256) : val_main_v28 (F := Ideal) x8 (ix2 r q) = x8 (ix1 q) := by
  rw [val_main_v28_apply, val_main_v27_apply]
  exact congrArg x8 (funext fun a => by match a with | ⟨0, _⟩ => rfl)

/-- A row of 256 entries, broadcast down the rows, reads the row at the column. -/
theorem v31_at (r : Fin 10000) (q : Fin 256) : val_main_v31 (F := Ideal) x9 (ix2 r q) = x9 (ix1 q) := by
  rw [val_main_v31_apply, val_main_v30_apply]
  exact congrArg x9 (funext fun a => by match a with | ⟨0, _⟩ => rfl)

/-- The broadcast zero of `relu`. -/
theorem call0_v0_at (r : Fin 10000) (q : Fin 256) : val_main_call0_v0 (F := Ideal) (ix2 r q) = Cert.Spec.zero := by
  rw [val_main_call0_v0_apply, val_main_call0_cst_apply]
  rfl

/-- The first linear layer at `(r, q)`: the sum over the 192 concatenated features, split at 128, plus the bias. -/
theorem lin1_at (r : Fin 10000) (q : Fin 256) :
    val_main_v17 (F := Ideal) x0 x1 x2 x3 x4 x5 x6 x7 (ix2 r q)
      = Cert.Spec.catLin (Cert.Spec.x1 AA r) (Cert.Spec.x2 AA r) ((AA).Wc1 q) ((AA).bc1 q) := by
  rw [val_main_v17_apply, val_main_v14_apply, v16_at, Ideal.addf_def]
  unfold Cert.Spec.catLin
  rw [← Cert.Spec.cat_split (Cert.Spec.x1 AA r) (Cert.Spec.x2 AA r) ((AA).Wc1 q)]
  unfold Cert.Spec.dot
  refine congrArg₂ (· + ·) (Finset.sum_congr rfl fun k _ => ?_) rfl
  rw [show lidx_main_v14 (ix2 r q) k = ix2 r k from funext fun a => by match a with | ⟨0, _⟩ => rfl | ⟨1, _⟩ => rfl,
    show ridx_main_v14 (ix2 r q) k = ix2 k q from funext fun a => by match a with | ⟨0, _⟩ => rfl | ⟨1, _⟩ => rfl,
    ref_zn x0 x1 x2 x3 x4 x5 x6 x7 x8 x9 x10 x11 x12 x13 x14 x15 x16 x17 x18 x19 x20 x21 x22 x23 x24 x25, v13_at]
  rfl

/-- The first hidden layer at `(r, q)`. -/
theorem h1_at (r : Fin 10000) (q : Fin 256) :
    val_main_v33 (F := Ideal) x0 x1 x2 x3 x4 x5 x6 x7 x8 x9 x10 x11 (ix2 r q) = Cert.Spec.h1 AA r q := by
  rw [val_main_v33_apply, val_main_v32_apply, val_main_v29_apply, val_main_v26_apply, val_main_v20_apply,
    lin1_at x0 x1 x2 x3 x4 x5 x6 x7 x8 x9 x10 x11 x12 x13 x14 x15 x16 x17 x18 x19 x20 x21 x22 x23 x24 x25, v19_at, v25_at, v28_at, v31_at, call0_v0_at]
  rfl

/-! ### The second layer: `relu (bn2 (h1 · Wc2ᵀ + bc2))` -/

/-- The transposed weight at `(k, q)` is the weight at `(q, k)`. -/
theorem v34_at (k : Fin 256) (q : Fin 128) : val_main_v34 (F := Ideal) x12 (ix2 k q) = x12 (ix2 q k) := by
  rw [val_main_v34_apply]
  exact congrArg x12 (funext fun a => by match a with | ⟨0, _⟩ => rfl | ⟨1, _⟩ => rfl)

/-- A row of 128 entries, broadcast down the rows, reads the row at the column. -/
theorem v37_at (r : Fin 10000) (q : Fin 128) : val_main_v37 (F := Ideal) x13 (ix2 r q) = x13 (ix1 q) := by
  rw [val_main_v37_apply, val_main_v36_apply]
  exact congrArg x13 (funext fun a => by match a with | ⟨0, _⟩ => rfl)

/-- A row of 128 entries, broadcast down the rows, reads the row at the column. -/
theorem v40_at (r : Fin 10000) (q : Fin 128) : val_main_v40 (F := Ideal) x16 (ix2 r q) = x16 (ix1 q) := by
  rw [val_main_v40_apply, val_main_v39_apply]
  exact congrArg x16 (funext fun a => by match a with | ⟨0, _⟩ => rfl)

/-- The broadcast row `sqrt (rv + eps)` at the column. -/
theorem v46_at (r : Fin 10000) (q : Fin 128) :
    val_main_v46 (F := Ideal) x17 (ix2 r q) = Ideal.sqrt (x17 (ix1 q) + Cert.Spec.eps) := by
  rw [val_main_v46_apply, val_main_v45_apply, val_main_v44_apply, val_main_v43_apply, val_main_v42_apply,
    val_main_cst_0_apply, show idx_main_v45 (idx_main_v46 (ix2 r q)) = ix1 q from funext fun a => by match a with | ⟨0, _⟩ => rfl]
  rfl

/-- A row of 128 entries, broadcast down the rows, reads the row at the column. -/
theorem v49_at (r : Fin 10000) (q : Fin 128) : val_main_v49 (F := Ideal) x14 (ix2 r q) = x14 (ix1 q) := by
  rw [val_main_v49_apply, val_main_v48_apply]
  exact congrArg x14 (funext fun a => by match a with | ⟨0, _⟩ => rfl)

/-- A row of 128 entries, broadcast down the rows, reads the row at the column. -/
theorem v52_at (r : Fin 10000) (q : Fin 128) : val_main_v52 (F := Ideal) x15 (ix2 r q) = x15 (ix1 q) := by
  rw [val_main_v52_apply, val_main_v51_apply]
  exact congrArg x15 (funext fun a => by match a with | ⟨0, _⟩ => rfl)

/-- The broadcast zero of `relu`. -/
theorem call1_v0_at (r : Fin 10000) (q : Fin 128) : val_main_call1_v0 (F := Ideal) (ix2 r q) = Cert.Spec.zero := by
  rw [val_main_call1_v0_apply, val_main_call1_cst_apply]
  rfl

/-- The second linear layer at `(r, q)`. -/
theorem lin2_at (r : Fin 10000) (q : Fin 128) :
    val_main_v38 (F := Ideal) x0 x1 x2 x3 x4 x5 x6 x7 x8 x9 x10 x11 x12 x13 (ix2 r q) = Cert.Spec.dot (Cert.Spec.h1 AA r) ((AA).Wc2 q) + (AA).bc2 q := by
  rw [val_main_v38_apply, val_main_v35_apply, v37_at, Ideal.addf_def]
  unfold Cert.Spec.dot
  refine congrArg₂ (· + ·) (Finset.sum_congr rfl fun k _ => ?_) rfl
  rw [show lidx_main_v35 (ix2 r q) k = ix2 r k from funext fun a => by match a with | ⟨0, _⟩ => rfl | ⟨1, _⟩ => rfl,
    show ridx_main_v35 (ix2 r q) k = ix2 k q from funext fun a => by match a with | ⟨0, _⟩ => rfl | ⟨1, _⟩ => rfl,
    h1_at x0 x1 x2 x3 x4 x5 x6 x7 x8 x9 x10 x11 x12 x13 x14 x15 x16 x17 x18 x19 x20 x21 x22 x23 x24 x25, v34_at]
  rfl

/-- The second hidden layer at `(r, q)`. -/
theorem h2_at (r : Fin 10000) (q : Fin 128) :
    val_main_v54 (F := Ideal) x0 x1 x2 x3 x4 x5 x6 x7 x8 x9 x10 x11 x12 x13 x14 x15 x16 x17 (ix2 r q) = Cert.Spec.h2 AA r q := by
  rw [val_main_v54_apply, val_main_v53_apply, val_main_v50_apply, val_main_v47_apply, val_main_v41_apply,
    lin2_at x0 x1 x2 x3 x4 x5 x6 x7 x8 x9 x10 x11 x12 x13 x14 x15 x16 x17 x18 x19 x20 x21 x22 x23 x24 x25, v40_at, v46_at, v49_at, v52_at, call1_v0_at]
  rfl

/-! ### The logits: `h2 · Wc3ᵀ + bc3` -/

/-- The transposed weight at `(k, q)` is the weight at `(q, k)`. -/
theorem v55_at (k : Fin 128) (q : Fin 10) : val_main_v55 (F := Ideal) x18 (ix2 k q) = x18 (ix2 q k) := by
  rw [val_main_v55_apply]
  exact congrArg x18 (funext fun a => by match a with | ⟨0, _⟩ => rfl | ⟨1, _⟩ => rfl)

/-- A row of 10 entries, broadcast down the rows, reads the row at the column. -/
theorem v58_at (r : Fin 10000) (q : Fin 10) : val_main_v58 (F := Ideal) x19 (ix2 r q) = x19 (ix1 q) := by
  rw [val_main_v58_apply, val_main_v57_apply]
  exact congrArg x19 (funext fun a => by match a with | ⟨0, _⟩ => rfl)

/-- The logits at `(r, q)`. -/
theorem logits_at (r : Fin 10000) (q : Fin 10) :
    val_main_v59 (F := Ideal) x0 x1 x2 x3 x4 x5 x6 x7 x8 x9 x10 x11 x12 x13 x14 x15 x16 x17 x18 x19 (ix2 r q) = Cert.Spec.logits AA r q := by
  rw [val_main_v59_apply, val_main_v56_apply, v58_at, Ideal.addf_def]
  unfold Cert.Spec.logits Cert.Spec.dot
  refine congrArg₂ (· + ·) (Finset.sum_congr rfl fun k _ => ?_) rfl
  rw [show lidx_main_v56 (ix2 r q) k = ix2 r k from funext fun a => by match a with | ⟨0, _⟩ => rfl | ⟨1, _⟩ => rfl,
    show ridx_main_v56 (ix2 r q) k = ix2 k q from funext fun a => by match a with | ⟨0, _⟩ => rfl | ⟨1, _⟩ => rfl,
    h2_at x0 x1 x2 x3 x4 x5 x6 x7 x8 x9 x10 x11 x12 x13 x14 x15 x16 x17 x18 x19 x20 x21 x22 x23 x24 x25, v55_at]
  rfl

/-! ### The log-softmax: `(l - max) - log (0 + ∑ exp (l - max))` -/

/-- Minus infinity is the bottom of the extended reals, so a maximum with it is the other operand. -/
theorem max_ninf (x : EReal) : max Cert.Spec.ninf x = x := by
  simp [Cert.Spec.ninf, Ideal.ofBits, Ideal.ieee]

/-- A maximum-reduce over the columns, from minus infinity, is at row `r` the fold of `max` over that row. -/
theorem rowmax_gen (y : (⟨S10000x10, .f32⟩ : BufTy).Contents (Elt Ideal)) (r : Fin 10000) :
    Host.reduce (FloatOps.maximumf (F := Ideal) (φ := .f32)) y (val_main_call2_cst (F := Ideal)) reducesTo_S10000x10_S10000_d1 h_S_ (ix1 r)
      = Finset.univ.fold max Cert.Spec.ninf (fun k : Fin 10 => y (ix2 r k)) := by
  have h : S10000x10.Reduces [1] S10000 := by decide
  refine (Host.reduce_eq_fold_single (FloatOps.maximumf (F := Ideal) (φ := .f32)) y _ reducesTo_S10000x10_S10000_d1 h h_S_ (ix1 r)).trans ?_
  have hf : (y ∘ h.lift (ix1 r)) = fun k : Fin 10 => y (ix2 r k) :=
    funext fun k => congrArg y (funext fun c => Fin.ext (by match c with | ⟨0, _⟩ => rfl | ⟨1, _⟩ => rfl))
  rw [hf, val_main_call2_cst_apply]
  rfl

/-- The row maximum at `r`. -/
theorem rowmax_at (r : Fin 10000) :
    val_main_call2_v2 (F := Ideal) x0 x1 x2 x3 x4 x5 x6 x7 x8 x9 x10 x11 x12 x13 x14 x15 x16 x17 x18 x19 (ix1 r) = Cert.Spec.rowMax AA r := by
  rw [val_main_call2_v2_apply, val_main_call2_v1_apply, val_main_call2_cst_0_apply]
  unfold val_main_call2_v0
  rw [rowmax_gen,
    show (fun k : Fin 10 => val_main_v59 (F := Ideal) x0 x1 x2 x3 x4 x5 x6 x7 x8 x9 x10 x11 x12 x13 x14 x15 x16 x17 x18 x19 (ix2 r k)) = Cert.Spec.logits AA r from
      funext fun k => logits_at x0 x1 x2 x3 x4 x5 x6 x7 x8 x9 x10 x11 x12 x13 x14 x15 x16 x17 x18 x19 x20 x21 x22 x23 x24 x25 r k]
  exact max_ninf _

/-- The shifted logits at `(r, q)`. -/
theorem shifted_at (r : Fin 10000) (q : Fin 10) :
    val_main_call2_v5 (F := Ideal) x0 x1 x2 x3 x4 x5 x6 x7 x8 x9 x10 x11 x12 x13 x14 x15 x16 x17 x18 x19 (ix2 r q) = Cert.Spec.shifted AA r q := by
  rw [val_main_call2_v5_apply, val_main_call2_v4_apply, val_main_call2_v3_apply, logits_at x0 x1 x2 x3 x4 x5 x6 x7 x8 x9 x10 x11 x12 x13 x14 x15 x16 x17 x18 x19 x20 x21 x22 x23 x24 x25,
    show idx_main_call2_v3 (idx_main_call2_v4 (ix2 r q)) = ix1 r from funext fun a => by match a with | ⟨0, _⟩ => rfl,
    rowmax_at x0 x1 x2 x3 x4 x5 x6 x7 x8 x9 x10 x11 x12 x13 x14 x15 x16 x17 x18 x19 x20 x21 x22 x23 x24 x25]
  rfl

/-- The log of the row's sum of exponentials, broadcast along the row. -/
theorem lse_at (r : Fin 10000) (q : Fin 10) :
    val_main_call2_v10 (F := Ideal) x0 x1 x2 x3 x4 x5 x6 x7 x8 x9 x10 x11 x12 x13 x14 x15 x16 x17 x18 x19 (ix2 r q) = Cert.Spec.lse AA r := by
  rw [val_main_call2_v10_apply, val_main_call2_v9_apply, val_main_call2_v8_apply,
    show idx_main_call2_v8 (idx_main_call2_v10 (ix2 r q)) = ix1 r from funext fun a => by match a with | ⟨0, _⟩ => rfl,
    val_main_call2_v7_apply, val_main_call2_cst_1_apply, Ideal.hostUnary_log_def, Ideal.ofBits_def]
  unfold Cert.Spec.lse Cert.Spec.zero
  refine congrArg Ideal.log (congrArg (_ + ·) (Finset.sum_congr rfl fun k _ => ?_))
  rw [val_main_call2_v6_apply, show idx_main_call2_v7 (ix1 r) k = ix2 r k from funext fun a => by match a with | ⟨0, _⟩ => rfl | ⟨1, _⟩ => rfl,
    shifted_at x0 x1 x2 x3 x4 x5 x6 x7 x8 x9 x10 x11 x12 x13 x14 x15 x16 x17 x18 x19 x20 x21 x22 x23 x24 x25]
  rfl

/-- The first result at `(r, q)`. -/
theorem ref_xc5 (r : Fin 10000) (q : Fin 10) :
    val_main_v60 (F := Ideal) x0 x1 x2 x3 x4 x5 x6 x7 x8 x9 x10 x11 x12 x13 x14 x15 x16 x17 x18 x19 (ix2 r q) = Cert.Spec.xc5 AA r q := by
  rw [val_main_v60_apply, shifted_at x0 x1 x2 x3 x4 x5 x6 x7 x8 x9 x10 x11 x12 x13 x14 x15 x16 x17 x18 x19 x20 x21 x22 x23 x24 x25, lse_at x0 x1 x2 x3 x4 x5 x6 x7 x8 x9 x10 x11 x12 x13 x14 x15 x16 x17 x18 x19 x20 x21 x22 x23 x24 x25]
  rfl

end Cert.ReferenceIdeal.RefVals

end
-- ==== Proof.RefRec.lean ====
/-
  The reference program's reconstruction head, one stage at a time, read at one entry over the extended reals: three
  linear layers (a `dot_general` against a transposed weight plus a broadcast bias), `relu` after the first two.
-/
import proofs.«162148_g73521250173546_cont_sun_c4_545_9_alg».proof.Proof.RefReadP
import proofs.«162148_g73521250173546_cont_sun_c4_545_9_alg».proof.Proof.SpecArgs
import proofs.«162148_g73521250173546_cont_sun_c4_545_9_alg».proof.Proof.RefGc
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.ReferenceIdeal.RefVals

open Cert.ReferenceIdeal Cert.ReferenceIdeal.Gen Cert.ReferenceIdeal.ReadP
open Idealize.ShloMosaic Idealize.ShloMosaic.ValueIdx

variable (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (x6 : (⟨S256x192, .f32⟩ : BufTy).Contents (Elt Ideal)) (x7 : (⟨S256, .f32⟩ : BufTy).Contents (Elt Ideal)) (x8 : (⟨S256, .f32⟩ : BufTy).Contents (Elt Ideal)) (x9 : (⟨S256, .f32⟩ : BufTy).Contents (Elt Ideal)) (x10 : (⟨S256, .f32⟩ : BufTy).Contents (Elt Ideal)) (x11 : (⟨S256, .f32⟩ : BufTy).Contents (Elt Ideal)) (x12 : (⟨S128x256, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal)) (x16 : (⟨S128, .f32⟩ : BufTy).Contents (Elt Ideal)) (x17 : (⟨S128, .f32⟩ : BufTy).Contents (Elt Ideal)) (x18 : (⟨S10x128, .f32⟩ : BufTy).Contents (Elt Ideal)) (x19 : (⟨S10, .f32⟩ : BufTy).Contents (Elt Ideal)) (x20 : (⟨S256x192, .f32⟩ : BufTy).Contents (Elt Ideal)) (x21 : (⟨S256, .f32⟩ : BufTy).Contents (Elt Ideal)) (x22 : (⟨S128x256, .f32⟩ : BufTy).Contents (Elt Ideal)) (x23 : (⟨S128, .f32⟩ : BufTy).Contents (Elt Ideal)) (x24 : (⟨S128x128, .f32⟩ : BufTy).Contents (Elt Ideal)) (x25 : (⟨S128, .f32⟩ : BufTy).Contents (Elt Ideal))

/-- The mathematics' arguments from the reference's argument arrays. -/
local notation "AA" => Cert.Spec.mkArgs x0 x1 x2 x3 x4 x5 x6 x7 x8 x9 x10 x11 x12 x13 x14 x15 x16 x17 x18 x19 x20 x21 x22 x23 x24 x25

/-! Index equations: the composed index functions of the three linear layers, at an index given by coordinates. -/

/-- Row `r` of the concatenation, column `k`: the left operand of the first product. -/
theorem lidx62 (r : Fin 10000) (q : Fin 256) (k : Fin 192) : lidx_main_v62 (ix2 r q) k = ix2 r k :=
  funext fun a => Fin.ext (by match a with | ⟨0, _⟩ => rfl | ⟨1, _⟩ => rfl)

/-- The transposed first weight at `(k, q)` is the weight at `(q, k)`. -/
theorem idx61 (r : Fin 10000) (q : Fin 256) (k : Fin 192) :
    idx_main_v61 (ridx_main_v62 (ix2 r q) k) = ix2 q k :=
  funext fun a => Fin.ext (by match a with | ⟨0, _⟩ => rfl | ⟨1, _⟩ => rfl)

/-- The first bias, broadcast along the rows, at `(r, q)` is the bias at `q`. -/
theorem idx63 (r : Fin 10000) (q : Fin 256) : idx_main_v63 (idx_main_v64 (ix2 r q)) = ix1 q :=
  funext fun a => Fin.ext (by match a with | ⟨0, _⟩ => rfl)

theorem lidx68 (r : Fin 10000) (q : Fin 128) (k : Fin 256) : lidx_main_v68 (ix2 r q) k = ix2 r k :=
  funext fun a => Fin.ext (by match a with | ⟨0, _⟩ => rfl | ⟨1, _⟩ => rfl)

theorem idx67 (r : Fin 10000) (q : Fin 128) (k : Fin 256) :
    idx_main_v67 (ridx_main_v68 (ix2 r q) k) = ix2 q k :=
  funext fun a => Fin.ext (by match a with | ⟨0, _⟩ => rfl | ⟨1, _⟩ => rfl)

theorem idx69 (r : Fin 10000) (q : Fin 128) : idx_main_v69 (idx_main_v70 (ix2 r q)) = ix1 q :=
  funext fun a => Fin.ext (by match a with | ⟨0, _⟩ => rfl)

theorem lidx74 (r : Fin 10000) (q : Fin 128) (k : Fin 128) : lidx_main_v74 (ix2 r q) k = ix2 r k :=
  funext fun a => Fin.ext (by match a with | ⟨0, _⟩ => rfl | ⟨1, _⟩ => rfl)

theorem idx73 (r : Fin 10000) (q : Fin 128) (k : Fin 128) :
    idx_main_v73 (ridx_main_v74 (ix2 r q) k) = ix2 q k :=
  funext fun a => Fin.ext (by match a with | ⟨0, _⟩ => rfl | ⟨1, _⟩ => rfl)

theorem idx75 (r : Fin 10000) (q : Fin 128) : idx_main_v75 (idx_main_v76 (ix2 r q)) = ix1 q :=
  funext fun a => Fin.ext (by match a with | ⟨0, _⟩ => rfl)

/-- The first layer after `relu` at `(r, q)`: the product of row `r` of `[x1 | x2]` with row `q` of the
    output-major weight is the sum over all 192 input features, which `cat_split` cuts into the two partial sums. -/
theorem ref_r1 (r : Fin 10000) (q : Fin 256) :
    val_main_v66 (F := Ideal) x0 x1 x2 x3 x4 x5 x20 x21 (ix2 r q) = Cert.Spec.r1 AA r q := by
  have hsum : val_main_v62 (F := Ideal) x0 x1 x2 x3 x4 x5 x20 (ix2 r q)
      = Cert.Spec.dot (Cert.Spec.cat (Cert.Spec.x1 AA r) (Cert.Spec.x2 AA r)) ((AA).Wr1 q) := by
    rw [val_main_v62_apply]
    unfold Cert.Spec.dot
    refine Finset.sum_congr rfl fun k _ => ?_
    rw [val_main_v61_apply, lidx62, idx61, ref_zn x0 x1 x2 x3 x4 x5 x6 x7 x8 x9 x10 x11 x12 x13 x14 x15 x16 x17 x18 x19 x20 x21 x22 x23 x24 x25 r k]
    rfl
  have hb : val_main_v64 (F := Ideal) x21 (ix2 r q) = (AA).br1 q := by
    rw [val_main_v64_apply, val_main_v63_apply, idx63]
    rfl
  have hz : val_main_call3_v0 (F := Ideal) (ix2 r q) = Cert.Spec.zero := by
    rw [val_main_call3_v0_apply, val_main_call3_cst_apply, Ideal.ofBits_def]
    rfl
  rw [val_main_v66_apply, val_main_v65_apply, hsum, hb, hz, Ideal.addf_def, Ideal.maximumf_def,
    Cert.Spec.cat_split]
  rfl

/-- The second layer after `relu` at `(r, q)`. -/
theorem ref_r2 (r : Fin 10000) (q : Fin 128) :
    val_main_v72 (F := Ideal) x0 x1 x2 x3 x4 x5 x20 x21 x22 x23 (ix2 r q) = Cert.Spec.r2 AA r q := by
  have hsum : val_main_v68 (F := Ideal) x0 x1 x2 x3 x4 x5 x20 x21 x22 (ix2 r q)
      = Cert.Spec.dot (Cert.Spec.r1 AA r) ((AA).Wr2 q) := by
    rw [val_main_v68_apply]
    unfold Cert.Spec.dot
    refine Finset.sum_congr rfl fun k _ => ?_
    rw [val_main_v67_apply, lidx68, idx67, ref_r1 x0 x1 x2 x3 x4 x5 x6 x7 x8 x9 x10 x11 x12 x13 x14 x15 x16 x17 x18 x19 x20 x21 x22 x23 x24 x25 r k]
    rfl
  have hb : val_main_v70 (F := Ideal) x23 (ix2 r q) = (AA).br2 q := by
    rw [val_main_v70_apply, val_main_v69_apply, idx69]
    rfl
  have hz : val_main_call4_v0 (F := Ideal) (ix2 r q) = Cert.Spec.zero := by
    rw [val_main_call4_v0_apply, val_main_call4_cst_apply, Ideal.ofBits_def]
    rfl
  rw [val_main_v72_apply, val_main_v71_apply, hsum, hb, hz, Ideal.addf_def, Ideal.maximumf_def]
  rfl

/-- The second result at `(r, q)`. -/
theorem ref_xr5 (r : Fin 10000) (q : Fin 128) :
    val_main_v77 (F := Ideal) x0 x1 x2 x3 x4 x5 x20 x21 x22 x23 x24 x25 (ix2 r q) = Cert.Spec.xr5 AA r q := by
  have hsum : val_main_v74 (F := Ideal) x0 x1 x2 x3 x4 x5 x20 x21 x22 x23 x24 (ix2 r q)
      = Cert.Spec.dot (Cert.Spec.r2 AA r) ((AA).Wr3 q) := by
    rw [val_main_v74_apply]
    unfold Cert.Spec.dot
    refine Finset.sum_congr rfl fun k _ => ?_
    rw [val_main_v73_apply, lidx74, idx73, ref_r2 x0 x1 x2 x3 x4 x5 x6 x7 x8 x9 x10 x11 x12 x13 x14 x15 x16 x17 x18 x19 x20 x21 x22 x23 x24 x25 r k]
    rfl
  have hb : val_main_v76 (F := Ideal) x25 (ix2 r q) = (AA).br3 q := by
    rw [val_main_v76_apply, val_main_v75_apply, idx75]
    rfl
  rw [val_main_v77_apply, hsum, hb, Ideal.addf_def]
  rfl

end Cert.ReferenceIdeal.RefVals

end
-- ==== Proof.Algebraic.lean ====
/-
  The certificate's last conjunct and the reference's frame. Both programs compute, entry by entry over the extended
  reals, the same three functions of their twenty-six arguments: the classifier's log-softmax `xc5`, the
  reconstruction `xr5` and the two graph-convolution layers side by side `zn`. The kernel program's run leaves each
  result array at the union of its row blocks, each block the mathematics' entries of its rows; the reference's run
  leaves each result at its operations' composed term, which read at an entry is the same mathematics of the
  reference's arguments; and the two argument families agree.
-/
import proofs.«162148_g73521250173546_cont_sun_c4_545_9_alg».proof.Defs
import proofs.«162148_g73521250173546_cont_sun_c4_545_9_alg».proof.Proof.Gen.KernelIdeal
import proofs.«162148_g73521250173546_cont_sun_c4_545_9_alg».proof.Proof.Gen.ReferenceIdeal
import proofs.«162148_g73521250173546_cont_sun_c4_545_9_alg».proof.Proof.Gen.Pre_finite_inputs
import proofs.«162148_g73521250173546_cont_sun_c4_545_9_alg».proof.Proof.KFrame
import proofs.«162148_g73521250173546_cont_sun_c4_545_9_alg».proof.Proof.KValue
import proofs.«162148_g73521250173546_cont_sun_c4_545_9_alg».proof.Proof.KernelArgs
import proofs.«162148_g73521250173546_cont_sun_c4_545_9_alg».proof.Proof.SpecArgs
import proofs.«162148_g73521250173546_cont_sun_c4_545_9_alg».proof.Proof.RefRunP
import proofs.«162148_g73521250173546_cont_sun_c4_545_9_alg».proof.Proof.RefReadP
import proofs.«162148_g73521250173546_cont_sun_c4_545_9_alg».proof.Proof.RefGc
import proofs.«162148_g73521250173546_cont_sun_c4_545_9_alg».proof.Proof.RefCls
import proofs.«162148_g73521250173546_cont_sun_c4_545_9_alg».proof.Proof.RefRec
import Idealize.ShloMosaic.Lib.ValueIdx

set_option maxRecDepth 16384

noncomputable section

open Idealize.ShloMosaic Idealize.ShloMosaic.TcCoe Idealize.SL.Sem

/-! ## The three results as functions of the mathematics' arguments -/

namespace Cert.Spec

open Idealize.ShloMosaic.ValueIdx

/-- The classifier's result, the reconstruction's result and the concatenated layers, entry by entry. -/
def result0 (A : Args) : (⟨2, ![10000, 10]⟩ : Shape).Idx → EReal := fun y => xc5 A ⟨(y 0).val, idx2_lt0 y⟩ ⟨(y 1).val, idx2_lt1 y⟩
def result1 (A : Args) : (⟨2, ![10000, 128]⟩ : Shape).Idx → EReal := fun y => xr5 A ⟨(y 0).val, idx2_lt0 y⟩ ⟨(y 1).val, idx2_lt1 y⟩
def result2 (A : Args) : (⟨2, ![10000, 192]⟩ : Shape).Idx → EReal := fun y => zn A ⟨(y 0).val, idx2_lt0 y⟩ ⟨(y 1).val, idx2_lt1 y⟩

end Cert.Spec

/-! ## The kernel program's run -/

namespace Cert.KernelIdeal.Hand

open Cert.KernelIdeal Cert.KernelIdeal.Gen
open Idealize.ShloMosaic.ValueIdx
open Idealize.ShloMosaic.Pipeline (Dat)

/-- Every run of the kernel program ends with its three results at the mathematics' functions of its own arguments,
    and the arguments unchanged: the pipeline's run, with each result window's array read as the union of its
    blocks and each argument as the region found it. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v26_0) = Cert.Spec.result0 (kargs m c)
      ∧ r.2.mem ((c.tc : Thread nD τ).loc main_v26_1) = Cert.Spec.result1 (kargs m c)
      ∧ r.2.mem ((c.tc : Thread nD τ).loc main_v26_2) = Cert.Spec.result2 (kargs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun _ h c => ⟨((h c).1 28).trans (final28 m c (dats m 0 c) (after28 m c)),
      ((h c).1 29).trans (final29 m c (dats m 0 c) (after29 m c)),
      ((h c).1 30).trans (final30 m c (dats m 0 c) (after30 m c)),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).2 main_arg24 (Pipeline.mem_restRefs_of main_arg24 (by decide) (by decide))).trans (V_main_arg24 m c),
      ((h c).2 main_arg25 (Pipeline.mem_restRefs_of main_arg25 (by decide) (by decide))).trans (V_main_arg25 m c)⟩) (run_main (F := Ideal) m ρ)

end Cert.KernelIdeal.Hand

/-! ## The reference's results -/

namespace Cert.ReferenceIdeal.RefVals

open Cert.ReferenceIdeal Cert.ReferenceIdeal.Gen Cert.ReferenceIdeal.ReadP
open Idealize.ShloMosaic.ValueIdx

/-- The mathematics' arguments read off the reference program's memory. -/
abbrev refArgs (m : (ℓ : Loc nD τ sig) → Buf (Elt Ideal) ℓ) (c : Dev nD) : Cert.Spec.Args :=
  Cert.Spec.mkArgs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))

/-- The reference's first result is the mathematics' classifier output of its arguments. -/
theorem ref_result0 (m : (ℓ : Loc nD τ sig) → Buf (Elt Ideal) ℓ) (c : Dev nD) :
    val_main_v60 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      = Cert.Spec.result0 (refArgs m c) := by
  funext y
  obtain ⟨r, q, rfl⟩ : ∃ (r : Fin 10000) (q : Fin 10), y = ix2 r q := ⟨y 0, y 1, eq_ix2 y⟩
  exact ref_xc5 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) r q

/-- Its second result is the reconstruction. -/
theorem ref_result1 (m : (ℓ : Loc nD τ sig) → Buf (Elt Ideal) ℓ) (c : Dev nD) :
    val_main_v77 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
      = Cert.Spec.result1 (refArgs m c) := by
  funext y
  obtain ⟨r, q, rfl⟩ : ∃ (r : Fin 10000) (q : Fin 128), y = ix2 r q := ⟨y 0, y 1, eq_ix2 y⟩
  exact ref_xr5 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) r q

/-- Its third result is the two layers' outputs side by side. -/
theorem ref_result2 (m : (ℓ : Loc nD τ sig) → Buf (Elt Ideal) ℓ) (c : Dev nD) :
    val_main_v12 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      = Cert.Spec.result2 (refArgs m c) := by
  funext y
  obtain ⟨r, l, rfl⟩ : ∃ (r : Fin 10000) (l : Fin 192), y = ix2 r l := ⟨y 0, y 1, eq_ix2 y⟩
  exact ref_zn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) r l

end Cert.ReferenceIdeal.RefVals

/-! ## The claims -/

namespace Cert.Proof.Parts

/-- Memories that agree on the twenty-six arguments give the mathematics the same arguments. -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) :
    Cert.ReferenceIdeal.RefVals.refArgs m' c = Cert.KernelIdeal.Hand.kargs m c := by
  obtain ⟨h0, h1, h2, h3, h4, h5, h6, h7, h8, h9, h10, h11, h12, h13, h14, h15, h16, h17, h18, h19, h20, h21, h22, h23, h24, h25⟩ := h
  unfold Cert.ReferenceIdeal.RefVals.refArgs
  rw [h0, h1, h2, h3, h4, h5, h6, h7, h8, h9, h10, h11, h12, h13, h14, h15, h16, h17, h18, h19, h20, h21, h22, h23, h24, h25]
  rfl

/-- The reference runs and leaves its arguments unchanged: its run with the three results dropped. -/
theorem frame_ri : Cert.frame_ReferenceIdeal := fun m ρ _ =>
  (θ_run Cert.ReferenceIdeal.defs _ _).mono (fun _ h c => (h c).2.2.2) (Cert.ReferenceIdeal.ValueP.run (F := Ideal) m ρ)

/-- From memories that agree on the twenty-six arguments both programs end with the mathematics' three results of
    those arguments: the kernel program by its run, the reference by its run read entry by entry. -/
theorem algebraic : Cert.algebraic_KernelIdeal_ReferenceIdeal := by
  intro m ρ m' ρ' _ hagree
  have hA : ∀ c, Cert.ReferenceIdeal.RefVals.refArgs m' c = Cert.KernelIdeal.Hand.kargs m c := fun c => args_agree m m' c (hagree c)
  refine ⟨fun c => Cert.Spec.result0 (Cert.KernelIdeal.Hand.kargs m c), fun c => Cert.Spec.result1 (Cert.KernelIdeal.Hand.kargs m c),
    fun c => Cert.Spec.result2 (Cert.KernelIdeal.Hand.kargs m c), Cert.KernelIdeal.Hand.kernel_run m ρ, ?_⟩
  refine (θ_run Cert.ReferenceIdeal.defs _ _).mono (fun _ h c => ⟨(h c).1.trans ?_, (h c).2.1.trans ?_, (h c).2.2.1.trans ?_, (h c).2.2.2⟩)
    (Cert.ReferenceIdeal.ValueP.run (F := Ideal) m' ρ')
  · exact (Cert.ReferenceIdeal.ReadP.val_main_v60_eq m' c).trans
      ((Cert.ReferenceIdeal.RefVals.ref_result0 m' c).trans (congrArg Cert.Spec.result0 (hA c)))
  · exact (Cert.ReferenceIdeal.ReadP.val_main_v77_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25))).trans
      ((Cert.ReferenceIdeal.RefVals.ref_result1 m' c).trans (congrArg Cert.Spec.result1 (hA c)))
  · exact (Cert.ReferenceIdeal.ReadP.val_main_v12_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))).trans
      ((Cert.ReferenceIdeal.RefVals.ref_result2 m' c).trans (congrArg Cert.Spec.result2 (hA c)))

end Cert.Proof.Parts

end
-- ==== Proof.lean ====
/-
  The certificate of a two-layer graph convolution over a dense 10000 × 10000 adjacency with a classifier head
  (two batch-normed layers and a log-softmax) and a reconstruction head, computed by ONE pallas_call that sweeps the
  adjacency's 25 row tiles twice (the first sweep fills a scratch buffer with the first layer's output, the second
  computes the second layer and both heads tile by tile), against the plain array program.

  * The two kernel programs' frames: the body's run in each of the four cases a grid point can be in, the pipeline's
    proof data carrying the three scratch buffers from point to point, and the library's launch theorem
    (Proof/KFrame.lean for the idealized program, Proof/BitsKFrame.lean for the word-level one).
  * The reference's frame: its run with the results dropped (Proof/Algebraic.lean).
  * The idealization rewrote nothing, so there is nothing to preserve.
  * Over the extended reals both programs end with the same three arrays, entry by entry the mathematics of
    Proof/Spec.lean: a change of float format is the identity, a matrix product into a zero accumulator is the plain
    sum over the contracted axis on both sides, the kernel's tiling of rows and its split of the concatenated features'
    product into two partial products are re-arrangements of the same sums, and every pointwise operation is the same
    function on both sides (Proof/Algebraic.lean).
-/
import proofs.«162148_g73521250173546_cont_sun_c4_545_9_alg».proof.Defs
import proofs.«162148_g73521250173546_cont_sun_c4_545_9_alg».proof.Proof.Gen.Kernel
import proofs.«162148_g73521250173546_cont_sun_c4_545_9_alg».proof.Proof.Gen.KernelIdeal
import proofs.«162148_g73521250173546_cont_sun_c4_545_9_alg».proof.Proof.Gen.ReferenceIdeal
import proofs.«162148_g73521250173546_cont_sun_c4_545_9_alg».proof.Proof.Gen.Pre_finite_inputs
import proofs.«162148_g73521250173546_cont_sun_c4_545_9_alg».proof.Proof.KFrame
import proofs.«162148_g73521250173546_cont_sun_c4_545_9_alg».proof.Proof.BitsKFrame
import proofs.«162148_g73521250173546_cont_sun_c4_545_9_alg».proof.Proof.Algebraic
import Idealize.ShloMosaic.Adequacy
import Idealize.ShloMosaic.Init

noncomputable section

namespace Cert.Proof

open Idealize.ShloMosaic Idealize.SL.Sem

/-- The word-level kernel program runs to its end, faults nowhere and leaves its arguments unchanged. -/
theorem frame_k : Cert.frame_Kernel (hKernel := Cert.Kernel.Gen.facts) (hPre_finite_inputs := Cert.Pre_finite_inputs.Gen.facts) :=
  fun m ρ _ => Cert.Kernel.Gen.frame_of m ρ (Cert.Kernel.Hand.dats m) (Cert.Kernel.Hand.A_eq m) (Cert.Kernel.Hand.run_main m ρ)

/-- So does the idealized one. -/
theorem frame_ki : Cert.frame_KernelIdeal (hKernelIdeal := Cert.KernelIdeal.Gen.facts) (hPre_finite_inputs := Cert.Pre_finite_inputs.Gen.facts) :=
  fun m ρ _ => Cert.KernelIdeal.Gen.frame_of m ρ (Cert.KernelIdeal.Hand.dats m) (Cert.KernelIdeal.Hand.A_eq m) (Cert.KernelIdeal.Hand.run_main m ρ)

theorem claim : Cert.Claim :=
  ⟨Cert.Kernel.Gen.facts, Cert.KernelIdeal.Gen.facts, Cert.ReferenceIdeal.Gen.facts, Cert.Pre_finite_inputs.Gen.facts,
    frame_k, frame_ki, Cert.Proof.Parts.frame_ri, trivial, Cert.Proof.Parts.algebraic⟩

end Cert.Proof

end
